-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1609) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15x256x512 : Shape := ⟨3, ![15, 256, 512]⟩
abbrev S2x4096x1024 : Shape := ⟨3, ![2, 4096, 1024]⟩
abbrev S2x4096 : Shape := ⟨2, ![2, 4096]⟩
abbrev S_ : Shape := ⟨0, ![]⟩

class Facts : Prop where
  bcast_S_S15x256x512 : S_.BroadcastsInDim S15x256x512 (![] : Fin 0 → Fin S15x256x512.rank)
  reducesTo_S15x256x512_S_d0_1_2 : S15x256x512.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg4 : FVec F S2x4096 .f32) (main_arg5 : FVec F S2x4096 .f32) (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  let main_v19 : FVec F S2x4096 .f32 := Host.absf main_arg4
  let main_cst_6 : FVec F S_ .f32 := constant S_ .f32 0x7F800000#32
  let main_v20 : FVec F S2x4096 .f32 := broadcastInDim S2x4096 ![] bcast_S_S2x4096 main_cst_6
  let main_v21 : IVec S2x4096 1 := cmpf .olt main_v19 main_v20
  let main_c_7 : IVec S_ 1 := constantI S_ 1 1#1
  let main_v22 : IVec S_ 1 := (fun x v => Host.reduce IntOp.andi x v reducesTo_S2x4096_S_d0_1 h_S_) main_v21 main_c_7
  let main_v23 : IVec S_ 1 := andi main_v18 main_v22
  let main_v24 : FVec F S2x4096 .f32 := Host.absf main_arg5
  let main_cst_8 : FVec F S_ .f32 := constant S_ .f32 0x7F800000#32
  let main_v25 : FVec F S2x4096 .f32 := broadcastInDim S2x4096 ![] bcast_S_S2x4096 main_cst_8
  let main_v26 : IVec S2x4096 1 := cmpf .olt main_v24 main_v25
  let main_c_9 : IVec S_ 1 := constantI S_ 1 1#1
  let main_v27 : IVec S_ 1 := (fun x v => Host.reduce IntOp.andi x v reducesTo_S2x4096_S_d0_1 h_S_) main_v26 main_c_9
  let main_v28 : IVec S_ 1 := andi main_v23 main_v27
  main_v28

def fn {F : FTy → Type} [FloatOps F] (main_arg0 : FVec F S15x256x512 .f32) (main_arg1 : FVec F S15x256x512 .f32) (main_arg2 : FVec F S2x4096x1024 .f32) (main_arg3 : FVec F S2x4096x1024 .f32) (main_arg4 : FVec F S2x4096 .f32) (main_arg5 : FVec F S2x4096 .f32) : IVec S_ 1 :=
  let main_v0 : FVec F S15x256x512 .f32 := Host.absf main_arg0
  let main_cst : FVec F S_ .f32 := constant S_ .f32 0x7F800000#32
  let main_v1 : FVec F S15x256x512 .f32 := broadcastInDim S15x256x512 ![] bcast_S_S15x256x512 main_cst
  let main_v2 : IVec S15x256x512 1 := cmpf .olt main_v0 main_v1
  let main_c : IVec S_ 1 := constantI S_ 1 1#1
  let main_v3 : IVec S_ 1 := (fun x v => Host.reduce IntOp.andi x v reducesTo_S15x256x512_S_d0_1_2 h_S_) main_v2 main_c
  let main_v4 : FVec F S15x256x512 .f32 := Host.absf main_arg1
  let main_cst_0 : FVec F S_ .f32 := constant S_ .f32 0x7F800000#32
  let main_v5 : FVec F S15x256x512 .f32 := broadcastInDim S15x256x512 ![] bcast_S_S15x256x512 main_cst_0
  let main_v6 : IVec S15x256x512 1 := cmpf .olt main_v4 main_v5
  let main_c_1 : IVec S_ 1 := constantI S_ 1 1#1
  let main_v7 : IVec S_ 1 := (fun x v => Host.reduce IntOp.andi x v reducesTo_S15x256x512_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S2x4096x1024 .f32 := Host.absf main_arg3
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_arg4 main_arg5 main_v13 main_v16
-- ==== Kernel.lean ====
abbrev S15x256x512 : Shape := ⟨3, ![15, 256, 512]⟩
abbrev S2x4096x1024 : Shape := ⟨3, ![2, 4096, 1024]⟩
abbrev S2x4096 : Shape := ⟨2, ![2, 4096]⟩
abbrev S15 : Shape := ⟨1, ![15]⟩
abbrev S15x256x1024 : Shape := ⟨3, ![15, 256, 1024]⟩
abbrev S1x4096x1024 : Shape := ⟨3, ![1, 4096, 1024]⟩
abbrev S4096x1024 : Shape := ⟨2, ![4096, 1024]⟩
abbrev S1024x4096 : Shape := ⟨2, ![1024, 4096]⟩
abbrev S1x4096 : Shape := ⟨2, ![1, 4096]⟩
abbrev S4096 : Shape := ⟨1, ![4096]⟩
abbrev S1x128x1024 : Shape := ⟨3, ![1, 128, 1024]⟩
abbrev S16x128x1024 : Shape := ⟨3, ![16, 128, 1024]⟩
abbrev S1 : Shape := ⟨1, ![1]⟩
abbrev S128x1024 : Shape := ⟨2, ![128, 1024]⟩
abbrev S128x4096 : Shape := ⟨2, ![128, 4096]⟩

abbrev nBuf : Space → Nat
  | .hbm => 40
  | .vmem => 18
  | .smem => 1
  | _ => 0

abbrev bufTy : (tb : Table) → Fin (tcTables nBuf tb) → BufTy
  | .hbm, ⟨0, _⟩ => ⟨S15x256x512, .f32⟩
  | .hbm, ⟨1, _⟩ => ⟨S15x256x512, .f32⟩
  | .hbm, ⟨2, _⟩ => ⟨S2x4096x1024, .f32⟩
  | .hbm, ⟨3, _⟩ => ⟨S2x4096x1024, .f32⟩
  | .hbm, ⟨4, _⟩ => ⟨S2x4096, .f32⟩
  | .hbm, ⟨5, _⟩ => ⟨S2x4096, .f32⟩
  | .hbm, ⟨6, _⟩ => ⟨S15x256x1024, .f32⟩
  | .hbm, ⟨7, _⟩ => ⟨S15x256x1024, .bf16⟩
  | .hbm, ⟨8, _⟩ => ⟨S1x4096x1024, .f32⟩
  | .hbm, ⟨9, _⟩ => ⟨S4096x1024, .f32⟩
  | .hbm, ⟨10, _⟩ => ⟨S1024x4096, .f32⟩
  | .hbm, ⟨11, _⟩ => ⟨S1024x4096, .bf16⟩
  | .hbm, ⟨12, _⟩ => ⟨S1x4096x1024, .f32⟩
  | .hbm, ⟨13, _⟩ => ⟨S4096x1024, .f32⟩
  | .hbm, ⟨14, _⟩ => ⟨S1024x4096, .f32⟩
  | .hbm, ⟨15, _⟩ => ⟨S1024x4096, .bf16⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S15x256x1024, .f32⟩
  | .hbm, ⟨23, _⟩ => ⟨S15x256x1024, .bf16⟩
  | .hbm, ⟨24, _⟩ => ⟨S1x4096x1024, .f32⟩
  | .hbm, ⟨25, _⟩ => ⟨S4096x1024, .f32⟩
  | .hbm, ⟨26, _⟩ => ⟨S1024x4096, .f32⟩
  | .hbm, ⟨27, _⟩ => ⟨S1024x4096, .bf16⟩
  | .hbm, ⟨28, _⟩ => ⟨S1x4096x1024, .f32⟩
  | .hbm, ⟨29, _⟩ => ⟨S4096x1024, .f32⟩
  | .hbm, ⟨30, _⟩ => ⟨S1024x4096, .f32⟩
  | .hbm, ⟨31, _⟩ => ⟨S1024x4096, .bf16⟩
  | .hbm, ⟨32, _⟩ => ⟨S1x4096, .f32⟩
  | .hbm, ⟨33, _⟩ => ⟨S4096, .f32⟩
  | .hbm, ⟨34, _⟩ => ⟨S1x4096, .f32⟩
  | .hbm, ⟨35, _⟩ => ⟨S4096, .f32⟩
  | .hbm, ⟨36, _⟩ => ⟨S4096, .f32⟩
  | .hbm, ⟨37, _⟩ => ⟨S1x4096, .f32⟩
  | .hbm, ⟨38, _⟩ => ⟨S15x256x1024, .f32⟩
  | .hbm, ⟨39, _⟩ => ⟨S15x256x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1x4096, .f32⟩
  | .local _ .vmem, ⟨5, _⟩ => ⟨S1x128x1024, .f32⟩
  | .local _ .vmem, ⟨6, _⟩ => ⟨S1x128x1024, .f32⟩
  | .local _ .vmem, ⟨7, _⟩ => ⟨S16x128x1024, .f32⟩
  | .local _ .vmem, ⟨8, _⟩ => ⟨S16x128x1024, .f32⟩
  | .local _ .vmem, ⟨9, _⟩ => ⟨S1x128x1024, .bf16⟩
  | .local _ .vmem, ⟨10, _⟩ => ⟨S1x128x1024, .bf16⟩
  | .local _ .vmem, ⟨11, _⟩ => ⟨S1024x4096, .bf16⟩
  | .local _ .vmem, ⟨12, _⟩ => ⟨S1024x4096, .bf16⟩
  | .local _ .vmem, ⟨13, _⟩ => ⟨S1x4096, .f32⟩
  | .local _ .vmem, ⟨14, _⟩ => ⟨S1x128x1024, .f32⟩
  | .local _ .vmem, ⟨15, _⟩ => ⟨S1x128x1024, .f32⟩
  | .local _ .vmem, ⟨16, _⟩ => ⟨S16x128x1024, .f32⟩
  | .local _ .vmem, ⟨17, _⟩ => ⟨S16x128x1024, .f32⟩
  | .local _ .smem, ⟨0, _⟩ => ⟨S15, .i32⟩
  | _, _ => ⟨S15x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 15], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v3 : Index := Scalar.indexCast arg1
  ![v3.toNat]
def k0_off2 (v4 : BitVec 32) : Fin 3 → Nat :=
  let v5 : Index := Scalar.indexCast v4
  let c0 : Index := 0#32
  let c0_1 : Index := 0#32
  ![v5.toNat, 0, 0]

def k0_chk1 (v4 : BitVec 32) : Prop :=
  (∀ a, (k0_off2 v4) a + S1x128x1024.size a ≤ S16x128x1024.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x128x1024.size a ≤ S16x128x1024.size a := fun v4 k0_hw1 => k0_hw1

def k0_off3 (i : grid0.Coords) : Fin 3 → Nat :=
  let arg1 : BitVec 32 := BitVec.ofNat 32 (i 1).val
  let c1_i32 : BitVec 32 := 1#32
  let v38 : BitVec 32 := Scalar.addi arg1 c1_i32
  let v39 : Index := Scalar.indexCast v38
  let c0_14 : Index := 0#32
  let c0_15 : Index := 0#32
  ![v39.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 15], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v3 : Index := Scalar.indexCast arg1
  ![v3.toNat]
def k1_off2 (v4 : BitVec 32) : Fin 3 → Nat :=
  let v5 : Index := Scalar.indexCast v4
  let c0 : Index := 0#32
  let c0_1 : Index := 0#32
  ![v5.toNat, 0, 0]

def k1_chk1 (v4 : BitVec 32) : Prop :=
  (∀ a, (k1_off2 v4) a + S1x128x1024.size a ≤ S16x128x1024.size a)
instance k1_chk1.dec : ∀ (v4 : BitVec 32), Decidable (k1_chk1 v4) := fun v4 => decidable_of_iff' _ (Iff.of_eq (k1_chk1.eq_1 v4))
theorem k1_off2_inb : ∀ (v4 : BitVec 32) (k1_hw1 : k1_chk1 v4), ∀ a, (k1_off2 v4) a + S1x128x1024.size a ≤ S16x128x1024.size a := fun v4 k1_hw1 => k1_hw1

def k1_off3 (i : grid1.Coords) : Fin 3 → Nat :=
  let arg1 : BitVec 32 := BitVec.ofNat 32 (i 1).val
  let c1_i32 : BitVec 32 := 1#32
  let v38 : BitVec 32 := Scalar.addi arg1 c1_i32
  let v39 : Index := Scalar.indexCast v38
  let c0_14 : Index := 0#32
  let c0_15 : Index := 0#32
  ![v39.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  concatenates_S15x256x512_S15x256x512_S15x256x1024_d2 : Shape.Concatenates [S15x256x512, S15x256x512] S15x256x1024 2
  bitsLt_bf16_f32 : FTy.bits .bf16 < FTy.bits .f32
  slices_S2x4096x1024_S1x4096x1024_0_0_0 : S2x4096x1024.Slices ![0, 0, 0] S1x4096x1024
  shapeCasts_S1x4096x1024_S4096x1024 : S1x4096x1024.ShapeCasts S4096x1024
  transposes_S4096x1024_S1024x4096_1_0 : S4096x1024.Transposes [1, 0] S1024x4096
  slices_S2x4096_S1x4096_0_0 : S2x4096.Slices ![0, 0] S1x4096
  shapeCasts_S1x4096_S4096 : S1x4096.ShapeCasts S4096
  shapeCasts_S4096_S1x4096 : S4096.ShapeCasts S1x4096
  inb_S16x128x1024_S16x128x1024_0_0_0 : ∀ a, (![0, 0, 0] : Fin 3 → Nat) a + S16x128x1024.size a ≤ S16x128x1024.size a
  h_S16x128x1024 : 0 < S16x128x1024.numel
  shapeCasts_S16x128x1024_S16x128x1024 : S16x128x1024.ShapeCasts S16x128x1024
  numel1_S1 : S1.numel = 1
  h_S1x128x1024 : 0 < S1x128x1024.numel
  shapeCasts_S1x128x1024_S128x1024 : S1x128x1024.ShapeCasts S128x1024
  inb_S1x128x1024_S1x128x1024_0_0_0 : ∀ a, (![0, 0, 0] : Fin 3 → Nat) a + S1x128x1024.size a ≤ S1x128x1024.size a
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  shapeCasts_S128x1024_S1x128x1024 : S128x1024.ShapeCasts S1x128x1024
  slices_S2x4096x1024_S1x4096x1024_1_0_0 : S2x4096x1024.Slices ![1, 0, 0] S1x4096x1024
  slices_S2x4096_S1x4096_1_0 : S2x4096.Slices ![1, 0] S1x4096
  dot_S128x1024_S1024x4096_S128x4096_1_0_0_1_n_n_wf : DotDims.WF S128x1024 S1024x4096 S128x4096 [1] [0] [0] [1] [] []
  hrank0 : 0 < grid0.rank
  k0_off1_inb : ∀ i : grid0.Coords, ∀ a, (k0_off1 i) a + S1.size a ≤ S15.size a
  k0_off3_inb : ∀ i : grid0.Coords, ∀ a, (k0_off3 i) a + S1x128x1024.size a ≤ S16x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S15x256x1024.size a
  hwx0_0 : ∀ i : grid0.Coords, EltTy.bits .bf16 = 32 ∨ (Rect.block (s := S15x256x1024) S1x128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S15x256x1024.size a
  hwx0_4 : ∀ i : grid0.Coords, EltTy.bits .f32 = 32 ∨ (Rect.block (s := S15x256x1024) S1x128x1024.size (cc0_transform_4 i) (hinb0_4 i)).WholeWords (EltTy.packing .f32)
  hrank1 : 0 < grid1.rank
  k1_off1_inb : ∀ i : grid1.Coords, ∀ a, (k1_off1 i) a + S1.size a ≤ S15.size a
  k1_off3_inb : ∀ i : grid1.Coords, ∀ a, (k1_off3 i) a + S1x128x1024.size a ≤ S16x128x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S15x256x1024.size a
  hwx1_0 : ∀ i : grid1.Coords, EltTy.bits .bf16 = 32 ∨ (Rect.block (s := S15x256x1024) S1x128x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S1024x4096.size a
  hwx1_2 : ∀ i : grid1.Coords, EltTy.bits .bf16 = 32 ∨ (Rect.block (s := S1024x4096) S1024x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1024.size a ≤ S15x256x1024.size a
  hwx1_4 : ∀ i : grid1.Coords, EltTy.bits .f32 = 32 ∨ (Rect.block (s := S15x256x1024) S1x128x1024.size (cc1_transform_4 i) (hinb1_4 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev spec0_0 : Pipeline.WinSpec sig grid0.rank :=
  Pipeline.WinSpec.ofSpec (Memref.whole main_v1) S1x128x1024.size reads0_0 false false 2 stage0_0 sem0_0 nbuf0_0 hstage0_0

abbrev spec0_1 : Pipeline.WinSpec sig grid0.rank :=
  Pipeline.WinSpec.ofSpec (Memref.whole main_v5) S1024x4096.size reads0_1 false true 1 stage0_1 sem0_1 nbuf0_1 hstage0_1

abbrev spec0_2 : Pipeline.WinSpec sig grid0.rank :=
  Pipeline.WinSpec.ofSpec (Memref.whole main_v9) S1024x4096.size reads0_2 false true 1 stage0_2 sem0_2 nbuf0_2 hstage0_2

abbrev spec0_3 : Pipeline.WinSpec sig grid0.rank :=
  Pipeline.WinSpec.ofSpec (Memref.whole main_v15) S1x4096.size reads0_3 false true 1 stage0_3 sem0_3 nbuf0_3 hstage0_3

abbrev spec0_4 : Pipeline.WinSpec sig grid0.rank :=
  Pipeline.WinSpec.ofSpec (Memref.whole main_v16) S1x128x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev spec1_0 : Pipeline.WinSpec sig grid1.rank :=
  Pipeline.WinSpec.ofSpec (Memref.whole main_v17) S1x128x1024.size reads1_0 false false 2 stage1_0 sem1_0 nbuf1_0 hstage1_0

abbrev spec1_1 : Pipeline.WinSpec sig grid1.rank :=
  Pipeline.WinSpec.ofSpec (Memref.whole main_v21) S1024x4096.size reads1_1 false true 1 stage1_1 sem1_1 nbuf1_1 hstage1_1

abbrev spec1_2 : Pipeline.WinSpec sig grid1.rank :=
  Pipeline.WinSpec.ofSpec (Memref.whole main_v25) S1024x4096.size reads1_2 false true 1 stage1_2 sem1_2 nbuf1_2 hstage1_2

abbrev spec1_3 : Pipeline.WinSpec sig grid1.rank :=
  Pipeline.WinSpec.ofSpec (Memref.whole main_v31) S1x4096.size reads1_3 false true 1 stage1_3 sem1_3 nbuf1_3 hstage1_3

abbrev spec1_4 : Pipeline.WinSpec sig grid1.rank :=
  Pipeline.WinSpec.ofSpec (Memref.whole main_v32) S1x128x1024.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 | 1 => cc1_transform_1 | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | ⟨_ + 5, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | ⟨_ + 5, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S15x256x512 : Shape := ⟨3, ![15, 256, 512]⟩
abbrev S2x4096x1024 : Shape := ⟨3, ![2, 4096, 1024]⟩
abbrev S2x4096 : Shape := ⟨2, ![2, 4096]⟩
abbrev S15x256x1024 : Shape := ⟨3, ![15, 256, 1024]⟩
abbrev S256x15x1024 : Shape := ⟨3, ![256, 15, 1024]⟩
abbrev S_ : Shape := ⟨0, ![]⟩
abbrev S2x256x1024 : Shape := ⟨3, ![2, 256, 1024]⟩
abbrev S256x1x1024 : Shape := ⟨3, ![256, 1, 1024]⟩
abbrev S256x1024 : Shape := ⟨2, ![256, 1024]⟩
abbrev S1x256x1024 : Shape := ⟨3, ![1, 256, 1024]⟩
abbrev S1x4096x1024 : Shape := ⟨3, ![1, 4096, 1024]⟩
abbrev S4096x1024 : Shape := ⟨2, ![4096, 1024]⟩
abbrev S1x4096 : Shape := ⟨2, ![1, 4096]⟩
abbrev S4096 : Shape := ⟨1, ![4096]⟩
abbrev S1024x4096 : Shape := ⟨2, ![1024, 4096]⟩
abbrev S256x4096 : Shape := ⟨2, ![256, 4096]⟩

abbrev nBuf : Space → Nat
  | .hbm => 1797
  | .vmem => 0
  | .smem => 0
  | _ => 0

abbrev hbmTy0_0 (i : Nat) : BufTy := match i % 128 with
  | 0 => ⟨S15x256x512, .f32⟩
  | 1 => ⟨S15x256x512, .f32⟩
  | 2 => ⟨S2x4096x1024, .f32⟩
  | 3 => ⟨S2x4096x1024, .f32⟩
  | 4 => ⟨S2x4096, .f32⟩
  | 5 => ⟨S2x4096, .f32⟩
  | 6 => ⟨S15x256x1024, .f32⟩
  | 7 => ⟨S256x15x1024, .f32⟩
  | 8 => ⟨S_, .f32⟩
  | 9 => ⟨S2x256x1024, .f32⟩
  | 10 => ⟨S256x1x1024, .f32⟩
  | 11 => ⟨S256x1024, .f32⟩
  | 12 => ⟨S1x256x1024, .f32⟩
  | 13 => ⟨S256x1024, .f32⟩
  | 14 => ⟨S1x256x1024, .f32⟩
  | 15 => ⟨S256x1024, .f32⟩
  | 16 => ⟨S1x4096x1024, .f32⟩
  | 17 => ⟨S4096x1024, .f32⟩
  | 18 => ⟨S1x4096x1024, .f32⟩
  | 19 => ⟨S4096x1024, .f32⟩
  | 20 => ⟨S1x4096, .f32⟩
  | 21 => ⟨S4096, .f32⟩
  | 22 => ⟨S1x4096, .f32⟩
  | 23 => ⟨S4096, .f32⟩
  | 24 => ⟨S1024x4096, .f32⟩
  | 25 => ⟨S256x4096, .f32⟩
  | 26 => ⟨S1024x4096, .f32⟩
  | 27 => ⟨S256x4096, .f32⟩
  | 28 => ⟨S256x4096, .f32⟩
  | 29 => ⟨S4096, .f32⟩
  | 30 => ⟨S1x4096, .f32⟩
  | 31 => ⟨S256x4096, .f32⟩
  | 32 => ⟨S256x4096, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S256x1024, .f32⟩
  | 47 => ⟨S256x1024, .f32⟩
  | 48 => ⟨S_, .f32⟩
  | 49 => ⟨S256x1024, .f32⟩
  | 50 => ⟨S256x1024, .f32⟩
  | 51 => ⟨S_, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S_, .f32⟩
  | 63 => ⟨S256x1024, .f32⟩
  | 64 => ⟨S256x1024, .f32⟩
  | 65 => ⟨S256x1024, .f32⟩
  | 66 => ⟨S256x1024, .f32⟩
  | 67 => ⟨S1x256x1024, .f32⟩
  | 68 => ⟨S256x1024, .f32⟩
  | 69 => ⟨S1x256x1024, .f32⟩
  | 70 => ⟨S256x1024, .f32⟩
  | 71 => ⟨S1x4096x1024, .f32⟩
  | 72 => ⟨S4096x1024, .f32⟩
  | 73 => ⟨S1x4096x1024, .f32⟩
  | 74 => ⟨S4096x1024, .f32⟩
  | 75 => ⟨S1x4096, .f32⟩
  | 76 => ⟨S4096, .f32⟩
  | 77 => ⟨S1x4096, .f32⟩
  | 78 => ⟨S4096, .f32⟩
  | 79 => ⟨S1024x4096, .f32⟩
  | 80 => ⟨S256x4096, .f32⟩
  | 81 => ⟨S1024x4096, .f32⟩
  | 82 => ⟨S256x4096, .f32⟩
  | 83 => ⟨S256x4096, .f32⟩
  | 84 => ⟨S4096, .f32⟩
  | 85 => ⟨S1x4096, .f32⟩
  | 86 => ⟨S256x4096, .f32⟩
  | 87 => ⟨S256x4096, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S256x1024, .f32⟩
  | 121 => ⟨S256x1024, .f32⟩
  | 122 => ⟨S1x256x1024, .f32⟩
  | 123 => ⟨S1x256x1024, .f32⟩
  | 124 => ⟨S2x256x1024, .f32⟩
  | 125 => ⟨S1x256x1024, .f32⟩
  | 126 => ⟨S1x256x1024, .f32⟩
  | 127 => ⟨S2x256x1024, .f32⟩
  | _ => ⟨S15x256x512, .f32⟩

abbrev hbmTy0_1 (i : Nat) : BufTy := match i % 128 with
  | 0 => ⟨S256x1x1024, .f32⟩
  | 1 => ⟨S256x1024, .f32⟩
  | 2 => ⟨S1x256x1024, .f32⟩
  | 3 => ⟨S256x1024, .f32⟩
  | 4 => ⟨S1x256x1024, .f32⟩
  | 5 => ⟨S256x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096, .f32⟩
  | 11 => ⟨S4096, .f32⟩
  | 12 => ⟨S1x4096, .f32⟩
  | 13 => ⟨S4096, .f32⟩
  | 14 => ⟨S1024x4096, .f32⟩
  | 15 => ⟨S256x4096, .f32⟩
  | 16 => ⟨S1024x4096, .f32⟩
  | 17 => ⟨S256x4096, .f32⟩
  | 18 => ⟨S256x4096, .f32⟩
  | 19 => ⟨S4096, .f32⟩
  | 20 => ⟨S1x4096, .f32⟩
  | 21 => ⟨S256x4096, .f32⟩
  | 22 => ⟨S256x4096, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S_, .f32⟩
  | 53 => ⟨S256x1024, .f32⟩
  | 54 => ⟨S256x1024, .f32⟩
  | 55 => ⟨S256x1024, .f32⟩
  | 56 => ⟨S256x1024, .f32⟩
  | 57 => ⟨S1x256x1024, .f32⟩
  | 58 => ⟨S256x1024, .f32⟩
  | 59 => ⟨S1x256x1024, .f32⟩
  | 60 => ⟨S256x1024, .f32⟩
  | 61 => ⟨S1x4096x1024, .f32⟩
  | 62 => ⟨S4096x1024, .f32⟩
  | 63 => ⟨S1x4096x1024, .f32⟩
  | 64 => ⟨S4096x1024, .f32⟩
  | 65 => ⟨S1x4096, .f32⟩
  | 66 => ⟨S4096, .f32⟩
  | 67 => ⟨S1x4096, .f32⟩
  | 68 => ⟨S4096, .f32⟩
  | 69 => ⟨S1024x4096, .f32⟩
  | 70 => ⟨S256x4096, .f32⟩
  | 71 => ⟨S1024x4096, .f32⟩
  | 72 => ⟨S256x4096, .f32⟩
  | 73 => ⟨S256x4096, .f32⟩
  | 74 => ⟨S4096, .f32⟩
  | 75 => ⟨S1x4096, .f32⟩
  | 76 => ⟨S256x4096, .f32⟩
  | 77 => ⟨S256x4096, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S256x1024, .f32⟩
  | 111 => ⟨S256x1024, .f32⟩
  | 112 => ⟨S1x256x1024, .f32⟩
  | 113 => ⟨S1x256x1024, .f32⟩
  | 114 => ⟨S2x256x1024, .f32⟩
  | 115 => ⟨S1x256x1024, .f32⟩
  | 116 => ⟨S1x256x1024, .f32⟩
  | 117 => ⟨S2x256x1024, .f32⟩
  | 118 => ⟨S256x1x1024, .f32⟩
  | 119 => ⟨S256x1024, .f32⟩
  | 120 => ⟨S1x256x1024, .f32⟩
  | 121 => ⟨S256x1024, .f32⟩
  | 122 => ⟨S1x256x1024, .f32⟩
  | 123 => ⟨S256x1024, .f32⟩
  | 124 => ⟨S1x4096x1024, .f32⟩
  | 125 => ⟨S4096x1024, .f32⟩
  | 126 => ⟨S1x4096x1024, .f32⟩
  | 127 => ⟨S4096x1024, .f32⟩
  | _ => ⟨S15x256x512, .f32⟩

abbrev hbmTy0_2 (i : Nat) : BufTy := match i % 128 with
  | 0 => ⟨S1x4096, .f32⟩
  | 1 => ⟨S4096, .f32⟩
  | 2 => ⟨S1x4096, .f32⟩
  | 3 => ⟨S4096, .f32⟩
  | 4 => ⟨S1024x4096, .f32⟩
  | 5 => ⟨S256x4096, .f32⟩
  | 6 => ⟨S1024x4096, .f32⟩
  | 7 => ⟨S256x4096, .f32⟩
  | 8 => ⟨S256x4096, .f32⟩
  | 9 => ⟨S4096, .f32⟩
  | 10 => ⟨S1x4096, .f32⟩
  | 11 => ⟨S256x4096, .f32⟩
  | 12 => ⟨S256x4096, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S_, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S256x1024, .f32⟩
  | 47 => ⟨S1x256x1024, .f32⟩
  | 48 => ⟨S256x1024, .f32⟩
  | 49 => ⟨S1x256x1024, .f32⟩
  | 50 => ⟨S256x1024, .f32⟩
  | 51 => ⟨S1x4096x1024, .f32⟩
  | 52 => ⟨S4096x1024, .f32⟩
  | 53 => ⟨S1x4096x1024, .f32⟩
  | 54 => ⟨S4096x1024, .f32⟩
  | 55 => ⟨S1x4096, .f32⟩
  | 56 => ⟨S4096, .f32⟩
  | 57 => ⟨S1x4096, .f32⟩
  | 58 => ⟨S4096, .f32⟩
  | 59 => ⟨S1024x4096, .f32⟩
  | 60 => ⟨S256x4096, .f32⟩
  | 61 => ⟨S1024x4096, .f32⟩
  | 62 => ⟨S256x4096, .f32⟩
  | 63 => ⟨S256x4096, .f32⟩
  | 64 => ⟨S4096, .f32⟩
  | 65 => ⟨S1x4096, .f32⟩
  | 66 => ⟨S256x4096, .f32⟩
  | 67 => ⟨S256x4096, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S256x1024, .f32⟩
  | 102 => ⟨S1x256x1024, .f32⟩
  | 103 => ⟨S1x256x1024, .f32⟩
  | 104 => ⟨S2x256x1024, .f32⟩
  | 105 => ⟨S1x256x1024, .f32⟩
  | 106 => ⟨S1x256x1024, .f32⟩
  | 107 => ⟨S2x256x1024, .f32⟩
  | 108 => ⟨S256x1x1024, .f32⟩
  | 109 => ⟨S256x1024, .f32⟩
  | 110 => ⟨S1x256x1024, .f32⟩
  | 111 => ⟨S256x1024, .f32⟩
  | 112 => ⟨S1x256x1024, .f32⟩
  | 113 => ⟨S256x1024, .f32⟩
  | 114 => ⟨S1x4096x1024, .f32⟩
  | 115 => ⟨S4096x1024, .f32⟩
  | 116 => ⟨S1x4096x1024, .f32⟩
  | 117 => ⟨S4096x1024, .f32⟩
  | 118 => ⟨S1x4096, .f32⟩
  | 119 => ⟨S4096, .f32⟩
  | 120 => ⟨S1x4096, .f32⟩
  | 121 => ⟨S4096, .f32⟩
  | 122 => ⟨S1024x4096, .f32⟩
  | 123 => ⟨S256x4096, .f32⟩
  | 124 => ⟨S1024x4096, .f32⟩
  | 125 => ⟨S256x4096, .f32⟩
  | 126 => ⟨S256x4096, .f32⟩
  | 127 => ⟨S4096, .f32⟩
  | _ => ⟨S15x256x512, .f32⟩

abbrev hbmTy0_3 (i : Nat) : BufTy := match i % 128 with
  | 0 => ⟨S1x4096, .f32⟩
  | 1 => ⟨S256x4096, .f32⟩
  | 2 => ⟨S256x4096, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S_, .f32⟩
  | 22 => ⟨S256x1024, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S256x1024, .f32⟩
  | 37 => ⟨S1x256x1024, .f32⟩
  | 38 => ⟨S256x1024, .f32⟩
  | 39 => ⟨S1x256x1024, .f32⟩
  | 40 => ⟨S256x1024, .f32⟩
  | 41 => ⟨S1x4096x1024, .f32⟩
  | 42 => ⟨S4096x1024, .f32⟩
  | 43 => ⟨S1x4096x1024, .f32⟩
  | 44 => ⟨S4096x1024, .f32⟩
  | 45 => ⟨S1x4096, .f32⟩
  | 46 => ⟨S4096, .f32⟩
  | 47 => ⟨S1x4096, .f32⟩
  | 48 => ⟨S4096, .f32⟩
  | 49 => ⟨S1024x4096, .f32⟩
  | 50 => ⟨S256x4096, .f32⟩
  | 51 => ⟨S1024x4096, .f32⟩
  | 52 => ⟨S256x4096, .f32⟩
  | 53 => ⟨S256x4096, .f32⟩
  | 54 => ⟨S4096, .f32⟩
  | 55 => ⟨S1x4096, .f32⟩
  | 56 => ⟨S256x4096, .f32⟩
  | 57 => ⟨S256x4096, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S_, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S256x1024, .f32⟩
  | 91 => ⟨S256x1024, .f32⟩
  | 92 => ⟨S1x256x1024, .f32⟩
  | 93 => ⟨S1x256x1024, .f32⟩
  | 94 => ⟨S2x256x1024, .f32⟩
  | 95 => ⟨S1x256x1024, .f32⟩
  | 96 => ⟨S1x256x1024, .f32⟩
  | 97 => ⟨S2x256x1024, .f32⟩
  | 98 => ⟨S256x1x1024, .f32⟩
  | 99 => ⟨S256x1024, .f32⟩
  | 100 => ⟨S1x256x1024, .f32⟩
  | 101 => ⟨S256x1024, .f32⟩
  | 102 => ⟨S1x256x1024, .f32⟩
  | 103 => ⟨S256x1024, .f32⟩
  | 104 => ⟨S1x4096x1024, .f32⟩
  | 105 => ⟨S4096x1024, .f32⟩
  | 106 => ⟨S1x4096x1024, .f32⟩
  | 107 => ⟨S4096x1024, .f32⟩
  | 108 => ⟨S1x4096, .f32⟩
  | 109 => ⟨S4096, .f32⟩
  | 110 => ⟨S1x4096, .f32⟩
  | 111 => ⟨S4096, .f32⟩
  | 112 => ⟨S1024x4096, .f32⟩
  | 113 => ⟨S256x4096, .f32⟩
  | 114 => ⟨S1024x4096, .f32⟩
  | 115 => ⟨S256x4096, .f32⟩
  | 116 => ⟨S256x4096, .f32⟩
  | 117 => ⟨S4096, .f32⟩
  | 118 => ⟨S1x4096, .f32⟩
  | 119 => ⟨S256x4096, .f32⟩
  | 120 => ⟨S256x4096, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S256x1024, .f32⟩
  | 127 => ⟨S_, .f32⟩
  | _ => ⟨S15x256x512, .f32⟩

abbrev hbmTy0_4 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S_, .f32⟩
  | 9 => ⟨S256x1024, .f32⟩
  | 10 => ⟨S256x1024, .f32⟩
  | 11 => ⟨S_, .f32⟩
  | 12 => ⟨S256x1024, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S256x1024, .f32⟩
  | 26 => ⟨S256x1024, .f32⟩
  | 27 => ⟨S1x256x1024, .f32⟩
  | 28 => ⟨S256x1024, .f32⟩
  | 29 => ⟨S1x256x1024, .f32⟩
  | 30 => ⟨S256x1024, .f32⟩
  | 31 => ⟨S1x4096x1024, .f32⟩
  | 32 => ⟨S4096x1024, .f32⟩
  | 33 => ⟨S1x4096x1024, .f32⟩
  | 34 => ⟨S4096x1024, .f32⟩
  | 35 => ⟨S1x4096, .f32⟩
  | 36 => ⟨S4096, .f32⟩
  | 37 => ⟨S1x4096, .f32⟩
  | 38 => ⟨S4096, .f32⟩
  | 39 => ⟨S1024x4096, .f32⟩
  | 40 => ⟨S256x4096, .f32⟩
  | 41 => ⟨S1024x4096, .f32⟩
  | 42 => ⟨S256x4096, .f32⟩
  | 43 => ⟨S256x4096, .f32⟩
  | 44 => ⟨S4096, .f32⟩
  | 45 => ⟨S1x4096, .f32⟩
  | 46 => ⟨S256x4096, .f32⟩
  | 47 => ⟨S256x4096, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S_, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S256x1024, .f32⟩
  | 81 => ⟨S256x1024, .f32⟩
  | 82 => ⟨S1x256x1024, .f32⟩
  | 83 => ⟨S1x256x1024, .f32⟩
  | 84 => ⟨S2x256x1024, .f32⟩
  | 85 => ⟨S1x256x1024, .f32⟩
  | 86 => ⟨S1x256x1024, .f32⟩
  | 87 => ⟨S2x256x1024, .f32⟩
  | 88 => ⟨S256x1x1024, .f32⟩
  | 89 => ⟨S256x1024, .f32⟩
  | 90 => ⟨S1x256x1024, .f32⟩
  | 91 => ⟨S256x1024, .f32⟩
  | 92 => ⟨S1x256x1024, .f32⟩
  | 93 => ⟨S256x1024, .f32⟩
  | 94 => ⟨S1x4096x1024, .f32⟩
  | 95 => ⟨S4096x1024, .f32⟩
  | 96 => ⟨S1x4096x1024, .f32⟩
  | 97 => ⟨S4096x1024, .f32⟩
  | 98 => ⟨S1x4096, .f32⟩
  | 99 => ⟨S4096, .f32⟩
  | 100 => ⟨S1x4096, .f32⟩
  | 101 => ⟨S4096, .f32⟩
  | 102 => ⟨S1024x4096, .f32⟩
  | 103 => ⟨S256x4096, .f32⟩
  | 104 => ⟨S1024x4096, .f32⟩
  | 105 => ⟨S256x4096, .f32⟩
  | 106 => ⟨S256x4096, .f32⟩
  | 107 => ⟨S4096, .f32⟩
  | 108 => ⟨S1x4096, .f32⟩
  | 109 => ⟨S256x4096, .f32⟩
  | 110 => ⟨S256x4096, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S15x256x512, .f32⟩

abbrev hbmTy0_5 (i : Nat) : BufTy := match i % 128 with
  | 0 => ⟨S256x1024, .f32⟩
  | 1 => ⟨S_, .f32⟩
  | 2 => ⟨S256x1024, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S256x1024, .f32⟩
  | 16 => ⟨S256x1024, .f32⟩
  | 17 => ⟨S1x256x1024, .f32⟩
  | 18 => ⟨S256x1024, .f32⟩
  | 19 => ⟨S1x256x1024, .f32⟩
  | 20 => ⟨S256x1024, .f32⟩
  | 21 => ⟨S1x4096x1024, .f32⟩
  | 22 => ⟨S4096x1024, .f32⟩
  | 23 => ⟨S1x4096x1024, .f32⟩
  | 24 => ⟨S4096x1024, .f32⟩
  | 25 => ⟨S1x4096, .f32⟩
  | 26 => ⟨S4096, .f32⟩
  | 27 => ⟨S1x4096, .f32⟩
  | 28 => ⟨S4096, .f32⟩
  | 29 => ⟨S1024x4096, .f32⟩
  | 30 => ⟨S256x4096, .f32⟩
  | 31 => ⟨S1024x4096, .f32⟩
  | 32 => ⟨S256x4096, .f32⟩
  | 33 => ⟨S256x4096, .f32⟩
  | 34 => ⟨S4096, .f32⟩
  | 35 => ⟨S1x4096, .f32⟩
  | 36 => ⟨S256x4096, .f32⟩
  | 37 => ⟨S256x4096, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S_, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S256x1024, .f32⟩
  | 71 => ⟨S256x1024, .f32⟩
  | 72 => ⟨S1x256x1024, .f32⟩
  | 73 => ⟨S1x256x1024, .f32⟩
  | 74 => ⟨S2x256x1024, .f32⟩
  | 75 => ⟨S1x256x1024, .f32⟩
  | 76 => ⟨S1x256x1024, .f32⟩
  | 77 => ⟨S2x256x1024, .f32⟩
  | 78 => ⟨S256x1x1024, .f32⟩
  | 79 => ⟨S256x1024, .f32⟩
  | 80 => ⟨S1x256x1024, .f32⟩
  | 81 => ⟨S256x1024, .f32⟩
  | 82 => ⟨S1x256x1024, .f32⟩
  | 83 => ⟨S256x1024, .f32⟩
  | 84 => ⟨S1x4096x1024, .f32⟩
  | 85 => ⟨S4096x1024, .f32⟩
  | 86 => ⟨S1x4096x1024, .f32⟩
  | 87 => ⟨S4096x1024, .f32⟩
  | 88 => ⟨S1x4096, .f32⟩
  | 89 => ⟨S4096, .f32⟩
  | 90 => ⟨S1x4096, .f32⟩
  | 91 => ⟨S4096, .f32⟩
  | 92 => ⟨S1024x4096, .f32⟩
  | 93 => ⟨S256x4096, .f32⟩
  | 94 => ⟨S1024x4096, .f32⟩
  | 95 => ⟨S256x4096, .f32⟩
  | 96 => ⟨S256x4096, .f32⟩
  | 97 => ⟨S4096, .f32⟩
  | 98 => ⟨S1x4096, .f32⟩
  | 99 => ⟨S256x4096, .f32⟩
  | 100 => ⟨S256x4096, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S_, .f32⟩
  | 120 => ⟨S256x1024, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S256x1024, .f32⟩
  | 127 => ⟨S_, .f32⟩
  | _ => ⟨S15x256x512, .f32⟩

abbrev hbmTy0_6 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S256x1024, .f32⟩
  | 7 => ⟨S1x256x1024, .f32⟩
  | 8 => ⟨S256x1024, .f32⟩
  | 9 => ⟨S1x256x1024, .f32⟩
  | 10 => ⟨S256x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096, .f32⟩
  | 16 => ⟨S4096, .f32⟩
  | 17 => ⟨S1x4096, .f32⟩
  | 18 => ⟨S4096, .f32⟩
  | 19 => ⟨S1024x4096, .f32⟩
  | 20 => ⟨S256x4096, .f32⟩
  | 21 => ⟨S1024x4096, .f32⟩
  | 22 => ⟨S256x4096, .f32⟩
  | 23 => ⟨S256x4096, .f32⟩
  | 24 => ⟨S4096, .f32⟩
  | 25 => ⟨S1x4096, .f32⟩
  | 26 => ⟨S256x4096, .f32⟩
  | 27 => ⟨S256x4096, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S256x1024, .f32⟩
  | 61 => ⟨S256x1024, .f32⟩
  | 62 => ⟨S1x256x1024, .f32⟩
  | 63 => ⟨S1x256x1024, .f32⟩
  | 64 => ⟨S2x256x1024, .f32⟩
  | 65 => ⟨S1x256x1024, .f32⟩
  | 66 => ⟨S1x256x1024, .f32⟩
  | 67 => ⟨S2x256x1024, .f32⟩
  | 68 => ⟨S256x1x1024, .f32⟩
  | 69 => ⟨S256x1024, .f32⟩
  | 70 => ⟨S1x256x1024, .f32⟩
  | 71 => ⟨S256x1024, .f32⟩
  | 72 => ⟨S1x256x1024, .f32⟩
  | 73 => ⟨S256x1024, .f32⟩
  | 74 => ⟨S1x4096x1024, .f32⟩
  | 75 => ⟨S4096x1024, .f32⟩
  | 76 => ⟨S1x4096x1024, .f32⟩
  | 77 => ⟨S4096x1024, .f32⟩
  | 78 => ⟨S1x4096, .f32⟩
  | 79 => ⟨S4096, .f32⟩
  | 80 => ⟨S1x4096, .f32⟩
  | 81 => ⟨S4096, .f32⟩
  | 82 => ⟨S1024x4096, .f32⟩
  | 83 => ⟨S256x4096, .f32⟩
  | 84 => ⟨S1024x4096, .f32⟩
  | 85 => ⟨S256x4096, .f32⟩
  | 86 => ⟨S256x4096, .f32⟩
  | 87 => ⟨S4096, .f32⟩
  | 88 => ⟨S1x4096, .f32⟩
  | 89 => ⟨S256x4096, .f32⟩
  | 90 => ⟨S256x4096, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S_, .f32⟩
  | 110 => ⟨S256x1024, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S256x1024, .f32⟩
  | 125 => ⟨S1x256x1024, .f32⟩
  | 126 => ⟨S256x1024, .f32⟩
  | 127 => ⟨S1x256x1024, .f32⟩
  | _ => ⟨S15x256x512, .f32⟩

abbrev hbmTy0_7 (i : Nat) : BufTy := match i % 128 with
  | 0 => ⟨S256x1024, .f32⟩
  | 1 => ⟨S1x4096x1024, .f32⟩
  | 2 => ⟨S4096x1024, .f32⟩
  | 3 => ⟨S1x4096x1024, .f32⟩
  | 4 => ⟨S4096x1024, .f32⟩
  | 5 => ⟨S1x4096, .f32⟩
  | 6 => ⟨S4096, .f32⟩
  | 7 => ⟨S1x4096, .f32⟩
  | 8 => ⟨S4096, .f32⟩
  | 9 => ⟨S1024x4096, .f32⟩
  | 10 => ⟨S256x4096, .f32⟩
  | 11 => ⟨S1024x4096, .f32⟩
  | 12 => ⟨S256x4096, .f32⟩
  | 13 => ⟨S256x4096, .f32⟩
  | 14 => ⟨S4096, .f32⟩
  | 15 => ⟨S1x4096, .f32⟩
  | 16 => ⟨S256x4096, .f32⟩
  | 17 => ⟨S256x4096, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S_, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S_, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S256x1024, .f32⟩
  | 52 => ⟨S1x256x1024, .f32⟩
  | 53 => ⟨S1x256x1024, .f32⟩
  | 54 => ⟨S2x256x1024, .f32⟩
  | 55 => ⟨S1x256x1024, .f32⟩
  | 56 => ⟨S1x256x1024, .f32⟩
  | 57 => ⟨S2x256x1024, .f32⟩
  | 58 => ⟨S256x1x1024, .f32⟩
  | 59 => ⟨S256x1024, .f32⟩
  | 60 => ⟨S1x256x1024, .f32⟩
  | 61 => ⟨S256x1024, .f32⟩
  | 62 => ⟨S1x256x1024, .f32⟩
  | 63 => ⟨S256x1024, .f32⟩
  | 64 => ⟨S1x4096x1024, .f32⟩
  | 65 => ⟨S4096x1024, .f32⟩
  | 66 => ⟨S1x4096x1024, .f32⟩
  | 67 => ⟨S4096x1024, .f32⟩
  | 68 => ⟨S1x4096, .f32⟩
  | 69 => ⟨S4096, .f32⟩
  | 70 => ⟨S1x4096, .f32⟩
  | 71 => ⟨S4096, .f32⟩
  | 72 => ⟨S1024x4096, .f32⟩
  | 73 => ⟨S256x4096, .f32⟩
  | 74 => ⟨S1024x4096, .f32⟩
  | 75 => ⟨S256x4096, .f32⟩
  | 76 => ⟨S256x4096, .f32⟩
  | 77 => ⟨S4096, .f32⟩
  | 78 => ⟨S1x4096, .f32⟩
  | 79 => ⟨S256x4096, .f32⟩
  | 80 => ⟨S256x4096, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S256x1024, .f32⟩
  | 114 => ⟨S256x1024, .f32⟩
  | 115 => ⟨S1x256x1024, .f32⟩
  | 116 => ⟨S256x1024, .f32⟩
  | 117 => ⟨S1x256x1024, .f32⟩
  | 118 => ⟨S256x1024, .f32⟩
  | 119 => ⟨S1x4096x1024, .f32⟩
  | 120 => ⟨S4096x1024, .f32⟩
  | 121 => ⟨S1x4096x1024, .f32⟩
  | 122 => ⟨S4096x1024, .f32⟩
  | 123 => ⟨S1x4096, .f32⟩
  | 124 => ⟨S4096, .f32⟩
  | 125 => ⟨S1x4096, .f32⟩
  | 126 => ⟨S4096, .f32⟩
  | 127 => ⟨S1024x4096, .f32⟩
  | _ => ⟨S15x256x512, .f32⟩

abbrev hbmTy0_8 (i : Nat) : BufTy := match i % 128 with
  | 0 => ⟨S256x4096, .f32⟩
  | 1 => ⟨S1024x4096, .f32⟩
  | 2 => ⟨S256x4096, .f32⟩
  | 3 => ⟨S256x4096, .f32⟩
  | 4 => ⟨S4096, .f32⟩
  | 5 => ⟨S1x4096, .f32⟩
  | 6 => ⟨S256x4096, .f32⟩
  | 7 => ⟨S256x4096, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S_, .f32⟩
  | 27 => ⟨S256x1024, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S256x1024, .f32⟩
  | 41 => ⟨S256x1024, .f32⟩
  | 42 => ⟨S1x256x1024, .f32⟩
  | 43 => ⟨S1x256x1024, .f32⟩
  | 44 => ⟨S2x256x1024, .f32⟩
  | 45 => ⟨S1x256x1024, .f32⟩
  | 46 => ⟨S1x256x1024, .f32⟩
  | 47 => ⟨S2x256x1024, .f32⟩
  | 48 => ⟨S256x1x1024, .f32⟩
  | 49 => ⟨S256x1024, .f32⟩
  | 50 => ⟨S1x256x1024, .f32⟩
  | 51 => ⟨S256x1024, .f32⟩
  | 52 => ⟨S1x256x1024, .f32⟩
  | 53 => ⟨S256x1024, .f32⟩
  | 54 => ⟨S1x4096x1024, .f32⟩
  | 55 => ⟨S4096x1024, .f32⟩
  | 56 => ⟨S1x4096x1024, .f32⟩
  | 57 => ⟨S4096x1024, .f32⟩
  | 58 => ⟨S1x4096, .f32⟩
  | 59 => ⟨S4096, .f32⟩
  | 60 => ⟨S1x4096, .f32⟩
  | 61 => ⟨S4096, .f32⟩
  | 62 => ⟨S1024x4096, .f32⟩
  | 63 => ⟨S256x4096, .f32⟩
  | 64 => ⟨S1024x4096, .f32⟩
  | 65 => ⟨S256x4096, .f32⟩
  | 66 => ⟨S256x4096, .f32⟩
  | 67 => ⟨S4096, .f32⟩
  | 68 => ⟨S1x4096, .f32⟩
  | 69 => ⟨S256x4096, .f32⟩
  | 70 => ⟨S256x4096, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S256x1024, .f32⟩
  | 105 => ⟨S1x256x1024, .f32⟩
  | 106 => ⟨S256x1024, .f32⟩
  | 107 => ⟨S1x256x1024, .f32⟩
  | 108 => ⟨S256x1024, .f32⟩
  | 109 => ⟨S1x4096x1024, .f32⟩
  | 110 => ⟨S4096x1024, .f32⟩
  | 111 => ⟨S1x4096x1024, .f32⟩
  | 112 => ⟨S4096x1024, .f32⟩
  | 113 => ⟨S1x4096, .f32⟩
  | 114 => ⟨S4096, .f32⟩
  | 115 => ⟨S1x4096, .f32⟩
  | 116 => ⟨S4096, .f32⟩
  | 117 => ⟨S1024x4096, .f32⟩
  | 118 => ⟨S256x4096, .f32⟩
  | 119 => ⟨S1024x4096, .f32⟩
  | 120 => ⟨S256x4096, .f32⟩
  | 121 => ⟨S256x4096, .f32⟩
  | 122 => ⟨S4096, .f32⟩
  | 123 => ⟨S1x4096, .f32⟩
  | 124 => ⟨S256x4096, .f32⟩
  | 125 => ⟨S256x4096, .f32⟩
  | 126 => ⟨S256x1024, .f32⟩
  | 127 => ⟨S256x1024, .f32⟩
  | _ => ⟨S15x256x512, .f32⟩

abbrev hbmTy0_9 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S_, .f32⟩
  | 17 => ⟨S256x1024, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S256x1024, .f32⟩
  | 32 => ⟨S1x256x1024, .f32⟩
  | 33 => ⟨S1x256x1024, .f32⟩
  | 34 => ⟨S2x256x1024, .f32⟩
  | 35 => ⟨S1x256x1024, .f32⟩
  | 36 => ⟨S1x256x1024, .f32⟩
  | 37 => ⟨S2x256x1024, .f32⟩
  | 38 => ⟨S256x1x1024, .f32⟩
  | 39 => ⟨S256x1024, .f32⟩
  | 40 => ⟨S1x256x1024, .f32⟩
  | 41 => ⟨S256x1024, .f32⟩
  | 42 => ⟨S1x256x1024, .f32⟩
  | 43 => ⟨S256x1024, .f32⟩
  | 44 => ⟨S1x4096x1024, .f32⟩
  | 45 => ⟨S4096x1024, .f32⟩
  | 46 => ⟨S1x4096x1024, .f32⟩
  | 47 => ⟨S4096x1024, .f32⟩
  | 48 => ⟨S1x4096, .f32⟩
  | 49 => ⟨S4096, .f32⟩
  | 50 => ⟨S1x4096, .f32⟩
  | 51 => ⟨S4096, .f32⟩
  | 52 => ⟨S1024x4096, .f32⟩
  | 53 => ⟨S256x4096, .f32⟩
  | 54 => ⟨S1024x4096, .f32⟩
  | 55 => ⟨S256x4096, .f32⟩
  | 56 => ⟨S256x4096, .f32⟩
  | 57 => ⟨S4096, .f32⟩
  | 58 => ⟨S1x4096, .f32⟩
  | 59 => ⟨S256x4096, .f32⟩
  | 60 => ⟨S256x4096, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S1x256x1024, .f32⟩
  | 96 => ⟨S256x1024, .f32⟩
  | 97 => ⟨S1x256x1024, .f32⟩
  | 98 => ⟨S256x1024, .f32⟩
  | 99 => ⟨S1x4096x1024, .f32⟩
  | 100 => ⟨S4096x1024, .f32⟩
  | 101 => ⟨S1x4096x1024, .f32⟩
  | 102 => ⟨S4096x1024, .f32⟩
  | 103 => ⟨S1x4096, .f32⟩
  | 104 => ⟨S4096, .f32⟩
  | 105 => ⟨S1x4096, .f32⟩
  | 106 => ⟨S4096, .f32⟩
  | 107 => ⟨S1024x4096, .f32⟩
  | 108 => ⟨S256x4096, .f32⟩
  | 109 => ⟨S1024x4096, .f32⟩
  | 110 => ⟨S256x4096, .f32⟩
  | 111 => ⟨S256x4096, .f32⟩
  | 112 => ⟨S4096, .f32⟩
  | 113 => ⟨S1x4096, .f32⟩
  | 114 => ⟨S256x4096, .f32⟩
  | 115 => ⟨S256x4096, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S15x256x512, .f32⟩

abbrev hbmTy0_10 (i : Nat) : BufTy := match i % 128 with
  | 0 => ⟨S256x1024, .f32⟩
  | 1 => ⟨S256x1024, .f32⟩
  | 2 => ⟨S256x1024, .f32⟩
  | 3 => ⟨S_, .f32⟩
  | 4 => ⟨S256x1024, .f32⟩
  | 5 => ⟨S256x1024, .f32⟩
  | 6 => ⟨S_, .f32⟩
  | 7 => ⟨S256x1024, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S256x1024, .f32⟩
  | 22 => ⟨S1x256x1024, .f32⟩
  | 23 => ⟨S1x256x1024, .f32⟩
  | 24 => ⟨S2x256x1024, .f32⟩
  | 25 => ⟨S1x256x1024, .f32⟩
  | 26 => ⟨S1x256x1024, .f32⟩
  | 27 => ⟨S2x256x1024, .f32⟩
  | 28 => ⟨S256x1x1024, .f32⟩
  | 29 => ⟨S256x1024, .f32⟩
  | 30 => ⟨S1x256x1024, .f32⟩
  | 31 => ⟨S256x1024, .f32⟩
  | 32 => ⟨S1x256x1024, .f32⟩
  | 33 => ⟨S256x1024, .f32⟩
  | 34 => ⟨S1x4096x1024, .f32⟩
  | 35 => ⟨S4096x1024, .f32⟩
  | 36 => ⟨S1x4096x1024, .f32⟩
  | 37 => ⟨S4096x1024, .f32⟩
  | 38 => ⟨S1x4096, .f32⟩
  | 39 => ⟨S4096, .f32⟩
  | 40 => ⟨S1x4096, .f32⟩
  | 41 => ⟨S4096, .f32⟩
  | 42 => ⟨S1024x4096, .f32⟩
  | 43 => ⟨S256x4096, .f32⟩
  | 44 => ⟨S1024x4096, .f32⟩
  | 45 => ⟨S256x4096, .f32⟩
  | 46 => ⟨S256x4096, .f32⟩
  | 47 => ⟨S4096, .f32⟩
  | 48 => ⟨S1x4096, .f32⟩
  | 49 => ⟨S256x4096, .f32⟩
  | 50 => ⟨S256x4096, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S_, .f32⟩
  | 70 => ⟨S256x1024, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x1024, .f32⟩
  | 84 => ⟨S256x1024, .f32⟩
  | 85 => ⟨S1x256x1024, .f32⟩
  | 86 => ⟨S256x1024, .f32⟩
  | 87 => ⟨S1x256x1024, .f32⟩
  | 88 => ⟨S256x1024, .f32⟩
  | 89 => ⟨S1x4096x1024, .f32⟩
  | 90 => ⟨S4096x1024, .f32⟩
  | 91 => ⟨S1x4096x1024, .f32⟩
  | 92 => ⟨S4096x1024, .f32⟩
  | 93 => ⟨S1x4096, .f32⟩
  | 94 => ⟨S4096, .f32⟩
  | 95 => ⟨S1x4096, .f32⟩
  | 96 => ⟨S4096, .f32⟩
  | 97 => ⟨S1024x4096, .f32⟩
  | 98 => ⟨S256x4096, .f32⟩
  | 99 => ⟨S1024x4096, .f32⟩
  | 100 => ⟨S256x4096, .f32⟩
  | 101 => ⟨S256x4096, .f32⟩
  | 102 => ⟨S4096, .f32⟩
  | 103 => ⟨S1x4096, .f32⟩
  | 104 => ⟨S256x4096, .f32⟩
  | 105 => ⟨S256x4096, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S_, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S256x1024, .f32⟩
  | _ => ⟨S15x256x512, .f32⟩

abbrev hbmTy0_11 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S256x1024, .f32⟩
  | 12 => ⟨S1x256x1024, .f32⟩
  | 13 => ⟨S1x256x1024, .f32⟩
  | 14 => ⟨S2x256x1024, .f32⟩
  | 15 => ⟨S1x256x1024, .f32⟩
  | 16 => ⟨S1x256x1024, .f32⟩
  | 17 => ⟨S2x256x1024, .f32⟩
  | 18 => ⟨S256x1x1024, .f32⟩
  | 19 => ⟨S256x1024, .f32⟩
  | 20 => ⟨S1x256x1024, .f32⟩
  | 21 => ⟨S256x1024, .f32⟩
  | 22 => ⟨S1x256x1024, .f32⟩
  | 23 => ⟨S256x1024, .f32⟩
  | 24 => ⟨S1x4096x1024, .f32⟩
  | 25 => ⟨S4096x1024, .f32⟩
  | 26 => ⟨S1x4096x1024, .f32⟩
  | 27 => ⟨S4096x1024, .f32⟩
  | 28 => ⟨S1x4096, .f32⟩
  | 29 => ⟨S4096, .f32⟩
  | 30 => ⟨S1x4096, .f32⟩
  | 31 => ⟨S4096, .f32⟩
  | 32 => ⟨S1024x4096, .f32⟩
  | 33 => ⟨S256x4096, .f32⟩
  | 34 => ⟨S1024x4096, .f32⟩
  | 35 => ⟨S256x4096, .f32⟩
  | 36 => ⟨S256x4096, .f32⟩
  | 37 => ⟨S4096, .f32⟩
  | 38 => ⟨S1x4096, .f32⟩
  | 39 => ⟨S256x4096, .f32⟩
  | 40 => ⟨S256x4096, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S256x1024, .f32⟩
  | 75 => ⟨S1x256x1024, .f32⟩
  | 76 => ⟨S256x1024, .f32⟩
  | 77 => ⟨S1x256x1024, .f32⟩
  | 78 => ⟨S256x1024, .f32⟩
  | 79 => ⟨S1x4096x1024, .f32⟩
  | 80 => ⟨S4096x1024, .f32⟩
  | 81 => ⟨S1x4096x1024, .f32⟩
  | 82 => ⟨S4096x1024, .f32⟩
  | 83 => ⟨S1x4096, .f32⟩
  | 84 => ⟨S4096, .f32⟩
  | 85 => ⟨S1x4096, .f32⟩
  | 86 => ⟨S4096, .f32⟩
  | 87 => ⟨S1024x4096, .f32⟩
  | 88 => ⟨S256x4096, .f32⟩
  | 89 => ⟨S1024x4096, .f32⟩
  | 90 => ⟨S256x4096, .f32⟩
  | 91 => ⟨S256x4096, .f32⟩
  | 92 => ⟨S4096, .f32⟩
  | 93 => ⟨S1x4096, .f32⟩
  | 94 => ⟨S256x4096, .f32⟩
  | 95 => ⟨S256x4096, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S_, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S15x256x512, .f32⟩

abbrev hbmTy0_12 (i : Nat) : BufTy := match i % 128 with
  | 0 => ⟨S256x1024, .f32⟩
  | 1 => ⟨S256x1024, .f32⟩
  | 2 => ⟨S1x256x1024, .f32⟩
  | 3 => ⟨S1x256x1024, .f32⟩
  | 4 => ⟨S2x256x1024, .f32⟩
  | 5 => ⟨S1x256x1024, .f32⟩
  | 6 => ⟨S1x256x1024, .f32⟩
  | 7 => ⟨S2x256x1024, .f32⟩
  | 8 => ⟨S256x1x1024, .f32⟩
  | 9 => ⟨S256x1024, .f32⟩
  | 10 => ⟨S1x256x1024, .f32⟩
  | 11 => ⟨S256x1024, .f32⟩
  | 12 => ⟨S1x256x1024, .f32⟩
  | 13 => ⟨S256x1024, .f32⟩
  | 14 => ⟨S1x4096x1024, .f32⟩
  | 15 => ⟨S4096x1024, .f32⟩
  | 16 => ⟨S1x4096x1024, .f32⟩
  | 17 => ⟨S4096x1024, .f32⟩
  | 18 => ⟨S1x4096, .f32⟩
  | 19 => ⟨S4096, .f32⟩
  | 20 => ⟨S1x4096, .f32⟩
  | 21 => ⟨S4096, .f32⟩
  | 22 => ⟨S1024x4096, .f32⟩
  | 23 => ⟨S256x4096, .f32⟩
  | 24 => ⟨S1024x4096, .f32⟩
  | 25 => ⟨S256x4096, .f32⟩
  | 26 => ⟨S256x4096, .f32⟩
  | 27 => ⟨S4096, .f32⟩
  | 28 => ⟨S1x4096, .f32⟩
  | 29 => ⟨S256x4096, .f32⟩
  | 30 => ⟨S256x4096, .f32⟩
  | 31 => ⟨S256x1024, .f32⟩
  | 32 => ⟨S256x1024, .f32⟩
  | 33 => ⟨S256x1024, .f32⟩
  | 34 => ⟨S256x1024, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S256x1024, .f32⟩
  | 65 => ⟨S1x256x1024, .f32⟩
  | 66 => ⟨S256x1024, .f32⟩
  | 67 => ⟨S1x256x1024, .f32⟩
  | 68 => ⟨S256x1024, .f32⟩
  | 69 => ⟨S1x4096x1024, .f32⟩
  | 70 => ⟨S4096x1024, .f32⟩
  | 71 => ⟨S1x4096x1024, .f32⟩
  | 72 => ⟨S4096x1024, .f32⟩
  | 73 => ⟨S1x4096, .f32⟩
  | 74 => ⟨S4096, .f32⟩
  | 75 => ⟨S1x4096, .f32⟩
  | 76 => ⟨S4096, .f32⟩
  | 77 => ⟨S1024x4096, .f32⟩
  | 78 => ⟨S256x4096, .f32⟩
  | 79 => ⟨S1024x4096, .f32⟩
  | 80 => ⟨S256x4096, .f32⟩
  | 81 => ⟨S256x4096, .f32⟩
  | 82 => ⟨S4096, .f32⟩
  | 83 => ⟨S1x4096, .f32⟩
  | 84 => ⟨S256x4096, .f32⟩
  | 85 => ⟨S256x4096, .f32⟩
  | 86 => ⟨S256x1024, .f32⟩
  | 87 => ⟨S256x1024, .f32⟩
  | 88 => ⟨S256x1024, .f32⟩
  | 89 => ⟨S256x1024, .f32⟩
  | 90 => ⟨S256x1024, .f32⟩
  | 91 => ⟨S256x1024, .f32⟩
  | 92 => ⟨S_, .f32⟩
  | 93 => ⟨S256x1024, .f32⟩
  | 94 => ⟨S256x1024, .f32⟩
  | 95 => ⟨S_, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S_, .f32⟩
  | 116 => ⟨S256x1024, .f32⟩
  | 117 => ⟨S256x1024, .f32⟩
  | 118 => ⟨S256x1024, .f32⟩
  | 119 => ⟨S256x1024, .f32⟩
  | 120 => ⟨S1x256x1024, .f32⟩
  | 121 => ⟨S1x256x1024, .f32⟩
  | 122 => ⟨S2x256x1024, .f32⟩
  | 123 => ⟨S1x256x1024, .f32⟩
  | 124 => ⟨S1x256x1024, .f32⟩
  | 125 => ⟨S2x256x1024, .f32⟩
  | 126 => ⟨S256x1x1024, .f32⟩
  | 127 => ⟨S256x1024, .f32⟩
  | _ => ⟨S15x256x512, .f32⟩

abbrev hbmTy0_13 (i : Nat) : BufTy := match i % 128 with
  | 0 => ⟨S1x256x1024, .f32⟩
  | 1 => ⟨S256x1024, .f32⟩
  | 2 => ⟨S1x256x1024, .f32⟩
  | 3 => ⟨S256x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096, .f32⟩
  | 9 => ⟨S4096, .f32⟩
  | 10 => ⟨S1x4096, .f32⟩
  | 11 => ⟨S4096, .f32⟩
  | 12 => ⟨S1024x4096, .f32⟩
  | 13 => ⟨S256x4096, .f32⟩
  | 14 => ⟨S1024x4096, .f32⟩
  | 15 => ⟨S256x4096, .f32⟩
  | 16 => ⟨S256x4096, .f32⟩
  | 17 => ⟨S4096, .f32⟩
  | 18 => ⟨S1x4096, .f32⟩
  | 19 => ⟨S256x4096, .f32⟩
  | 20 => ⟨S256x4096, .f32⟩
  | 21 => ⟨S256x1024, .f32⟩
  | 22 => ⟨S256x1024, .f32⟩
  | 23 => ⟨S256x1024, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S_, .f32⟩
  | 31 => ⟨S256x1024, .f32⟩
  | 32 => ⟨S256x1024, .f32⟩
  | 33 => ⟨S256x1024, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S1x256x1024, .f32⟩
  | 56 => ⟨S256x1024, .f32⟩
  | 57 => ⟨S1x256x1024, .f32⟩
  | 58 => ⟨S256x1024, .f32⟩
  | 59 => ⟨S1x4096x1024, .f32⟩
  | 60 => ⟨S4096x1024, .f32⟩
  | 61 => ⟨S1x4096x1024, .f32⟩
  | 62 => ⟨S4096x1024, .f32⟩
  | 63 => ⟨S1x4096, .f32⟩
  | 64 => ⟨S4096, .f32⟩
  | 65 => ⟨S1x4096, .f32⟩
  | 66 => ⟨S4096, .f32⟩
  | 67 => ⟨S1024x4096, .f32⟩
  | 68 => ⟨S256x4096, .f32⟩
  | 69 => ⟨S1024x4096, .f32⟩
  | 70 => ⟨S256x4096, .f32⟩
  | 71 => ⟨S256x4096, .f32⟩
  | 72 => ⟨S4096, .f32⟩
  | 73 => ⟨S1x4096, .f32⟩
  | 74 => ⟨S256x4096, .f32⟩
  | 75 => ⟨S256x4096, .f32⟩
  | 76 => ⟨S256x1024, .f32⟩
  | 77 => ⟨S256x1024, .f32⟩
  | 78 => ⟨S256x1024, .f32⟩
  | 79 => ⟨S256x1024, .f32⟩
  | 80 => ⟨S256x1024, .f32⟩
  | 81 => ⟨S256x1024, .f32⟩
  | 82 => ⟨S_, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S256x1024, .f32⟩
  | 90 => ⟨S256x1024, .f32⟩
  | 91 => ⟨S_, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S256x1024, .f32⟩
  | 109 => ⟨S256x1024, .f32⟩
  | 110 => ⟨S1x256x1024, .f32⟩
  | 111 => ⟨S1x256x1024, .f32⟩
  | 112 => ⟨S2x256x1024, .f32⟩
  | 113 => ⟨S1x256x1024, .f32⟩
  | 114 => ⟨S1x256x1024, .f32⟩
  | 115 => ⟨S2x256x1024, .f32⟩
  | 116 => ⟨S256x1x1024, .f32⟩
  | 117 => ⟨S256x1x1024, .f32⟩
  | 118 => ⟨S256x1x1024, .f32⟩
  | 119 => ⟨S256x1x1024, .f32⟩
  | 120 => ⟨S256x1x1024, .f32⟩
  | 121 => ⟨S256x1x1024, .f32⟩
  | 122 => ⟨S256x1x1024, .f32⟩
  | 123 => ⟨S256x1x1024, .f32⟩
  | 124 => ⟨S256x1x1024, .f32⟩
  | 125 => ⟨S256x1x1024, .f32⟩
  | 126 => ⟨S256x1x1024, .f32⟩
  | 127 => ⟨S256x1x1024, .f32⟩
  | _ => ⟨S15x256x512, .f32⟩

abbrev hbmTy0_14 (i : Nat) : BufTy := match i % 128 with
  | 0 => ⟨S256x1x1024, .f32⟩
  | 1 => ⟨S256x1x1024, .f32⟩
  | 2 => ⟨S256x1x1024, .f32⟩
  | 3 => ⟨S256x15x1024, .f32⟩
  | 4 => ⟨S15x256x1024, .f32⟩
  | _ => ⟨S15x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S15x256x512, .f32⟩

abbrev bufTy : (tb : Table) → Fin (tcTables nBuf tb) → BufTy
  | .hbm, ⟨i, _⟩ => hbmTy i
  | _, _ => ⟨S15x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_cst_7 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_8 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_10 : Ref sig .tc := ⟨.hbm, 114, rfl⟩
abbrev main_v97 : Ref sig .tc := ⟨.hbm, 115, rfl⟩
abbrev main_v98 : Ref sig .tc := ⟨.hbm, 116, rfl⟩
abbrev main_cst_11 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_12 : Ref sig .tc := ⟨.hbm, 157, rfl⟩
abbrev main_v138 : Ref sig .tc := ⟨.hbm, 158, rfl⟩
abbrev main_v139 : Ref sig .tc := ⟨.hbm, 159, rfl⟩
abbrev main_cst_13 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_14 : Ref sig .tc := ⟨.hbm, 166, rfl⟩
abbrev main_v145 : Ref sig .tc := ⟨.hbm, 167, rfl⟩
abbrev main_v146 : Ref sig .tc := ⟨.hbm, 168, rfl⟩
abbrev main_cst_15 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_cst_16 : Ref sig .tc := ⟨.hbm, 177, rfl⟩
abbrev main_v154 : Ref sig .tc := ⟨.hbm, 178, rfl⟩
abbrev main_v155 : Ref sig .tc := ⟨.hbm, 179, rfl⟩
abbrev main_cst_17 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_cst_18 : Ref sig .tc := ⟨.hbm, 212, rfl⟩
abbrev main_v187 : Ref sig .tc := ⟨.hbm, 213, rfl⟩
abbrev main_v188 : Ref sig .tc := ⟨.hbm, 214, rfl⟩
abbrev main_cst_19 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_cst_20 : Ref sig .tc := ⟨.hbm, 221, rfl⟩
abbrev main_v194 : Ref sig .tc := ⟨.hbm, 222, rfl⟩
abbrev main_v195 : Ref sig .tc := ⟨.hbm, 223, rfl⟩
abbrev main_cst_21 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_22 : Ref sig .tc := ⟨.hbm, 232, rfl⟩
abbrev main_v203 : Ref sig .tc := ⟨.hbm, 233, rfl⟩
abbrev main_v204 : Ref sig .tc := ⟨.hbm, 234, rfl⟩
abbrev main_cst_23 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_cst_24 : Ref sig .tc := ⟨.hbm, 275, rfl⟩
abbrev main_v244 : Ref sig .tc := ⟨.hbm, 276, rfl⟩
abbrev main_v245 : Ref sig .tc := ⟨.hbm, 277, rfl⟩
abbrev main_cst_25 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_cst_26 : Ref sig .tc := ⟨.hbm, 284, rfl⟩
abbrev main_v251 : Ref sig .tc := ⟨.hbm, 285, rfl⟩
abbrev main_v252 : Ref sig .tc := ⟨.hbm, 286, rfl⟩
abbrev main_cst_27 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_cst_28 : Ref sig .tc := ⟨.hbm, 295, rfl⟩
abbrev main_v260 : Ref sig .tc := ⟨.hbm, 296, rfl⟩
abbrev main_v261 : Ref sig .tc := ⟨.hbm, 297, rfl⟩
abbrev main_cst_29 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_cst_30 : Ref sig .tc := ⟨.hbm, 330, rfl⟩
abbrev main_v293 : Ref sig .tc := ⟨.hbm, 331, rfl⟩
abbrev main_v294 : Ref sig .tc := ⟨.hbm, 332, rfl⟩
abbrev main_cst_31 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_cst_32 : Ref sig .tc := ⟨.hbm, 339, rfl⟩
abbrev main_v300 : Ref sig .tc := ⟨.hbm, 340, rfl⟩
abbrev main_v301 : Ref sig .tc := ⟨.hbm, 341, rfl⟩
abbrev main_cst_33 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_cst_34 : Ref sig .tc := ⟨.hbm, 350, rfl⟩
abbrev main_v309 : Ref sig .tc := ⟨.hbm, 351, rfl⟩
abbrev main_v310 : Ref sig .tc := ⟨.hbm, 352, rfl⟩
abbrev main_cst_35 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_cst_36 : Ref sig .tc := ⟨.hbm, 393, rfl⟩
abbrev main_v350 : Ref sig .tc := ⟨.hbm, 394, rfl⟩
abbrev main_v351 : Ref sig .tc := ⟨.hbm, 395, rfl⟩
abbrev main_cst_37 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_cst_38 : Ref sig .tc := ⟨.hbm, 402, rfl⟩
abbrev main_v357 : Ref sig .tc := ⟨.hbm, 403, rfl⟩
abbrev main_v358 : Ref sig .tc := ⟨.hbm, 404, rfl⟩
abbrev main_cst_39 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_cst_40 : Ref sig .tc := ⟨.hbm, 413, rfl⟩
abbrev main_v366 : Ref sig .tc := ⟨.hbm, 414, rfl⟩
abbrev main_v367 : Ref sig .tc := ⟨.hbm, 415, rfl⟩
abbrev main_cst_41 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_cst_42 : Ref sig .tc := ⟨.hbm, 448, rfl⟩
abbrev main_v399 : Ref sig .tc := ⟨.hbm, 449, rfl⟩
abbrev main_v400 : Ref sig .tc := ⟨.hbm, 450, rfl⟩
abbrev main_cst_43 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_cst_44 : Ref sig .tc := ⟨.hbm, 457, rfl⟩
abbrev main_v406 : Ref sig .tc := ⟨.hbm, 458, rfl⟩
abbrev main_v407 : Ref sig .tc := ⟨.hbm, 459, rfl⟩
abbrev main_cst_45 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_cst_46 : Ref sig .tc := ⟨.hbm, 468, rfl⟩
abbrev main_v415 : Ref sig .tc := ⟨.hbm, 469, rfl⟩
abbrev main_v416 : Ref sig .tc := ⟨.hbm, 470, rfl⟩
abbrev main_cst_47 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_cst_48 : Ref sig .tc := ⟨.hbm, 511, rfl⟩
abbrev main_v456 : Ref sig .tc := ⟨.hbm, 512, rfl⟩
abbrev main_v457 : Ref sig .tc := ⟨.hbm, 513, rfl⟩
abbrev main_cst_49 : Ref sig .tc := ⟨.hbm, 514, rfl⟩
abbrev main_v458 : Ref sig .tc := ⟨.hbm, 515, rfl⟩
abbrev main_v459 : Ref sig .tc := ⟨.hbm, 516, rfl⟩
abbrev main_v460 : Ref sig .tc := ⟨.hbm, 517, rfl⟩
abbrev main_v461 : Ref sig .tc := ⟨.hbm, 518, rfl⟩
abbrev main_v462 : Ref sig .tc := ⟨.hbm, 519, rfl⟩
abbrev main_cst_50 : Ref sig .tc := ⟨.hbm, 520, rfl⟩
abbrev main_v463 : Ref sig .tc := ⟨.hbm, 521, rfl⟩
abbrev main_v464 : Ref sig .tc := ⟨.hbm, 522, rfl⟩
abbrev main_cst_51 : Ref sig .tc := ⟨.hbm, 523, rfl⟩
abbrev main_v465 : Ref sig .tc := ⟨.hbm, 524, rfl⟩
abbrev main_v466 : Ref sig .tc := ⟨.hbm, 525, rfl⟩
abbrev main_v467 : Ref sig .tc := ⟨.hbm, 526, rfl⟩
abbrev main_v468 : Ref sig .tc := ⟨.hbm, 527, rfl⟩
abbrev main_v469 : Ref sig .tc := ⟨.hbm, 528, rfl⟩
abbrev main_v470 : Ref sig .tc := ⟨.hbm, 529, rfl⟩
abbrev main_v471 : Ref sig .tc := ⟨.hbm, 530, rfl⟩
abbrev main_cst_52 : Ref sig .tc := ⟨.hbm, 531, rfl⟩
abbrev main_v472 : Ref sig .tc := ⟨.hbm, 532, rfl⟩
abbrev main_v473 : Ref sig .tc := ⟨.hbm, 533, rfl⟩
abbrev main_cst_53 : Ref sig .tc := ⟨.hbm, 534, rfl⟩
abbrev main_v474 : Ref sig .tc := ⟨.hbm, 535, rfl⟩
abbrev main_v475 : Ref sig .tc := ⟨.hbm, 536, rfl⟩
abbrev main_v476 : Ref sig .tc := ⟨.hbm, 537, rfl⟩
abbrev main_v477 : Ref sig .tc := ⟨.hbm, 538, rfl⟩
abbrev main_v478 : Ref sig .tc := ⟨.hbm, 539, rfl⟩
abbrev main_v479 : Ref sig .tc := ⟨.hbm, 540, rfl⟩
abbrev main_v480 : Ref sig .tc := ⟨.hbm, 541, rfl⟩
abbrev main_v481 : Ref sig .tc := ⟨.hbm, 542, rfl⟩
abbrev main_v482 : Ref sig .tc := ⟨.hbm, 543, rfl⟩
abbrev main_v483 : Ref sig .tc := ⟨.hbm, 544, rfl⟩
abbrev main_v484 : Ref sig .tc := ⟨.hbm, 545, rfl⟩
abbrev main_v485 : Ref sig .tc := ⟨.hbm, 546, rfl⟩
abbrev main_v486 : Ref sig .tc := ⟨.hbm, 547, rfl⟩
abbrev main_v487 : Ref sig .tc := ⟨.hbm, 548, rfl⟩
abbrev main_v488 : Ref sig .tc := ⟨.hbm, 549, rfl⟩
abbrev main_v489 : Ref sig .tc := ⟨.hbm, 550, rfl⟩
abbrev main_v490 : Ref sig .tc := ⟨.hbm, 551, rfl⟩
abbrev main_v491 : Ref sig .tc := ⟨.hbm, 552, rfl⟩
abbrev main_v492 : Ref sig .tc := ⟨.hbm, 553, rfl⟩
abbrev main_v493 : Ref sig .tc := ⟨.hbm, 554, rfl⟩
abbrev main_v494 : Ref sig .tc := ⟨.hbm, 555, rfl⟩
abbrev main_v495 : Ref sig .tc := ⟨.hbm, 556, rfl⟩
abbrev main_v496 : Ref sig .tc := ⟨.hbm, 557, rfl⟩
abbrev main_v497 : Ref sig .tc := ⟨.hbm, 558, rfl⟩
abbrev main_v498 : Ref sig .tc := ⟨.hbm, 559, rfl⟩
abbrev main_v499 : Ref sig .tc := ⟨.hbm, 560, rfl⟩
abbrev main_v500 : Ref sig .tc := ⟨.hbm, 561, rfl⟩
abbrev main_v501 : Ref sig .tc := ⟨.hbm, 562, rfl⟩
abbrev main_v502 : Ref sig .tc := ⟨.hbm, 563, rfl⟩
abbrev main_v503 : Ref sig .tc := ⟨.hbm, 564, rfl⟩
abbrev main_v504 : Ref sig .tc := ⟨.hbm, 565, rfl⟩
abbrev main_cst_54 : Ref sig .tc := ⟨.hbm, 566, rfl⟩
abbrev main_v505 : Ref sig .tc := ⟨.hbm, 567, rfl⟩
abbrev main_v506 : Ref sig .tc := ⟨.hbm, 568, rfl⟩
abbrev main_cst_55 : Ref sig .tc := ⟨.hbm, 569, rfl⟩
abbrev main_v507 : Ref sig .tc := ⟨.hbm, 570, rfl⟩
abbrev main_v508 : Ref sig .tc := ⟨.hbm, 571, rfl⟩
abbrev main_v509 : Ref sig .tc := ⟨.hbm, 572, rfl⟩
abbrev main_v510 : Ref sig .tc := ⟨.hbm, 573, rfl⟩
abbrev main_v511 : Ref sig .tc := ⟨.hbm, 574, rfl⟩
abbrev main_cst_56 : Ref sig .tc := ⟨.hbm, 575, rfl⟩
abbrev main_v512 : Ref sig .tc := ⟨.hbm, 576, rfl⟩
abbrev main_v513 : Ref sig .tc := ⟨.hbm, 577, rfl⟩
abbrev main_cst_57 : Ref sig .tc := ⟨.hbm, 578, rfl⟩
abbrev main_v514 : Ref sig .tc := ⟨.hbm, 579, rfl⟩
abbrev main_v515 : Ref sig .tc := ⟨.hbm, 580, rfl⟩
abbrev main_v516 : Ref sig .tc := ⟨.hbm, 581, rfl⟩
abbrev main_v517 : Ref sig .tc := ⟨.hbm, 582, rfl⟩
abbrev main_v518 : Ref sig .tc := ⟨.hbm, 583, rfl⟩
abbrev main_v519 : Ref sig .tc := ⟨.hbm, 584, rfl⟩
abbrev main_v520 : Ref sig .tc := ⟨.hbm, 585, rfl⟩
abbrev main_cst_58 : Ref sig .tc := ⟨.hbm, 586, rfl⟩
abbrev main_v521 : Ref sig .tc := ⟨.hbm, 587, rfl⟩
abbrev main_v522 : Ref sig .tc := ⟨.hbm, 588, rfl⟩
abbrev main_cst_59 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_v529 : Ref sig .tc := ⟨.hbm, 596, rfl⟩
abbrev main_v530 : Ref sig .tc := ⟨.hbm, 597, rfl⟩
abbrev main_v531 : Ref sig .tc := ⟨.hbm, 598, rfl⟩
abbrev main_v532 : Ref sig .tc := ⟨.hbm, 599, rfl⟩
abbrev main_v533 : Ref sig .tc := ⟨.hbm, 600, rfl⟩
abbrev main_v534 : Ref sig .tc := ⟨.hbm, 601, rfl⟩
abbrev main_v535 : Ref sig .tc := ⟨.hbm, 602, rfl⟩
abbrev main_v536 : Ref sig .tc := ⟨.hbm, 603, rfl⟩
abbrev main_v537 : Ref sig .tc := ⟨.hbm, 604, rfl⟩
abbrev main_v538 : Ref sig .tc := ⟨.hbm, 605, rfl⟩
abbrev main_v539 : Ref sig .tc := ⟨.hbm, 606, rfl⟩
abbrev main_v540 : Ref sig .tc := ⟨.hbm, 607, rfl⟩
abbrev main_v541 : Ref sig .tc := ⟨.hbm, 608, rfl⟩
abbrev main_v542 : Ref sig .tc := ⟨.hbm, 609, rfl⟩
abbrev main_v543 : Ref sig .tc := ⟨.hbm, 610, rfl⟩
abbrev main_v544 : Ref sig .tc := ⟨.hbm, 611, rfl⟩
abbrev main_v545 : Ref sig .tc := ⟨.hbm, 612, rfl⟩
abbrev main_v546 : Ref sig .tc := ⟨.hbm, 613, rfl⟩
abbrev main_v547 : Ref sig .tc := ⟨.hbm, 614, rfl⟩
abbrev main_v548 : Ref sig .tc := ⟨.hbm, 615, rfl⟩
abbrev main_v549 : Ref sig .tc := ⟨.hbm, 616, rfl⟩
abbrev main_v550 : Ref sig .tc := ⟨.hbm, 617, rfl⟩
abbrev main_v551 : Ref sig .tc := ⟨.hbm, 618, rfl⟩
abbrev main_v552 : Ref sig .tc := ⟨.hbm, 619, rfl⟩
abbrev main_v553 : Ref sig .tc := ⟨.hbm, 620, rfl⟩
abbrev main_v554 : Ref sig .tc := ⟨.hbm, 621, rfl⟩
abbrev main_v555 : Ref sig .tc := ⟨.hbm, 622, rfl⟩
abbrev main_v556 : Ref sig .tc := ⟨.hbm, 623, rfl⟩
abbrev main_v557 : Ref sig .tc := ⟨.hbm, 624, rfl⟩
abbrev main_v558 : Ref sig .tc := ⟨.hbm, 625, rfl⟩
abbrev main_v559 : Ref sig .tc := ⟨.hbm, 626, rfl⟩
abbrev main_v560 : Ref sig .tc := ⟨.hbm, 627, rfl⟩
abbrev main_v561 : Ref sig .tc := ⟨.hbm, 628, rfl⟩
abbrev main_cst_60 : Ref sig .tc := ⟨.hbm, 629, rfl⟩
abbrev main_v562 : Ref sig .tc := ⟨.hbm, 630, rfl⟩
abbrev main_v563 : Ref sig .tc := ⟨.hbm, 631, rfl⟩
abbrev main_cst_61 : Ref sig .tc := ⟨.hbm, 632, rfl⟩
abbrev main_v564 : Ref sig .tc := ⟨.hbm, 633, rfl⟩
abbrev main_v565 : Ref sig .tc := ⟨.hbm, 634, rfl⟩
abbrev main_v566 : Ref sig .tc := ⟨.hbm, 635, rfl⟩
abbrev main_v567 : Ref sig .tc := ⟨.hbm, 636, rfl⟩
abbrev main_v568 : Ref sig .tc := ⟨.hbm, 637, rfl⟩
abbrev main_cst_62 : Ref sig .tc := ⟨.hbm, 638, rfl⟩
abbrev main_v569 : Ref sig .tc := ⟨.hbm, 639, rfl⟩
abbrev main_v570 : Ref sig .tc := ⟨.hbm, 640, rfl⟩
abbrev main_cst_63 : Ref sig .tc := ⟨.hbm, 641, rfl⟩
abbrev main_v571 : Ref sig .tc := ⟨.hbm, 642, rfl⟩
abbrev main_v572 : Ref sig .tc := ⟨.hbm, 643, rfl⟩
abbrev main_v573 : Ref sig .tc := ⟨.hbm, 644, rfl⟩
abbrev main_v574 : Ref sig .tc := ⟨.hbm, 645, rfl⟩
abbrev main_v575 : Ref sig .tc := ⟨.hbm, 646, rfl⟩
abbrev main_v576 : Ref sig .tc := ⟨.hbm, 647, rfl⟩
abbrev main_v577 : Ref sig .tc := ⟨.hbm, 648, rfl⟩
abbrev main_cst_64 : Ref sig .tc := ⟨.hbm, 649, rfl⟩
abbrev main_v578 : Ref sig .tc := ⟨.hbm, 650, rfl⟩
abbrev main_v579 : Ref sig .tc := ⟨.hbm, 651, rfl⟩
abbrev main_cst_65 : Ref sig .tc := ⟨.hbm, 652, rfl⟩
abbrev main_v580 : Ref sig .tc := ⟨.hbm, 653, rfl⟩
abbrev main_v581 : Ref sig .tc := ⟨.hbm, 654, rfl⟩
abbrev main_v582 : Ref sig .tc := ⟨.hbm, 655, rfl⟩
abbrev main_v583 : Ref sig .tc := ⟨.hbm, 656, rfl⟩
abbrev main_v584 : Ref sig .tc := ⟨.hbm, 657, rfl⟩
abbrev main_v585 : Ref sig .tc := ⟨.hbm, 658, rfl⟩
abbrev main_v586 : Ref sig .tc := ⟨.hbm, 659, rfl⟩
abbrev main_v587 : Ref sig .tc := ⟨.hbm, 660, rfl⟩
abbrev main_v588 : Ref sig .tc := ⟨.hbm, 661, rfl⟩
abbrev main_v589 : Ref sig .tc := ⟨.hbm, 662, rfl⟩
abbrev main_v590 : Ref sig .tc := ⟨.hbm, 663, rfl⟩
abbrev main_v591 : Ref sig .tc := ⟨.hbm, 664, rfl⟩
abbrev main_v592 : Ref sig .tc := ⟨.hbm, 665, rfl⟩
abbrev main_v593 : Ref sig .tc := ⟨.hbm, 666, rfl⟩
abbrev main_v594 : Ref sig .tc := ⟨.hbm, 667, rfl⟩
abbrev main_v595 : Ref sig .tc := ⟨.hbm, 668, rfl⟩
abbrev main_v596 : Ref sig .tc := ⟨.hbm, 669, rfl⟩
abbrev main_v597 : Ref sig .tc := ⟨.hbm, 670, rfl⟩
abbrev main_v598 : Ref sig .tc := ⟨.hbm, 671, rfl⟩
abbrev main_v599 : Ref sig .tc := ⟨.hbm, 672, rfl⟩
abbrev main_v600 : Ref sig .tc := ⟨.hbm, 673, rfl⟩
abbrev main_v601 : Ref sig .tc := ⟨.hbm, 674, rfl⟩
abbrev main_v602 : Ref sig .tc := ⟨.hbm, 675, rfl⟩
abbrev main_v603 : Ref sig .tc := ⟨.hbm, 676, rfl⟩
abbrev main_v604 : Ref sig .tc := ⟨.hbm, 677, rfl⟩
abbrev main_v605 : Ref sig .tc := ⟨.hbm, 678, rfl⟩
abbrev main_v606 : Ref sig .tc := ⟨.hbm, 679, rfl⟩
abbrev main_v607 : Ref sig .tc := ⟨.hbm, 680, rfl⟩
abbrev main_v608 : Ref sig .tc := ⟨.hbm, 681, rfl⟩
abbrev main_v609 : Ref sig .tc := ⟨.hbm, 682, rfl⟩
abbrev main_v610 : Ref sig .tc := ⟨.hbm, 683, rfl⟩
abbrev main_cst_66 : Ref sig .tc := ⟨.hbm, 684, rfl⟩
abbrev main_v611 : Ref sig .tc := ⟨.hbm, 685, rfl⟩
abbrev main_v612 : Ref sig .tc := ⟨.hbm, 686, rfl⟩
abbrev main_cst_67 : Ref sig .tc := ⟨.hbm, 687, rfl⟩
abbrev main_v613 : Ref sig .tc := ⟨.hbm, 688, rfl⟩
abbrev main_v614 : Ref sig .tc := ⟨.hbm, 689, rfl⟩
abbrev main_v615 : Ref sig .tc := ⟨.hbm, 690, rfl⟩
abbrev main_v616 : Ref sig .tc := ⟨.hbm, 691, rfl⟩
abbrev main_v617 : Ref sig .tc := ⟨.hbm, 692, rfl⟩
abbrev main_cst_68 : Ref sig .tc := ⟨.hbm, 693, rfl⟩
abbrev main_v618 : Ref sig .tc := ⟨.hbm, 694, rfl⟩
abbrev main_v619 : Ref sig .tc := ⟨.hbm, 695, rfl⟩
abbrev main_cst_69 : Ref sig .tc := ⟨.hbm, 696, rfl⟩
abbrev main_v620 : Ref sig .tc := ⟨.hbm, 697, rfl⟩
abbrev main_v621 : Ref sig .tc := ⟨.hbm, 698, rfl⟩
abbrev main_v622 : Ref sig .tc := ⟨.hbm, 699, rfl⟩
abbrev main_v623 : Ref sig .tc := ⟨.hbm, 700, rfl⟩
abbrev main_v624 : Ref sig .tc := ⟨.hbm, 701, rfl⟩
abbrev main_v625 : Ref sig .tc := ⟨.hbm, 702, rfl⟩
abbrev main_v626 : Ref sig .tc := ⟨.hbm, 703, rfl⟩
abbrev main_cst_70 : Ref sig .tc := ⟨.hbm, 704, rfl⟩
abbrev main_v627 : Ref sig .tc := ⟨.hbm, 705, rfl⟩
abbrev main_v628 : Ref sig .tc := ⟨.hbm, 706, rfl⟩
abbrev main_cst_71 : Ref sig .tc := ⟨.hbm, 707, rfl⟩
abbrev main_v629 : Ref sig .tc := ⟨.hbm, 708, rfl⟩
abbrev main_v630 : Ref sig .tc := ⟨.hbm, 709, rfl⟩
abbrev main_v631 : Ref sig .tc := ⟨.hbm, 710, rfl⟩
abbrev main_v632 : Ref sig .tc := ⟨.hbm, 711, rfl⟩
abbrev main_v633 : Ref sig .tc := ⟨.hbm, 712, rfl⟩
abbrev main_v634 : Ref sig .tc := ⟨.hbm, 713, rfl⟩
abbrev main_v635 : Ref sig .tc := ⟨.hbm, 714, rfl⟩
abbrev main_v636 : Ref sig .tc := ⟨.hbm, 715, rfl⟩
abbrev main_v637 : Ref sig .tc := ⟨.hbm, 716, rfl⟩
abbrev main_v638 : Ref sig .tc := ⟨.hbm, 717, rfl⟩
abbrev main_v639 : Ref sig .tc := ⟨.hbm, 718, rfl⟩
abbrev main_v640 : Ref sig .tc := ⟨.hbm, 719, rfl⟩
abbrev main_v641 : Ref sig .tc := ⟨.hbm, 720, rfl⟩
abbrev main_v642 : Ref sig .tc := ⟨.hbm, 721, rfl⟩
abbrev main_v643 : Ref sig .tc := ⟨.hbm, 722, rfl⟩
abbrev main_v644 : Ref sig .tc := ⟨.hbm, 723, rfl⟩
abbrev main_v645 : Ref sig .tc := ⟨.hbm, 724, rfl⟩
abbrev main_v646 : Ref sig .tc := ⟨.hbm, 725, rfl⟩
abbrev main_v647 : Ref sig .tc := ⟨.hbm, 726, rfl⟩
abbrev main_v648 : Ref sig .tc := ⟨.hbm, 727, rfl⟩
abbrev main_v649 : Ref sig .tc := ⟨.hbm, 728, rfl⟩
abbrev main_v650 : Ref sig .tc := ⟨.hbm, 729, rfl⟩
abbrev main_v651 : Ref sig .tc := ⟨.hbm, 730, rfl⟩
abbrev main_v652 : Ref sig .tc := ⟨.hbm, 731, rfl⟩
abbrev main_v653 : Ref sig .tc := ⟨.hbm, 732, rfl⟩
abbrev main_v654 : Ref sig .tc := ⟨.hbm, 733, rfl⟩
abbrev main_v655 : Ref sig .tc := ⟨.hbm, 734, rfl⟩
abbrev main_v656 : Ref sig .tc := ⟨.hbm, 735, rfl⟩
abbrev main_v657 : Ref sig .tc := ⟨.hbm, 736, rfl⟩
abbrev main_v658 : Ref sig .tc := ⟨.hbm, 737, rfl⟩
abbrev main_v659 : Ref sig .tc := ⟨.hbm, 738, rfl⟩
abbrev main_v660 : Ref sig .tc := ⟨.hbm, 739, rfl⟩
abbrev main_v661 : Ref sig .tc := ⟨.hbm, 740, rfl⟩
abbrev main_v662 : Ref sig .tc := ⟨.hbm, 741, rfl⟩
abbrev main_v663 : Ref sig .tc := ⟨.hbm, 742, rfl⟩
abbrev main_v664 : Ref sig .tc := ⟨.hbm, 743, rfl⟩
abbrev main_v665 : Ref sig .tc := ⟨.hbm, 744, rfl⟩
abbrev main_v666 : Ref sig .tc := ⟨.hbm, 745, rfl⟩
abbrev main_v667 : Ref sig .tc := ⟨.hbm, 746, rfl⟩
abbrev main_cst_72 : Ref sig .tc := ⟨.hbm, 747, rfl⟩
abbrev main_v668 : Ref sig .tc := ⟨.hbm, 748, rfl⟩
abbrev main_v669 : Ref sig .tc := ⟨.hbm, 749, rfl⟩
abbrev main_cst_73 : Ref sig .tc := ⟨.hbm, 750, rfl⟩
abbrev main_v670 : Ref sig .tc := ⟨.hbm, 751, rfl⟩
abbrev main_v671 : Ref sig .tc := ⟨.hbm, 752, rfl⟩
abbrev main_v672 : Ref sig .tc := ⟨.hbm, 753, rfl⟩
abbrev main_v673 : Ref sig .tc := ⟨.hbm, 754, rfl⟩
abbrev main_v674 : Ref sig .tc := ⟨.hbm, 755, rfl⟩
abbrev main_cst_74 : Ref sig .tc := ⟨.hbm, 756, rfl⟩
abbrev main_v675 : Ref sig .tc := ⟨.hbm, 757, rfl⟩
abbrev main_v676 : Ref sig .tc := ⟨.hbm, 758, rfl⟩
abbrev main_cst_75 : Ref sig .tc := ⟨.hbm, 759, rfl⟩
abbrev main_v677 : Ref sig .tc := ⟨.hbm, 760, rfl⟩
abbrev main_v678 : Ref sig .tc := ⟨.hbm, 761, rfl⟩
abbrev main_v679 : Ref sig .tc := ⟨.hbm, 762, rfl⟩
abbrev main_v680 : Ref sig .tc := ⟨.hbm, 763, rfl⟩
abbrev main_v681 : Ref sig .tc := ⟨.hbm, 764, rfl⟩
abbrev main_v682 : Ref sig .tc := ⟨.hbm, 765, rfl⟩
abbrev main_v683 : Ref sig .tc := ⟨.hbm, 766, rfl⟩
abbrev main_cst_76 : Ref sig .tc := ⟨.hbm, 767, rfl⟩
abbrev main_v684 : Ref sig .tc := ⟨.hbm, 768, rfl⟩
abbrev main_v685 : Ref sig .tc := ⟨.hbm, 769, rfl⟩
abbrev main_cst_77 : Ref sig .tc := ⟨.hbm, 770, rfl⟩
abbrev main_v686 : Ref sig .tc := ⟨.hbm, 771, rfl⟩
abbrev main_v687 : Ref sig .tc := ⟨.hbm, 772, rfl⟩
abbrev main_v688 : Ref sig .tc := ⟨.hbm, 773, rfl⟩
abbrev main_v689 : Ref sig .tc := ⟨.hbm, 774, rfl⟩
abbrev main_v690 : Ref sig .tc := ⟨.hbm, 775, rfl⟩
abbrev main_v691 : Ref sig .tc := ⟨.hbm, 776, rfl⟩
abbrev main_v692 : Ref sig .tc := ⟨.hbm, 777, rfl⟩
abbrev main_v693 : Ref sig .tc := ⟨.hbm, 778, rfl⟩
abbrev main_v694 : Ref sig .tc := ⟨.hbm, 779, rfl⟩
abbrev main_v695 : Ref sig .tc := ⟨.hbm, 780, rfl⟩
abbrev main_v696 : Ref sig .tc := ⟨.hbm, 781, rfl⟩
abbrev main_v697 : Ref sig .tc := ⟨.hbm, 782, rfl⟩
abbrev main_v698 : Ref sig .tc := ⟨.hbm, 783, rfl⟩
abbrev main_v699 : Ref sig .tc := ⟨.hbm, 784, rfl⟩
abbrev main_v700 : Ref sig .tc := ⟨.hbm, 785, rfl⟩
abbrev main_v701 : Ref sig .tc := ⟨.hbm, 786, rfl⟩
abbrev main_v702 : Ref sig .tc := ⟨.hbm, 787, rfl⟩
abbrev main_v703 : Ref sig .tc := ⟨.hbm, 788, rfl⟩
abbrev main_v704 : Ref sig .tc := ⟨.hbm, 789, rfl⟩
abbrev main_v705 : Ref sig .tc := ⟨.hbm, 790, rfl⟩
abbrev main_v706 : Ref sig .tc := ⟨.hbm, 791, rfl⟩
abbrev main_v707 : Ref sig .tc := ⟨.hbm, 792, rfl⟩
abbrev main_v708 : Ref sig .tc := ⟨.hbm, 793, rfl⟩
abbrev main_v709 : Ref sig .tc := ⟨.hbm, 794, rfl⟩
abbrev main_v710 : Ref sig .tc := ⟨.hbm, 795, rfl⟩
abbrev main_v711 : Ref sig .tc := ⟨.hbm, 796, rfl⟩
abbrev main_v712 : Ref sig .tc := ⟨.hbm, 797, rfl⟩
abbrev main_v713 : Ref sig .tc := ⟨.hbm, 798, rfl⟩
abbrev main_v714 : Ref sig .tc := ⟨.hbm, 799, rfl⟩
abbrev main_v715 : Ref sig .tc := ⟨.hbm, 800, rfl⟩
abbrev main_v716 : Ref sig .tc := ⟨.hbm, 801, rfl⟩
abbrev main_cst_78 : Ref sig .tc := ⟨.hbm, 802, rfl⟩
abbrev main_v717 : Ref sig .tc := ⟨.hbm, 803, rfl⟩
abbrev main_v718 : Ref sig .tc := ⟨.hbm, 804, rfl⟩
abbrev main_cst_79 : Ref sig .tc := ⟨.hbm, 805, rfl⟩
abbrev main_v719 : Ref sig .tc := ⟨.hbm, 806, rfl⟩
abbrev main_v720 : Ref sig .tc := ⟨.hbm, 807, rfl⟩
abbrev main_v721 : Ref sig .tc := ⟨.hbm, 808, rfl⟩
abbrev main_v722 : Ref sig .tc := ⟨.hbm, 809, rfl⟩
abbrev main_v723 : Ref sig .tc := ⟨.hbm, 810, rfl⟩
abbrev main_cst_80 : Ref sig .tc := ⟨.hbm, 811, rfl⟩
abbrev main_v724 : Ref sig .tc := ⟨.hbm, 812, rfl⟩
abbrev main_v725 : Ref sig .tc := ⟨.hbm, 813, rfl⟩
abbrev main_cst_81 : Ref sig .tc := ⟨.hbm, 814, rfl⟩
abbrev main_v726 : Ref sig .tc := ⟨.hbm, 815, rfl⟩
abbrev main_v727 : Ref sig .tc := ⟨.hbm, 816, rfl⟩
abbrev main_v728 : Ref sig .tc := ⟨.hbm, 817, rfl⟩
abbrev main_v729 : Ref sig .tc := ⟨.hbm, 818, rfl⟩
abbrev main_v730 : Ref sig .tc := ⟨.hbm, 819, rfl⟩
abbrev main_v731 : Ref sig .tc := ⟨.hbm, 820, rfl⟩
abbrev main_v732 : Ref sig .tc := ⟨.hbm, 821, rfl⟩
abbrev main_cst_82 : Ref sig .tc := ⟨.hbm, 822, rfl⟩
abbrev main_v733 : Ref sig .tc := ⟨.hbm, 823, rfl⟩
abbrev main_v734 : Ref sig .tc := ⟨.hbm, 824, rfl⟩
abbrev main_cst_83 : Ref sig .tc := ⟨.hbm, 825, rfl⟩
abbrev main_v735 : Ref sig .tc := ⟨.hbm, 826, rfl⟩
abbrev main_v736 : Ref sig .tc := ⟨.hbm, 827, rfl⟩
abbrev main_v737 : Ref sig .tc := ⟨.hbm, 828, rfl⟩
abbrev main_v738 : Ref sig .tc := ⟨.hbm, 829, rfl⟩
abbrev main_v739 : Ref sig .tc := ⟨.hbm, 830, rfl⟩
abbrev main_v740 : Ref sig .tc := ⟨.hbm, 831, rfl⟩
abbrev main_v741 : Ref sig .tc := ⟨.hbm, 832, rfl⟩
abbrev main_v742 : Ref sig .tc := ⟨.hbm, 833, rfl⟩
abbrev main_v743 : Ref sig .tc := ⟨.hbm, 834, rfl⟩
abbrev main_v744 : Ref sig .tc := ⟨.hbm, 835, rfl⟩
abbrev main_v745 : Ref sig .tc := ⟨.hbm, 836, rfl⟩
abbrev main_v746 : Ref sig .tc := ⟨.hbm, 837, rfl⟩
abbrev main_v747 : Ref sig .tc := ⟨.hbm, 838, rfl⟩
abbrev main_v748 : Ref sig .tc := ⟨.hbm, 839, rfl⟩
abbrev main_v749 : Ref sig .tc := ⟨.hbm, 840, rfl⟩
abbrev main_v750 : Ref sig .tc := ⟨.hbm, 841, rfl⟩
abbrev main_v751 : Ref sig .tc := ⟨.hbm, 842, rfl⟩
abbrev main_v752 : Ref sig .tc := ⟨.hbm, 843, rfl⟩
abbrev main_v753 : Ref sig .tc := ⟨.hbm, 844, rfl⟩
abbrev main_v754 : Ref sig .tc := ⟨.hbm, 845, rfl⟩
abbrev main_v755 : Ref sig .tc := ⟨.hbm, 846, rfl⟩
abbrev main_v756 : Ref sig .tc := ⟨.hbm, 847, rfl⟩
abbrev main_v757 : Ref sig .tc := ⟨.hbm, 848, rfl⟩
abbrev main_v758 : Ref sig .tc := ⟨.hbm, 849, rfl⟩
abbrev main_v759 : Ref sig .tc := ⟨.hbm, 850, rfl⟩
abbrev main_v760 : Ref sig .tc := ⟨.hbm, 851, rfl⟩
abbrev main_v761 : Ref sig .tc := ⟨.hbm, 852, rfl⟩
abbrev main_v762 : Ref sig .tc := ⟨.hbm, 853, rfl⟩
abbrev main_v763 : Ref sig .tc := ⟨.hbm, 854, rfl⟩
abbrev main_v764 : Ref sig .tc := ⟨.hbm, 855, rfl⟩
abbrev main_v765 : Ref sig .tc := ⟨.hbm, 856, rfl⟩
abbrev main_v766 : Ref sig .tc := ⟨.hbm, 857, rfl⟩
abbrev main_v767 : Ref sig .tc := ⟨.hbm, 858, rfl⟩
abbrev main_v768 : Ref sig .tc := ⟨.hbm, 859, rfl⟩
abbrev main_v769 : Ref sig .tc := ⟨.hbm, 860, rfl⟩
abbrev main_v770 : Ref sig .tc := ⟨.hbm, 861, rfl⟩
abbrev main_v771 : Ref sig .tc := ⟨.hbm, 862, rfl⟩
abbrev main_v772 : Ref sig .tc := ⟨.hbm, 863, rfl⟩
abbrev main_v773 : Ref sig .tc := ⟨.hbm, 864, rfl⟩
abbrev main_cst_84 : Ref sig .tc := ⟨.hbm, 865, rfl⟩
abbrev main_v774 : Ref sig .tc := ⟨.hbm, 866, rfl⟩
abbrev main_v775 : Ref sig .tc := ⟨.hbm, 867, rfl⟩
abbrev main_cst_85 : Ref sig .tc := ⟨.hbm, 868, rfl⟩
abbrev main_v776 : Ref sig .tc := ⟨.hbm, 869, rfl⟩
abbrev main_v777 : Ref sig .tc := ⟨.hbm, 870, rfl⟩
abbrev main_v778 : Ref sig .tc := ⟨.hbm, 871, rfl⟩
abbrev main_v779 : Ref sig .tc := ⟨.hbm, 872, rfl⟩
abbrev main_v780 : Ref sig .tc := ⟨.hbm, 873, rfl⟩
abbrev main_cst_86 : Ref sig .tc := ⟨.hbm, 874, rfl⟩
abbrev main_v781 : Ref sig .tc := ⟨.hbm, 875, rfl⟩
abbrev main_v782 : Ref sig .tc := ⟨.hbm, 876, rfl⟩
abbrev main_cst_87 : Ref sig .tc := ⟨.hbm, 877, rfl⟩
abbrev main_v783 : Ref sig .tc := ⟨.hbm, 878, rfl⟩
abbrev main_v784 : Ref sig .tc := ⟨.hbm, 879, rfl⟩
abbrev main_v785 : Ref sig .tc := ⟨.hbm, 880, rfl⟩
abbrev main_v786 : Ref sig .tc := ⟨.hbm, 881, rfl⟩
abbrev main_v787 : Ref sig .tc := ⟨.hbm, 882, rfl⟩
abbrev main_v788 : Ref sig .tc := ⟨.hbm, 883, rfl⟩
abbrev main_v789 : Ref sig .tc := ⟨.hbm, 884, rfl⟩
abbrev main_cst_88 : Ref sig .tc := ⟨.hbm, 885, rfl⟩
abbrev main_v790 : Ref sig .tc := ⟨.hbm, 886, rfl⟩
abbrev main_v791 : Ref sig .tc := ⟨.hbm, 887, rfl⟩
abbrev main_cst_89 : Ref sig .tc := ⟨.hbm, 888, rfl⟩
abbrev main_v792 : Ref sig .tc := ⟨.hbm, 889, rfl⟩
abbrev main_v793 : Ref sig .tc := ⟨.hbm, 890, rfl⟩
abbrev main_v794 : Ref sig .tc := ⟨.hbm, 891, rfl⟩
abbrev main_v795 : Ref sig .tc := ⟨.hbm, 892, rfl⟩
abbrev main_v796 : Ref sig .tc := ⟨.hbm, 893, rfl⟩
abbrev main_v797 : Ref sig .tc := ⟨.hbm, 894, rfl⟩
abbrev main_v798 : Ref sig .tc := ⟨.hbm, 895, rfl⟩
abbrev main_v799 : Ref sig .tc := ⟨.hbm, 896, rfl⟩
abbrev main_v800 : Ref sig .tc := ⟨.hbm, 897, rfl⟩
abbrev main_v801 : Ref sig .tc := ⟨.hbm, 898, rfl⟩
abbrev main_v802 : Ref sig .tc := ⟨.hbm, 899, rfl⟩
abbrev main_v803 : Ref sig .tc := ⟨.hbm, 900, rfl⟩
abbrev main_v804 : Ref sig .tc := ⟨.hbm, 901, rfl⟩
abbrev main_v805 : Ref sig .tc := ⟨.hbm, 902, rfl⟩
abbrev main_v806 : Ref sig .tc := ⟨.hbm, 903, rfl⟩
abbrev main_v807 : Ref sig .tc := ⟨.hbm, 904, rfl⟩
abbrev main_v808 : Ref sig .tc := ⟨.hbm, 905, rfl⟩
abbrev main_v809 : Ref sig .tc := ⟨.hbm, 906, rfl⟩
abbrev main_v810 : Ref sig .tc := ⟨.hbm, 907, rfl⟩
abbrev main_v811 : Ref sig .tc := ⟨.hbm, 908, rfl⟩
abbrev main_v812 : Ref sig .tc := ⟨.hbm, 909, rfl⟩
abbrev main_v813 : Ref sig .tc := ⟨.hbm, 910, rfl⟩
abbrev main_v814 : Ref sig .tc := ⟨.hbm, 911, rfl⟩
abbrev main_v815 : Ref sig .tc := ⟨.hbm, 912, rfl⟩
abbrev main_v816 : Ref sig .tc := ⟨.hbm, 913, rfl⟩
abbrev main_v817 : Ref sig .tc := ⟨.hbm, 914, rfl⟩
abbrev main_v818 : Ref sig .tc := ⟨.hbm, 915, rfl⟩
abbrev main_v819 : Ref sig .tc := ⟨.hbm, 916, rfl⟩
abbrev main_v820 : Ref sig .tc := ⟨.hbm, 917, rfl⟩
abbrev main_v821 : Ref sig .tc := ⟨.hbm, 918, rfl⟩
abbrev main_v822 : Ref sig .tc := ⟨.hbm, 919, rfl⟩
abbrev main_cst_90 : Ref sig .tc := ⟨.hbm, 920, rfl⟩
abbrev main_v823 : Ref sig .tc := ⟨.hbm, 921, rfl⟩
abbrev main_v824 : Ref sig .tc := ⟨.hbm, 922, rfl⟩
abbrev main_cst_91 : Ref sig .tc := ⟨.hbm, 923, rfl⟩
abbrev main_v825 : Ref sig .tc := ⟨.hbm, 924, rfl⟩
abbrev main_v826 : Ref sig .tc := ⟨.hbm, 925, rfl⟩
abbrev main_v827 : Ref sig .tc := ⟨.hbm, 926, rfl⟩
abbrev main_v828 : Ref sig .tc := ⟨.hbm, 927, rfl⟩
abbrev main_v829 : Ref sig .tc := ⟨.hbm, 928, rfl⟩
abbrev main_cst_92 : Ref sig .tc := ⟨.hbm, 929, rfl⟩
abbrev main_v830 : Ref sig .tc := ⟨.hbm, 930, rfl⟩
abbrev main_v831 : Ref sig .tc := ⟨.hbm, 931, rfl⟩
abbrev main_cst_93 : Ref sig .tc := ⟨.hbm, 932, rfl⟩
abbrev main_v832 : Ref sig .tc := ⟨.hbm, 933, rfl⟩
abbrev main_v833 : Ref sig .tc := ⟨.hbm, 934, rfl⟩
abbrev main_v834 : Ref sig .tc := ⟨.hbm, 935, rfl⟩
abbrev main_v835 : Ref sig .tc := ⟨.hbm, 936, rfl⟩
abbrev main_v836 : Ref sig .tc := ⟨.hbm, 937, rfl⟩
abbrev main_v837 : Ref sig .tc := ⟨.hbm, 938, rfl⟩
abbrev main_v838 : Ref sig .tc := ⟨.hbm, 939, rfl⟩
abbrev main_cst_94 : Ref sig .tc := ⟨.hbm, 940, rfl⟩
abbrev main_v839 : Ref sig .tc := ⟨.hbm, 941, rfl⟩
abbrev main_v840 : Ref sig .tc := ⟨.hbm, 942, rfl⟩
abbrev main_cst_95 : Ref sig .tc := ⟨.hbm, 943, rfl⟩
abbrev main_v841 : Ref sig .tc := ⟨.hbm, 944, rfl⟩
abbrev main_v842 : Ref sig .tc := ⟨.hbm, 945, rfl⟩
abbrev main_v843 : Ref sig .tc := ⟨.hbm, 946, rfl⟩
abbrev main_v844 : Ref sig .tc := ⟨.hbm, 947, rfl⟩
abbrev main_v845 : Ref sig .tc := ⟨.hbm, 948, rfl⟩
abbrev main_v846 : Ref sig .tc := ⟨.hbm, 949, rfl⟩
abbrev main_v847 : Ref sig .tc := ⟨.hbm, 950, rfl⟩
abbrev main_v848 : Ref sig .tc := ⟨.hbm, 951, rfl⟩
abbrev main_v849 : Ref sig .tc := ⟨.hbm, 952, rfl⟩
abbrev main_v850 : Ref sig .tc := ⟨.hbm, 953, rfl⟩
abbrev main_v851 : Ref sig .tc := ⟨.hbm, 954, rfl⟩
abbrev main_v852 : Ref sig .tc := ⟨.hbm, 955, rfl⟩
abbrev main_v853 : Ref sig .tc := ⟨.hbm, 956, rfl⟩
abbrev main_v854 : Ref sig .tc := ⟨.hbm, 957, rfl⟩
abbrev main_v855 : Ref sig .tc := ⟨.hbm, 958, rfl⟩
abbrev main_v856 : Ref sig .tc := ⟨.hbm, 959, rfl⟩
abbrev main_v857 : Ref sig .tc := ⟨.hbm, 960, rfl⟩
abbrev main_v858 : Ref sig .tc := ⟨.hbm, 961, rfl⟩
abbrev main_v859 : Ref sig .tc := ⟨.hbm, 962, rfl⟩
abbrev main_v860 : Ref sig .tc := ⟨.hbm, 963, rfl⟩
abbrev main_v861 : Ref sig .tc := ⟨.hbm, 964, rfl⟩
abbrev main_v862 : Ref sig .tc := ⟨.hbm, 965, rfl⟩
abbrev main_v863 : Ref sig .tc := ⟨.hbm, 966, rfl⟩
abbrev main_v864 : Ref sig .tc := ⟨.hbm, 967, rfl⟩
abbrev main_v865 : Ref sig .tc := ⟨.hbm, 968, rfl⟩
abbrev main_v866 : Ref sig .tc := ⟨.hbm, 969, rfl⟩
abbrev main_v867 : Ref sig .tc := ⟨.hbm, 970, rfl⟩
abbrev main_v868 : Ref sig .tc := ⟨.hbm, 971, rfl⟩
abbrev main_v869 : Ref sig .tc := ⟨.hbm, 972, rfl⟩
abbrev main_v870 : Ref sig .tc := ⟨.hbm, 973, rfl⟩
abbrev main_v871 : Ref sig .tc := ⟨.hbm, 974, rfl⟩
abbrev main_v872 : Ref sig .tc := ⟨.hbm, 975, rfl⟩
abbrev main_v873 : Ref sig .tc := ⟨.hbm, 976, rfl⟩
abbrev main_v874 : Ref sig .tc := ⟨.hbm, 977, rfl⟩
abbrev main_v875 : Ref sig .tc := ⟨.hbm, 978, rfl⟩
abbrev main_v876 : Ref sig .tc := ⟨.hbm, 979, rfl⟩
abbrev main_v877 : Ref sig .tc := ⟨.hbm, 980, rfl⟩
abbrev main_v878 : Ref sig .tc := ⟨.hbm, 981, rfl⟩
abbrev main_v879 : Ref sig .tc := ⟨.hbm, 982, rfl⟩
abbrev main_cst_96 : Ref sig .tc := ⟨.hbm, 983, rfl⟩
abbrev main_v880 : Ref sig .tc := ⟨.hbm, 984, rfl⟩
abbrev main_v881 : Ref sig .tc := ⟨.hbm, 985, rfl⟩
abbrev main_cst_97 : Ref sig .tc := ⟨.hbm, 986, rfl⟩
abbrev main_v882 : Ref sig .tc := ⟨.hbm, 987, rfl⟩
abbrev main_v883 : Ref sig .tc := ⟨.hbm, 988, rfl⟩
abbrev main_v884 : Ref sig .tc := ⟨.hbm, 989, rfl⟩
abbrev main_v885 : Ref sig .tc := ⟨.hbm, 990, rfl⟩
abbrev main_v886 : Ref sig .tc := ⟨.hbm, 991, rfl⟩
abbrev main_cst_98 : Ref sig .tc := ⟨.hbm, 992, rfl⟩
abbrev main_v887 : Ref sig .tc := ⟨.hbm, 993, rfl⟩
abbrev main_v888 : Ref sig .tc := ⟨.hbm, 994, rfl⟩
abbrev main_cst_99 : Ref sig .tc := ⟨.hbm, 995, rfl⟩
abbrev main_v889 : Ref sig .tc := ⟨.hbm, 996, rfl⟩
abbrev main_v890 : Ref sig .tc := ⟨.hbm, 997, rfl⟩
abbrev main_v891 : Ref sig .tc := ⟨.hbm, 998, rfl⟩
abbrev main_v892 : Ref sig .tc := ⟨.hbm, 999, rfl⟩
abbrev main_v893 : Ref sig .tc := ⟨.hbm, 1000, rfl⟩
abbrev main_v894 : Ref sig .tc := ⟨.hbm, 1001, rfl⟩
abbrev main_v895 : Ref sig .tc := ⟨.hbm, 1002, rfl⟩
abbrev main_cst_100 : Ref sig .tc := ⟨.hbm, 1003, rfl⟩
abbrev main_v896 : Ref sig .tc := ⟨.hbm, 1004, rfl⟩
abbrev main_v897 : Ref sig .tc := ⟨.hbm, 1005, rfl⟩
abbrev main_cst_101 : Ref sig .tc := ⟨.hbm, 1006, rfl⟩
abbrev main_v898 : Ref sig .tc := ⟨.hbm, 1007, rfl⟩
abbrev main_v899 : Ref sig .tc := ⟨.hbm, 1008, rfl⟩
abbrev main_v900 : Ref sig .tc := ⟨.hbm, 1009, rfl⟩
abbrev main_v901 : Ref sig .tc := ⟨.hbm, 1010, rfl⟩
abbrev main_v902 : Ref sig .tc := ⟨.hbm, 1011, rfl⟩
abbrev main_v903 : Ref sig .tc := ⟨.hbm, 1012, rfl⟩
abbrev main_v904 : Ref sig .tc := ⟨.hbm, 1013, rfl⟩
abbrev main_v905 : Ref sig .tc := ⟨.hbm, 1014, rfl⟩
abbrev main_v906 : Ref sig .tc := ⟨.hbm, 1015, rfl⟩
abbrev main_v907 : Ref sig .tc := ⟨.hbm, 1016, rfl⟩
abbrev main_v908 : Ref sig .tc := ⟨.hbm, 1017, rfl⟩
abbrev main_v909 : Ref sig .tc := ⟨.hbm, 1018, rfl⟩
abbrev main_v910 : Ref sig .tc := ⟨.hbm, 1019, rfl⟩
abbrev main_v911 : Ref sig .tc := ⟨.hbm, 1020, rfl⟩
abbrev main_v912 : Ref sig .tc := ⟨.hbm, 1021, rfl⟩
abbrev main_v913 : Ref sig .tc := ⟨.hbm, 1022, rfl⟩
abbrev main_v914 : Ref sig .tc := ⟨.hbm, 1023, rfl⟩
abbrev main_v915 : Ref sig .tc := ⟨.hbm, 1024, rfl⟩
abbrev main_v916 : Ref sig .tc := ⟨.hbm, 1025, rfl⟩
abbrev main_v917 : Ref sig .tc := ⟨.hbm, 1026, rfl⟩
abbrev main_v918 : Ref sig .tc := ⟨.hbm, 1027, rfl⟩
abbrev main_v919 : Ref sig .tc := ⟨.hbm, 1028, rfl⟩
abbrev main_v920 : Ref sig .tc := ⟨.hbm, 1029, rfl⟩
abbrev main_v921 : Ref sig .tc := ⟨.hbm, 1030, rfl⟩
abbrev main_v922 : Ref sig .tc := ⟨.hbm, 1031, rfl⟩
abbrev main_v923 : Ref sig .tc := ⟨.hbm, 1032, rfl⟩
abbrev main_v924 : Ref sig .tc := ⟨.hbm, 1033, rfl⟩
abbrev main_v925 : Ref sig .tc := ⟨.hbm, 1034, rfl⟩
abbrev main_v926 : Ref sig .tc := ⟨.hbm, 1035, rfl⟩
abbrev main_v927 : Ref sig .tc := ⟨.hbm, 1036, rfl⟩
abbrev main_v928 : Ref sig .tc := ⟨.hbm, 1037, rfl⟩
abbrev main_cst_102 : Ref sig .tc := ⟨.hbm, 1038, rfl⟩
abbrev main_v929 : Ref sig .tc := ⟨.hbm, 1039, rfl⟩
abbrev main_v930 : Ref sig .tc := ⟨.hbm, 1040, rfl⟩
abbrev main_cst_103 : Ref sig .tc := ⟨.hbm, 1041, rfl⟩
abbrev main_v931 : Ref sig .tc := ⟨.hbm, 1042, rfl⟩
abbrev main_v932 : Ref sig .tc := ⟨.hbm, 1043, rfl⟩
abbrev main_v933 : Ref sig .tc := ⟨.hbm, 1044, rfl⟩
abbrev main_v934 : Ref sig .tc := ⟨.hbm, 1045, rfl⟩
abbrev main_v935 : Ref sig .tc := ⟨.hbm, 1046, rfl⟩
abbrev main_cst_104 : Ref sig .tc := ⟨.hbm, 1047, rfl⟩
abbrev main_v936 : Ref sig .tc := ⟨.hbm, 1048, rfl⟩
abbrev main_v937 : Ref sig .tc := ⟨.hbm, 1049, rfl⟩
abbrev main_cst_105 : Ref sig .tc := ⟨.hbm, 1050, rfl⟩
abbrev main_v938 : Ref sig .tc := ⟨.hbm, 1051, rfl⟩
abbrev main_v939 : Ref sig .tc := ⟨.hbm, 1052, rfl⟩
abbrev main_v940 : Ref sig .tc := ⟨.hbm, 1053, rfl⟩
abbrev main_v941 : Ref sig .tc := ⟨.hbm, 1054, rfl⟩
abbrev main_v942 : Ref sig .tc := ⟨.hbm, 1055, rfl⟩
abbrev main_v943 : Ref sig .tc := ⟨.hbm, 1056, rfl⟩
abbrev main_v944 : Ref sig .tc := ⟨.hbm, 1057, rfl⟩
abbrev main_cst_106 : Ref sig .tc := ⟨.hbm, 1058, rfl⟩
abbrev main_v945 : Ref sig .tc := ⟨.hbm, 1059, rfl⟩
abbrev main_v946 : Ref sig .tc := ⟨.hbm, 1060, rfl⟩
abbrev main_cst_107 : Ref sig .tc := ⟨.hbm, 1061, rfl⟩
abbrev main_v947 : Ref sig .tc := ⟨.hbm, 1062, rfl⟩
abbrev main_v948 : Ref sig .tc := ⟨.hbm, 1063, rfl⟩
abbrev main_v949 : Ref sig .tc := ⟨.hbm, 1064, rfl⟩
abbrev main_v950 : Ref sig .tc := ⟨.hbm, 1065, rfl⟩
abbrev main_v951 : Ref sig .tc := ⟨.hbm, 1066, rfl⟩
abbrev main_v952 : Ref sig .tc := ⟨.hbm, 1067, rfl⟩
abbrev main_v953 : Ref sig .tc := ⟨.hbm, 1068, rfl⟩
abbrev main_v954 : Ref sig .tc := ⟨.hbm, 1069, rfl⟩
abbrev main_v955 : Ref sig .tc := ⟨.hbm, 1070, rfl⟩
abbrev main_v956 : Ref sig .tc := ⟨.hbm, 1071, rfl⟩
abbrev main_v957 : Ref sig .tc := ⟨.hbm, 1072, rfl⟩
abbrev main_v958 : Ref sig .tc := ⟨.hbm, 1073, rfl⟩
abbrev main_v959 : Ref sig .tc := ⟨.hbm, 1074, rfl⟩
abbrev main_v960 : Ref sig .tc := ⟨.hbm, 1075, rfl⟩
abbrev main_v961 : Ref sig .tc := ⟨.hbm, 1076, rfl⟩
abbrev main_v962 : Ref sig .tc := ⟨.hbm, 1077, rfl⟩
abbrev main_v963 : Ref sig .tc := ⟨.hbm, 1078, rfl⟩
abbrev main_v964 : Ref sig .tc := ⟨.hbm, 1079, rfl⟩
abbrev main_v965 : Ref sig .tc := ⟨.hbm, 1080, rfl⟩
abbrev main_v966 : Ref sig .tc := ⟨.hbm, 1081, rfl⟩
abbrev main_v967 : Ref sig .tc := ⟨.hbm, 1082, rfl⟩
abbrev main_v968 : Ref sig .tc := ⟨.hbm, 1083, rfl⟩
abbrev main_v969 : Ref sig .tc := ⟨.hbm, 1084, rfl⟩
abbrev main_v970 : Ref sig .tc := ⟨.hbm, 1085, rfl⟩
abbrev main_v971 : Ref sig .tc := ⟨.hbm, 1086, rfl⟩
abbrev main_v972 : Ref sig .tc := ⟨.hbm, 1087, rfl⟩
abbrev main_v973 : Ref sig .tc := ⟨.hbm, 1088, rfl⟩
abbrev main_v974 : Ref sig .tc := ⟨.hbm, 1089, rfl⟩
abbrev main_v975 : Ref sig .tc := ⟨.hbm, 1090, rfl⟩
abbrev main_v976 : Ref sig .tc := ⟨.hbm, 1091, rfl⟩
abbrev main_v977 : Ref sig .tc := ⟨.hbm, 1092, rfl⟩
abbrev main_v978 : Ref sig .tc := ⟨.hbm, 1093, rfl⟩
abbrev main_v979 : Ref sig .tc := ⟨.hbm, 1094, rfl⟩
abbrev main_v980 : Ref sig .tc := ⟨.hbm, 1095, rfl⟩
abbrev main_v981 : Ref sig .tc := ⟨.hbm, 1096, rfl⟩
abbrev main_v982 : Ref sig .tc := ⟨.hbm, 1097, rfl⟩
abbrev main_v983 : Ref sig .tc := ⟨.hbm, 1098, rfl⟩
abbrev main_v984 : Ref sig .tc := ⟨.hbm, 1099, rfl⟩
abbrev main_v985 : Ref sig .tc := ⟨.hbm, 1100, rfl⟩
abbrev main_cst_108 : Ref sig .tc := ⟨.hbm, 1101, rfl⟩
abbrev main_v986 : Ref sig .tc := ⟨.hbm, 1102, rfl⟩
abbrev main_v987 : Ref sig .tc := ⟨.hbm, 1103, rfl⟩
abbrev main_cst_109 : Ref sig .tc := ⟨.hbm, 1104, rfl⟩
abbrev main_v988 : Ref sig .tc := ⟨.hbm, 1105, rfl⟩
abbrev main_v989 : Ref sig .tc := ⟨.hbm, 1106, rfl⟩
abbrev main_v990 : Ref sig .tc := ⟨.hbm, 1107, rfl⟩
abbrev main_v991 : Ref sig .tc := ⟨.hbm, 1108, rfl⟩
abbrev main_v992 : Ref sig .tc := ⟨.hbm, 1109, rfl⟩
abbrev main_cst_110 : Ref sig .tc := ⟨.hbm, 1110, rfl⟩
abbrev main_v993 : Ref sig .tc := ⟨.hbm, 1111, rfl⟩
abbrev main_v994 : Ref sig .tc := ⟨.hbm, 1112, rfl⟩
abbrev main_cst_111 : Ref sig .tc := ⟨.hbm, 1113, rfl⟩
abbrev main_v995 : Ref sig .tc := ⟨.hbm, 1114, rfl⟩
abbrev main_v996 : Ref sig .tc := ⟨.hbm, 1115, rfl⟩
abbrev main_v997 : Ref sig .tc := ⟨.hbm, 1116, rfl⟩
abbrev main_v998 : Ref sig .tc := ⟨.hbm, 1117, rfl⟩
abbrev main_v999 : Ref sig .tc := ⟨.hbm, 1118, rfl⟩
abbrev main_v1000 : Ref sig .tc := ⟨.hbm, 1119, rfl⟩
abbrev main_v1001 : Ref sig .tc := ⟨.hbm, 1120, rfl⟩
abbrev main_cst_112 : Ref sig .tc := ⟨.hbm, 1121, rfl⟩
abbrev main_v1002 : Ref sig .tc := ⟨.hbm, 1122, rfl⟩
abbrev main_v1003 : Ref sig .tc := ⟨.hbm, 1123, rfl⟩
abbrev main_cst_113 : Ref sig .tc := ⟨.hbm, 1124, rfl⟩
abbrev main_v1004 : Ref sig .tc := ⟨.hbm, 1125, rfl⟩
abbrev main_v1005 : Ref sig .tc := ⟨.hbm, 1126, rfl⟩
abbrev main_v1006 : Ref sig .tc := ⟨.hbm, 1127, rfl⟩
abbrev main_v1007 : Ref sig .tc := ⟨.hbm, 1128, rfl⟩
abbrev main_v1008 : Ref sig .tc := ⟨.hbm, 1129, rfl⟩
abbrev main_v1009 : Ref sig .tc := ⟨.hbm, 1130, rfl⟩
abbrev main_v1010 : Ref sig .tc := ⟨.hbm, 1131, rfl⟩
abbrev main_v1011 : Ref sig .tc := ⟨.hbm, 1132, rfl⟩
abbrev main_v1012 : Ref sig .tc := ⟨.hbm, 1133, rfl⟩
abbrev main_v1013 : Ref sig .tc := ⟨.hbm, 1134, rfl⟩
abbrev main_v1014 : Ref sig .tc := ⟨.hbm, 1135, rfl⟩
abbrev main_v1015 : Ref sig .tc := ⟨.hbm, 1136, rfl⟩
abbrev main_v1016 : Ref sig .tc := ⟨.hbm, 1137, rfl⟩
abbrev main_v1017 : Ref sig .tc := ⟨.hbm, 1138, rfl⟩
abbrev main_v1018 : Ref sig .tc := ⟨.hbm, 1139, rfl⟩
abbrev main_v1019 : Ref sig .tc := ⟨.hbm, 1140, rfl⟩
abbrev main_v1020 : Ref sig .tc := ⟨.hbm, 1141, rfl⟩
abbrev main_v1021 : Ref sig .tc := ⟨.hbm, 1142, rfl⟩
abbrev main_v1022 : Ref sig .tc := ⟨.hbm, 1143, rfl⟩
abbrev main_v1023 : Ref sig .tc := ⟨.hbm, 1144, rfl⟩
abbrev main_v1024 : Ref sig .tc := ⟨.hbm, 1145, rfl⟩
abbrev main_v1025 : Ref sig .tc := ⟨.hbm, 1146, rfl⟩
abbrev main_v1026 : Ref sig .tc := ⟨.hbm, 1147, rfl⟩
abbrev main_v1027 : Ref sig .tc := ⟨.hbm, 1148, rfl⟩
abbrev main_v1028 : Ref sig .tc := ⟨.hbm, 1149, rfl⟩
abbrev main_v1029 : Ref sig .tc := ⟨.hbm, 1150, rfl⟩
abbrev main_v1030 : Ref sig .tc := ⟨.hbm, 1151, rfl⟩
abbrev main_v1031 : Ref sig .tc := ⟨.hbm, 1152, rfl⟩
abbrev main_v1032 : Ref sig .tc := ⟨.hbm, 1153, rfl⟩
abbrev main_v1033 : Ref sig .tc := ⟨.hbm, 1154, rfl⟩
abbrev main_v1034 : Ref sig .tc := ⟨.hbm, 1155, rfl⟩
abbrev main_cst_114 : Ref sig .tc := ⟨.hbm, 1156, rfl⟩
abbrev main_v1035 : Ref sig .tc := ⟨.hbm, 1157, rfl⟩
abbrev main_v1036 : Ref sig .tc := ⟨.hbm, 1158, rfl⟩
abbrev main_cst_115 : Ref sig .tc := ⟨.hbm, 1159, rfl⟩
abbrev main_v1037 : Ref sig .tc := ⟨.hbm, 1160, rfl⟩
abbrev main_v1038 : Ref sig .tc := ⟨.hbm, 1161, rfl⟩
abbrev main_v1039 : Ref sig .tc := ⟨.hbm, 1162, rfl⟩
abbrev main_v1040 : Ref sig .tc := ⟨.hbm, 1163, rfl⟩
abbrev main_v1041 : Ref sig .tc := ⟨.hbm, 1164, rfl⟩
abbrev main_cst_116 : Ref sig .tc := ⟨.hbm, 1165, rfl⟩
abbrev main_v1042 : Ref sig .tc := ⟨.hbm, 1166, rfl⟩
abbrev main_v1043 : Ref sig .tc := ⟨.hbm, 1167, rfl⟩
abbrev main_cst_117 : Ref sig .tc := ⟨.hbm, 1168, rfl⟩
abbrev main_v1044 : Ref sig .tc := ⟨.hbm, 1169, rfl⟩
abbrev main_v1045 : Ref sig .tc := ⟨.hbm, 1170, rfl⟩
abbrev main_v1046 : Ref sig .tc := ⟨.hbm, 1171, rfl⟩
abbrev main_v1047 : Ref sig .tc := ⟨.hbm, 1172, rfl⟩
abbrev main_v1048 : Ref sig .tc := ⟨.hbm, 1173, rfl⟩
abbrev main_v1049 : Ref sig .tc := ⟨.hbm, 1174, rfl⟩
abbrev main_v1050 : Ref sig .tc := ⟨.hbm, 1175, rfl⟩
abbrev main_cst_118 : Ref sig .tc := ⟨.hbm, 1176, rfl⟩
abbrev main_v1051 : Ref sig .tc := ⟨.hbm, 1177, rfl⟩
abbrev main_v1052 : Ref sig .tc := ⟨.hbm, 1178, rfl⟩
abbrev main_cst_119 : Ref sig .tc := ⟨.hbm, 1179, rfl⟩
abbrev main_v1053 : Ref sig .tc := ⟨.hbm, 1180, rfl⟩
abbrev main_v1054 : Ref sig .tc := ⟨.hbm, 1181, rfl⟩
abbrev main_v1055 : Ref sig .tc := ⟨.hbm, 1182, rfl⟩
abbrev main_v1056 : Ref sig .tc := ⟨.hbm, 1183, rfl⟩
abbrev main_v1057 : Ref sig .tc := ⟨.hbm, 1184, rfl⟩
abbrev main_v1058 : Ref sig .tc := ⟨.hbm, 1185, rfl⟩
abbrev main_v1059 : Ref sig .tc := ⟨.hbm, 1186, rfl⟩
abbrev main_v1060 : Ref sig .tc := ⟨.hbm, 1187, rfl⟩
abbrev main_v1061 : Ref sig .tc := ⟨.hbm, 1188, rfl⟩
abbrev main_v1062 : Ref sig .tc := ⟨.hbm, 1189, rfl⟩
abbrev main_v1063 : Ref sig .tc := ⟨.hbm, 1190, rfl⟩
abbrev main_v1064 : Ref sig .tc := ⟨.hbm, 1191, rfl⟩
abbrev main_v1065 : Ref sig .tc := ⟨.hbm, 1192, rfl⟩
abbrev main_v1066 : Ref sig .tc := ⟨.hbm, 1193, rfl⟩
abbrev main_v1067 : Ref sig .tc := ⟨.hbm, 1194, rfl⟩
abbrev main_v1068 : Ref sig .tc := ⟨.hbm, 1195, rfl⟩
abbrev main_v1069 : Ref sig .tc := ⟨.hbm, 1196, rfl⟩
abbrev main_v1070 : Ref sig .tc := ⟨.hbm, 1197, rfl⟩
abbrev main_v1071 : Ref sig .tc := ⟨.hbm, 1198, rfl⟩
abbrev main_v1072 : Ref sig .tc := ⟨.hbm, 1199, rfl⟩
abbrev main_v1073 : Ref sig .tc := ⟨.hbm, 1200, rfl⟩
abbrev main_v1074 : Ref sig .tc := ⟨.hbm, 1201, rfl⟩
abbrev main_v1075 : Ref sig .tc := ⟨.hbm, 1202, rfl⟩
abbrev main_v1076 : Ref sig .tc := ⟨.hbm, 1203, rfl⟩
abbrev main_v1077 : Ref sig .tc := ⟨.hbm, 1204, rfl⟩
abbrev main_v1078 : Ref sig .tc := ⟨.hbm, 1205, rfl⟩
abbrev main_v1079 : Ref sig .tc := ⟨.hbm, 1206, rfl⟩
abbrev main_v1080 : Ref sig .tc := ⟨.hbm, 1207, rfl⟩
abbrev main_v1081 : Ref sig .tc := ⟨.hbm, 1208, rfl⟩
abbrev main_v1082 : Ref sig .tc := ⟨.hbm, 1209, rfl⟩
abbrev main_v1083 : Ref sig .tc := ⟨.hbm, 1210, rfl⟩
abbrev main_v1084 : Ref sig .tc := ⟨.hbm, 1211, rfl⟩
abbrev main_v1085 : Ref sig .tc := ⟨.hbm, 1212, rfl⟩
abbrev main_v1086 : Ref sig .tc := ⟨.hbm, 1213, rfl⟩
abbrev main_v1087 : Ref sig .tc := ⟨.hbm, 1214, rfl⟩
abbrev main_v1088 : Ref sig .tc := ⟨.hbm, 1215, rfl⟩
abbrev main_v1089 : Ref sig .tc := ⟨.hbm, 1216, rfl⟩
abbrev main_v1090 : Ref sig .tc := ⟨.hbm, 1217, rfl⟩
abbrev main_v1091 : Ref sig .tc := ⟨.hbm, 1218, rfl⟩
abbrev main_cst_120 : Ref sig .tc := ⟨.hbm, 1219, rfl⟩
abbrev main_v1092 : Ref sig .tc := ⟨.hbm, 1220, rfl⟩
abbrev main_v1093 : Ref sig .tc := ⟨.hbm, 1221, rfl⟩
abbrev main_cst_121 : Ref sig .tc := ⟨.hbm, 1222, rfl⟩
abbrev main_v1094 : Ref sig .tc := ⟨.hbm, 1223, rfl⟩
abbrev main_v1095 : Ref sig .tc := ⟨.hbm, 1224, rfl⟩
abbrev main_v1096 : Ref sig .tc := ⟨.hbm, 1225, rfl⟩
abbrev main_v1097 : Ref sig .tc := ⟨.hbm, 1226, rfl⟩
abbrev main_v1098 : Ref sig .tc := ⟨.hbm, 1227, rfl⟩
abbrev main_cst_122 : Ref sig .tc := ⟨.hbm, 1228, rfl⟩
abbrev main_v1099 : Ref sig .tc := ⟨.hbm, 1229, rfl⟩
abbrev main_v1100 : Ref sig .tc := ⟨.hbm, 1230, rfl⟩
abbrev main_cst_123 : Ref sig .tc := ⟨.hbm, 1231, rfl⟩
abbrev main_v1101 : Ref sig .tc := ⟨.hbm, 1232, rfl⟩
abbrev main_v1102 : Ref sig .tc := ⟨.hbm, 1233, rfl⟩
abbrev main_v1103 : Ref sig .tc := ⟨.hbm, 1234, rfl⟩
abbrev main_v1104 : Ref sig .tc := ⟨.hbm, 1235, rfl⟩
abbrev main_v1105 : Ref sig .tc := ⟨.hbm, 1236, rfl⟩
abbrev main_v1106 : Ref sig .tc := ⟨.hbm, 1237, rfl⟩
abbrev main_v1107 : Ref sig .tc := ⟨.hbm, 1238, rfl⟩
abbrev main_cst_124 : Ref sig .tc := ⟨.hbm, 1239, rfl⟩
abbrev main_v1108 : Ref sig .tc := ⟨.hbm, 1240, rfl⟩
abbrev main_v1109 : Ref sig .tc := ⟨.hbm, 1241, rfl⟩
abbrev main_cst_125 : Ref sig .tc := ⟨.hbm, 1242, rfl⟩
abbrev main_v1110 : Ref sig .tc := ⟨.hbm, 1243, rfl⟩
abbrev main_v1111 : Ref sig .tc := ⟨.hbm, 1244, rfl⟩
abbrev main_v1112 : Ref sig .tc := ⟨.hbm, 1245, rfl⟩
abbrev main_v1113 : Ref sig .tc := ⟨.hbm, 1246, rfl⟩
abbrev main_v1114 : Ref sig .tc := ⟨.hbm, 1247, rfl⟩
abbrev main_v1115 : Ref sig .tc := ⟨.hbm, 1248, rfl⟩
abbrev main_v1116 : Ref sig .tc := ⟨.hbm, 1249, rfl⟩
abbrev main_v1117 : Ref sig .tc := ⟨.hbm, 1250, rfl⟩
abbrev main_v1118 : Ref sig .tc := ⟨.hbm, 1251, rfl⟩
abbrev main_v1119 : Ref sig .tc := ⟨.hbm, 1252, rfl⟩
abbrev main_v1120 : Ref sig .tc := ⟨.hbm, 1253, rfl⟩
abbrev main_v1121 : Ref sig .tc := ⟨.hbm, 1254, rfl⟩
abbrev main_v1122 : Ref sig .tc := ⟨.hbm, 1255, rfl⟩
abbrev main_v1123 : Ref sig .tc := ⟨.hbm, 1256, rfl⟩
abbrev main_v1124 : Ref sig .tc := ⟨.hbm, 1257, rfl⟩
abbrev main_v1125 : Ref sig .tc := ⟨.hbm, 1258, rfl⟩
abbrev main_v1126 : Ref sig .tc := ⟨.hbm, 1259, rfl⟩
abbrev main_v1127 : Ref sig .tc := ⟨.hbm, 1260, rfl⟩
abbrev main_v1128 : Ref sig .tc := ⟨.hbm, 1261, rfl⟩
abbrev main_v1129 : Ref sig .tc := ⟨.hbm, 1262, rfl⟩
abbrev main_v1130 : Ref sig .tc := ⟨.hbm, 1263, rfl⟩
abbrev main_v1131 : Ref sig .tc := ⟨.hbm, 1264, rfl⟩
abbrev main_v1132 : Ref sig .tc := ⟨.hbm, 1265, rfl⟩
abbrev main_v1133 : Ref sig .tc := ⟨.hbm, 1266, rfl⟩
abbrev main_v1134 : Ref sig .tc := ⟨.hbm, 1267, rfl⟩
abbrev main_v1135 : Ref sig .tc := ⟨.hbm, 1268, rfl⟩
abbrev main_v1136 : Ref sig .tc := ⟨.hbm, 1269, rfl⟩
abbrev main_v1137 : Ref sig .tc := ⟨.hbm, 1270, rfl⟩
abbrev main_v1138 : Ref sig .tc := ⟨.hbm, 1271, rfl⟩
abbrev main_v1139 : Ref sig .tc := ⟨.hbm, 1272, rfl⟩
abbrev main_v1140 : Ref sig .tc := ⟨.hbm, 1273, rfl⟩
abbrev main_cst_126 : Ref sig .tc := ⟨.hbm, 1274, rfl⟩
abbrev main_v1141 : Ref sig .tc := ⟨.hbm, 1275, rfl⟩
abbrev main_v1142 : Ref sig .tc := ⟨.hbm, 1276, rfl⟩
abbrev main_cst_127 : Ref sig .tc := ⟨.hbm, 1277, rfl⟩
abbrev main_v1143 : Ref sig .tc := ⟨.hbm, 1278, rfl⟩
abbrev main_v1144 : Ref sig .tc := ⟨.hbm, 1279, rfl⟩
abbrev main_v1145 : Ref sig .tc := ⟨.hbm, 1280, rfl⟩
abbrev main_v1146 : Ref sig .tc := ⟨.hbm, 1281, rfl⟩
abbrev main_v1147 : Ref sig .tc := ⟨.hbm, 1282, rfl⟩
abbrev main_cst_128 : Ref sig .tc := ⟨.hbm, 1283, rfl⟩
abbrev main_v1148 : Ref sig .tc := ⟨.hbm, 1284, rfl⟩
abbrev main_v1149 : Ref sig .tc := ⟨.hbm, 1285, rfl⟩
abbrev main_cst_129 : Ref sig .tc := ⟨.hbm, 1286, rfl⟩
abbrev main_v1150 : Ref sig .tc := ⟨.hbm, 1287, rfl⟩
abbrev main_v1151 : Ref sig .tc := ⟨.hbm, 1288, rfl⟩
abbrev main_v1152 : Ref sig .tc := ⟨.hbm, 1289, rfl⟩
abbrev main_v1153 : Ref sig .tc := ⟨.hbm, 1290, rfl⟩
abbrev main_v1154 : Ref sig .tc := ⟨.hbm, 1291, rfl⟩
abbrev main_v1155 : Ref sig .tc := ⟨.hbm, 1292, rfl⟩
abbrev main_v1156 : Ref sig .tc := ⟨.hbm, 1293, rfl⟩
abbrev main_cst_130 : Ref sig .tc := ⟨.hbm, 1294, rfl⟩
abbrev main_v1157 : Ref sig .tc := ⟨.hbm, 1295, rfl⟩
abbrev main_v1158 : Ref sig .tc := ⟨.hbm, 1296, rfl⟩
abbrev main_cst_131 : Ref sig .tc := ⟨.hbm, 1297, rfl⟩
abbrev main_v1159 : Ref sig .tc := ⟨.hbm, 1298, rfl⟩
abbrev main_v1160 : Ref sig .tc := ⟨.hbm, 1299, rfl⟩
abbrev main_v1161 : Ref sig .tc := ⟨.hbm, 1300, rfl⟩
abbrev main_v1162 : Ref sig .tc := ⟨.hbm, 1301, rfl⟩
abbrev main_v1163 : Ref sig .tc := ⟨.hbm, 1302, rfl⟩
abbrev main_v1164 : Ref sig .tc := ⟨.hbm, 1303, rfl⟩
abbrev main_v1165 : Ref sig .tc := ⟨.hbm, 1304, rfl⟩
abbrev main_v1166 : Ref sig .tc := ⟨.hbm, 1305, rfl⟩
abbrev main_v1167 : Ref sig .tc := ⟨.hbm, 1306, rfl⟩
abbrev main_v1168 : Ref sig .tc := ⟨.hbm, 1307, rfl⟩
abbrev main_v1169 : Ref sig .tc := ⟨.hbm, 1308, rfl⟩
abbrev main_v1170 : Ref sig .tc := ⟨.hbm, 1309, rfl⟩
abbrev main_v1171 : Ref sig .tc := ⟨.hbm, 1310, rfl⟩
abbrev main_v1172 : Ref sig .tc := ⟨.hbm, 1311, rfl⟩
abbrev main_v1173 : Ref sig .tc := ⟨.hbm, 1312, rfl⟩
abbrev main_v1174 : Ref sig .tc := ⟨.hbm, 1313, rfl⟩
abbrev main_v1175 : Ref sig .tc := ⟨.hbm, 1314, rfl⟩
abbrev main_v1176 : Ref sig .tc := ⟨.hbm, 1315, rfl⟩
abbrev main_v1177 : Ref sig .tc := ⟨.hbm, 1316, rfl⟩
abbrev main_v1178 : Ref sig .tc := ⟨.hbm, 1317, rfl⟩
abbrev main_v1179 : Ref sig .tc := ⟨.hbm, 1318, rfl⟩
abbrev main_v1180 : Ref sig .tc := ⟨.hbm, 1319, rfl⟩
abbrev main_v1181 : Ref sig .tc := ⟨.hbm, 1320, rfl⟩
abbrev main_v1182 : Ref sig .tc := ⟨.hbm, 1321, rfl⟩
abbrev main_v1183 : Ref sig .tc := ⟨.hbm, 1322, rfl⟩
abbrev main_v1184 : Ref sig .tc := ⟨.hbm, 1323, rfl⟩
abbrev main_v1185 : Ref sig .tc := ⟨.hbm, 1324, rfl⟩
abbrev main_v1186 : Ref sig .tc := ⟨.hbm, 1325, rfl⟩
abbrev main_v1187 : Ref sig .tc := ⟨.hbm, 1326, rfl⟩
abbrev main_v1188 : Ref sig .tc := ⟨.hbm, 1327, rfl⟩
abbrev main_v1189 : Ref sig .tc := ⟨.hbm, 1328, rfl⟩
abbrev main_v1190 : Ref sig .tc := ⟨.hbm, 1329, rfl⟩
abbrev main_v1191 : Ref sig .tc := ⟨.hbm, 1330, rfl⟩
abbrev main_v1192 : Ref sig .tc := ⟨.hbm, 1331, rfl⟩
abbrev main_v1193 : Ref sig .tc := ⟨.hbm, 1332, rfl⟩
abbrev main_v1194 : Ref sig .tc := ⟨.hbm, 1333, rfl⟩
abbrev main_v1195 : Ref sig .tc := ⟨.hbm, 1334, rfl⟩
abbrev main_v1196 : Ref sig .tc := ⟨.hbm, 1335, rfl⟩
abbrev main_v1197 : Ref sig .tc := ⟨.hbm, 1336, rfl⟩
abbrev main_cst_132 : Ref sig .tc := ⟨.hbm, 1337, rfl⟩
abbrev main_v1198 : Ref sig .tc := ⟨.hbm, 1338, rfl⟩
abbrev main_v1199 : Ref sig .tc := ⟨.hbm, 1339, rfl⟩
abbrev main_cst_133 : Ref sig .tc := ⟨.hbm, 1340, rfl⟩
abbrev main_v1200 : Ref sig .tc := ⟨.hbm, 1341, rfl⟩
abbrev main_v1201 : Ref sig .tc := ⟨.hbm, 1342, rfl⟩
abbrev main_v1202 : Ref sig .tc := ⟨.hbm, 1343, rfl⟩
abbrev main_v1203 : Ref sig .tc := ⟨.hbm, 1344, rfl⟩
abbrev main_v1204 : Ref sig .tc := ⟨.hbm, 1345, rfl⟩
abbrev main_cst_134 : Ref sig .tc := ⟨.hbm, 1346, rfl⟩
abbrev main_v1205 : Ref sig .tc := ⟨.hbm, 1347, rfl⟩
abbrev main_v1206 : Ref sig .tc := ⟨.hbm, 1348, rfl⟩
abbrev main_cst_135 : Ref sig .tc := ⟨.hbm, 1349, rfl⟩
abbrev main_v1207 : Ref sig .tc := ⟨.hbm, 1350, rfl⟩
abbrev main_v1208 : Ref sig .tc := ⟨.hbm, 1351, rfl⟩
abbrev main_v1209 : Ref sig .tc := ⟨.hbm, 1352, rfl⟩
abbrev main_v1210 : Ref sig .tc := ⟨.hbm, 1353, rfl⟩
abbrev main_v1211 : Ref sig .tc := ⟨.hbm, 1354, rfl⟩
abbrev main_v1212 : Ref sig .tc := ⟨.hbm, 1355, rfl⟩
abbrev main_v1213 : Ref sig .tc := ⟨.hbm, 1356, rfl⟩
abbrev main_cst_136 : Ref sig .tc := ⟨.hbm, 1357, rfl⟩
abbrev main_v1214 : Ref sig .tc := ⟨.hbm, 1358, rfl⟩
abbrev main_v1215 : Ref sig .tc := ⟨.hbm, 1359, rfl⟩
abbrev main_cst_137 : Ref sig .tc := ⟨.hbm, 1360, rfl⟩
abbrev main_v1216 : Ref sig .tc := ⟨.hbm, 1361, rfl⟩
abbrev main_v1217 : Ref sig .tc := ⟨.hbm, 1362, rfl⟩
abbrev main_v1218 : Ref sig .tc := ⟨.hbm, 1363, rfl⟩
abbrev main_v1219 : Ref sig .tc := ⟨.hbm, 1364, rfl⟩
abbrev main_v1220 : Ref sig .tc := ⟨.hbm, 1365, rfl⟩
abbrev main_v1221 : Ref sig .tc := ⟨.hbm, 1366, rfl⟩
abbrev main_v1222 : Ref sig .tc := ⟨.hbm, 1367, rfl⟩
abbrev main_v1223 : Ref sig .tc := ⟨.hbm, 1368, rfl⟩
abbrev main_v1224 : Ref sig .tc := ⟨.hbm, 1369, rfl⟩
abbrev main_v1225 : Ref sig .tc := ⟨.hbm, 1370, rfl⟩
abbrev main_v1226 : Ref sig .tc := ⟨.hbm, 1371, rfl⟩
abbrev main_v1227 : Ref sig .tc := ⟨.hbm, 1372, rfl⟩
abbrev main_v1228 : Ref sig .tc := ⟨.hbm, 1373, rfl⟩
abbrev main_v1229 : Ref sig .tc := ⟨.hbm, 1374, rfl⟩
abbrev main_v1230 : Ref sig .tc := ⟨.hbm, 1375, rfl⟩
abbrev main_v1231 : Ref sig .tc := ⟨.hbm, 1376, rfl⟩
abbrev main_v1232 : Ref sig .tc := ⟨.hbm, 1377, rfl⟩
abbrev main_v1233 : Ref sig .tc := ⟨.hbm, 1378, rfl⟩
abbrev main_v1234 : Ref sig .tc := ⟨.hbm, 1379, rfl⟩
abbrev main_v1235 : Ref sig .tc := ⟨.hbm, 1380, rfl⟩
abbrev main_v1236 : Ref sig .tc := ⟨.hbm, 1381, rfl⟩
abbrev main_v1237 : Ref sig .tc := ⟨.hbm, 1382, rfl⟩
abbrev main_v1238 : Ref sig .tc := ⟨.hbm, 1383, rfl⟩
abbrev main_v1239 : Ref sig .tc := ⟨.hbm, 1384, rfl⟩
abbrev main_v1240 : Ref sig .tc := ⟨.hbm, 1385, rfl⟩
abbrev main_v1241 : Ref sig .tc := ⟨.hbm, 1386, rfl⟩
abbrev main_v1242 : Ref sig .tc := ⟨.hbm, 1387, rfl⟩
abbrev main_v1243 : Ref sig .tc := ⟨.hbm, 1388, rfl⟩
abbrev main_v1244 : Ref sig .tc := ⟨.hbm, 1389, rfl⟩
abbrev main_v1245 : Ref sig .tc := ⟨.hbm, 1390, rfl⟩
abbrev main_v1246 : Ref sig .tc := ⟨.hbm, 1391, rfl⟩
abbrev main_cst_138 : Ref sig .tc := ⟨.hbm, 1392, rfl⟩
abbrev main_v1247 : Ref sig .tc := ⟨.hbm, 1393, rfl⟩
abbrev main_v1248 : Ref sig .tc := ⟨.hbm, 1394, rfl⟩
abbrev main_cst_139 : Ref sig .tc := ⟨.hbm, 1395, rfl⟩
abbrev main_v1249 : Ref sig .tc := ⟨.hbm, 1396, rfl⟩
abbrev main_v1250 : Ref sig .tc := ⟨.hbm, 1397, rfl⟩
abbrev main_v1251 : Ref sig .tc := ⟨.hbm, 1398, rfl⟩
abbrev main_v1252 : Ref sig .tc := ⟨.hbm, 1399, rfl⟩
abbrev main_v1253 : Ref sig .tc := ⟨.hbm, 1400, rfl⟩
abbrev main_cst_140 : Ref sig .tc := ⟨.hbm, 1401, rfl⟩
abbrev main_v1254 : Ref sig .tc := ⟨.hbm, 1402, rfl⟩
abbrev main_v1255 : Ref sig .tc := ⟨.hbm, 1403, rfl⟩
abbrev main_cst_141 : Ref sig .tc := ⟨.hbm, 1404, rfl⟩
abbrev main_v1256 : Ref sig .tc := ⟨.hbm, 1405, rfl⟩
abbrev main_v1257 : Ref sig .tc := ⟨.hbm, 1406, rfl⟩
abbrev main_v1258 : Ref sig .tc := ⟨.hbm, 1407, rfl⟩
abbrev main_v1259 : Ref sig .tc := ⟨.hbm, 1408, rfl⟩
abbrev main_v1260 : Ref sig .tc := ⟨.hbm, 1409, rfl⟩
abbrev main_v1261 : Ref sig .tc := ⟨.hbm, 1410, rfl⟩
abbrev main_v1262 : Ref sig .tc := ⟨.hbm, 1411, rfl⟩
abbrev main_cst_142 : Ref sig .tc := ⟨.hbm, 1412, rfl⟩
abbrev main_v1263 : Ref sig .tc := ⟨.hbm, 1413, rfl⟩
abbrev main_v1264 : Ref sig .tc := ⟨.hbm, 1414, rfl⟩
abbrev main_cst_143 : Ref sig .tc := ⟨.hbm, 1415, rfl⟩
abbrev main_v1265 : Ref sig .tc := ⟨.hbm, 1416, rfl⟩
abbrev main_v1266 : Ref sig .tc := ⟨.hbm, 1417, rfl⟩
abbrev main_v1267 : Ref sig .tc := ⟨.hbm, 1418, rfl⟩
abbrev main_v1268 : Ref sig .tc := ⟨.hbm, 1419, rfl⟩
abbrev main_v1269 : Ref sig .tc := ⟨.hbm, 1420, rfl⟩
abbrev main_v1270 : Ref sig .tc := ⟨.hbm, 1421, rfl⟩
abbrev main_v1271 : Ref sig .tc := ⟨.hbm, 1422, rfl⟩
abbrev main_v1272 : Ref sig .tc := ⟨.hbm, 1423, rfl⟩
abbrev main_v1273 : Ref sig .tc := ⟨.hbm, 1424, rfl⟩
abbrev main_v1274 : Ref sig .tc := ⟨.hbm, 1425, rfl⟩
abbrev main_v1275 : Ref sig .tc := ⟨.hbm, 1426, rfl⟩
abbrev main_v1276 : Ref sig .tc := ⟨.hbm, 1427, rfl⟩
abbrev main_v1277 : Ref sig .tc := ⟨.hbm, 1428, rfl⟩
abbrev main_v1278 : Ref sig .tc := ⟨.hbm, 1429, rfl⟩
abbrev main_v1279 : Ref sig .tc := ⟨.hbm, 1430, rfl⟩
abbrev main_v1280 : Ref sig .tc := ⟨.hbm, 1431, rfl⟩
abbrev main_v1281 : Ref sig .tc := ⟨.hbm, 1432, rfl⟩
abbrev main_v1282 : Ref sig .tc := ⟨.hbm, 1433, rfl⟩
abbrev main_v1283 : Ref sig .tc := ⟨.hbm, 1434, rfl⟩
abbrev main_v1284 : Ref sig .tc := ⟨.hbm, 1435, rfl⟩
abbrev main_v1285 : Ref sig .tc := ⟨.hbm, 1436, rfl⟩
abbrev main_v1286 : Ref sig .tc := ⟨.hbm, 1437, rfl⟩
abbrev main_v1287 : Ref sig .tc := ⟨.hbm, 1438, rfl⟩
abbrev main_v1288 : Ref sig .tc := ⟨.hbm, 1439, rfl⟩
abbrev main_v1289 : Ref sig .tc := ⟨.hbm, 1440, rfl⟩
abbrev main_v1290 : Ref sig .tc := ⟨.hbm, 1441, rfl⟩
abbrev main_v1291 : Ref sig .tc := ⟨.hbm, 1442, rfl⟩
abbrev main_v1292 : Ref sig .tc := ⟨.hbm, 1443, rfl⟩
abbrev main_v1293 : Ref sig .tc := ⟨.hbm, 1444, rfl⟩
abbrev main_v1294 : Ref sig .tc := ⟨.hbm, 1445, rfl⟩
abbrev main_v1295 : Ref sig .tc := ⟨.hbm, 1446, rfl⟩
abbrev main_v1296 : Ref sig .tc := ⟨.hbm, 1447, rfl⟩
abbrev main_v1297 : Ref sig .tc := ⟨.hbm, 1448, rfl⟩
abbrev main_v1298 : Ref sig .tc := ⟨.hbm, 1449, rfl⟩
abbrev main_v1299 : Ref sig .tc := ⟨.hbm, 1450, rfl⟩
abbrev main_v1300 : Ref sig .tc := ⟨.hbm, 1451, rfl⟩
abbrev main_v1301 : Ref sig .tc := ⟨.hbm, 1452, rfl⟩
abbrev main_v1302 : Ref sig .tc := ⟨.hbm, 1453, rfl⟩
abbrev main_v1303 : Ref sig .tc := ⟨.hbm, 1454, rfl⟩
abbrev main_cst_144 : Ref sig .tc := ⟨.hbm, 1455, rfl⟩
abbrev main_v1304 : Ref sig .tc := ⟨.hbm, 1456, rfl⟩
abbrev main_v1305 : Ref sig .tc := ⟨.hbm, 1457, rfl⟩
abbrev main_cst_145 : Ref sig .tc := ⟨.hbm, 1458, rfl⟩
abbrev main_v1306 : Ref sig .tc := ⟨.hbm, 1459, rfl⟩
abbrev main_v1307 : Ref sig .tc := ⟨.hbm, 1460, rfl⟩
abbrev main_v1308 : Ref sig .tc := ⟨.hbm, 1461, rfl⟩
abbrev main_v1309 : Ref sig .tc := ⟨.hbm, 1462, rfl⟩
abbrev main_v1310 : Ref sig .tc := ⟨.hbm, 1463, rfl⟩
abbrev main_cst_146 : Ref sig .tc := ⟨.hbm, 1464, rfl⟩
abbrev main_v1311 : Ref sig .tc := ⟨.hbm, 1465, rfl⟩
abbrev main_v1312 : Ref sig .tc := ⟨.hbm, 1466, rfl⟩
abbrev main_cst_147 : Ref sig .tc := ⟨.hbm, 1467, rfl⟩
abbrev main_v1313 : Ref sig .tc := ⟨.hbm, 1468, rfl⟩
abbrev main_v1314 : Ref sig .tc := ⟨.hbm, 1469, rfl⟩
abbrev main_v1315 : Ref sig .tc := ⟨.hbm, 1470, rfl⟩
abbrev main_v1316 : Ref sig .tc := ⟨.hbm, 1471, rfl⟩
abbrev main_v1317 : Ref sig .tc := ⟨.hbm, 1472, rfl⟩
abbrev main_v1318 : Ref sig .tc := ⟨.hbm, 1473, rfl⟩
abbrev main_v1319 : Ref sig .tc := ⟨.hbm, 1474, rfl⟩
abbrev main_cst_148 : Ref sig .tc := ⟨.hbm, 1475, rfl⟩
abbrev main_v1320 : Ref sig .tc := ⟨.hbm, 1476, rfl⟩
abbrev main_v1321 : Ref sig .tc := ⟨.hbm, 1477, rfl⟩
abbrev main_cst_149 : Ref sig .tc := ⟨.hbm, 1478, rfl⟩
abbrev main_v1322 : Ref sig .tc := ⟨.hbm, 1479, rfl⟩
abbrev main_v1323 : Ref sig .tc := ⟨.hbm, 1480, rfl⟩
abbrev main_v1324 : Ref sig .tc := ⟨.hbm, 1481, rfl⟩
abbrev main_v1325 : Ref sig .tc := ⟨.hbm, 1482, rfl⟩
abbrev main_v1326 : Ref sig .tc := ⟨.hbm, 1483, rfl⟩
abbrev main_v1327 : Ref sig .tc := ⟨.hbm, 1484, rfl⟩
abbrev main_v1328 : Ref sig .tc := ⟨.hbm, 1485, rfl⟩
abbrev main_v1329 : Ref sig .tc := ⟨.hbm, 1486, rfl⟩
abbrev main_v1330 : Ref sig .tc := ⟨.hbm, 1487, rfl⟩
abbrev main_v1331 : Ref sig .tc := ⟨.hbm, 1488, rfl⟩
abbrev main_v1332 : Ref sig .tc := ⟨.hbm, 1489, rfl⟩
abbrev main_v1333 : Ref sig .tc := ⟨.hbm, 1490, rfl⟩
abbrev main_v1334 : Ref sig .tc := ⟨.hbm, 1491, rfl⟩
abbrev main_v1335 : Ref sig .tc := ⟨.hbm, 1492, rfl⟩
abbrev main_v1336 : Ref sig .tc := ⟨.hbm, 1493, rfl⟩
abbrev main_v1337 : Ref sig .tc := ⟨.hbm, 1494, rfl⟩
abbrev main_v1338 : Ref sig .tc := ⟨.hbm, 1495, rfl⟩
abbrev main_v1339 : Ref sig .tc := ⟨.hbm, 1496, rfl⟩
abbrev main_v1340 : Ref sig .tc := ⟨.hbm, 1497, rfl⟩
abbrev main_v1341 : Ref sig .tc := ⟨.hbm, 1498, rfl⟩
abbrev main_v1342 : Ref sig .tc := ⟨.hbm, 1499, rfl⟩
abbrev main_v1343 : Ref sig .tc := ⟨.hbm, 1500, rfl⟩
abbrev main_v1344 : Ref sig .tc := ⟨.hbm, 1501, rfl⟩
abbrev main_v1345 : Ref sig .tc := ⟨.hbm, 1502, rfl⟩
abbrev main_v1346 : Ref sig .tc := ⟨.hbm, 1503, rfl⟩
abbrev main_v1347 : Ref sig .tc := ⟨.hbm, 1504, rfl⟩
abbrev main_v1348 : Ref sig .tc := ⟨.hbm, 1505, rfl⟩
abbrev main_v1349 : Ref sig .tc := ⟨.hbm, 1506, rfl⟩
abbrev main_v1350 : Ref sig .tc := ⟨.hbm, 1507, rfl⟩
abbrev main_v1351 : Ref sig .tc := ⟨.hbm, 1508, rfl⟩
abbrev main_v1352 : Ref sig .tc := ⟨.hbm, 1509, rfl⟩
abbrev main_cst_150 : Ref sig .tc := ⟨.hbm, 1510, rfl⟩
abbrev main_v1353 : Ref sig .tc := ⟨.hbm, 1511, rfl⟩
abbrev main_v1354 : Ref sig .tc := ⟨.hbm, 1512, rfl⟩
abbrev main_cst_151 : Ref sig .tc := ⟨.hbm, 1513, rfl⟩
abbrev main_v1355 : Ref sig .tc := ⟨.hbm, 1514, rfl⟩
abbrev main_v1356 : Ref sig .tc := ⟨.hbm, 1515, rfl⟩
abbrev main_v1357 : Ref sig .tc := ⟨.hbm, 1516, rfl⟩
abbrev main_v1358 : Ref sig .tc := ⟨.hbm, 1517, rfl⟩
abbrev main_v1359 : Ref sig .tc := ⟨.hbm, 1518, rfl⟩
abbrev main_cst_152 : Ref sig .tc := ⟨.hbm, 1519, rfl⟩
abbrev main_v1360 : Ref sig .tc := ⟨.hbm, 1520, rfl⟩
abbrev main_v1361 : Ref sig .tc := ⟨.hbm, 1521, rfl⟩
abbrev main_cst_153 : Ref sig .tc := ⟨.hbm, 1522, rfl⟩
abbrev main_v1362 : Ref sig .tc := ⟨.hbm, 1523, rfl⟩
abbrev main_v1363 : Ref sig .tc := ⟨.hbm, 1524, rfl⟩
abbrev main_v1364 : Ref sig .tc := ⟨.hbm, 1525, rfl⟩
abbrev main_v1365 : Ref sig .tc := ⟨.hbm, 1526, rfl⟩
abbrev main_v1366 : Ref sig .tc := ⟨.hbm, 1527, rfl⟩
abbrev main_v1367 : Ref sig .tc := ⟨.hbm, 1528, rfl⟩
abbrev main_v1368 : Ref sig .tc := ⟨.hbm, 1529, rfl⟩
abbrev main_cst_154 : Ref sig .tc := ⟨.hbm, 1530, rfl⟩
abbrev main_v1369 : Ref sig .tc := ⟨.hbm, 1531, rfl⟩
abbrev main_v1370 : Ref sig .tc := ⟨.hbm, 1532, rfl⟩
abbrev main_cst_155 : Ref sig .tc := ⟨.hbm, 1533, rfl⟩
abbrev main_v1371 : Ref sig .tc := ⟨.hbm, 1534, rfl⟩
abbrev main_v1372 : Ref sig .tc := ⟨.hbm, 1535, rfl⟩
abbrev main_v1373 : Ref sig .tc := ⟨.hbm, 1536, rfl⟩
abbrev main_v1374 : Ref sig .tc := ⟨.hbm, 1537, rfl⟩
abbrev main_v1375 : Ref sig .tc := ⟨.hbm, 1538, rfl⟩
abbrev main_v1376 : Ref sig .tc := ⟨.hbm, 1539, rfl⟩
abbrev main_v1377 : Ref sig .tc := ⟨.hbm, 1540, rfl⟩
abbrev main_v1378 : Ref sig .tc := ⟨.hbm, 1541, rfl⟩
abbrev main_v1379 : Ref sig .tc := ⟨.hbm, 1542, rfl⟩
abbrev main_v1380 : Ref sig .tc := ⟨.hbm, 1543, rfl⟩
abbrev main_v1381 : Ref sig .tc := ⟨.hbm, 1544, rfl⟩
abbrev main_v1382 : Ref sig .tc := ⟨.hbm, 1545, rfl⟩
abbrev main_v1383 : Ref sig .tc := ⟨.hbm, 1546, rfl⟩
abbrev main_v1384 : Ref sig .tc := ⟨.hbm, 1547, rfl⟩
abbrev main_v1385 : Ref sig .tc := ⟨.hbm, 1548, rfl⟩
abbrev main_v1386 : Ref sig .tc := ⟨.hbm, 1549, rfl⟩
abbrev main_v1387 : Ref sig .tc := ⟨.hbm, 1550, rfl⟩
abbrev main_v1388 : Ref sig .tc := ⟨.hbm, 1551, rfl⟩
abbrev main_v1389 : Ref sig .tc := ⟨.hbm, 1552, rfl⟩
abbrev main_v1390 : Ref sig .tc := ⟨.hbm, 1553, rfl⟩
abbrev main_v1391 : Ref sig .tc := ⟨.hbm, 1554, rfl⟩
abbrev main_v1392 : Ref sig .tc := ⟨.hbm, 1555, rfl⟩
abbrev main_v1393 : Ref sig .tc := ⟨.hbm, 1556, rfl⟩
abbrev main_v1394 : Ref sig .tc := ⟨.hbm, 1557, rfl⟩
abbrev main_v1395 : Ref sig .tc := ⟨.hbm, 1558, rfl⟩
abbrev main_v1396 : Ref sig .tc := ⟨.hbm, 1559, rfl⟩
abbrev main_v1397 : Ref sig .tc := ⟨.hbm, 1560, rfl⟩
abbrev main_v1398 : Ref sig .tc := ⟨.hbm, 1561, rfl⟩
abbrev main_v1399 : Ref sig .tc := ⟨.hbm, 1562, rfl⟩
abbrev main_v1400 : Ref sig .tc := ⟨.hbm, 1563, rfl⟩
abbrev main_v1401 : Ref sig .tc := ⟨.hbm, 1564, rfl⟩
abbrev main_v1402 : Ref sig .tc := ⟨.hbm, 1565, rfl⟩
abbrev main_v1403 : Ref sig .tc := ⟨.hbm, 1566, rfl⟩
abbrev main_v1404 : Ref sig .tc := ⟨.hbm, 1567, rfl⟩
abbrev main_v1405 : Ref sig .tc := ⟨.hbm, 1568, rfl⟩
abbrev main_v1406 : Ref sig .tc := ⟨.hbm, 1569, rfl⟩
abbrev main_v1407 : Ref sig .tc := ⟨.hbm, 1570, rfl⟩
abbrev main_v1408 : Ref sig .tc := ⟨.hbm, 1571, rfl⟩
abbrev main_v1409 : Ref sig .tc := ⟨.hbm, 1572, rfl⟩
abbrev main_cst_156 : Ref sig .tc := ⟨.hbm, 1573, rfl⟩
abbrev main_v1410 : Ref sig .tc := ⟨.hbm, 1574, rfl⟩
abbrev main_v1411 : Ref sig .tc := ⟨.hbm, 1575, rfl⟩
abbrev main_cst_157 : Ref sig .tc := ⟨.hbm, 1576, rfl⟩
abbrev main_v1412 : Ref sig .tc := ⟨.hbm, 1577, rfl⟩
abbrev main_v1413 : Ref sig .tc := ⟨.hbm, 1578, rfl⟩
abbrev main_v1414 : Ref sig .tc := ⟨.hbm, 1579, rfl⟩
abbrev main_v1415 : Ref sig .tc := ⟨.hbm, 1580, rfl⟩
abbrev main_v1416 : Ref sig .tc := ⟨.hbm, 1581, rfl⟩
abbrev main_cst_158 : Ref sig .tc := ⟨.hbm, 1582, rfl⟩
abbrev main_v1417 : Ref sig .tc := ⟨.hbm, 1583, rfl⟩
abbrev main_v1418 : Ref sig .tc := ⟨.hbm, 1584, rfl⟩
abbrev main_cst_159 : Ref sig .tc := ⟨.hbm, 1585, rfl⟩
abbrev main_v1419 : Ref sig .tc := ⟨.hbm, 1586, rfl⟩
abbrev main_v1420 : Ref sig .tc := ⟨.hbm, 1587, rfl⟩
abbrev main_v1421 : Ref sig .tc := ⟨.hbm, 1588, rfl⟩
abbrev main_v1422 : Ref sig .tc := ⟨.hbm, 1589, rfl⟩
abbrev main_v1423 : Ref sig .tc := ⟨.hbm, 1590, rfl⟩
abbrev main_v1424 : Ref sig .tc := ⟨.hbm, 1591, rfl⟩
abbrev main_v1425 : Ref sig .tc := ⟨.hbm, 1592, rfl⟩
abbrev main_cst_160 : Ref sig .tc := ⟨.hbm, 1593, rfl⟩
abbrev main_v1426 : Ref sig .tc := ⟨.hbm, 1594, rfl⟩
abbrev main_v1427 : Ref sig .tc := ⟨.hbm, 1595, rfl⟩
abbrev main_cst_161 : Ref sig .tc := ⟨.hbm, 1596, rfl⟩
abbrev main_v1428 : Ref sig .tc := ⟨.hbm, 1597, rfl⟩
abbrev main_v1429 : Ref sig .tc := ⟨.hbm, 1598, rfl⟩
abbrev main_v1430 : Ref sig .tc := ⟨.hbm, 1599, rfl⟩
abbrev main_v1431 : Ref sig .tc := ⟨.hbm, 1600, rfl⟩
abbrev main_v1432 : Ref sig .tc := ⟨.hbm, 1601, rfl⟩
abbrev main_v1433 : Ref sig .tc := ⟨.hbm, 1602, rfl⟩
abbrev main_v1434 : Ref sig .tc := ⟨.hbm, 1603, rfl⟩
abbrev main_v1435 : Ref sig .tc := ⟨.hbm, 1604, rfl⟩
abbrev main_v1436 : Ref sig .tc := ⟨.hbm, 1605, rfl⟩
abbrev main_v1437 : Ref sig .tc := ⟨.hbm, 1606, rfl⟩
abbrev main_v1438 : Ref sig .tc := ⟨.hbm, 1607, rfl⟩
abbrev main_v1439 : Ref sig .tc := ⟨.hbm, 1608, rfl⟩
abbrev main_v1440 : Ref sig .tc := ⟨.hbm, 1609, rfl⟩
abbrev main_v1441 : Ref sig .tc := ⟨.hbm, 1610, rfl⟩
abbrev main_v1442 : Ref sig .tc := ⟨.hbm, 1611, rfl⟩
abbrev main_v1443 : Ref sig .tc := ⟨.hbm, 1612, rfl⟩
abbrev main_v1444 : Ref sig .tc := ⟨.hbm, 1613, rfl⟩
abbrev main_v1445 : Ref sig .tc := ⟨.hbm, 1614, rfl⟩
abbrev main_v1446 : Ref sig .tc := ⟨.hbm, 1615, rfl⟩
abbrev main_v1447 : Ref sig .tc := ⟨.hbm, 1616, rfl⟩
abbrev main_v1448 : Ref sig .tc := ⟨.hbm, 1617, rfl⟩
abbrev main_v1449 : Ref sig .tc := ⟨.hbm, 1618, rfl⟩
abbrev main_v1450 : Ref sig .tc := ⟨.hbm, 1619, rfl⟩
abbrev main_v1451 : Ref sig .tc := ⟨.hbm, 1620, rfl⟩
abbrev main_v1452 : Ref sig .tc := ⟨.hbm, 1621, rfl⟩
abbrev main_v1453 : Ref sig .tc := ⟨.hbm, 1622, rfl⟩
abbrev main_v1454 : Ref sig .tc := ⟨.hbm, 1623, rfl⟩
abbrev main_v1455 : Ref sig .tc := ⟨.hbm, 1624, rfl⟩
abbrev main_v1456 : Ref sig .tc := ⟨.hbm, 1625, rfl⟩
abbrev main_v1457 : Ref sig .tc := ⟨.hbm, 1626, rfl⟩
abbrev main_v1458 : Ref sig .tc := ⟨.hbm, 1627, rfl⟩
abbrev main_cst_162 : Ref sig .tc := ⟨.hbm, 1628, rfl⟩
abbrev main_v1459 : Ref sig .tc := ⟨.hbm, 1629, rfl⟩
abbrev main_v1460 : Ref sig .tc := ⟨.hbm, 1630, rfl⟩
abbrev main_cst_163 : Ref sig .tc := ⟨.hbm, 1631, rfl⟩
abbrev main_v1461 : Ref sig .tc := ⟨.hbm, 1632, rfl⟩
abbrev main_v1462 : Ref sig .tc := ⟨.hbm, 1633, rfl⟩
abbrev main_v1463 : Ref sig .tc := ⟨.hbm, 1634, rfl⟩
abbrev main_v1464 : Ref sig .tc := ⟨.hbm, 1635, rfl⟩
abbrev main_v1465 : Ref sig .tc := ⟨.hbm, 1636, rfl⟩
abbrev main_cst_164 : Ref sig .tc := ⟨.hbm, 1637, rfl⟩
abbrev main_v1466 : Ref sig .tc := ⟨.hbm, 1638, rfl⟩
abbrev main_v1467 : Ref sig .tc := ⟨.hbm, 1639, rfl⟩
abbrev main_cst_165 : Ref sig .tc := ⟨.hbm, 1640, rfl⟩
abbrev main_v1468 : Ref sig .tc := ⟨.hbm, 1641, rfl⟩
abbrev main_v1469 : Ref sig .tc := ⟨.hbm, 1642, rfl⟩
abbrev main_v1470 : Ref sig .tc := ⟨.hbm, 1643, rfl⟩
abbrev main_v1471 : Ref sig .tc := ⟨.hbm, 1644, rfl⟩
abbrev main_v1472 : Ref sig .tc := ⟨.hbm, 1645, rfl⟩
abbrev main_v1473 : Ref sig .tc := ⟨.hbm, 1646, rfl⟩
abbrev main_v1474 : Ref sig .tc := ⟨.hbm, 1647, rfl⟩
abbrev main_cst_166 : Ref sig .tc := ⟨.hbm, 1648, rfl⟩
abbrev main_v1475 : Ref sig .tc := ⟨.hbm, 1649, rfl⟩
abbrev main_v1476 : Ref sig .tc := ⟨.hbm, 1650, rfl⟩
abbrev main_cst_167 : Ref sig .tc := ⟨.hbm, 1651, rfl⟩
abbrev main_v1477 : Ref sig .tc := ⟨.hbm, 1652, rfl⟩
abbrev main_v1478 : Ref sig .tc := ⟨.hbm, 1653, rfl⟩
abbrev main_v1479 : Ref sig .tc := ⟨.hbm, 1654, rfl⟩
abbrev main_v1480 : Ref sig .tc := ⟨.hbm, 1655, rfl⟩
abbrev main_v1481 : Ref sig .tc := ⟨.hbm, 1656, rfl⟩
abbrev main_v1482 : Ref sig .tc := ⟨.hbm, 1657, rfl⟩
abbrev main_v1483 : Ref sig .tc := ⟨.hbm, 1658, rfl⟩
abbrev main_v1484 : Ref sig .tc := ⟨.hbm, 1659, rfl⟩
abbrev main_v1485 : Ref sig .tc := ⟨.hbm, 1660, rfl⟩
abbrev main_v1486 : Ref sig .tc := ⟨.hbm, 1661, rfl⟩
abbrev main_v1487 : Ref sig .tc := ⟨.hbm, 1662, rfl⟩
abbrev main_v1488 : Ref sig .tc := ⟨.hbm, 1663, rfl⟩
abbrev main_v1489 : Ref sig .tc := ⟨.hbm, 1664, rfl⟩
abbrev main_v1490 : Ref sig .tc := ⟨.hbm, 1665, rfl⟩
abbrev main_v1491 : Ref sig .tc := ⟨.hbm, 1666, rfl⟩
abbrev main_v1492 : Ref sig .tc := ⟨.hbm, 1667, rfl⟩
abbrev main_v1493 : Ref sig .tc := ⟨.hbm, 1668, rfl⟩
abbrev main_v1494 : Ref sig .tc := ⟨.hbm, 1669, rfl⟩
abbrev main_v1495 : Ref sig .tc := ⟨.hbm, 1670, rfl⟩
abbrev main_v1496 : Ref sig .tc := ⟨.hbm, 1671, rfl⟩
abbrev main_v1497 : Ref sig .tc := ⟨.hbm, 1672, rfl⟩
abbrev main_v1498 : Ref sig .tc := ⟨.hbm, 1673, rfl⟩
abbrev main_v1499 : Ref sig .tc := ⟨.hbm, 1674, rfl⟩
abbrev main_v1500 : Ref sig .tc := ⟨.hbm, 1675, rfl⟩
abbrev main_v1501 : Ref sig .tc := ⟨.hbm, 1676, rfl⟩
abbrev main_v1502 : Ref sig .tc := ⟨.hbm, 1677, rfl⟩
abbrev main_v1503 : Ref sig .tc := ⟨.hbm, 1678, rfl⟩
abbrev main_v1504 : Ref sig .tc := ⟨.hbm, 1679, rfl⟩
abbrev main_v1505 : Ref sig .tc := ⟨.hbm, 1680, rfl⟩
abbrev main_v1506 : Ref sig .tc := ⟨.hbm, 1681, rfl⟩
abbrev main_v1507 : Ref sig .tc := ⟨.hbm, 1682, rfl⟩
abbrev main_v1508 : Ref sig .tc := ⟨.hbm, 1683, rfl⟩
abbrev main_v1509 : Ref sig .tc := ⟨.hbm, 1684, rfl⟩
abbrev main_v1510 : Ref sig .tc := ⟨.hbm, 1685, rfl⟩
abbrev main_v1511 : Ref sig .tc := ⟨.hbm, 1686, rfl⟩
abbrev main_v1512 : Ref sig .tc := ⟨.hbm, 1687, rfl⟩
abbrev main_v1513 : Ref sig .tc := ⟨.hbm, 1688, rfl⟩
abbrev main_v1514 : Ref sig .tc := ⟨.hbm, 1689, rfl⟩
abbrev main_v1515 : Ref sig .tc := ⟨.hbm, 1690, rfl⟩
abbrev main_cst_168 : Ref sig .tc := ⟨.hbm, 1691, rfl⟩
abbrev main_v1516 : Ref sig .tc := ⟨.hbm, 1692, rfl⟩
abbrev main_v1517 : Ref sig .tc := ⟨.hbm, 1693, rfl⟩
abbrev main_cst_169 : Ref sig .tc := ⟨.hbm, 1694, rfl⟩
abbrev main_v1518 : Ref sig .tc := ⟨.hbm, 1695, rfl⟩
abbrev main_v1519 : Ref sig .tc := ⟨.hbm, 1696, rfl⟩
abbrev main_v1520 : Ref sig .tc := ⟨.hbm, 1697, rfl⟩
abbrev main_v1521 : Ref sig .tc := ⟨.hbm, 1698, rfl⟩
abbrev main_v1522 : Ref sig .tc := ⟨.hbm, 1699, rfl⟩
abbrev main_cst_170 : Ref sig .tc := ⟨.hbm, 1700, rfl⟩
abbrev main_v1523 : Ref sig .tc := ⟨.hbm, 1701, rfl⟩
abbrev main_v1524 : Ref sig .tc := ⟨.hbm, 1702, rfl⟩
abbrev main_cst_171 : Ref sig .tc := ⟨.hbm, 1703, rfl⟩
abbrev main_v1525 : Ref sig .tc := ⟨.hbm, 1704, rfl⟩
abbrev main_v1526 : Ref sig .tc := ⟨.hbm, 1705, rfl⟩
abbrev main_v1527 : Ref sig .tc := ⟨.hbm, 1706, rfl⟩
abbrev main_v1528 : Ref sig .tc := ⟨.hbm, 1707, rfl⟩
abbrev main_v1529 : Ref sig .tc := ⟨.hbm, 1708, rfl⟩
abbrev main_v1530 : Ref sig .tc := ⟨.hbm, 1709, rfl⟩
abbrev main_v1531 : Ref sig .tc := ⟨.hbm, 1710, rfl⟩
abbrev main_cst_172 : Ref sig .tc := ⟨.hbm, 1711, rfl⟩
abbrev main_v1532 : Ref sig .tc := ⟨.hbm, 1712, rfl⟩
abbrev main_v1533 : Ref sig .tc := ⟨.hbm, 1713, rfl⟩
abbrev main_cst_173 : Ref sig .tc := ⟨.hbm, 1714, rfl⟩
abbrev main_v1534 : Ref sig .tc := ⟨.hbm, 1715, rfl⟩
abbrev main_v1535 : Ref sig .tc := ⟨.hbm, 1716, rfl⟩
abbrev main_v1536 : Ref sig .tc := ⟨.hbm, 1717, rfl⟩
abbrev main_v1537 : Ref sig .tc := ⟨.hbm, 1718, rfl⟩
abbrev main_v1538 : Ref sig .tc := ⟨.hbm, 1719, rfl⟩
abbrev main_v1539 : Ref sig .tc := ⟨.hbm, 1720, rfl⟩
abbrev main_v1540 : Ref sig .tc := ⟨.hbm, 1721, rfl⟩
abbrev main_v1541 : Ref sig .tc := ⟨.hbm, 1722, rfl⟩
abbrev main_v1542 : Ref sig .tc := ⟨.hbm, 1723, rfl⟩
abbrev main_v1543 : Ref sig .tc := ⟨.hbm, 1724, rfl⟩
abbrev main_v1544 : Ref sig .tc := ⟨.hbm, 1725, rfl⟩
abbrev main_v1545 : Ref sig .tc := ⟨.hbm, 1726, rfl⟩
abbrev main_v1546 : Ref sig .tc := ⟨.hbm, 1727, rfl⟩
abbrev main_v1547 : Ref sig .tc := ⟨.hbm, 1728, rfl⟩
abbrev main_v1548 : Ref sig .tc := ⟨.hbm, 1729, rfl⟩
abbrev main_v1549 : Ref sig .tc := ⟨.hbm, 1730, rfl⟩
abbrev main_v1550 : Ref sig .tc := ⟨.hbm, 1731, rfl⟩
abbrev main_v1551 : Ref sig .tc := ⟨.hbm, 1732, rfl⟩
abbrev main_v1552 : Ref sig .tc := ⟨.hbm, 1733, rfl⟩
abbrev main_v1553 : Ref sig .tc := ⟨.hbm, 1734, rfl⟩
abbrev main_v1554 : Ref sig .tc := ⟨.hbm, 1735, rfl⟩
abbrev main_v1555 : Ref sig .tc := ⟨.hbm, 1736, rfl⟩
abbrev main_v1556 : Ref sig .tc := ⟨.hbm, 1737, rfl⟩
abbrev main_v1557 : Ref sig .tc := ⟨.hbm, 1738, rfl⟩
abbrev main_v1558 : Ref sig .tc := ⟨.hbm, 1739, rfl⟩
abbrev main_v1559 : Ref sig .tc := ⟨.hbm, 1740, rfl⟩
abbrev main_v1560 : Ref sig .tc := ⟨.hbm, 1741, rfl⟩
abbrev main_v1561 : Ref sig .tc := ⟨.hbm, 1742, rfl⟩
abbrev main_v1562 : Ref sig .tc := ⟨.hbm, 1743, rfl⟩
abbrev main_v1563 : Ref sig .tc := ⟨.hbm, 1744, rfl⟩
abbrev main_v1564 : Ref sig .tc := ⟨.hbm, 1745, rfl⟩
abbrev main_cst_174 : Ref sig .tc := ⟨.hbm, 1746, rfl⟩
abbrev main_v1565 : Ref sig .tc := ⟨.hbm, 1747, rfl⟩
abbrev main_v1566 : Ref sig .tc := ⟨.hbm, 1748, rfl⟩
abbrev main_cst_175 : Ref sig .tc := ⟨.hbm, 1749, rfl⟩
abbrev main_v1567 : Ref sig .tc := ⟨.hbm, 1750, rfl⟩
abbrev main_v1568 : Ref sig .tc := ⟨.hbm, 1751, rfl⟩
abbrev main_v1569 : Ref sig .tc := ⟨.hbm, 1752, rfl⟩
abbrev main_v1570 : Ref sig .tc := ⟨.hbm, 1753, rfl⟩
abbrev main_v1571 : Ref sig .tc := ⟨.hbm, 1754, rfl⟩
abbrev main_cst_176 : Ref sig .tc := ⟨.hbm, 1755, rfl⟩
abbrev main_v1572 : Ref sig .tc := ⟨.hbm, 1756, rfl⟩
abbrev main_v1573 : Ref sig .tc := ⟨.hbm, 1757, rfl⟩
abbrev main_cst_177 : Ref sig .tc := ⟨.hbm, 1758, rfl⟩
abbrev main_v1574 : Ref sig .tc := ⟨.hbm, 1759, rfl⟩
abbrev main_v1575 : Ref sig .tc := ⟨.hbm, 1760, rfl⟩
abbrev main_v1576 : Ref sig .tc := ⟨.hbm, 1761, rfl⟩
abbrev main_v1577 : Ref sig .tc := ⟨.hbm, 1762, rfl⟩
abbrev main_v1578 : Ref sig .tc := ⟨.hbm, 1763, rfl⟩
abbrev main_v1579 : Ref sig .tc := ⟨.hbm, 1764, rfl⟩
abbrev main_v1580 : Ref sig .tc := ⟨.hbm, 1765, rfl⟩
abbrev main_cst_178 : Ref sig .tc := ⟨.hbm, 1766, rfl⟩
abbrev main_v1581 : Ref sig .tc := ⟨.hbm, 1767, rfl⟩
abbrev main_v1582 : Ref sig .tc := ⟨.hbm, 1768, rfl⟩
abbrev main_cst_179 : Ref sig .tc := ⟨.hbm, 1769, rfl⟩
abbrev main_v1583 : Ref sig .tc := ⟨.hbm, 1770, rfl⟩
abbrev main_v1584 : Ref sig .tc := ⟨.hbm, 1771, rfl⟩
abbrev main_v1585 : Ref sig .tc := ⟨.hbm, 1772, rfl⟩
abbrev main_v1586 : Ref sig .tc := ⟨.hbm, 1773, rfl⟩
abbrev main_v1587 : Ref sig .tc := ⟨.hbm, 1774, rfl⟩
abbrev main_v1588 : Ref sig .tc := ⟨.hbm, 1775, rfl⟩
abbrev main_v1589 : Ref sig .tc := ⟨.hbm, 1776, rfl⟩
abbrev main_v1590 : Ref sig .tc := ⟨.hbm, 1777, rfl⟩
abbrev main_v1591 : Ref sig .tc := ⟨.hbm, 1778, rfl⟩
abbrev main_v1592 : Ref sig .tc := ⟨.hbm, 1779, rfl⟩
abbrev main_v1593 : Ref sig .tc := ⟨.hbm, 1780, rfl⟩
abbrev main_v1594 : Ref sig .tc := ⟨.hbm, 1781, rfl⟩
abbrev main_v1595 : Ref sig .tc := ⟨.hbm, 1782, rfl⟩
abbrev main_v1596 : Ref sig .tc := ⟨.hbm, 1783, rfl⟩
abbrev main_v1597 : Ref sig .tc := ⟨.hbm, 1784, rfl⟩
abbrev main_v1598 : Ref sig .tc := ⟨.hbm, 1785, rfl⟩
abbrev main_v1599 : Ref sig .tc := ⟨.hbm, 1786, rfl⟩
abbrev main_v1600 : Ref sig .tc := ⟨.hbm, 1787, rfl⟩
abbrev main_v1601 : Ref sig .tc := ⟨.hbm, 1788, rfl⟩
abbrev main_v1602 : Ref sig .tc := ⟨.hbm, 1789, rfl⟩
abbrev main_v1603 : Ref sig .tc := ⟨.hbm, 1790, rfl⟩
abbrev main_v1604 : Ref sig .tc := ⟨.hbm, 1791, rfl⟩
abbrev main_v1605 : Ref sig .tc := ⟨.hbm, 1792, rfl⟩
abbrev main_v1606 : Ref sig .tc := ⟨.hbm, 1793, rfl⟩
abbrev main_v1607 : Ref sig .tc := ⟨.hbm, 1794, rfl⟩
abbrev main_v1608 : Ref sig .tc := ⟨.hbm, 1795, rfl⟩
abbrev main_v1609 : Ref sig .tc := ⟨.hbm, 1796, rfl⟩

abbrev nD : Nat := 1
abbrev τ : Topo := Topo.v7x

variable {F : FTy → Type} [FloatOps F]

class Facts₀ : Prop where
  concatenates_S15x256x512_S15x256x512_S15x256x1024_d2 : Shape.Concatenates [S15x256x512, S15x256x512] S15x256x1024 2
  transposes_S15x256x1024_S256x15x1024_1_0_2 : S15x256x1024.Transposes [1, 0, 2] S256x15x1024
  bcast_S_S2x256x1024 : S_.BroadcastsInDim S2x256x1024 (![] : Fin 0 → Fin S2x256x1024.rank)
  slices_S256x15x1024_S256x1x1024_0_0_0 : S256x15x1024.Slices ![0, 0, 0] S256x1x1024
  shapeCasts_S256x1x1024_S256x1024 : S256x1x1024.ShapeCasts S256x1024
  slices_S2x256x1024_S1x256x1024_0_0_0 : S2x256x1024.Slices ![0, 0, 0] S1x256x1024
  shapeCasts_S1x256x1024_S256x1024 : S1x256x1024.ShapeCasts S256x1024
  slices_S2x4096x1024_S1x4096x1024_0_0_0 : S2x4096x1024.Slices ![0, 0, 0] S1x4096x1024
  shapeCasts_S1x4096x1024_S4096x1024 : S1x4096x1024.ShapeCasts S4096x1024
  slices_S2x4096_S1x4096_0_0 : S2x4096.Slices ![0, 0] S1x4096
  shapeCasts_S1x4096_S4096 : S1x4096.ShapeCasts S4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  slices_S256x4096_S256x1024_0_0 : S256x4096.Slices ![0, 0] S256x1024
  slices_S256x4096_S256x1024_0_1024 : S256x4096.Slices ![0, 1024] S256x1024
  slices_S256x4096_S256x1024_0_2048 : S256x4096.Slices ![0, 2048] S256x1024
  slices_S256x4096_S256x1024_0_3072 : S256x4096.Slices ![0, 3072] S256x1024
  bcast_S_S256x1024 : S_.BroadcastsInDim S256x1024 (![] : Fin 0 → Fin S256x1024.rank)
  slices_S2x256x1024_S1x256x1024_1_0_0 : S2x256x1024.Slices ![1, 0, 0] S1x256x1024
  slices_S2x4096x1024_S1x4096x1024_1_0_0 : S2x4096x1024.Slices ![1, 0, 0] S1x4096x1024
  slices_S2x4096_S1x4096_1_0 : S2x4096.Slices ![1, 0] S1x4096
  bcast_S256x1024_S1x256x1024_1_2 : S256x1024.BroadcastsInDim S1x256x1024 (![1, 2] : Fin 2 → Fin S1x256x1024.rank)
  concatenates_S1x256x1024_S1x256x1024_S2x256x1024_d0 : Shape.Concatenates [S1x256x1024, S1x256x1024] S2x256x1024 0
  slices_S256x15x1024_S256x1x1024_0_1_0 : S256x15x1024.Slices ![0, 1, 0] S256x1x1024
  slices_S256x15x1024_S256x1x1024_0_2_0 : S256x15x1024.Slices ![0, 2, 0] S256x1x1024
  slices_S256x15x1024_S256x1x1024_0_3_0 : S256x15x1024.Slices ![0, 3, 0] S256x1x1024
  slices_S256x15x1024_S256x1x1024_0_4_0 : S256x15x1024.Slices ![0, 4, 0] S256x1x1024
  slices_S256x15x1024_S256x1x1024_0_5_0 : S256x15x1024.Slices ![0, 5, 0] S256x1x1024
  slices_S256x15x1024_S256x1x1024_0_6_0 : S256x15x1024.Slices ![0, 6, 0] S256x1x1024
  slices_S256x15x1024_S256x1x1024_0_7_0 : S256x15x1024.Slices ![0, 7, 0] S256x1x1024
  slices_S256x15x1024_S256x1x1024_0_8_0 : S256x15x1024.Slices ![0, 8, 0] S256x1x1024
  slices_S256x15x1024_S256x1x1024_0_9_0 : S256x15x1024.Slices ![0, 9, 0] S256x1x1024
  slices_S256x15x1024_S256x1x1024_0_10_0 : S256x15x1024.Slices ![0, 10, 0] S256x1x1024
  slices_S256x15x1024_S256x1x1024_0_11_0 : S256x15x1024.Slices ![0, 11, 0] S256x1x1024
  slices_S256x15x1024_S256x1x1024_0_12_0 : S256x15x1024.Slices ![0, 12, 0] S256x1x1024
  slices_S256x15x1024_S256x1x1024_0_13_0 : S256x15x1024.Slices ![0, 13, 0] S256x1x1024
  slices_S256x15x1024_S256x1x1024_0_14_0 : S256x15x1024.Slices ![0, 14, 0] S256x1x1024
  bcast_S256x1024_S256x1x1024_0_2 : S256x1024.BroadcastsInDim S256x1x1024 (![0, 2] : Fin 2 → Fin S256x1x1024.rank)
  concatenates_S256x1x1024_S256x1x1024_S256x1x1024_S256x1x1024_S256x1x1024_S256x1x1024_S256x1x1024_S256x1x1024_S256x1x1024_S256x1x1024_S256x1x1024_S256x1x1024_S256x1x1024_S256x1x1024_S256x1x1024_S256x15x1024_d1 : Shape.Concatenates [S256x1x1024, S256x1x1024, S256x1x1024, S256x1x1024, S256x1x1024, S256x1x1024, S256x1x1024, S256x1x1024, S256x1x1024, S256x1x1024, S256x1x1024, S256x1x1024, S256x1x1024, S256x1x1024, S256x1x1024] S256x15x1024 1
  transposes_S256x15x1024_S15x256x1024_1_0_2 : S256x15x1024.Transposes [1, 0, 2] S15x256x1024
  dot_S256x1024_S1024x4096_S256x4096_1_0_0_1_n_n_wf : DotDims.WF S256x1024 S1024x4096 S256x4096 [1] [0] [0] [1] [] []

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

class Facts : Prop extends Facts₀ where

variable [Facts]
-- ==== Proof.K.Common.lean ====
/-
  What the two regions of the program share: the prefetched table's contents and the admissible contents both
  pipelines run at.
-/
import proofs.«109754_j89713276879117_1_alg».proof.Proof.Gen.KernelIdeal.Launch
import Idealize.ShloMosaic.Lib.Pipeline.Kit

noncomputable section

namespace Cert.KernelIdeal.KC

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The prefetched table -/

/-- The table's contents: the printed constant, element by element (the parent slab of each node). -/
def tblC : (main_c : Ref sig .tc).ty.Contents (Elt F) := fun i => lit0 (S15.rowMajor i)

/-- Both pipelines run at the same table: the admissible contents, pipeline by pipeline. Their side condition on
    the contents is trivial (no index map reads the table). -/
def adm : (p : Fin 2) → (pcfgs (F := F) p).Adm
  | ⟨0, _⟩ => ⟨fun | ⟨0, _⟩ => tblC | ⟨_ + 1, h⟩ => absurd h (Nat.not_lt.2 (Nat.le_add_left _ _)), trivial⟩
  | ⟨1, _⟩ => ⟨fun | ⟨0, _⟩ => tblC | ⟨_ + 1, h⟩ => absurd h (Nat.not_lt.2 (Nat.le_add_left _ _)), trivial⟩

/-- The one table of either pipeline is the constant. -/
theorem adm_tbl : (adm (F := F) 0).1 ⟨0, Nat.one_pos⟩ = tblC := rfl
theorem adm_tbl1 : (adm (F := F) 1).1 ⟨0, Nat.one_pos⟩ = tblC := rfl

/-! ## The state between two items of the program -/

/-- A valuation of every buffer of the core, read at the TensorCore's references. -/
abbrev Vr (W : Dev nD → Valuation τ sig (Elt F)) : (c : Dev nD) → (b : Ref sig .tc) → Buf (Elt F) ((c : Thread nD τ).loc b) :=
  fun c b => W c b

/-- What rides beside the unscoped buffers from one item of the program to the next: the generator register at some
    state, and the core owing nothing. -/
abbrev Rst (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.KC

end
-- ==== Proof.K.Body0.lean ====
/-
  One region of the program: the kernel function on symbolic contents.

  The body at a grid point, run symbolically over its skeleton: at node coordinate 0 both scratches are
  first stored whole with zeros; then the table word at the node coordinate is read, the side condition on it (it
  names a slab of the scratches) is passed from a hypothesis, that slab of both scratches and the staged blocks are
  loaded, and the new rows are stored into the node's own slab of each scratch and into the output block. What the
  stores leave is recorded as pieces (last first), found by the run.
-/
import proofs.«109754_j89713276879117_1_alg».proof.Proof.Gen.KernelIdeal.Launch
import proofs.«109754_j89713276879117_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the node coordinate -/

/-- The condition of the body's conditional: the node coordinate is 0. -/
abbrev cond0_0 (i : grid0.Coords) : Prop := (Scalar.cmpi .ne (Scalar.extui (Scalar.cmpi .eq (BitVec.ofNat 32 (i 1).val) 0#32)) 0#32) = 1#1
/-- It holds at the positions divisible by 15 (the first node of each batch half) — decided over the grid. -/
theorem hcond0_0 : ∀ t : Fin grid0.N, cond0_0 (grid0.coords t) ↔ t.val % 15 = 0 := by decide +kernel

/-! ## The table word -/

/-- The table as the body is handed it: its whole buffer as a memref. -/
abbrev tbM0 : Memref sig .tc .smem S15 .i32 := Memref.whole main_c
/-- The table's buffer on core `c`, and it held whole at contents `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The one multi-index of a one-word load. -/
abbrev i0 : S1.Idx := Shape.Idx.first (s := S1) (numel1_S1.symm ▸ Nat.one_pos)
/-- The table word's rectangle at node coordinate `i 1`, as the body's scalar load names it. -/
abbrev rWord (i : grid0.Coords) : Rect S15 := Rect.unit (s := S15) (k0_off1 i) S1.size (k0_off1_inb i)
/-- The word the body reads from table contents `T` at the point with coordinates `i`. -/
abbrev tblWord (T : (main_c : Ref sig .tc).ty.Contents (Elt F)) (i : grid0.Coords) : BitVec 32 :=
  tbM0.view.readAt (Elt F) (Rect.unit (s := S15) (k0_off1 i) S1.size (k0_off1_inb i)).toLoadRect T (Shape.Idx.first (numel1_S1.symm ▸ Nat.one_pos))

/-! ## The body's runs -/

set_option maxHeartbeats 4000000 in
/-- AT NODE COORDINATE 0. On whole staging memrefs, the inputs' at their contents, the output's at anything, both scratches
    held at given buffers `fh`, `fc`, the table held at contents whose word at the point names a slab: the body runs to the
    continuation holding the inputs' as they were, the output's buffer and each scratch with its pieces written over some contents
    (the zero fill first: nothing of `fh`, `fc` is left or read back), the table as it was. The pieces are the witness the run finds. -/
noncomputable def kernelRun0_A (c : Dev nD) (i : grid0.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : cond0_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf0 (F := F) c tbM0) (k0_hw1 : k0_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt0 c tbM0 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LH)
                ∗ (∃ f, arg9.view.loc (c : Thread nD τ) ↦[arg9.view.set]{fullShare} arg9.view.writes (Elt F) f LC)
                ∗ tbPt0 c tbM0 xt) -∗ K ⟨⟩))
          ⊢ wp frame (wpE (defs₀ (F := F)) Variants.none c none) E
              (cc0__cell_kernel i tbM0 (Memref.isWhole_whole _) arg3 harg3 arg4 harg4 arg5 harg5 arg6 harg6 arg7 harg7 arg8 harg8 arg9 harg9) K } := by
  refine ⟨?_, ?_, ?_, fun E K => ?run⟩
  case run =>
    simp only [cc0__cell_kernel_eq_skeleton]; unfold cc0__cell_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexists arg8.view.junk; iexact H8
    isplitl [H9]; · iexists arg9.view.junk; iexact H9
    iexact HT

set_option maxHeartbeats 4000000 in
/-- AT ANY OTHER NODE COORDINATE. The same without the zero fill: each scratch comes back with its one piece (the node's own
    slab) written over its buffer, the slab the table word names read off that buffer. -/
noncomputable def kernelRun0_B (c : Dev nD) (i : grid0.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : ¬cond0_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf0 (F := F) c tbM0) (k0_hw1 : k0_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt0 c tbM0 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) fh LH)
                ∗ (arg9.view.loc (c : Thread nD τ) ↦[arg9.view.set]{fullShare} arg9.view.writes (Elt F) fc LC)
                ∗ tbPt0 c tbM0 xt) -∗ K ⟨⟩))
          ⊢ wp frame (wpE (defs₀ (F := F)) Variants.none c none) E
              (cc0__cell_kernel i tbM0 (Memref.isWhole_whole _) arg3 harg3 arg4 harg4 arg5 harg5 arg6 harg6 arg7 harg7 arg8 harg8 arg9 harg9) K } := by
  refine ⟨?_, ?_, ?_, fun E K => ?run⟩
  case run =>
    simp only [cc0__cell_kernel_eq_skeleton]; unfold cc0__cell_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexact H8
    isplitl [H9]; · iexact H9
    iexact HT

end Cert.KernelIdeal.K0

end
-- ==== Proof.K.Data0.lean ====
/-
  One region of the program: the contents its buffers hold point by point, the invariant its pipeline carries,
  the proof data, and the body obligation.

  The kernel walks a tree in node order. Two scratch buffers of sixteen slabs hold the hidden rows and the cell
  rows of the nodes done so far (slab 0 the zero state every root reads). At node coordinate 0 both scratches
  are stored whole with zeros; at every point the body reads the table word at the node coordinate, loads that
  slab of both scratches (the parent's state), computes the cell from it and the staged blocks, and stores the
  new hidden rows into slab (node + 1) of the hidden scratch and into the output block, the new cell rows into
  slab (node + 1) of the cell scratch.
-/
import proofs.«109754_j89713276879117_1_alg».proof.Proof.K.Common
import proofs.«109754_j89713276879117_1_alg».proof.Proof.K.Body0
import Idealize.ShloMosaic.Lib.Pipeline.Value

set_option maxRecDepth 16384

noncomputable section

namespace Cert.KernelIdeal.K0

open Cert.KernelIdeal Cert.KernelIdeal.Gen Cert.KernelIdeal.KC
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The prefetched table -/

/-- Every word of the constant names a slab of the scratches: each is below 16. -/
theorem chk_tbl (i : grid0.Coords) : k0_chk1 (tblWord (tblC (F := F)) i) := by
  have key : ∀ j : Fin 15, k0_chk1 (lit0 j) := by decide +kernel
  show k0_chk1 (lit0 (S15.rowMajor ((rWord i).emb i0)))
  exact key _

/-! ## The pipeline at the table, its points and the body there -/

/-- The grid has 30 points: 2 batch halves of 15 nodes. -/
theorem N_A : (cfg0 (adm (F := F) 0)).N = 30 := N_0

/-- Each window's current staging memref at point `t`, as the pipeline passes it to the body, and its wholeness. -/
abbrev ms0_0 (t : Fin (cfg0 (adm (F := F) 0)).N) : Memref sig .tc .vmem S1x128x1024 .bf16 := spec0_0.stage ((cfg0 (adm (F := F) 0)).slots t 0)
abbrev hs0_0 (t : Fin (cfg0 (adm (F := F) 0)).N) : (ms0_0 (F := F) t).IsWhole := hstage0_0 (((cfg0 (adm (F := F) 0)).slots t 0).cast nbuf0_0)
abbrev ms0_1 (t : Fin (cfg0 (adm (F := F) 0)).N) : Memref sig .tc .vmem S1024x4096 .bf16 := spec0_1.stage ((cfg0 (adm (F := F) 0)).slots t 1)
abbrev hs0_1 (t : Fin (cfg0 (adm (F := F) 0)).N) : (ms0_1 (F := F) t).IsWhole := hstage0_1 (((cfg0 (adm (F := F) 0)).slots t 1).cast nbuf0_1)
abbrev ms0_2 (t : Fin (cfg0 (adm (F := F) 0)).N) : Memref sig .tc .vmem S1024x4096 .bf16 := spec0_2.stage ((cfg0 (adm (F := F) 0)).slots t 2)
abbrev hs0_2 (t : Fin (cfg0 (adm (F := F) 0)).N) : (ms0_2 (F := F) t).IsWhole := hstage0_2 (((cfg0 (adm (F := F) 0)).slots t 2).cast nbuf0_2)
abbrev ms0_3 (t : Fin (cfg0 (adm (F := F) 0)).N) : Memref sig .tc .vmem S1x4096 .f32 := spec0_3.stage ((cfg0 (adm (F := F) 0)).slots t 3)
abbrev hs0_3 (t : Fin (cfg0 (adm (F := F) 0)).N) : (ms0_3 (F := F) t).IsWhole := hstage0_3 (((cfg0 (adm (F := F) 0)).slots t 3).cast nbuf0_3)
abbrev ms0_4 (t : Fin (cfg0 (adm (F := F) 0)).N) : Memref sig .tc .vmem S1x128x1024 .f32 := spec0_4.stage ((cfg0 (adm (F := F) 0)).slots t 4)
abbrev hs0_4 (t : Fin (cfg0 (adm (F := F) 0)).N) : (ms0_4 (F := F) t).IsWhole := hstage0_4 (((cfg0 (adm (F := F) 0)).slots t 4).cast nbuf0_4)
/-- The two scratch operands: whole buffers passed beside the windows (the table's memref is `tbM0`). -/
abbrev scM0_0 : Memref sig .tc .vmem S16x128x1024 .f32 := Memref.whole cc0_scratch0
abbrev scM0_1 : Memref sig .tc .vmem S16x128x1024 .f32 := Memref.whole cc0_scratch1

/-- The kernel body at point `t`, on what the pipeline calls it with. -/
abbrev bodyAt0 (t : Fin (cfg0 (adm (F := F) 0)).N) : Prog (TpuEff nD τ sig (Elt F) Λ₀ .tc) PUnit :=
  cc0__cell_kernel (grid0.coords t) tbM0 (Memref.isWhole_whole _) (ms0_0 t) (hs0_0 t) (ms0_1 t) (hs0_1 t) (ms0_2 t) (hs0_2 t)
    (ms0_3 t) (hs0_3 t) (ms0_4 t) (hs0_4 t) scM0_0 (Memref.isWhole_whole _) scM0_1 (Memref.isWhole_whole _)

/-! ## The cell on contents -/

/-- The rectangles of the body's accesses: the staged blocks whole, the parent's slab, the node's own slab. -/
abbrev rX : Rect S1x128x1024 := Rect.unit (s := S1x128x1024) ![0, 0, 0] S1x128x1024.size inb_S1x128x1024_S1x128x1024_0_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rPar (v : BitVec 32) (h : k0_chk1 v) : Rect S16x128x1024 := Rect.unit (s := S16x128x1024) (k0_off2 v) S1x128x1024.size (k0_off2_inb v h)
abbrev rNew (i : grid0.Coords) : Rect S16x128x1024 := Rect.unit (s := S16x128x1024) (k0_off3 i) S1x128x1024.size (k0_off3_inb i)

section Cell

variable (v : BitVec 32) (hv : k0_chk1 v) (hs cs : Vec F S16x128x1024 .f32)
  (x : Vec F S1x128x1024 .bf16) (w u : Vec F S1024x4096 .bf16) (b : Vec F S1x4096 .f32)

/-- The new cell rows: the cell of the staged blocks and of slab `v` of the two scratches. -/
def cellC : FVec F S128x1024 .f32 :=
  k0_pay7 (View.ld hs (rPar v hv)) (View.ld cs (rPar v hv)) (View.ld x rX) (View.ld w rW) (View.ld u rW) (View.ld b rB)
/-- The new hidden rows. -/
def cellH : FVec F S128x1024 .f32 :=
  k0_pay8 (View.ld hs (rPar v hv)) (View.ld cs (rPar v hv)) (View.ld x rX) (View.ld w rW) (View.ld u rW) (View.ld b rB)

/-- What one point leaves from scratches `hs`, `cs`: the output block (the new hidden rows), the hidden scratch with the node's
    slab replaced by them, the cell scratch with the node's slab replaced by the new cell rows. -/
def cellOut (i : grid0.Coords) : Vec F S1x128x1024 .f32 × Vec F S16x128x1024 .f32 × Vec F S16x128x1024 .f32 :=
  (k0_pay3 (cellH v hv hs cs x w u b),
   (rNew i).overlay hs (k0_pay1 (cellH v hv hs cs x w u b)),
   (rNew i).overlay cs (k0_pay2 (cellC v hv hs cs x w u b)))

end Cell

/-! ## Small facts about contents and the invariant's parts -/

omit [FloatOps F] in
/-- What a run of stores leaves reads as the last store's payload laid over what the earlier ones left. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

omit [FloatOps F] in
/-- Laid over anything through the whole-shape rectangle at zero offsets, a payload is all there is. -/
theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rwa [Rect.emb_whole_apply] at e

/-- The zero offsets of the whole-block accesses, however they are spelt. -/
theorem zero3 : (![0, 0, 0] : Fin 3 → ℕ) = fun _ => 0 := funext fun a => by fin_cases a <;> rfl
theorem zero2 : (![0, 0] : Fin 2 → ℕ) = fun _ => 0 := funext fun a => by fin_cases a <;> rfl

/-- The scoped buffers no window stages: the two scratches, each whole at some contents, and the rest unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] ⟨⟨by decide, by decide⟩, ⟨by decide, by decide⟩⟩ (by decide)

/-- What the region hands in beside the table, with the scratches as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

/-- The table whole at the constant, as the body's run holds it. -/
theorem prefHeld0_eq (c : Dev nD) :
    (Pipeline.prefHeld (Ix := Unit) (Name := ℕ) (U := UR sig nD τ) (Lvl := ℕ) pre0 c (fun _ => fullShare) (adm (F := F) 0).1 : sProp 𝕄)
      = tbPt0 c tbM0 (tblC (F := F)) := by
  unfold Pipeline.prefHeld
  rw [show (Finset.univ : Finset (Fin 1)) = {(0 : Fin 1)} from by decide, bigSep_singleton]
  rfl

/-! ## The region at entry contents `V` -/

section Region

variable (V : (c : Dev nD) → (b : Ref sig .tc) → Buf (Elt F) ((c : Thread nD τ).loc b))

/-- Window `w`'s block at point `t`, read off its array as the region finds it. -/
def iblk0 (c : Dev nD) (w : Fin (cfg0 (adm (F := F) 0)).W) (t : Fin (cfg0 (adm (F := F) 0)).N) :
    (((cfg0 (adm (F := F) 0)).win w).xblock ((cfg0 (adm (F := F) 0)).grid.coords t)).Idx → Elt F ((cfg0 (adm (F := F) 0)).win w).elt :=
  (((cfg0 (adm (F := F) 0)).win w).blk t).view.read (Elt F) (V c (Pipeline.arrRef spec0 w))

/-- One point from scratches `hs`, `cs`, at the point's table word and staged blocks. -/
def cellAt (c : Dev nD) (t : Fin (cfg0 (adm (F := F) 0)).N) (hs cs : Vec F S16x128x1024 .f32) :
    Vec F S1x128x1024 .f32 × Vec F S16x128x1024 .f32 × Vec F S16x128x1024 .f32 :=
  cellOut (tblWord (tblC (F := F)) (grid0.coords t)) (chk_tbl (grid0.coords t)) hs cs
    (iblk0 V c 0 t) (iblk0 V c 1 t) (iblk0 V c 2 t) (iblk0 V c 3 t) (grid0.coords t)

/-- THE ACCUMULATION. The output block, the hidden scratch and the cell scratch after the body at position `n`: at node
    coordinate 0 (the positions divisible by 15) the cell over the zero scratches, elsewhere over what the position before left. -/
def outsAt0 (c : Dev nD) : (n : ℕ) → n < (cfg0 (adm (F := F) 0)).N → Vec F S1x128x1024 .f32 × Vec F S16x128x1024 .f32 × Vec F S16x128x1024 .f32
  | 0, hn => cellAt V c ⟨0, hn⟩ k0_pay4 k0_pay5
  | n + 1, hn =>
    if (n + 1) % 15 = 0 then cellAt V c ⟨n + 1, hn⟩ k0_pay4 k0_pay5
    else cellAt V c ⟨n + 1, hn⟩ (outsAt0 c n (Nat.lt_of_succ_lt hn)).2.1 (outsAt0 c n (Nat.lt_of_succ_lt hn)).2.2

/-- At a point of node coordinate 0: the cell over the zero scratches. -/
theorem outsAt0_A (c : Dev nD) (t : Fin (cfg0 (adm (F := F) 0)).N) (h0 : t.val % 15 = 0) :
    outsAt0 V c t.val t.isLt = cellAt V c t k0_pay4 k0_pay5 := by
  obtain ⟨n, hn⟩ := t
  cases n with
  | zero => exact rfl
  | succ n => exact (if_pos h0).trans rfl

/-- At any other point: the cell over what the point before left in the scratches. -/
theorem outsAt0_B (c : Dev nD) (t : Fin (cfg0 (adm (F := F) 0)).N) (h0 : ¬t.val % 15 = 0) :
    outsAt0 V c t.val t.isLt = cellAt V c t (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (if_neg h0).trans rfl

/-- The region invariant before position `n`. Before the first point: what the region hands in, the scoped buffers no
    window stages at anything with the generator register, and the table whole at the constant. Afterwards: the two
    scratches at what the point before left, the other scoped buffers at anything, the register, the table. -/
def PhiS0 (c : Dev nD) : (n : ℕ) → n ≤ (cfg0 (adm (F := F) 0)).N → sProp 𝕄
  | 0, _ => iprop(Pipeline.ΦA spec0 c ∗ Pipeline.prefHeld pre0 c (fun _ => fullShare) (adm (F := F) 0).1)
  | n + 1, hn => iprop(owns (c : Thread nD τ) scM0_0 fullShare (outsAt0 V c n hn).2.1
      ∗ owns (c : Thread nD τ) scM0_1 fullShare (outsAt0 V c n hn).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1)

theorem PhiS0_zero (c : Dev nD) (n : ℕ) (h : n ≤ (cfg0 (adm (F := F) 0)).N) (hz : n = 0) :
    PhiS0 V c n h = iprop(Pipeline.ΦA spec0 c ∗ Pipeline.prefHeld pre0 c (fun _ => fullShare) (adm (F := F) 0).1) := by
  subst hz; rfl

theorem PhiS0_succ (c : Dev nD) (n : ℕ) (hn : n < (cfg0 (adm (F := F) 0)).N) :
    PhiS0 V c (n + 1) hn = iprop(owns (c : Thread nD τ) scM0_0 fullShare (outsAt0 V c n hn).2.1
      ∗ owns (c : Thread nD τ) scM0_1 fullShare (outsAt0 V c n hn).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1) := rfl

/-- Before a point that is not the first: the scratches at what the point before left. -/
theorem PhiS0_pos (c : Dev nD) (n : ℕ) (h : n ≤ (cfg0 (adm (F := F) 0)).N) (hz : n ≠ 0) :
    PhiS0 V c n h = iprop(owns (c : Thread nD τ) scM0_0 fullShare (outsAt0 V c (n - 1) (by omega)).2.1
      ∗ owns (c : Thread nD τ) scM0_1 fullShare (outsAt0 V c (n - 1) (by omega)).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1) := by
  cases n with
  | zero => exact absurd rfl hz
  | succ n => rfl

/-- The proof data of the pipeline on core `c`: the arrays as the region finds them; after the body at point `t` each
    input's buffer at its block and the output's at the point's new hidden rows; the invariant `PhiS0`; nothing owed;
    full shares. -/
def dat0 (c : Dev nD) : Dat τ (Elt F) Unit ℕ (UR sig nD τ) ℕ (cfg0 (adm (F := F) 0)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin (cfg0 (adm (F := F) 0)).W) : (dat0 V c).A w = V c (Pipeline.arrRef spec0 w) := by
  dsimp only [dat0]

theorem after0_0 (c : Dev nD) (t : Fin (cfg0 (adm (F := F) 0)).N) : (dat0 V c).after 0 t = iblk0 V c 0 t := by dsimp only [dat0] <;> rfl
theorem after0_1 (c : Dev nD) (t : Fin (cfg0 (adm (F := F) 0)).N) : (dat0 V c).after 1 t = iblk0 V c 1 t := by dsimp only [dat0] <;> rfl
theorem after0_2 (c : Dev nD) (t : Fin (cfg0 (adm (F := F) 0)).N) : (dat0 V c).after 2 t = iblk0 V c 2 t := by dsimp only [dat0] <;> rfl
theorem after0_3 (c : Dev nD) (t : Fin (cfg0 (adm (F := F) 0)).N) : (dat0 V c).after 3 t = iblk0 V c 3 t := by dsimp only [dat0] <;> rfl
theorem after0_4 (c : Dev nD) (t : Fin (cfg0 (adm (F := F) 0)).N) : (dat0 V c).after 4 t = (outsAt0 V c t.val t.isLt).1 := by dsimp only [dat0] <;> rfl

/-- The invariant at a point's start and end, restated at the point's position. -/
theorem Phi0_zero (c : Dev nD) : (dat0 V c).Φ 0 = iprop(Pipeline.ΦA spec0 c ∗ Pipeline.prefHeld pre0 c (fun _ => fullShare) (adm (F := F) 0).1) := rfl
theorem Phi0_castSucc (c : Dev nD) (t : Fin (cfg0 (adm (F := F) 0)).N) :
    (dat0 V c).Φ t.castSucc = PhiS0 V c t.val (Nat.le_of_lt t.isLt) := by
  dsimp only [dat0]; simp only [Fin.coe_castSucc]
theorem Phi0_succ (c : Dev nD) (t : Fin (cfg0 (adm (F := F) 0)).N) :
    (dat0 V c).Φ t.succ = PhiS0 V c (t.val + 1) t.isLt := rfl

/-- What the region hands in is the invariant before the first point, -/
theorem PhiS0_in (c : Dev nD) :
    iprop(Pipeline.ΦA spec0 c ∗ Pipeline.prefHeld pre0 c (fun _ => fullShare) (adm (F := F) 0).1) ⊢ (dat0 V c).Φ 0 := by
  rw [Phi0_zero]

/-- After any point the invariant gives that back: the scratches' named contents are forgotten. -/
theorem Phi0_out (c : Dev nD) (t : Fin ((cfg0 (adm (F := F) 0)).N + 1)) (ht : t.val ≠ 0) :
    (dat0 V c).Φ t ⊢ iprop(Pipeline.ΦA spec0 c ∗ Pipeline.prefHeld pre0 c (fun _ => fullShare) (adm (F := F) 0).1) := by
  rw [show (dat0 V c).Φ t = PhiS0 V c t.val (Nat.le_of_lt_succ t.isLt) from rfl, PhiS0_pos V c _ _ ht, PhiA0_eq]
  iintro ⟨HS0, HS1, HR, Hg, HT⟩
  isplitr [HT]
  · isplitl [HS0 HS1 HR]
    · isplitl [HS0 HS1]
      · isplitl [HS0]
        · iexists _; iexact HS0
        iexists _; iexact HS1
      iexact HR
    iexact Hg
  iexact HT

/-- The same after the last point. -/
theorem PhiS0_out (c : Dev nD) :
    (dat0 V c).Φ (Fin.last (cfg0 (adm (F := F) 0)).N) ⊢ iprop(Pipeline.ΦA spec0 c ∗ Pipeline.prefHeld pre0 c (fun _ => fullShare) (adm (F := F) 0).1) :=
  Phi0_out V c _ (by rw [Fin.val_last]; have : (cfg0 (adm (F := F) 0)).N = 30 := N_A; omega)

/-- Each input's current staging buffer holds its block at every point, fetched there or not. -/
theorem before0_0_of {c : Dev nD} (dat : Dat τ (Elt F) Unit ℕ (UR sig nD τ) ℕ (cfg0 (adm (F := F) 0)) c) (hA : dat.A 0 = V c (Pipeline.arrRef spec0 0))
    (hafter : ∀ t, dat.after 0 t = iblk0 V c 0 t) (t : Fin (cfg0 (adm (F := F) 0)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 (adm (F := F) 0)) c) (hA : dat.A 1 = V c (Pipeline.arrRef spec0 1))
    (hafter : ∀ t, dat.after 1 t = iblk0 V c 1 t) (t : Fin (cfg0 (adm (F := F) 0)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 (adm (F := F) 0)) c) (hA : dat.A 2 = V c (Pipeline.arrRef spec0 2))
    (hafter : ∀ t, dat.after 2 t = iblk0 V c 2 t) (t : Fin (cfg0 (adm (F := F) 0)).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 (adm (F := F) 0)) c) (hA : dat.A 3 = V c (Pipeline.arrRef spec0 3))
    (hafter : ∀ t, dat.after 3 t = iblk0 V c 3 t) (t : Fin (cfg0 (adm (F := F) 0)).N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin (cfg0 (adm (F := F) 0)).N) (d) : (dat0 V c).before 0 t d = iblk0 V c 0 t :=
  before0_0_of V (dat0 V c) (A_eq0 V c 0) (after0_0 V c) t d
theorem before0_1 (c : Dev nD) (t : Fin (cfg0 (adm (F := F) 0)).N) (d) : (dat0 V c).before 1 t d = iblk0 V c 1 t :=
  before0_1_of V (dat0 V c) (A_eq0 V c 1) (after0_1 V c) t d
theorem before0_2 (c : Dev nD) (t : Fin (cfg0 (adm (F := F) 0)).N) (d) : (dat0 V c).before 2 t d = iblk0 V c 2 t :=
  before0_2_of V (dat0 V c) (A_eq0 V c 2) (after0_2 V c) t d
theorem before0_3 (c : Dev nD) (t : Fin (cfg0 (adm (F := F) 0)).N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin (cfg0 (adm (F := F) 0)).N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin (cfg0 (adm (F := F) 0)).N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

end Region

/-! ## What the runs' pieces read back as -/

section Pieces

variable (c : Dev nD) (i : grid0.Coords)
  (arg3 : Memref sig .tc .vmem S1x128x1024 .bf16) (harg3 : arg3.IsWhole) (arg4 : Memref sig .tc .vmem S1024x4096 .bf16) (harg4 : arg4.IsWhole)
  (arg5 : Memref sig .tc .vmem S1024x4096 .bf16) (harg5 : arg5.IsWhole) (arg6 : Memref sig .tc .vmem S1x4096 .f32) (harg6 : arg6.IsWhole)
  (arg7 : Memref sig .tc .vmem S1x128x1024 .f32) (harg7 : arg7.IsWhole)
  (arg8 : Memref sig .tc .vmem S16x128x1024 .f32) (harg8 : arg8.IsWhole) (arg9 : Memref sig .tc .vmem S16x128x1024 .f32) (harg9 : arg9.IsWhole)
  (x0 : Vec F S1x128x1024 .bf16) (x1 x2 : Vec F S1024x4096 .bf16) (x3 : Vec F S1x4096 .f32)
  (xt : TbBuf0 (F := F) c tbM0) (hw : k0_chk1 (tblWord xt i))

/-- At node coordinate 0 the three buffers read back as the cell over the zero scratches, whatever they held. -/
theorem runA_reads (hc0 : cond0_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    (arg7.view.read (Elt F) (arg7.view.writes (Elt F) f7 (kernelRun0_A c i arg3 harg3 arg4 harg4 arg5 harg5 arg6 harg6 arg7 harg7 arg8 harg8 arg9 harg9 hc0 x0 x1 x2 x3 fh fc xt hw).1),
     arg8.view.read (Elt F) (arg8.view.writes (Elt F) f8 (kernelRun0_A c i arg3 harg3 arg4 harg4 arg5 harg5 arg6 harg6 arg7 harg7 arg8 harg8 arg9 harg9 hc0 x0 x1 x2 x3 fh fc xt hw).2.1),
     arg9.view.read (Elt F) (arg9.view.writes (Elt F) f9 (kernelRun0_A c i arg3 harg3 arg4 harg4 arg5 harg5 arg6 harg6 arg7 harg7 arg8 harg8 arg9 harg9 hc0 x0 x1 x2 x3 fh fc xt hw).2.2.1))
      = cellOut (tblWord xt i) hw k0_pay4 k0_pay5 x0 x1 x2 x3 i := by
  unfold kernelRun0_A cellOut cellH cellC
  dsimp only
  sl_unfold_run_names
  simp only [tblWord, read_writes_cons_overlay, View.writes_nil, overlay_unit_zero (S := S16x128x1024) zero3, overlay_unit_zero (S := S1x128x1024) zero3,
    View.readCov_eq_canon', View.canon_unit_zero (S := S16x128x1024) zero3, View.readAt_eq_ld, Memref.IsWhole.read_unread]
  try rfl

/-- At any other node coordinate they read back as the cell over what the scratches held. -/
theorem runB_reads (hc0 : ¬cond0_0 i) (f7 : arg7.view.ty.Contents (Elt F)) (fh : arg8.view.ty.Contents (Elt F)) (fc : arg9.view.ty.Contents (Elt F)) :
    (arg7.view.read (Elt F) (arg7.view.writes (Elt F) f7 (kernelRun0_B c i arg3 harg3 arg4 harg4 arg5 harg5 arg6 harg6 arg7 harg7 arg8 harg8 arg9 harg9 hc0 x0 x1 x2 x3 fh fc xt hw).1),
     arg8.view.read (Elt F) (arg8.view.writes (Elt F) fh (kernelRun0_B c i arg3 harg3 arg4 harg4 arg5 harg5 arg6 harg6 arg7 harg7 arg8 harg8 arg9 harg9 hc0 x0 x1 x2 x3 fh fc xt hw).2.1),
     arg9.view.read (Elt F) (arg9.view.writes (Elt F) fc (kernelRun0_B c i arg3 harg3 arg4 harg4 arg5 harg5 arg6 harg6 arg7 harg7 arg8 harg8 arg9 harg9 hc0 x0 x1 x2 x3 fh fc xt hw).2.2.1))
      = cellOut (tblWord xt i) hw (arg8.view.read (Elt F) fh) (arg9.view.read (Elt F) fc) x0 x1 x2 x3 i := by
  unfold kernelRun0_B cellOut cellH cellC
  dsimp only
  sl_unfold_run_names
  simp only [tblWord, read_writes_cons_overlay, View.writes_nil, overlay_unit_zero (S := S1x128x1024) zero3, View.readAt_eq_ld, Memref.IsWhole.read_unread]
  try rfl

/-- The same, component by component. -/
theorem runA_reads3 (hc0 : cond0_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    arg7.view.read (Elt F) (arg7.view.writes (Elt F) f7 (kernelRun0_A c i arg3 harg3 arg4 harg4 arg5 harg5 arg6 harg6 arg7 harg7 arg8 harg8 arg9 harg9 hc0 x0 x1 x2 x3 fh fc xt hw).1)
        = (cellOut (tblWord xt i) hw k0_pay4 k0_pay5 x0 x1 x2 x3 i).1
    ∧ arg8.view.read (Elt F) (arg8.view.writes (Elt F) f8 (kernelRun0_A c i arg3 harg3 arg4 harg4 arg5 harg5 arg6 harg6 arg7 harg7 arg8 harg8 arg9 harg9 hc0 x0 x1 x2 x3 fh fc xt hw).2.1)
        = (cellOut (tblWord xt i) hw k0_pay4 k0_pay5 x0 x1 x2 x3 i).2.1
    ∧ arg9.view.read (Elt F) (arg9.view.writes (Elt F) f9 (kernelRun0_A c i arg3 harg3 arg4 harg4 arg5 harg5 arg6 harg6 arg7 harg7 arg8 harg8 arg9 harg9 hc0 x0 x1 x2 x3 fh fc xt hw).2.2.1)
        = (cellOut (tblWord xt i) hw k0_pay4 k0_pay5 x0 x1 x2 x3 i).2.2 :=
  have h := runA_reads c i arg3 harg3 arg4 harg4 arg5 harg5 arg6 harg6 arg7 harg7 arg8 harg8 arg9 harg9 x0 x1 x2 x3 xt hw hc0 fh fc f7 f8 f9
  ⟨congrArg Prod.fst h, congrArg (fun p => p.2.1) h, congrArg (fun p => p.2.2) h⟩

theorem runB_reads3 (hc0 : ¬cond0_0 i) (f7 : arg7.view.ty.Contents (Elt F)) (fh : arg8.view.ty.Contents (Elt F)) (fc : arg9.view.ty.Contents (Elt F)) :
    arg7.view.read (Elt F) (arg7.view.writes (Elt F) f7 (kernelRun0_B c i arg3 harg3 arg4 harg4 arg5 harg5 arg6 harg6 arg7 harg7 arg8 harg8 arg9 harg9 hc0 x0 x1 x2 x3 fh fc xt hw).1)
        = (cellOut (tblWord xt i) hw (arg8.view.read (Elt F) fh) (arg9.view.read (Elt F) fc) x0 x1 x2 x3 i).1
    ∧ arg8.view.read (Elt F) (arg8.view.writes (Elt F) fh (kernelRun0_B c i arg3 harg3 arg4 harg4 arg5 harg5 arg6 harg6 arg7 harg7 arg8 harg8 arg9 harg9 hc0 x0 x1 x2 x3 fh fc xt hw).2.1)
        = (cellOut (tblWord xt i) hw (arg8.view.read (Elt F) fh) (arg9.view.read (Elt F) fc) x0 x1 x2 x3 i).2.1
    ∧ arg9.view.read (Elt F) (arg9.view.writes (Elt F) fc (kernelRun0_B c i arg3 harg3 arg4 harg4 arg5 harg5 arg6 harg6 arg7 harg7 arg8 harg8 arg9 harg9 hc0 x0 x1 x2 x3 fh fc xt hw).2.2.1)
        = (cellOut (tblWord xt i) hw (arg8.view.read (Elt F) fh) (arg9.view.read (Elt F) fc) x0 x1 x2 x3 i).2.2 :=
  have h := runB_reads c i arg3 harg3 arg4 harg4 arg5 harg5 arg6 harg6 arg7 harg7 arg8 harg8 arg9 harg9 x0 x1 x2 x3 xt hw hc0 f7 fh fc
  ⟨congrArg Prod.fst h, congrArg (fun p => p.2.1) h, congrArg (fun p => p.2.2) h⟩

end Pieces

section Region

variable (V : (c : Dev nD) → (b : Ref sig .tc) → Buf (Elt F) ((c : Thread nD τ).loc b))

set_option maxHeartbeats 4800000 in
/-- The body at any point. The inputs' memrefs hold their blocks; the node coordinate says which run applies. At node
    coordinate 0 the invariant hands the scratches at anything (the first point) or at what the point before left, which the
    run forgets; elsewhere at what the point before left, as buffers the run writes over. The run gives the scratches and
    the output block back at the cell's contents (`runA_reads`, `runB_reads`); the table, the other scoped buffers, the
    register and the core's dues pass through. -/
theorem sound_body0 (c : Dev nD) (t : Fin (cfg0 (adm (F := F) 0)).N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, after0_0, after0_1, after0_2, after0_3, after0_4, prefHeld0_eq]
  by_cases h0 : t.val % 15 = 0
  · have hc0 : cond0_0 (grid0.coords t) := (hcond0_0 t).mpr h0
    rw [outsAt0_A V c t h0]
    unfold cellAt
    by_cases hz : t.val = 0
    · rw [Phi0_castSucc, PhiS0_zero V c _ _ hz, PhiA0_eq, prefHeld0_eq]
      iintro ⟨⟨⟨⟨⟨⟨%dh, HS0⟩, ⟨%dc, HS1⟩⟩, HR⟩, Hg⟩, HT⟩, Ho, ⟨%d0, H0⟩, ⟨%d1, H1⟩, ⟨%d2, H2⟩, ⟨%d3, H3⟩, ⟨%d4, H4⟩⟩
      ihave HS0' := (show owns (c : Thread nD τ) scM0_0 fullShare dh ⊢ (iprop(∃ g, ⌜scM0_0.view.read (Elt F) g = dh⌝ ∗ scM0_0.view.loc (c : Thread nD τ) ↦[scM0_0.view.set]{fullShare} g) : sProp 𝕄) from .rfl) $$ HS0
      icases HS0' with ⟨%fh, -, HS0⟩
      ihave HS1' := (show owns (c : Thread nD τ) scM0_1 fullShare dc ⊢ (iprop(∃ g, ⌜scM0_1.view.read (Elt F) g = dc⌝ ∗ scM0_1.view.loc (c : Thread nD τ) ↦[scM0_1.view.set]{fullShare} g) : sProp 𝕄) from .rfl) $$ HS1
      icases HS1' with ⟨%fc, -, HS1⟩
      iapply ((kernelRun0_A c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid0.coords t) _ (hs0_0 t) _ (hs0_1 t) _ (hs0_2 t) _ (hs0_3 t) _ (hs0_4 t) scM0_0 (Memref.isWhole_whole _) scM0_1 (Memref.isWhole_whole _)
        (iblk0 V c 0 t) (iblk0 V c 1 t) (iblk0 V c 2 t) (iblk0 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
    · rw [Phi0_castSucc, PhiS0_pos V c _ _ hz, prefHeld0_eq]
      generalize (outsAt0 V c (t.val - 1) (Nat.lt_of_le_of_lt (Nat.sub_le _ _) t.isLt)).2.1 = dh
      generalize (outsAt0 V c (t.val - 1) (Nat.lt_of_le_of_lt (Nat.sub_le _ _) t.isLt)).2.2 = dc
      iintro ⟨⟨HS0, HS1, HR, Hg, HT⟩, Ho, ⟨%d0, H0⟩, ⟨%d1, H1⟩, ⟨%d2, H2⟩, ⟨%d3, H3⟩, ⟨%d4, H4⟩⟩
      ihave HS0' := (show owns (c : Thread nD τ) scM0_0 fullShare dh ⊢ (iprop(∃ g, ⌜scM0_0.view.read (Elt F) g = dh⌝ ∗ scM0_0.view.loc (c : Thread nD τ) ↦[scM0_0.view.set]{fullShare} g) : sProp 𝕄) from .rfl) $$ HS0
      icases HS0' with ⟨%fh, -, HS0⟩
      ihave HS1' := (show owns (c : Thread nD τ) scM0_1 fullShare dc ⊢ (iprop(∃ g, ⌜scM0_1.view.read (Elt F) g = dc⌝ ∗ scM0_1.view.loc (c : Thread nD τ) ↦[scM0_1.view.set]{fullShare} g) : sProp 𝕄) from .rfl) $$ HS1
      icases HS1' with ⟨%fc, -, HS1⟩
      iapply ((kernelRun0_A c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid0.coords t) _ (hs0_0 t) _ (hs0_1 t) _ (hs0_2 t) _ (hs0_3 t) _ (hs0_4 t) scM0_0 (Memref.isWhole_whole _) scM0_1 (Memref.isWhole_whole _)
        (iblk0 V c 0 t) (iblk0 V c 1 t) (iblk0 V c 2 t) (iblk0 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
  · have hc0 : ¬cond0_0 (grid0.coords t) := fun h => h0 ((hcond0_0 t).mp h)
    have hz : t.val ≠ 0 := fun h => h0 (by rw [h])
    rw [outsAt0_B V c t h0]
    unfold cellAt
    rw [Phi0_castSucc, PhiS0_pos V c _ _ hz, prefHeld0_eq]
    generalize (outsAt0 V c (t.val - 1) (Nat.lt_of_le_of_lt (Nat.sub_le _ _) t.isLt)).2.1 = hs
    generalize (outsAt0 V c (t.val - 1) (Nat.lt_of_le_of_lt (Nat.sub_le _ _) t.isLt)).2.2 = cs
    iintro ⟨⟨HS0, HS1, HR, Hg, HT⟩, Ho, ⟨%d0, H0⟩, ⟨%d1, H1⟩, ⟨%d2, H2⟩, ⟨%d3, H3⟩, ⟨%d4, H4⟩⟩
    ihave HS0' := (show owns (c : Thread nD τ) scM0_0 fullShare hs ⊢ (iprop(∃ g, ⌜scM0_0.view.read (Elt F) g = hs⌝ ∗ scM0_0.view.loc (c : Thread nD τ) ↦[scM0_0.view.set]{fullShare} g) : sProp 𝕄) from .rfl) $$ HS0
    icases HS0' with ⟨%fh, %hfh, HS0⟩
    ihave HS1' := (show owns (c : Thread nD τ) scM0_1 fullShare cs ⊢ (iprop(∃ g, ⌜scM0_1.view.read (Elt F) g = cs⌝ ∗ scM0_1.view.loc (c : Thread nD τ) ↦[scM0_1.view.set]{fullShare} g) : sProp 𝕄) from .rfl) $$ HS1
    icases HS1' with ⟨%fc, %hfc, HS1⟩
    subst hfh; subst hfc
    iapply ((kernelRun0_B c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT]; · iexact HT
    iintro ⟨H0, H1, H2, H3, ⟨%e4, H4⟩, H8, H9, HT⟩
    obtain ⟨hr1, hr2, hr3⟩ := runB_reads3 c (grid0.coords t) _ (hs0_0 t) _ (hs0_1 t) _ (hs0_2 t) _ (hs0_3 t) _ (hs0_4 t) scM0_0 (Memref.isWhole_whole _) scM0_1 (Memref.isWhole_whole _)
      (iblk0 V c 0 t) (iblk0 V c 1 t) (iblk0 V c 2 t) (iblk0 V c 3 t) tblC (chk_tbl _) hc0 e4 fh fc
    isplitl [H8 H9 HR Hg HT]
    · isplitl [H8]
      · unfold owns; iexists _; isplitr
        swap; · iexact H8
        ipureintro; exact hr2
      isplitl [H9]
      · unfold owns; iexists _; isplitr
        swap; · iexact H9
        ipureintro; exact hr3
      isplitl [HR]; · iexact HR
      isplitl [Hg]; · iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact hr1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.K0

end
-- ==== Proof.K.Region0.lean ====
/-
  One pallas_call of the program as one item of its run.

  Between two items of the program a core holds every unscoped buffer whole, at a valuation, beside its generator
  register and the fact that it owes nothing. This module shows that the call's pipeline carries such a state at a
  valuation `Vin` to such a state at a valuation `Vout`, for any two valuations with
    * the prefetched table's buffer holding, under `Vin`, the contents the pipeline is pinned at;
    * the output window's array holding, under `Vout`, the fold of all write-backs over its contents under `Vin`;
    * every other buffer the same under both.
  The windows' arrays leave the unscoped buffers at entry and come back at exit. What is new against a call without
  tables is the table: it is one of the unscoped buffers that are no window's array, it is handed whole to the body's
  invariant (the body loads its words), and the invariant hands it back after the last grid point, so that the
  unscoped buffers are complete again at exit.

  Stated for any family of proof data whose member at this pipeline is the data of this region (`hp`), so that the
  same text serves whichever family the launch is stated over.
-/
import proofs.«109754_j89713276879117_1_alg».proof.Proof.K.Common
import proofs.«109754_j89713276879117_1_alg».proof.Proof.K.Data0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.KernelIdeal.K0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.KernelIdeal.KC

variable {F : FTy → Type} [FloatOps F]

local notation "𝕄" => MT nD τ sig Unit (Elt F) ℕ (UR sig nD τ) ℕ

section Region

/- The region is stated between two valuations of the core's unscoped buffers: `Vin`, what it is entered from, and
   `Vout`, what it leaves. All that is asked of them: the table's buffer holds the admissible contents at entry
   (`htab`); at exit the output window's array holds what the write-backs leave (`hVout`), and every other buffer
   what it held at entry (`hVne`). -/
variable (L : GSem nD τ sig → Finset Unit) (lv : GSem nD τ sig → Unit → ℕ)
variable (Vin Vout : Dev nD → Valuation τ sig (Elt F))
variable (pdats : (p : Fin 2) → (c : Dev nD) → Dat τ (Elt F) Unit ℕ (UR sig nD τ) ℕ (Pipeline.pin (pcfgs (F := F)) adm p) c)

/-- The input windows' arrays are never written back, so at the exit they hold their entry contents, which `Vout`
    agrees with off the output array; the output window's array is `Vout`'s by hypothesis. -/
theorem arrAt_exit
    (hVout : ∀ c, Vout c main_v16 = (dat0 (Vr Vin) c).arrAt 4 (cfg0 (adm (F := F) 0)).N)
    (hVne : ∀ c (r : Ref sig .tc), r ≠ main_v16 → Vout c r = Vin c r) (c : Dev nD) :
    ∀ w : Fin 5, (dat0 (Vr Vin) c).arrAt w (cfg0 (adm (F := F) 0)).N = Vr Vout c (Pipeline.arrRef spec0 w)
  | ⟨0, _⟩ => ((dat0 (Vr Vin) c).arrAt_in 0 rfl _).trans (hVne c (Pipeline.arrRef spec0 0) (by decide)).symm
  | ⟨1, _⟩ => ((dat0 (Vr Vin) c).arrAt_in 1 rfl _).trans (hVne c (Pipeline.arrRef spec0 1) (by decide)).symm
  | ⟨2, _⟩ => ((dat0 (Vr Vin) c).arrAt_in 2 rfl _).trans (hVne c (Pipeline.arrRef spec0 2) (by decide)).symm
  | ⟨3, _⟩ => ((dat0 (Vr Vin) c).arrAt_in 3 rfl _).trans (hVne c (Pipeline.arrRef spec0 3) (by decide)).symm
  | ⟨4, _⟩ => (hVout c).symm

/-- Off the windows' arrays `Vout` is `Vin`: the output array is one of them. -/
theorem rest_exit (hVne : ∀ c (r : Ref sig .tc), r ≠ main_v16 → Vout c r = Vin c r) (c : Dev nD) :
    ∀ b, b ∉ Finset.univ.image (Pipeline.arrRef spec0) → Vr Vout c b = Vr Vin c b :=
  fun b hb => hVne c b fun e => hb (Finset.mem_image.mpr ⟨4, Finset.mem_univ _, e.symm⟩)

/-- The unscoped buffers that are no window's array: the prefetched table, whole, at the contents the pipeline is
    pinned at — which are the table's contents under `Vin` (`htab`) —, and the buffers that bypass the region. -/
theorem rest_split (htab : ∀ c k, Vr Vin c (pre0.ref k) = (adm (F := F) 0).1 k) (c : Dev nD) :
    (Pipeline.unscopedRest (Ix := Unit) (Name := ℕ) (U := UR sig nD τ) (Lvl := ℕ) spec0 c (Vr Vin c) : sProp 𝕄)
      = iprop(Pipeline.prefHeld (Ix := Unit) (Name := ℕ) (U := UR sig nD τ) (Lvl := ℕ) pre0 c (fun _ => fullShare) (adm (F := F) 0).1
          ∗ Pipeline.unscopedRestP (Ix := Unit) (Name := ℕ) (U := UR sig nD τ) (Lvl := ℕ) pre0 spec0 c (Vr Vin c)) := by
  rw [Pipeline.unscopedRest_split preFacts0 c (Vr Vin c)]
  exact congrArg (fun v => (iprop(Pipeline.prefHeld (Ix := Unit) (Name := ℕ) (U := UR sig nD τ) (Lvl := ℕ) pre0 c (fun _ => fullShare) v
      ∗ Pipeline.unscopedRestP (Ix := Unit) (Name := ℕ) (U := UR sig nD τ) (Lvl := ℕ) pre0 spec0 c (Vr Vin c)) : sProp 𝕄)) (funext (htab c))

set_option backward.isDefEq.respectTransparency.types false in
/-- THE REGION as a segment of the program: entered from every unscoped buffer of the core at `Vin` beside the
    generator register and nothing owed, left at `Vout` beside the same.

    At entry the windows' arrays are split out of the unscoped buffers; out of the rest comes the prefetched table,
    whole, at the contents the pipeline is pinned at (`htab`); what is left bypasses the region (`Z`). The table, the
    generator register and the scoped buffers no window stages make the invariant before the first point; after the
    last point the invariant gives all three back. At exit the arrays, the table and the bypassing buffers are the
    core's unscoped buffers again, at `Vout`. The kernel has no semaphore of its own and owes nothing. -/
def reg0
    (hp : ∀ c, pdats (0 : Fin 2) c = dat0 (Vr Vin) c)
    (htab : ∀ c k, Vr Vin c (pre0.ref k) = (adm (F := F) 0).1 k)
    (hVout : ∀ c, Vout c main_v16 = (dat0 (Vr Vin) c).arrAt 4 (cfg0 (adm (F := F) 0)).N)
    (hVne : ∀ c (r : Ref sig .tc), r ≠ main_v16 → Vout c r = Vin c r) :
    Pipeline.RegionSeg (pcfgs (F := F)) adm pdats () defs₀ Variants.none L lv (0 : Fin 2) where
  win := (launch0 (F := F)).win.to₀
  block_pos := (launch0 (F := F)).block_pos
  stage_whole := (launch0 (F := F)).stage_whole
  K := PEmpty
  osem k := k.elim
  ho := Pipeline.OwnSemFacts.none _
  hbody c := by rw [hp c]; exact (body_obligation0 (Vr Vin) c).loose
  hwaits := Pipeline.hwaits_of_owed_zero _ _ _ _ L lv (0 : Fin 2) fun c t => by rw [hp c]; rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r)
    ∗ Pipeline.prefHeld (Ix := Unit) (Name := ℕ) (U := UR sig nD τ) (Lvl := ℕ) pre0 c (fun _ => fullShare) (adm (F := F) 0).1)
  Z c := Pipeline.unscopedRestP (Ix := Unit) (Name := ℕ) (U := UR sig nD τ) (Lvl := ℕ) pre0 spec0 c (Vr Vin c)
  hentry c := by
    rw [Pipeline.ownSems0_none]
    have hsplit := Pipeline.arrays_of_unscopedBufs (p := (0 : Fin 2)) (pcfgs (F := F)) adm pdats (launch0 (F := F)).win (launch0 (F := F)).arr_whole c
      (fun w => by rw [hp c]; exact (dat0 (Vr Vin) c).share_full (fun _ => rfl) w) (Vr Vin c) (fun w => by rw [hp c]; rfl)
    rw [Pipeline.unscopedBufs_held] at hsplit
    iintro ⟨⟨Hub, Hp, HO⟩, -, -⟩
    ihave H := hsplit $$ Hub
    icases H with ⟨Ha, Hrest⟩
    ihave H' := (Entails.of_eq (rest_split Vin htab c)) $$ Hrest
    icases H' with ⟨Ht, Hrest⟩
    imodintro
    isplitl [Ha]; · iexact Ha
    isplitl [Ht]; · iexact Ht
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (PhiS0_in (Vr Vin) c)
    unfold Pipeline.ΦA
    iintro ⟨Hp, Ht, Hr⟩
    isplitr [Ht]
    · isplitl [Hr] <;> iassumption
    · iexact Ht
  hout c := by
    rw [Pipeline.ownSems0_none, hp c]
    refine (PhiS0_out (Vr Vin) c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := (0 : Fin 2)) (pcfgs (F := F)) adm (Ix := Unit) (Name := ℕ) (U := UR sig nD τ) (Lvl := ℕ)
      (launch0 (F := F)).win (launch0 (F := F)).arr_whole c pdats (fun w => by rw [hp c]; exact (dat0 (Vr Vin) c).share_full (fun _ => rfl) w)
      (Vr Vin c) (Vr Vout c) ((pdats (0 : Fin 2) c).arrAt · (cfg0 (adm (F := F) 0)).N)
      (fun w => by rw [hp c]; exact arrAt_exit Vin Vout hVout hVne c w) (rest_exit Vin Vout hVne c)
    rw [Pipeline.unscopedBufs_held] at hjoin
    iintro ⟨Ha, HO, ⟨HY, Ht⟩, HR⟩
    ihave Hrest := (Entails.of_eq (rest_split Vin htab c).symm) $$ [Ht HR]
    · isplitl [Ht]; · iexact Ht
      iexact HR
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Region

end Cert.KernelIdeal.K0

end
-- ==== Proof.K.Body1.lean ====
/-
  One region of the program: the kernel function on symbolic contents.

  The body at a grid point, run symbolically over its skeleton: at node coordinate 0 both scratches are
  first stored whole with zeros; then the table word at the node coordinate is read, the side condition on it (it
  names a slab of the scratches) is passed from a hypothesis, that slab of both scratches and the staged blocks are
  loaded, and the new rows are stored into the node's own slab of each scratch and into the output block. What the
  stores leave is recorded as pieces (last first), found by the run.
-/
import proofs.«109754_j89713276879117_1_alg».proof.Proof.Gen.KernelIdeal.Launch
import proofs.«109754_j89713276879117_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the node coordinate -/

/-- The condition of the body's conditional: the node coordinate is 0. -/
abbrev cond1_0 (i : grid1.Coords) : Prop := (Scalar.cmpi .ne (Scalar.extui (Scalar.cmpi .eq (BitVec.ofNat 32 (i 1).val) 0#32)) 0#32) = 1#1
/-- It holds at the positions divisible by 15 (the first node of each batch half) — decided over the grid. -/
theorem hcond1_0 : ∀ t : Fin grid1.N, cond1_0 (grid1.coords t) ↔ t.val % 15 = 0 := by decide +kernel

/-! ## The table word -/

/-- The table as the body is handed it: its whole buffer as a memref. -/
abbrev tbM1 : Memref sig .tc .smem S15 .i32 := Memref.whole main_c
/-- The table's buffer on core `c`, and it held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The one multi-index of a one-word load. -/
abbrev i0 : S1.Idx := Shape.Idx.first (s := S1) (numel1_S1.symm ▸ Nat.one_pos)
/-- The table word's rectangle at node coordinate `i 1`, as the body's scalar load names it. -/
abbrev rWord (i : grid1.Coords) : Rect S15 := Rect.unit (s := S15) (k1_off1 i) S1.size (k1_off1_inb i)
/-- The word the body reads from table contents `T` at the point with coordinates `i`. -/
abbrev tblWord (T : (main_c : Ref sig .tc).ty.Contents (Elt F)) (i : grid1.Coords) : BitVec 32 :=
  tbM1.view.readAt (Elt F) (Rect.unit (s := S15) (k1_off1 i) S1.size (k1_off1_inb i)).toLoadRect T (Shape.Idx.first (numel1_S1.symm ▸ Nat.one_pos))

/-! ## The body's runs -/

set_option maxHeartbeats 4000000 in
/-- AT NODE COORDINATE 0. On whole staging memrefs, the inputs' at their contents, the output's at anything, both scratches
    held at given buffers `fh`, `fc`, the table held at contents whose word at the point names a slab: the body runs to the
    continuation holding the inputs' as they were, the output's buffer and each scratch with its pieces written over some contents
    (the zero fill first: nothing of `fh`, `fc` is left or read back), the table as it was. The pieces are the witness the run finds. -/
noncomputable def kernelRun1_A (c : Dev nD) (i : grid1.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : cond1_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf1 (F := F) c tbM1) (k1_hw1 : k1_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt1 c tbM1 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LH)
                ∗ (∃ f, arg9.view.loc (c : Thread nD τ) ↦[arg9.view.set]{fullShare} arg9.view.writes (Elt F) f LC)
                ∗ tbPt1 c tbM1 xt) -∗ K ⟨⟩))
          ⊢ wp frame (wpE (defs₀ (F := F)) Variants.none c none) E
              (cc1__cell_kernel i tbM1 (Memref.isWhole_whole _) arg3 harg3 arg4 harg4 arg5 harg5 arg6 harg6 arg7 harg7 arg8 harg8 arg9 harg9) K } := by
  refine ⟨?_, ?_, ?_, fun E K => ?run⟩
  case run =>
    simp only [cc1__cell_kernel_eq_skeleton]; unfold cc1__cell_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexists arg8.view.junk; iexact H8
    isplitl [H9]; · iexists arg9.view.junk; iexact H9
    iexact HT

set_option maxHeartbeats 4000000 in
/-- AT ANY OTHER NODE COORDINATE. The same without the zero fill: each scratch comes back with its one piece (the node's own
    slab) written over its buffer, the slab the table word names read off that buffer. -/
noncomputable def kernelRun1_B (c : Dev nD) (i : grid1.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : ¬cond1_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf1 (F := F) c tbM1) (k1_hw1 : k1_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt1 c tbM1 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) fh LH)
                ∗ (arg9.view.loc (c : Thread nD τ) ↦[arg9.view.set]{fullShare} arg9.view.writes (Elt F) fc LC)
                ∗ tbPt1 c tbM1 xt) -∗ K ⟨⟩))
          ⊢ wp frame (wpE (defs₀ (F := F)) Variants.none c none) E
              (cc1__cell_kernel i tbM1 (Memref.isWhole_whole _) arg3 harg3 arg4 harg4 arg5 harg5 arg6 harg6 arg7 harg7 arg8 harg8 arg9 harg9) K } := by
  refine ⟨?_, ?_, ?_, fun E K => ?run⟩
  case run =>
    simp only [cc1__cell_kernel_eq_skeleton]; unfold cc1__cell_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexact H8
    isplitl [H9]; · iexact H9
    iexact HT

end Cert.KernelIdeal.K1

end
-- ==== Proof.K.Data1.lean ====
/-
  One region of the program: the contents its buffers hold point by point, the invariant its pipeline carries,
  the proof data, and the body obligation.

  The kernel walks a tree in node order. Two scratch buffers of sixteen slabs hold the hidden rows and the cell
  rows of the nodes done so far (slab 0 the zero state every root reads). At node coordinate 0 both scratches
  are stored whole with zeros; at every point the body reads the table word at the node coordinate, loads that
  slab of both scratches (the parent's state), computes the cell from it and the staged blocks, and stores the
  new hidden rows into slab (node + 1) of the hidden scratch and into the output block, the new cell rows into
  slab (node + 1) of the cell scratch.
-/
import proofs.«109754_j89713276879117_1_alg».proof.Proof.K.Common
import proofs.«109754_j89713276879117_1_alg».proof.Proof.K.Body1
import Idealize.ShloMosaic.Lib.Pipeline.Value

set_option maxRecDepth 16384

noncomputable section

namespace Cert.KernelIdeal.K1

open Cert.KernelIdeal Cert.KernelIdeal.Gen Cert.KernelIdeal.KC
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The prefetched table -/

/-- Every word of the constant names a slab of the scratches: each is below 16. -/
theorem chk_tbl (i : grid1.Coords) : k1_chk1 (tblWord (tblC (F := F)) i) := by
  have key : ∀ j : Fin 15, k1_chk1 (lit0 j) := by decide +kernel
  show k1_chk1 (lit0 (S15.rowMajor ((rWord i).emb i0)))
  exact key _

/-! ## The pipeline at the table, its points and the body there -/

/-- The grid has 30 points: 2 batch halves of 15 nodes. -/
theorem N_A : (cfg1 (adm (F := F) 1)).N = 30 := N_1

/-- Each window's current staging memref at point `t`, as the pipeline passes it to the body, and its wholeness. -/
abbrev ms1_0 (t : Fin (cfg1 (adm (F := F) 1)).N) : Memref sig .tc .vmem S1x128x1024 .bf16 := spec1_0.stage ((cfg1 (adm (F := F) 1)).slots t 0)
abbrev hs1_0 (t : Fin (cfg1 (adm (F := F) 1)).N) : (ms1_0 (F := F) t).IsWhole := hstage1_0 (((cfg1 (adm (F := F) 1)).slots t 0).cast nbuf1_0)
abbrev ms1_1 (t : Fin (cfg1 (adm (F := F) 1)).N) : Memref sig .tc .vmem S1024x4096 .bf16 := spec1_1.stage ((cfg1 (adm (F := F) 1)).slots t 1)
abbrev hs1_1 (t : Fin (cfg1 (adm (F := F) 1)).N) : (ms1_1 (F := F) t).IsWhole := hstage1_1 (((cfg1 (adm (F := F) 1)).slots t 1).cast nbuf1_1)
abbrev ms1_2 (t : Fin (cfg1 (adm (F := F) 1)).N) : Memref sig .tc .vmem S1024x4096 .bf16 := spec1_2.stage ((cfg1 (adm (F := F) 1)).slots t 2)
abbrev hs1_2 (t : Fin (cfg1 (adm (F := F) 1)).N) : (ms1_2 (F := F) t).IsWhole := hstage1_2 (((cfg1 (adm (F := F) 1)).slots t 2).cast nbuf1_2)
abbrev ms1_3 (t : Fin (cfg1 (adm (F := F) 1)).N) : Memref sig .tc .vmem S1x4096 .f32 := spec1_3.stage ((cfg1 (adm (F := F) 1)).slots t 3)
abbrev hs1_3 (t : Fin (cfg1 (adm (F := F) 1)).N) : (ms1_3 (F := F) t).IsWhole := hstage1_3 (((cfg1 (adm (F := F) 1)).slots t 3).cast nbuf1_3)
abbrev ms1_4 (t : Fin (cfg1 (adm (F := F) 1)).N) : Memref sig .tc .vmem S1x128x1024 .f32 := spec1_4.stage ((cfg1 (adm (F := F) 1)).slots t 4)
abbrev hs1_4 (t : Fin (cfg1 (adm (F := F) 1)).N) : (ms1_4 (F := F) t).IsWhole := hstage1_4 (((cfg1 (adm (F := F) 1)).slots t 4).cast nbuf1_4)
/-- The two scratch operands: whole buffers passed beside the windows (the table's memref is `tbM1`). -/
abbrev scM1_0 : Memref sig .tc .vmem S16x128x1024 .f32 := Memref.whole cc1_scratch0
abbrev scM1_1 : Memref sig .tc .vmem S16x128x1024 .f32 := Memref.whole cc1_scratch1

/-- The kernel body at point `t`, on what the pipeline calls it with. -/
abbrev bodyAt1 (t : Fin (cfg1 (adm (F := F) 1)).N) : Prog (TpuEff nD τ sig (Elt F) Λ₀ .tc) PUnit :=
  cc1__cell_kernel (grid1.coords t) tbM1 (Memref.isWhole_whole _) (ms1_0 t) (hs1_0 t) (ms1_1 t) (hs1_1 t) (ms1_2 t) (hs1_2 t)
    (ms1_3 t) (hs1_3 t) (ms1_4 t) (hs1_4 t) scM1_0 (Memref.isWhole_whole _) scM1_1 (Memref.isWhole_whole _)

/-! ## The cell on contents -/

/-- The rectangles of the body's accesses: the staged blocks whole, the parent's slab, the node's own slab. -/
abbrev rX : Rect S1x128x1024 := Rect.unit (s := S1x128x1024) ![0, 0, 0] S1x128x1024.size inb_S1x128x1024_S1x128x1024_0_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rPar (v : BitVec 32) (h : k1_chk1 v) : Rect S16x128x1024 := Rect.unit (s := S16x128x1024) (k1_off2 v) S1x128x1024.size (k1_off2_inb v h)
abbrev rNew (i : grid1.Coords) : Rect S16x128x1024 := Rect.unit (s := S16x128x1024) (k1_off3 i) S1x128x1024.size (k1_off3_inb i)

section Cell

variable (v : BitVec 32) (hv : k1_chk1 v) (hs cs : Vec F S16x128x1024 .f32)
  (x : Vec F S1x128x1024 .bf16) (w u : Vec F S1024x4096 .bf16) (b : Vec F S1x4096 .f32)

/-- The new cell rows: the cell of the staged blocks and of slab `v` of the two scratches. -/
def cellC : FVec F S128x1024 .f32 :=
  k1_pay7 (View.ld hs (rPar v hv)) (View.ld cs (rPar v hv)) (View.ld x rX) (View.ld w rW) (View.ld u rW) (View.ld b rB)
/-- The new hidden rows. -/
def cellH : FVec F S128x1024 .f32 :=
  k1_pay8 (View.ld hs (rPar v hv)) (View.ld cs (rPar v hv)) (View.ld x rX) (View.ld w rW) (View.ld u rW) (View.ld b rB)

/-- What one point leaves from scratches `hs`, `cs`: the output block (the new hidden rows), the hidden scratch with the node's
    slab replaced by them, the cell scratch with the node's slab replaced by the new cell rows. -/
def cellOut (i : grid1.Coords) : Vec F S1x128x1024 .f32 × Vec F S16x128x1024 .f32 × Vec F S16x128x1024 .f32 :=
  (k1_pay3 (cellH v hv hs cs x w u b),
   (rNew i).overlay hs (k1_pay1 (cellH v hv hs cs x w u b)),
   (rNew i).overlay cs (k1_pay2 (cellC v hv hs cs x w u b)))

end Cell

/-! ## Small facts about contents and the invariant's parts -/

omit [FloatOps F] in
/-- What a run of stores leaves reads as the last store's payload laid over what the earlier ones left. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

omit [FloatOps F] in
/-- Laid over anything through the whole-shape rectangle at zero offsets, a payload is all there is. -/
theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rwa [Rect.emb_whole_apply] at e

/-- The zero offsets of the whole-block accesses, however they are spelt. -/
theorem zero3 : (![0, 0, 0] : Fin 3 → ℕ) = fun _ => 0 := funext fun a => by fin_cases a <;> rfl
theorem zero2 : (![0, 0] : Fin 2 → ℕ) = fun _ => 0 := funext fun a => by fin_cases a <;> rfl

/-- The scoped buffers no window stages: the two scratches, each whole at some contents, and the rest unopened. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] ⟨⟨by decide, by decide⟩, ⟨by decide, by decide⟩⟩ (by decide)

/-- What the region hands in beside the table, with the scratches as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

/-- The table whole at the constant, as the body's run holds it. -/
theorem prefHeld1_eq (c : Dev nD) :
    (Pipeline.prefHeld (Ix := Unit) (Name := ℕ) (U := UR sig nD τ) (Lvl := ℕ) pre1 c (fun _ => fullShare) (adm (F := F) 1).1 : sProp 𝕄)
      = tbPt1 c tbM1 (tblC (F := F)) := by
  unfold Pipeline.prefHeld
  rw [show (Finset.univ : Finset (Fin 1)) = {(0 : Fin 1)} from by decide, bigSep_singleton]
  rfl

/-! ## The region at entry contents `V` -/

section Region

variable (V : (c : Dev nD) → (b : Ref sig .tc) → Buf (Elt F) ((c : Thread nD τ).loc b))

/-- Window `w`'s block at point `t`, read off its array as the region finds it. -/
def iblk1 (c : Dev nD) (w : Fin (cfg1 (adm (F := F) 1)).W) (t : Fin (cfg1 (adm (F := F) 1)).N) :
    (((cfg1 (adm (F := F) 1)).win w).xblock ((cfg1 (adm (F := F) 1)).grid.coords t)).Idx → Elt F ((cfg1 (adm (F := F) 1)).win w).elt :=
  (((cfg1 (adm (F := F) 1)).win w).blk t).view.read (Elt F) (V c (Pipeline.arrRef spec1 w))

/-- One point from scratches `hs`, `cs`, at the point's table word and staged blocks. -/
def cellAt (c : Dev nD) (t : Fin (cfg1 (adm (F := F) 1)).N) (hs cs : Vec F S16x128x1024 .f32) :
    Vec F S1x128x1024 .f32 × Vec F S16x128x1024 .f32 × Vec F S16x128x1024 .f32 :=
  cellOut (tblWord (tblC (F := F)) (grid1.coords t)) (chk_tbl (grid1.coords t)) hs cs
    (iblk1 V c 0 t) (iblk1 V c 1 t) (iblk1 V c 2 t) (iblk1 V c 3 t) (grid1.coords t)

/-- THE ACCUMULATION. The output block, the hidden scratch and the cell scratch after the body at position `n`: at node
    coordinate 0 (the positions divisible by 15) the cell over the zero scratches, elsewhere over what the position before left. -/
def outsAt1 (c : Dev nD) : (n : ℕ) → n < (cfg1 (adm (F := F) 1)).N → Vec F S1x128x1024 .f32 × Vec F S16x128x1024 .f32 × Vec F S16x128x1024 .f32
  | 0, hn => cellAt V c ⟨0, hn⟩ k1_pay4 k1_pay5
  | n + 1, hn =>
    if (n + 1) % 15 = 0 then cellAt V c ⟨n + 1, hn⟩ k1_pay4 k1_pay5
    else cellAt V c ⟨n + 1, hn⟩ (outsAt1 c n (Nat.lt_of_succ_lt hn)).2.1 (outsAt1 c n (Nat.lt_of_succ_lt hn)).2.2

/-- At a point of node coordinate 0: the cell over the zero scratches. -/
theorem outsAt1_A (c : Dev nD) (t : Fin (cfg1 (adm (F := F) 1)).N) (h0 : t.val % 15 = 0) :
    outsAt1 V c t.val t.isLt = cellAt V c t k1_pay4 k1_pay5 := by
  obtain ⟨n, hn⟩ := t
  cases n with
  | zero => exact rfl
  | succ n => exact (if_pos h0).trans rfl

/-- At any other point: the cell over what the point before left in the scratches. -/
theorem outsAt1_B (c : Dev nD) (t : Fin (cfg1 (adm (F := F) 1)).N) (h0 : ¬t.val % 15 = 0) :
    outsAt1 V c t.val t.isLt = cellAt V c t (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (if_neg h0).trans rfl

/-- The region invariant before position `n`. Before the first point: what the region hands in, the scoped buffers no
    window stages at anything with the generator register, and the table whole at the constant. Afterwards: the two
    scratches at what the point before left, the other scoped buffers at anything, the register, the table. -/
def PhiS1 (c : Dev nD) : (n : ℕ) → n ≤ (cfg1 (adm (F := F) 1)).N → sProp 𝕄
  | 0, _ => iprop(Pipeline.ΦA spec1 c ∗ Pipeline.prefHeld pre1 c (fun _ => fullShare) (adm (F := F) 1).1)
  | n + 1, hn => iprop(owns (c : Thread nD τ) scM1_0 fullShare (outsAt1 V c n hn).2.1
      ∗ owns (c : Thread nD τ) scM1_1 fullShare (outsAt1 V c n hn).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1)

theorem PhiS1_zero (c : Dev nD) (n : ℕ) (h : n ≤ (cfg1 (adm (F := F) 1)).N) (hz : n = 0) :
    PhiS1 V c n h = iprop(Pipeline.ΦA spec1 c ∗ Pipeline.prefHeld pre1 c (fun _ => fullShare) (adm (F := F) 1).1) := by
  subst hz; rfl

theorem PhiS1_succ (c : Dev nD) (n : ℕ) (hn : n < (cfg1 (adm (F := F) 1)).N) :
    PhiS1 V c (n + 1) hn = iprop(owns (c : Thread nD τ) scM1_0 fullShare (outsAt1 V c n hn).2.1
      ∗ owns (c : Thread nD τ) scM1_1 fullShare (outsAt1 V c n hn).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1) := rfl

/-- Before a point that is not the first: the scratches at what the point before left. -/
theorem PhiS1_pos (c : Dev nD) (n : ℕ) (h : n ≤ (cfg1 (adm (F := F) 1)).N) (hz : n ≠ 0) :
    PhiS1 V c n h = iprop(owns (c : Thread nD τ) scM1_0 fullShare (outsAt1 V c (n - 1) (by omega)).2.1
      ∗ owns (c : Thread nD τ) scM1_1 fullShare (outsAt1 V c (n - 1) (by omega)).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1) := by
  cases n with
  | zero => exact absurd rfl hz
  | succ n => rfl

/-- The proof data of the pipeline on core `c`: the arrays as the region finds them; after the body at point `t` each
    input's buffer at its block and the output's at the point's new hidden rows; the invariant `PhiS1`; nothing owed;
    full shares. -/
def dat1 (c : Dev nD) : Dat τ (Elt F) Unit ℕ (UR sig nD τ) ℕ (cfg1 (adm (F := F) 1)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin (cfg1 (adm (F := F) 1)).W) : (dat1 V c).A w = V c (Pipeline.arrRef spec1 w) := by
  dsimp only [dat1]

theorem after1_0 (c : Dev nD) (t : Fin (cfg1 (adm (F := F) 1)).N) : (dat1 V c).after 0 t = iblk1 V c 0 t := by dsimp only [dat1] <;> rfl
theorem after1_1 (c : Dev nD) (t : Fin (cfg1 (adm (F := F) 1)).N) : (dat1 V c).after 1 t = iblk1 V c 1 t := by dsimp only [dat1] <;> rfl
theorem after1_2 (c : Dev nD) (t : Fin (cfg1 (adm (F := F) 1)).N) : (dat1 V c).after 2 t = iblk1 V c 2 t := by dsimp only [dat1] <;> rfl
theorem after1_3 (c : Dev nD) (t : Fin (cfg1 (adm (F := F) 1)).N) : (dat1 V c).after 3 t = iblk1 V c 3 t := by dsimp only [dat1] <;> rfl
theorem after1_4 (c : Dev nD) (t : Fin (cfg1 (adm (F := F) 1)).N) : (dat1 V c).after 4 t = (outsAt1 V c t.val t.isLt).1 := by dsimp only [dat1] <;> rfl

/-- The invariant at a point's start and end, restated at the point's position. -/
theorem Phi1_zero (c : Dev nD) : (dat1 V c).Φ 0 = iprop(Pipeline.ΦA spec1 c ∗ Pipeline.prefHeld pre1 c (fun _ => fullShare) (adm (F := F) 1).1) := rfl
theorem Phi1_castSucc (c : Dev nD) (t : Fin (cfg1 (adm (F := F) 1)).N) :
    (dat1 V c).Φ t.castSucc = PhiS1 V c t.val (Nat.le_of_lt t.isLt) := by
  dsimp only [dat1]; simp only [Fin.coe_castSucc]
theorem Phi1_succ (c : Dev nD) (t : Fin (cfg1 (adm (F := F) 1)).N) :
    (dat1 V c).Φ t.succ = PhiS1 V c (t.val + 1) t.isLt := rfl

/-- What the region hands in is the invariant before the first point, -/
theorem PhiS1_in (c : Dev nD) :
    iprop(Pipeline.ΦA spec1 c ∗ Pipeline.prefHeld pre1 c (fun _ => fullShare) (adm (F := F) 1).1) ⊢ (dat1 V c).Φ 0 := by
  rw [Phi1_zero]

/-- After any point the invariant gives that back: the scratches' named contents are forgotten. -/
theorem Phi1_out (c : Dev nD) (t : Fin ((cfg1 (adm (F := F) 1)).N + 1)) (ht : t.val ≠ 0) :
    (dat1 V c).Φ t ⊢ iprop(Pipeline.ΦA spec1 c ∗ Pipeline.prefHeld pre1 c (fun _ => fullShare) (adm (F := F) 1).1) := by
  rw [show (dat1 V c).Φ t = PhiS1 V c t.val (Nat.le_of_lt_succ t.isLt) from rfl, PhiS1_pos V c _ _ ht, PhiA1_eq]
  iintro ⟨HS0, HS1, HR, Hg, HT⟩
  isplitr [HT]
  · isplitl [HS0 HS1 HR]
    · isplitl [HS0 HS1]
      · isplitl [HS0]
        · iexists _; iexact HS0
        iexists _; iexact HS1
      iexact HR
    iexact Hg
  iexact HT

/-- The same after the last point. -/
theorem PhiS1_out (c : Dev nD) :
    (dat1 V c).Φ (Fin.last (cfg1 (adm (F := F) 1)).N) ⊢ iprop(Pipeline.ΦA spec1 c ∗ Pipeline.prefHeld pre1 c (fun _ => fullShare) (adm (F := F) 1).1) :=
  Phi1_out V c _ (by rw [Fin.val_last]; have : (cfg1 (adm (F := F) 1)).N = 30 := N_A; omega)

/-- Each input's current staging buffer holds its block at every point, fetched there or not. -/
theorem before1_0_of {c : Dev nD} (dat : Dat τ (Elt F) Unit ℕ (UR sig nD τ) ℕ (cfg1 (adm (F := F) 1)) c) (hA : dat.A 0 = V c (Pipeline.arrRef spec1 0))
    (hafter : ∀ t, dat.after 0 t = iblk1 V c 0 t) (t : Fin (cfg1 (adm (F := F) 1)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 (adm (F := F) 1)) c) (hA : dat.A 1 = V c (Pipeline.arrRef spec1 1))
    (hafter : ∀ t, dat.after 1 t = iblk1 V c 1 t) (t : Fin (cfg1 (adm (F := F) 1)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 (adm (F := F) 1)) c) (hA : dat.A 2 = V c (Pipeline.arrRef spec1 2))
    (hafter : ∀ t, dat.after 2 t = iblk1 V c 2 t) (t : Fin (cfg1 (adm (F := F) 1)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 (adm (F := F) 1)) c) (hA : dat.A 3 = V c (Pipeline.arrRef spec1 3))
    (hafter : ∀ t, dat.after 3 t = iblk1 V c 3 t) (t : Fin (cfg1 (adm (F := F) 1)).N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfg1 (adm (F := F) 1)).N) (d) : (dat1 V c).before 0 t d = iblk1 V c 0 t :=
  before1_0_of V (dat1 V c) (A_eq1 V c 0) (after1_0 V c) t d
theorem before1_1 (c : Dev nD) (t : Fin (cfg1 (adm (F := F) 1)).N) (d) : (dat1 V c).before 1 t d = iblk1 V c 1 t :=
  before1_1_of V (dat1 V c) (A_eq1 V c 1) (after1_1 V c) t d
theorem before1_2 (c : Dev nD) (t : Fin (cfg1 (adm (F := F) 1)).N) (d) : (dat1 V c).before 2 t d = iblk1 V c 2 t :=
  before1_2_of V (dat1 V c) (A_eq1 V c 2) (after1_2 V c) t d
theorem before1_3 (c : Dev nD) (t : Fin (cfg1 (adm (F := F) 1)).N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin (cfg1 (adm (F := F) 1)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin (cfg1 (adm (F := F) 1)).N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

end Region

/-! ## What the runs' pieces read back as -/

section Pieces

variable (c : Dev nD) (i : grid1.Coords)
  (arg3 : Memref sig .tc .vmem S1x128x1024 .bf16) (harg3 : arg3.IsWhole) (arg4 : Memref sig .tc .vmem S1024x4096 .bf16) (harg4 : arg4.IsWhole)
  (arg5 : Memref sig .tc .vmem S1024x4096 .bf16) (harg5 : arg5.IsWhole) (arg6 : Memref sig .tc .vmem S1x4096 .f32) (harg6 : arg6.IsWhole)
  (arg7 : Memref sig .tc .vmem S1x128x1024 .f32) (harg7 : arg7.IsWhole)
  (arg8 : Memref sig .tc .vmem S16x128x1024 .f32) (harg8 : arg8.IsWhole) (arg9 : Memref sig .tc .vmem S16x128x1024 .f32) (harg9 : arg9.IsWhole)
  (x0 : Vec F S1x128x1024 .bf16) (x1 x2 : Vec F S1024x4096 .bf16) (x3 : Vec F S1x4096 .f32)
  (xt : TbBuf1 (F := F) c tbM1) (hw : k1_chk1 (tblWord xt i))

/-- At node coordinate 0 the three buffers read back as the cell over the zero scratches, whatever they held. -/
theorem runA_reads (hc0 : cond1_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    (arg7.view.read (Elt F) (arg7.view.writes (Elt F) f7 (kernelRun1_A c i arg3 harg3 arg4 harg4 arg5 harg5 arg6 harg6 arg7 harg7 arg8 harg8 arg9 harg9 hc0 x0 x1 x2 x3 fh fc xt hw).1),
     arg8.view.read (Elt F) (arg8.view.writes (Elt F) f8 (kernelRun1_A c i arg3 harg3 arg4 harg4 arg5 harg5 arg6 harg6 arg7 harg7 arg8 harg8 arg9 harg9 hc0 x0 x1 x2 x3 fh fc xt hw).2.1),
     arg9.view.read (Elt F) (arg9.view.writes (Elt F) f9 (kernelRun1_A c i arg3 harg3 arg4 harg4 arg5 harg5 arg6 harg6 arg7 harg7 arg8 harg8 arg9 harg9 hc0 x0 x1 x2 x3 fh fc xt hw).2.2.1))
      = cellOut (tblWord xt i) hw k1_pay4 k1_pay5 x0 x1 x2 x3 i := by
  unfold kernelRun1_A cellOut cellH cellC
  dsimp only
  sl_unfold_run_names
  simp only [tblWord, read_writes_cons_overlay, View.writes_nil, overlay_unit_zero (S := S16x128x1024) zero3, overlay_unit_zero (S := S1x128x1024) zero3,
    View.readCov_eq_canon', View.canon_unit_zero (S := S16x128x1024) zero3, View.readAt_eq_ld, Memref.IsWhole.read_unread]
  try rfl

/-- At any other node coordinate they read back as the cell over what the scratches held. -/
theorem runB_reads (hc0 : ¬cond1_0 i) (f7 : arg7.view.ty.Contents (Elt F)) (fh : arg8.view.ty.Contents (Elt F)) (fc : arg9.view.ty.Contents (Elt F)) :
    (arg7.view.read (Elt F) (arg7.view.writes (Elt F) f7 (kernelRun1_B c i arg3 harg3 arg4 harg4 arg5 harg5 arg6 harg6 arg7 harg7 arg8 harg8 arg9 harg9 hc0 x0 x1 x2 x3 fh fc xt hw).1),
     arg8.view.read (Elt F) (arg8.view.writes (Elt F) fh (kernelRun1_B c i arg3 harg3 arg4 harg4 arg5 harg5 arg6 harg6 arg7 harg7 arg8 harg8 arg9 harg9 hc0 x0 x1 x2 x3 fh fc xt hw).2.1),
     arg9.view.read (Elt F) (arg9.view.writes (Elt F) fc (kernelRun1_B c i arg3 harg3 arg4 harg4 arg5 harg5 arg6 harg6 arg7 harg7 arg8 harg8 arg9 harg9 hc0 x0 x1 x2 x3 fh fc xt hw).2.2.1))
      = cellOut (tblWord xt i) hw (arg8.view.read (Elt F) fh) (arg9.view.read (Elt F) fc) x0 x1 x2 x3 i := by
  unfold kernelRun1_B cellOut cellH cellC
  dsimp only
  sl_unfold_run_names
  simp only [tblWord, read_writes_cons_overlay, View.writes_nil, overlay_unit_zero (S := S1x128x1024) zero3, View.readAt_eq_ld, Memref.IsWhole.read_unread]
  try rfl

/-- The same, component by component. -/
theorem runA_reads3 (hc0 : cond1_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    arg7.view.read (Elt F) (arg7.view.writes (Elt F) f7 (kernelRun1_A c i arg3 harg3 arg4 harg4 arg5 harg5 arg6 harg6 arg7 harg7 arg8 harg8 arg9 harg9 hc0 x0 x1 x2 x3 fh fc xt hw).1)
        = (cellOut (tblWord xt i) hw k1_pay4 k1_pay5 x0 x1 x2 x3 i).1
    ∧ arg8.view.read (Elt F) (arg8.view.writes (Elt F) f8 (kernelRun1_A c i arg3 harg3 arg4 harg4 arg5 harg5 arg6 harg6 arg7 harg7 arg8 harg8 arg9 harg9 hc0 x0 x1 x2 x3 fh fc xt hw).2.1)
        = (cellOut (tblWord xt i) hw k1_pay4 k1_pay5 x0 x1 x2 x3 i).2.1
    ∧ arg9.view.read (Elt F) (arg9.view.writes (Elt F) f9 (kernelRun1_A c i arg3 harg3 arg4 harg4 arg5 harg5 arg6 harg6 arg7 harg7 arg8 harg8 arg9 harg9 hc0 x0 x1 x2 x3 fh fc xt hw).2.2.1)
        = (cellOut (tblWord xt i) hw k1_pay4 k1_pay5 x0 x1 x2 x3 i).2.2 :=
  have h := runA_reads c i arg3 harg3 arg4 harg4 arg5 harg5 arg6 harg6 arg7 harg7 arg8 harg8 arg9 harg9 x0 x1 x2 x3 xt hw hc0 fh fc f7 f8 f9
  ⟨congrArg Prod.fst h, congrArg (fun p => p.2.1) h, congrArg (fun p => p.2.2) h⟩

theorem runB_reads3 (hc0 : ¬cond1_0 i) (f7 : arg7.view.ty.Contents (Elt F)) (fh : arg8.view.ty.Contents (Elt F)) (fc : arg9.view.ty.Contents (Elt F)) :
    arg7.view.read (Elt F) (arg7.view.writes (Elt F) f7 (kernelRun1_B c i arg3 harg3 arg4 harg4 arg5 harg5 arg6 harg6 arg7 harg7 arg8 harg8 arg9 harg9 hc0 x0 x1 x2 x3 fh fc xt hw).1)
        = (cellOut (tblWord xt i) hw (arg8.view.read (Elt F) fh) (arg9.view.read (Elt F) fc) x0 x1 x2 x3 i).1
    ∧ arg8.view.read (Elt F) (arg8.view.writes (Elt F) fh (kernelRun1_B c i arg3 harg3 arg4 harg4 arg5 harg5 arg6 harg6 arg7 harg7 arg8 harg8 arg9 harg9 hc0 x0 x1 x2 x3 fh fc xt hw).2.1)
        = (cellOut (tblWord xt i) hw (arg8.view.read (Elt F) fh) (arg9.view.read (Elt F) fc) x0 x1 x2 x3 i).2.1
    ∧ arg9.view.read (Elt F) (arg9.view.writes (Elt F) fc (kernelRun1_B c i arg3 harg3 arg4 harg4 arg5 harg5 arg6 harg6 arg7 harg7 arg8 harg8 arg9 harg9 hc0 x0 x1 x2 x3 fh fc xt hw).2.2.1)
        = (cellOut (tblWord xt i) hw (arg8.view.read (Elt F) fh) (arg9.view.read (Elt F) fc) x0 x1 x2 x3 i).2.2 :=
  have h := runB_reads c i arg3 harg3 arg4 harg4 arg5 harg5 arg6 harg6 arg7 harg7 arg8 harg8 arg9 harg9 x0 x1 x2 x3 xt hw hc0 f7 fh fc
  ⟨congrArg Prod.fst h, congrArg (fun p => p.2.1) h, congrArg (fun p => p.2.2) h⟩

end Pieces

section Region

variable (V : (c : Dev nD) → (b : Ref sig .tc) → Buf (Elt F) ((c : Thread nD τ).loc b))

set_option maxHeartbeats 4800000 in
/-- The body at any point. The inputs' memrefs hold their blocks; the node coordinate says which run applies. At node
    coordinate 0 the invariant hands the scratches at anything (the first point) or at what the point before left, which the
    run forgets; elsewhere at what the point before left, as buffers the run writes over. The run gives the scratches and
    the output block back at the cell's contents (`runA_reads`, `runB_reads`); the table, the other scoped buffers, the
    register and the core's dues pass through. -/
theorem sound_body1 (c : Dev nD) (t : Fin (cfg1 (adm (F := F) 1)).N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, after1_0, after1_1, after1_2, after1_3, after1_4, prefHeld1_eq]
  by_cases h0 : t.val % 15 = 0
  · have hc0 : cond1_0 (grid1.coords t) := (hcond1_0 t).mpr h0
    rw [outsAt1_A V c t h0]
    unfold cellAt
    by_cases hz : t.val = 0
    · rw [Phi1_castSucc, PhiS1_zero V c _ _ hz, PhiA1_eq, prefHeld1_eq]
      iintro ⟨⟨⟨⟨⟨⟨%dh, HS0⟩, ⟨%dc, HS1⟩⟩, HR⟩, Hg⟩, HT⟩, Ho, ⟨%d0, H0⟩, ⟨%d1, H1⟩, ⟨%d2, H2⟩, ⟨%d3, H3⟩, ⟨%d4, H4⟩⟩
      ihave HS0' := (show owns (c : Thread nD τ) scM1_0 fullShare dh ⊢ (iprop(∃ g, ⌜scM1_0.view.read (Elt F) g = dh⌝ ∗ scM1_0.view.loc (c : Thread nD τ) ↦[scM1_0.view.set]{fullShare} g) : sProp 𝕄) from .rfl) $$ HS0
      icases HS0' with ⟨%fh, -, HS0⟩
      ihave HS1' := (show owns (c : Thread nD τ) scM1_1 fullShare dc ⊢ (iprop(∃ g, ⌜scM1_1.view.read (Elt F) g = dc⌝ ∗ scM1_1.view.loc (c : Thread nD τ) ↦[scM1_1.view.set]{fullShare} g) : sProp 𝕄) from .rfl) $$ HS1
      icases HS1' with ⟨%fc, -, HS1⟩
      iapply ((kernelRun1_A c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid1.coords t) _ (hs1_0 t) _ (hs1_1 t) _ (hs1_2 t) _ (hs1_3 t) _ (hs1_4 t) scM1_0 (Memref.isWhole_whole _) scM1_1 (Memref.isWhole_whole _)
        (iblk1 V c 0 t) (iblk1 V c 1 t) (iblk1 V c 2 t) (iblk1 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
    · rw [Phi1_castSucc, PhiS1_pos V c _ _ hz, prefHeld1_eq]
      generalize (outsAt1 V c (t.val - 1) (Nat.lt_of_le_of_lt (Nat.sub_le _ _) t.isLt)).2.1 = dh
      generalize (outsAt1 V c (t.val - 1) (Nat.lt_of_le_of_lt (Nat.sub_le _ _) t.isLt)).2.2 = dc
      iintro ⟨⟨HS0, HS1, HR, Hg, HT⟩, Ho, ⟨%d0, H0⟩, ⟨%d1, H1⟩, ⟨%d2, H2⟩, ⟨%d3, H3⟩, ⟨%d4, H4⟩⟩
      ihave HS0' := (show owns (c : Thread nD τ) scM1_0 fullShare dh ⊢ (iprop(∃ g, ⌜scM1_0.view.read (Elt F) g = dh⌝ ∗ scM1_0.view.loc (c : Thread nD τ) ↦[scM1_0.view.set]{fullShare} g) : sProp 𝕄) from .rfl) $$ HS0
      icases HS0' with ⟨%fh, -, HS0⟩
      ihave HS1' := (show owns (c : Thread nD τ) scM1_1 fullShare dc ⊢ (iprop(∃ g, ⌜scM1_1.view.read (Elt F) g = dc⌝ ∗ scM1_1.view.loc (c : Thread nD τ) ↦[scM1_1.view.set]{fullShare} g) : sProp 𝕄) from .rfl) $$ HS1
      icases HS1' with ⟨%fc, -, HS1⟩
      iapply ((kernelRun1_A c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid1.coords t) _ (hs1_0 t) _ (hs1_1 t) _ (hs1_2 t) _ (hs1_3 t) _ (hs1_4 t) scM1_0 (Memref.isWhole_whole _) scM1_1 (Memref.isWhole_whole _)
        (iblk1 V c 0 t) (iblk1 V c 1 t) (iblk1 V c 2 t) (iblk1 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
  · have hc0 : ¬cond1_0 (grid1.coords t) := fun h => h0 ((hcond1_0 t).mp h)
    have hz : t.val ≠ 0 := fun h => h0 (by rw [h])
    rw [outsAt1_B V c t h0]
    unfold cellAt
    rw [Phi1_castSucc, PhiS1_pos V c _ _ hz, prefHeld1_eq]
    generalize (outsAt1 V c (t.val - 1) (Nat.lt_of_le_of_lt (Nat.sub_le _ _) t.isLt)).2.1 = hs
    generalize (outsAt1 V c (t.val - 1) (Nat.lt_of_le_of_lt (Nat.sub_le _ _) t.isLt)).2.2 = cs
    iintro ⟨⟨HS0, HS1, HR, Hg, HT⟩, Ho, ⟨%d0, H0⟩, ⟨%d1, H1⟩, ⟨%d2, H2⟩, ⟨%d3, H3⟩, ⟨%d4, H4⟩⟩
    ihave HS0' := (show owns (c : Thread nD τ) scM1_0 fullShare hs ⊢ (iprop(∃ g, ⌜scM1_0.view.read (Elt F) g = hs⌝ ∗ scM1_0.view.loc (c : Thread nD τ) ↦[scM1_0.view.set]{fullShare} g) : sProp 𝕄) from .rfl) $$ HS0
    icases HS0' with ⟨%fh, %hfh, HS0⟩
    ihave HS1' := (show owns (c : Thread nD τ) scM1_1 fullShare cs ⊢ (iprop(∃ g, ⌜scM1_1.view.read (Elt F) g = cs⌝ ∗ scM1_1.view.loc (c : Thread nD τ) ↦[scM1_1.view.set]{fullShare} g) : sProp 𝕄) from .rfl) $$ HS1
    icases HS1' with ⟨%fc, %hfc, HS1⟩
    subst hfh; subst hfc
    iapply ((kernelRun1_B c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT]; · iexact HT
    iintro ⟨H0, H1, H2, H3, ⟨%e4, H4⟩, H8, H9, HT⟩
    obtain ⟨hr1, hr2, hr3⟩ := runB_reads3 c (grid1.coords t) _ (hs1_0 t) _ (hs1_1 t) _ (hs1_2 t) _ (hs1_3 t) _ (hs1_4 t) scM1_0 (Memref.isWhole_whole _) scM1_1 (Memref.isWhole_whole _)
      (iblk1 V c 0 t) (iblk1 V c 1 t) (iblk1 V c 2 t) (iblk1 V c 3 t) tblC (chk_tbl _) hc0 e4 fh fc
    isplitl [H8 H9 HR Hg HT]
    · isplitl [H8]
      · unfold owns; iexists _; isplitr
        swap; · iexact H8
        ipureintro; exact hr2
      isplitl [H9]
      · unfold owns; iexists _; isplitr
        swap; · iexact H9
        ipureintro; exact hr3
      isplitl [HR]; · iexact HR
      isplitl [Hg]; · iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact hr1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.K1

end
-- ==== Proof.K.Region1.lean ====
/-
  One pallas_call of the program as one item of its run.

  Between two items of the program a core holds every unscoped buffer whole, at a valuation, beside its generator
  register and the fact that it owes nothing. This module shows that the call's pipeline carries such a state at a
  valuation `Vin` to such a state at a valuation `Vout`, for any two valuations with
    * the prefetched table's buffer holding, under `Vin`, the contents the pipeline is pinned at;
    * the output window's array holding, under `Vout`, the fold of all write-backs over its contents under `Vin`;
    * every other buffer the same under both.
  The windows' arrays leave the unscoped buffers at entry and come back at exit. What is new against a call without
  tables is the table: it is one of the unscoped buffers that are no window's array, it is handed whole to the body's
  invariant (the body loads its words), and the invariant hands it back after the last grid point, so that the
  unscoped buffers are complete again at exit.

  Stated for any family of proof data whose member at this pipeline is the data of this region (`hp`), so that the
  same text serves whichever family the launch is stated over.
-/
import proofs.«109754_j89713276879117_1_alg».proof.Proof.K.Common
import proofs.«109754_j89713276879117_1_alg».proof.Proof.K.Data1
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.KernelIdeal.K1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.KernelIdeal.KC

variable {F : FTy → Type} [FloatOps F]

local notation "𝕄" => MT nD τ sig Unit (Elt F) ℕ (UR sig nD τ) ℕ

section Region

/- The region is stated between two valuations of the core's unscoped buffers: `Vin`, what it is entered from, and
   `Vout`, what it leaves. All that is asked of them: the table's buffer holds the admissible contents at entry
   (`htab`); at exit the output window's array holds what the write-backs leave (`hVout`), and every other buffer
   what it held at entry (`hVne`). -/
variable (L : GSem nD τ sig → Finset Unit) (lv : GSem nD τ sig → Unit → ℕ)
variable (Vin Vout : Dev nD → Valuation τ sig (Elt F))
variable (pdats : (p : Fin 2) → (c : Dev nD) → Dat τ (Elt F) Unit ℕ (UR sig nD τ) ℕ (Pipeline.pin (pcfgs (F := F)) adm p) c)

/-- The input windows' arrays are never written back, so at the exit they hold their entry contents, which `Vout`
    agrees with off the output array; the output window's array is `Vout`'s by hypothesis. -/
theorem arrAt_exit
    (hVout : ∀ c, Vout c main_v32 = (dat1 (Vr Vin) c).arrAt 4 (cfg1 (adm (F := F) 1)).N)
    (hVne : ∀ c (r : Ref sig .tc), r ≠ main_v32 → Vout c r = Vin c r) (c : Dev nD) :
    ∀ w : Fin 5, (dat1 (Vr Vin) c).arrAt w (cfg1 (adm (F := F) 1)).N = Vr Vout c (Pipeline.arrRef spec1 w)
  | ⟨0, _⟩ => ((dat1 (Vr Vin) c).arrAt_in 0 rfl _).trans (hVne c (Pipeline.arrRef spec1 0) (by decide)).symm
  | ⟨1, _⟩ => ((dat1 (Vr Vin) c).arrAt_in 1 rfl _).trans (hVne c (Pipeline.arrRef spec1 1) (by decide)).symm
  | ⟨2, _⟩ => ((dat1 (Vr Vin) c).arrAt_in 2 rfl _).trans (hVne c (Pipeline.arrRef spec1 2) (by decide)).symm
  | ⟨3, _⟩ => ((dat1 (Vr Vin) c).arrAt_in 3 rfl _).trans (hVne c (Pipeline.arrRef spec1 3) (by decide)).symm
  | ⟨4, _⟩ => (hVout c).symm

/-- Off the windows' arrays `Vout` is `Vin`: the output array is one of them. -/
theorem rest_exit (hVne : ∀ c (r : Ref sig .tc), r ≠ main_v32 → Vout c r = Vin c r) (c : Dev nD) :
    ∀ b, b ∉ Finset.univ.image (Pipeline.arrRef spec1) → Vr Vout c b = Vr Vin c b :=
  fun b hb => hVne c b fun e => hb (Finset.mem_image.mpr ⟨4, Finset.mem_univ _, e.symm⟩)

/-- The unscoped buffers that are no window's array: the prefetched table, whole, at the contents the pipeline is
    pinned at — which are the table's contents under `Vin` (`htab`) —, and the buffers that bypass the region. -/
theorem rest_split (htab : ∀ c k, Vr Vin c (pre1.ref k) = (adm (F := F) 1).1 k) (c : Dev nD) :
    (Pipeline.unscopedRest (Ix := Unit) (Name := ℕ) (U := UR sig nD τ) (Lvl := ℕ) spec1 c (Vr Vin c) : sProp 𝕄)
      = iprop(Pipeline.prefHeld (Ix := Unit) (Name := ℕ) (U := UR sig nD τ) (Lvl := ℕ) pre1 c (fun _ => fullShare) (adm (F := F) 1).1
          ∗ Pipeline.unscopedRestP (Ix := Unit) (Name := ℕ) (U := UR sig nD τ) (Lvl := ℕ) pre1 spec1 c (Vr Vin c)) := by
  rw [Pipeline.unscopedRest_split preFacts1 c (Vr Vin c)]
  exact congrArg (fun v => (iprop(Pipeline.prefHeld (Ix := Unit) (Name := ℕ) (U := UR sig nD τ) (Lvl := ℕ) pre1 c (fun _ => fullShare) v
      ∗ Pipeline.unscopedRestP (Ix := Unit) (Name := ℕ) (U := UR sig nD τ) (Lvl := ℕ) pre1 spec1 c (Vr Vin c)) : sProp 𝕄)) (funext (htab c))

set_option backward.isDefEq.respectTransparency.types false in
/-- THE REGION as a segment of the program: entered from every unscoped buffer of the core at `Vin` beside the
    generator register and nothing owed, left at `Vout` beside the same.

    At entry the windows' arrays are split out of the unscoped buffers; out of the rest comes the prefetched table,
    whole, at the contents the pipeline is pinned at (`htab`); what is left bypasses the region (`Z`). The table, the
    generator register and the scoped buffers no window stages make the invariant before the first point; after the
    last point the invariant gives all three back. At exit the arrays, the table and the bypassing buffers are the
    core's unscoped buffers again, at `Vout`. The kernel has no semaphore of its own and owes nothing. -/
def reg1
    (hp : ∀ c, pdats (1 : Fin 2) c = dat1 (Vr Vin) c)
    (htab : ∀ c k, Vr Vin c (pre1.ref k) = (adm (F := F) 1).1 k)
    (hVout : ∀ c, Vout c main_v32 = (dat1 (Vr Vin) c).arrAt 4 (cfg1 (adm (F := F) 1)).N)
    (hVne : ∀ c (r : Ref sig .tc), r ≠ main_v32 → Vout c r = Vin c r) :
    Pipeline.RegionSeg (pcfgs (F := F)) adm pdats () defs₀ Variants.none L lv (1 : Fin 2) where
  win := (launch1 (F := F)).win.to₀
  block_pos := (launch1 (F := F)).block_pos
  stage_whole := (launch1 (F := F)).stage_whole
  K := PEmpty
  osem k := k.elim
  ho := Pipeline.OwnSemFacts.none _
  hbody c := by rw [hp c]; exact (body_obligation1 (Vr Vin) c).loose
  hwaits := Pipeline.hwaits_of_owed_zero _ _ _ _ L lv (1 : Fin 2) fun c t => by rw [hp c]; rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r)
    ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (Vr Vin c)
  hentry c := by
    rw [Pipeline.ownSems0_none]
    have hsplit := Pipeline.arrays_of_unscopedBufs (p := (1 : Fin 2)) (pcfgs (F := F)) adm pdats (launch1 (F := F)).win (launch1 (F := F)).arr_whole c
      (fun w => by rw [hp c]; exact (dat1 (Vr Vin) c).share_full (fun _ => rfl) w) (Vr Vin c) (fun w => by rw [hp c]; rfl)
    rw [Pipeline.unscopedBufs_held] at hsplit
    iintro ⟨⟨Hub, Hp, HO⟩, -, -⟩
    ihave H := hsplit $$ Hub
    icases H with ⟨Ha, Hrest⟩
    ihave H' := (Entails.of_eq (rest_split Vin htab c)) $$ Hrest
    icases H' with ⟨Ht, Hrest⟩
    imodintro
    isplitl [Ha]; · iexact Ha
    isplitl [Ht]; · iexact Ht
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (PhiS1_in (Vr Vin) c)
    unfold Pipeline.ΦA
    iintro ⟨Hp, Ht, Hr⟩
    isplitr [Ht]
    · isplitl [Hr] <;> iassumption
    · iexact Ht
  hout c := by
    rw [Pipeline.ownSems0_none, hp c]
    refine (PhiS1_out (Vr Vin) c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := (1 : Fin 2)) (pcfgs (F := F)) adm (Ix := Unit) (Name := ℕ) (U := UR sig nD τ) (Lvl := ℕ)
      (launch1 (F := F)).win (launch1 (F := F)).arr_whole c pdats (fun w => by rw [hp c]; exact (dat1 (Vr Vin) c).share_full (fun _ => rfl) w)
      (Vr Vin c) (Vr Vout c) ((pdats (1 : Fin 2) c).arrAt · (cfg1 (adm (F := F) 1)).N)
      (fun w => by rw [hp c]; exact arrAt_exit Vin Vout hVout hVne c w) (rest_exit Vin Vout hVne c)
    rw [Pipeline.unscopedBufs_held] at hjoin
    iintro ⟨Ha, HO, ⟨HY, Ht⟩, HR⟩
    ihave Hrest := (Entails.of_eq (rest_split Vin htab c).symm) $$ [Ht HR]
    · isplitl [Ht]; · iexact Ht
      iexact HR
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Region

end Cert.KernelIdeal.K1

end
-- ==== Proof.K.Launch.lean ====
/-
  The run of the whole program, with the kernel's result in its post.

  The program is five items in order: a stretch of host operations, the first pallas_call, a second stretch, the second
  pallas_call, a last stretch. Each item is entered from the state the one before left: every unscoped buffer of the
  core whole at a valuation, the generator register, nothing owed. The valuations are the launch memory pushed through
  the items: a host stretch applies its operations; a pallas_call changes its output array only, to the fold of its
  write-backs (`out0`, `out1` below). The prefetched table is written by the first operation of the first stretch and
  by nothing after it, so both calls find it at the contents their pipelines are pinned at.

  At the end the last valuation is read against the final memory: the second call's output array holds `out1` (the
  last stretch writes another buffer), and every argument holds its launch contents (nothing writes an argument).
-/
import proofs.«109754_j89713276879117_1_alg».proof.Proof.Gen.KernelIdeal.Regions
import proofs.«109754_j89713276879117_1_alg».proof.Proof.K.Common
import proofs.«109754_j89713276879117_1_alg».proof.Proof.K.Region0
import proofs.«109754_j89713276879117_1_alg».proof.Proof.K.Region1
import Idealize.ShloMosaic.Lib.Pipeline.Frame
import Idealize.ShloMosaic.Lib.Pipeline.Regions
import Idealize.ShloMosaic.Lib.Pipeline.Kit

noncomputable section

namespace Cert.KernelIdeal.KRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.KC
open Cert.KernelIdeal.K0 (dat0)
open Cert.KernelIdeal.K1 (dat1)

variable {F : FTy → Type} [FloatOps F]

local notation "𝕄" => MT nD τ sig Unit (Elt F) ℕ (UR sig nD τ) ℕ

variable (m : (ℓ : Loc nD τ sig) → Buf (Elt F) ℓ)

/-! ## What the two regions leave -/

/-- What the first region leaves in its output array: the write-backs of all its points folded over the array's
    contents at entry, the buffers standing at the launch contents run through the first host stretch. -/
def out0 (c : Dev nD) : Buf (Elt F) ((c : Thread nD τ).loc main_v16) :=
  (dat0 (Vr (V1 m)) c).arrAt 4 (cfg0 (adm (F := F) 0)).N

/-- The buffers when the second region is entered: the first region's output array at `out0`, every other buffer as
    the first host stretch left it, and then the second host stretch run. -/
abbrev W3 (c : Dev nD) : Valuation τ sig (Elt F) :=
  StableHlo.after hostOps1 (Function.update (V1 m c) main_v16 (out0 m c))

/-- What the second region leaves in its output array, likewise. -/
def out1 (c : Dev nD) : Buf (Elt F) ((c : Thread nD τ).loc main_v32) :=
  (dat1 (Vr (W3 m)) c).arrAt 4 (cfg1 (adm (F := F) 1)).N

/-- The contents the regions leave, as the program's valuations between items read them: `out0` at the first
    region's output array, `out1` at the second's; no other point is read. -/
def outs : Outs (F := F) := fun _ r c =>
  if h₀ : r = main_v16 then h₀ ▸ out0 m c
  else if h₁ : r = main_v32 then h₁ ▸ out1 m c
  else m ((c : Thread nD τ).loc r)

theorem outs_v16 (J : ℕ) (c : Dev nD) : outs m J main_v16 c = out0 m c := by
  unfold outs; exact (dif_pos rfl).trans rfl
theorem outs_v32 (J : ℕ) (c : Dev nD) : outs m J main_v32 c = out1 m c := by
  unfold outs; exact (dif_neg (by decide)).trans ((dif_pos rfl).trans rfl)

/-- The program's valuation at the second region's entry, at these contents, is `W3`. -/
theorem V3_outs : V3 m (outs m) = W3 m := funext fun c => by
  show StableHlo.after hostOps1 (Function.update (V1 m c) _ (outs m 2 main_v16 c)) = _
  rw [outs_v16]

/-- THE KERNEL'S RESULT: what the second region leaves in `main_v32`. -/
def kout (c : Dev nD) : Buf (Elt F) ((c.tc : Thread nD τ).loc main_v32) := outs m 4 main_v32 c

/-- The result is the second region's output array after all its write-backs, over the buffers it is entered from. -/
theorem kout_eq (c : Dev nD) :
    kout m c = (dat1 (Vr (V3 m (outs m))) c).arrAt 4 (cfg1 (adm (F := F) 1)).N := by
  unfold kout; rw [outs_v32, V3_outs]; rfl

/-- And the first region's, which the second host stretch reads. -/
theorem out0_eq (c : Dev nD) :
    outs m 2 main_v16 c = (dat0 (Vr (V1 m)) c).arrAt 4 (cfg0 (adm (F := F) 0)).N := outs_v16 m 2 c

/-! ## The proof data of both pipelines, and the regions as segments -/

/-- Every pipeline's proof data, each over the buffers its region is entered from. -/
def pdats : (p : Fin 2) → (c : Dev nD) → Dat τ (Elt F) Unit ℕ (UR sig nD τ) ℕ (Pipeline.pin (pcfgs (F := F)) adm p) c
  | ⟨0, _⟩ => fun c => dat0 (Vr (V1 m)) c
  | ⟨1, _⟩ => fun c => dat1 (Vr (V3 m (outs m))) c

/-- No core owes another anything: no level is assigned. -/
abbrev L : GSem nD τ sig → Finset Unit := fun _ => ∅
abbrev lv : GSem nD τ sig → Unit → ℕ := fun _ _ => 0
/-- What rides beside the buffers between items: the same at every boundary. -/
abbrev E : Fin 3 → Dev nD → sProp 𝕄 := fun _ c => Rst c

/-- The table as the first host stretch's first operation writes it, read at the first region's entry. -/
theorem tab0 (c : Dev nD) : ∀ k : Fin 1, Vr (V1 m) c (pre0.ref k) = (adm (F := F) 0).1 k
  | ⟨0, _⟩ => by
    show StableHlo.after hostOps0 (V0 m c) (Proc.devRef .tc main_c) = _
    after_results
    rfl

/-- Neither the first region nor the second host stretch writes the table: the second region finds it as the first did. -/
theorem tab1 (c : Dev nD) : ∀ k : Fin 1, Vr (V3 m (outs m)) c (pre1.ref k) = (adm (F := F) 1).1 k
  | ⟨0, _⟩ =>
    (V3_of m (outs m) c main_c (by decide)).trans <| (V2_of m (outs m) c main_c (by decide)).trans <| by
      show StableHlo.after hostOps0 (V0 m c) (Proc.devRef .tc main_c) = _
      after_results
      rfl

/-- REGION 0 between the program's valuations `V1` and `V2`. -/
def R0 : RegionSeg (pcfgs (F := F)) adm (pdats m) () defs₀ Variants.none L lv 0 :=
  K0.reg0 L lv (V1 m) (V2 m (outs m)) (pdats m) (fun _ => rfl) (tab0 m)
    (fun c => (Function.update_self _ _ _).trans (outs_v16 m 2 c))
    (fun c r h => V2_of m (outs m) c r fun hm => h (List.mem_singleton.mp hm))

/-- REGION 1 between `V3` and `V4`. -/
def R1 : RegionSeg (pcfgs (F := F)) adm (pdats m) () defs₀ Variants.none L lv 1 :=
  K1.reg1 L lv (V3 m (outs m)) (V4 m (outs m)) (pdats m) (fun _ => rfl) (tab1 m)
    (fun c => (Function.update_self _ _ _).trans ((outs_v32 m 4 c).trans (by unfold out1; rw [V3_outs])))
    (fun c r h => V4_of m (outs m) c r fun hm => h (List.mem_singleton.mp hm))

/-! ## The launch -/

/-- What the launch deals every core beside its buffers makes the rest state: the generator register at its launch
    state, nothing owed. -/
theorem hE0 (ρ : Dev nD → PrngReg) :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv) : sProp 𝕄)
      ⊢ |={Set.univ}=> bigSep Finset.univ (E (F := F) 0) := by
  refine Pipeline.initEach L lv fun c => ?_
  show _ ⊢ (|={Set.univ}=> iprop((∃ r, prngReg c r) ∗ ∃ W, owes (c : Thread nD τ) (0 : CellTallies nD τ sig Unit) W) : sProp 𝕄)
  iintro ⟨⟨-, HO, -, Hp, -⟩, -⟩
  imodintro
  isplitl [Hp]; · iexists _; iexact Hp
  iexists ∅; iexact HO

/-- The rest state at the end holds the core owing nothing. -/
theorem hE2 (c : Dev nD) :
    E (F := F) 2 c ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, H⟩
  iexact H

set_option backward.isDefEq.respectTransparency.types false in
/-- THE RUN. From any memory `m` with zero counters, every weakly fair execution of the program terminates, and every
    final memory holds the kernel's result `kout m c` in `main_v32` and each argument as launched: the program is the
    list of its items — three host stretches and the two regions between them —, each entered from what the one before
    left; the last valuation, read against the final memory, has `main_v32` at what the second region left (the last
    host stretch writes only `main_v33`) and every argument at its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v32) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () (cellOf_inj adm) emb₁ defs₀ Variants.none L lv m ρ main
    (segs m (outs m) Variants.none L lv E () adm (pdats m) (R0 m) (R1 m))
    (fun c Q => by
      rewrite [main_chain c, Seg.run_eq_chain,
        show (segs m (outs m) Variants.none L lv E () adm (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (0 : Dev nD → CellTallies nD τ sig Unit) (fun _ _ => rfl) (fun _ => iprop(emp))
    (initOf (Pipeline.cells (Pipeline.pin (pcfgs (F := F)) adm) (cellOf_inj adm)) (Pipeline.launchToks (Pipeline.pin (pcfgs (F := F)) adm) (cellOf_inj adm)))
    (by
      iintro Hu; imodintro
      isplitl [Hu]; · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (hE2 c)⟩)
    (hinit := ?_)
    (QY := fun c s => s.mem ((c.tc : Thread nD τ).loc main_v32) = kout m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_v32) (Finset.mem_filter.mpr ⟨StableHlo.devRef_mem_tcRefs main_v32, by decide⟩)).trans
          ((V5_of m (outs m) c main_v32 (by decide)).trans (Function.update_self _ _ _)),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c)⟩
    · iexact HSI

/-- THE FRAME: every argument ends as launched — the run's post without the result. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.KRun

end
-- ==== Proof.Spec.lean ====
/-
  What both programs compute, row by row.

  A node of the tree carries, per layer, a hidden row `h` and a cell row `c` of 1024 extended reals (one batch row at a
  time: the batch rows never mix). A node's rows come from its input row `x`, its PARENT's rows, and the layer's two
  weight matrices and two bias vectors, by the LSTM cell:
      pre-activation of gate column q:   (x · W_q + h_parent · U_q) + (b_q + b'_q)
      c = σ(f) · c_parent + σ(i) · tanh(g),   h = σ(o) · tanh(c),
  the four gates i, f, g, o being the four consecutive blocks of 1024 columns. Node 0 is the root, with zero rows; node
  `i + 1` has parent `par i`, which is at most `i`, so walking the nodes in order 1, 2, …, 15 always finds the parent
  already computed. Layer 0 reads the 15 input rows (the two input arrays side by side); layer 1 reads layer 0's hidden rows;
  the result is layer 1's hidden rows.
-/
import Idealize.ShloMosaic.PureOps.Ideal

noncomputable section

namespace Cert.Spec

open Idealize.ShloMosaic
open scoped BigOperators

/-- A feature row: 1024 extended reals. -/
abbrev Row : Type := Fin 1024 → EReal

/-- Column `n` of gate `g` (0 input, 1 forget, 2 candidate, 3 output) among the 4096 gate columns. -/
def gq (g : Fin 4) (n : Fin 1024) : Fin 4096 := ⟨g.val * 1024 + n.val, by have := g.isLt; have := n.isLt; omega⟩

/-- The pre-activation of gate column `q`: `(x · W_q + h · U_q) + (b_q + b'_q)`. -/
def gate (x h : Row) (W U : Fin 4096 → Fin 1024 → EReal) (b b' : Fin 4096 → EReal) (q : Fin 4096) : EReal :=
  ((∑ k : Fin 1024, x k * W q k) + (∑ k : Fin 1024, h k * U q k)) + (b q + b' q)

/-- The new cell row: `σ(f) · c + σ(i) · tanh(g)`. -/
def cellC (x h c : Row) (W U : Fin 4096 → Fin 1024 → EReal) (b b' : Fin 4096 → EReal) : Row := fun n =>
  Ideal.logistic (gate x h W U b b' (gq 1 n)) * c n
    + Ideal.logistic (gate x h W U b b' (gq 0 n)) * Ideal.tanh (gate x h W U b b' (gq 2 n))

/-- The new hidden row: `σ(o) · tanh(c_new)`. -/
def cellH (x h c : Row) (W U : Fin 4096 → Fin 1024 → EReal) (b b' : Fin 4096 → EReal) : Row := fun n =>
  Ideal.logistic (gate x h W U b b' (gq 3 n)) * Ideal.tanh (cellC x h c W U b b' n)

/-- The parent of node `i + 1`, for `i < 15`. -/
def par (i : ℕ) : ℕ := [0, 1, 2, 3, 1, 5, 6, 1, 8, 9, 10, 8, 12, 13, 14].getD i 0

/-- A parent comes no later than its child's predecessor. -/
theorem par_le (i : ℕ) : par i ≤ i := by
  unfold par
  rcases Nat.lt_or_ge i 15 with h | h
  · interval_cases i <;> decide
  · rw [List.getD_eq_getElem?_getD, List.getElem?_eq_none (by simpa using h)]; exact Nat.zero_le _

/-- One layer's rows at every node. -/
structure St where
  h : ℕ → Row
  c : ℕ → Row

/-- Before any node is walked: zero rows everywhere (the root's rows stay zero for good). -/
def St.zero : St := ⟨fun _ _ => 0, fun _ _ => 0⟩

/-- Walking node `i + 1`: its rows from input row `X i` and the parent's rows. -/
def step (X : ℕ → Row) (W U : Fin 4096 → Fin 1024 → EReal) (b b' : Fin 4096 → EReal) (i : ℕ) (S : St) : St where
  h := Function.update S.h (i + 1) (cellH (X i) (S.h (par i)) (S.c (par i)) W U b b')
  c := Function.update S.c (i + 1) (cellC (X i) (S.h (par i)) (S.c (par i)) W U b b')

/-- The rows after nodes 1 … n have been walked. -/
def run (X : ℕ → Row) (W U : Fin 4096 → Fin 1024 → EReal) (b b' : Fin 4096 → EReal) : ℕ → St
  | 0 => St.zero
  | i + 1 => step X W U b b' i (run X W U b b' i)

/-- Node `i + 1`'s hidden row. -/
def nodeH (X : ℕ → Row) (W U : Fin 4096 → Fin 1024 → EReal) (b b' : Fin 4096 → EReal) (i : ℕ) : Row :=
  (run X W U b b' (i + 1)).h (i + 1)

/-- Node `i + 1`'s cell row. -/
def nodeC (X : ℕ → Row) (W U : Fin 4096 → Fin 1024 → EReal) (b b' : Fin 4096 → EReal) (i : ℕ) : Row :=
  (run X W U b b' (i + 1)).c (i + 1)

section
variable (X : ℕ → Row) (W U : Fin 4096 → Fin 1024 → EReal) (b b' : Fin 4096 → EReal)

/-- A node not yet walked (and the root) holds zero rows. -/
theorem run_h_zero (n j : ℕ) (hj : j = 0 ∨ n < j) : (run X W U b b' n).h j = fun _ => 0 := by
  induction n with
  | zero => rfl
  | succ n ih =>
    show Function.update _ (n + 1) _ j = _
    rw [Function.update_of_ne (by omega)]
    exact ih (by omega)

theorem run_c_zero (n j : ℕ) (hj : j = 0 ∨ n < j) : (run X W U b b' n).c j = fun _ => 0 := by
  induction n with
  | zero => rfl
  | succ n ih =>
    show Function.update _ (n + 1) _ j = _
    rw [Function.update_of_ne (by omega)]
    exact ih (by omega)

/-- Once walked, a node's rows never change. -/
theorem run_h_stable (n j : ℕ) (hj : j ≤ n) : (run X W U b b' n).h j = (run X W U b b' j).h j := by
  induction n with
  | zero => obtain rfl : j = 0 := by omega
            rfl
  | succ n ih =>
    rcases Nat.lt_or_ge j (n + 1) with h | h
    · show Function.update _ (n + 1) _ j = _
      rw [Function.update_of_ne (by omega)]
      exact ih (by omega)
    · obtain rfl : j = n + 1 := by omega
      rfl

theorem run_c_stable (n j : ℕ) (hj : j ≤ n) : (run X W U b b' n).c j = (run X W U b b' j).c j := by
  induction n with
  | zero => obtain rfl : j = 0 := by omega
            rfl
  | succ n ih =>
    rcases Nat.lt_or_ge j (n + 1) with h | h
    · show Function.update _ (n + 1) _ j = _
      rw [Function.update_of_ne (by omega)]
      exact ih (by omega)
    · obtain rfl : j = n + 1 := by omega
      rfl

/-- The hidden row of node `p` as the walk of any later node finds it: zero at the root, else that node's own. -/
def hAt (p : ℕ) : Row := if p = 0 then fun _ => 0 else nodeH X W U b b' (p - 1)
/-- The cell row of node `p`, likewise. -/
def cAt (p : ℕ) : Row := if p = 0 then fun _ => 0 else nodeC X W U b b' (p - 1)

theorem run_h_eq_hAt (n p : ℕ) (hp : p ≤ n) : (run X W U b b' n).h p = hAt X W U b b' p := by
  unfold hAt
  split
  · next h => exact run_h_zero X W U b b' n p (Or.inl h)
  · next h =>
    rw [run_h_stable X W U b b' n p hp]
    unfold nodeH
    obtain ⟨q, rfl⟩ : ∃ q, p = q + 1 := ⟨p - 1, by omega⟩
    rfl

theorem run_c_eq_cAt (n p : ℕ) (hp : p ≤ n) : (run X W U b b' n).c p = cAt X W U b b' p := by
  unfold cAt
  split
  · next h => exact run_c_zero X W U b b' n p (Or.inl h)
  · next h =>
    rw [run_c_stable X W U b b' n p hp]
    unfold nodeC
    obtain ⟨q, rfl⟩ : ∃ q, p = q + 1 := ⟨p - 1, by omega⟩
    rfl

/-- THE RECURRENCE, closed: node `i + 1`'s hidden row is the cell of its input row and its parent's rows. -/
theorem nodeH_eq (i : ℕ) :
    nodeH X W U b b' i = cellH (X i) (hAt X W U b b' (par i)) (cAt X W U b b' (par i)) W U b b' := by
  unfold nodeH
  show Function.update _ (i + 1) _ (i + 1) = _
  rw [Function.update_self, run_h_eq_hAt X W U b b' i (par i) (par_le i), run_c_eq_cAt X W U b b' i (par i) (par_le i)]

theorem nodeC_eq (i : ℕ) :
    nodeC X W U b b' i = cellC (X i) (hAt X W U b b' (par i)) (cAt X W U b b' (par i)) W U b b' := by
  unfold nodeC
  show Function.update _ (i + 1) _ (i + 1) = _
  rw [Function.update_self, run_h_eq_hAt X W U b b' i (par i) (par_le i), run_c_eq_cAt X W U b b' i (par i) (par_le i)]

end

/-! ## The two layers over the argument arrays -/

section
variable (inp brg : Fin 15 → Fin 256 → Fin 512 → EReal) (Wih Whh : Fin 2 → Fin 4096 → Fin 1024 → EReal)
  (bih bhh : Fin 2 → Fin 4096 → EReal)

/-- Layer 0's input row of node `i + 1` for batch row `r`: the two input arrays' rows side by side. -/
def X0 (r : Fin 256) (i : ℕ) : Row := fun k =>
  if hi : i < 15 then
    (if hk : k.val < 512 then inp ⟨i, hi⟩ r ⟨k.val, hk⟩ else brg ⟨i, hi⟩ r ⟨k.val - 512, by have := k.isLt; omega⟩)
  else 0

/-- Layer 0's hidden row of node `i + 1`, batch row `r`. -/
def H0 (r : Fin 256) (i : ℕ) : Row := nodeH (X0 inp brg r) (Wih 0) (Whh 0) (bih 0) (bhh 0) i

/-- Layer 1 reads layer 0's hidden rows. -/
def H1 (r : Fin 256) (i : ℕ) : Row := nodeH (H0 inp brg Wih Whh bih bhh r) (Wih 1) (Whh 1) (bih 1) (bhh 1) i

/-- THE RESULT: entry `(i, r, n)` is layer 1's hidden row of node `i + 1`, batch row `r`, feature `n`. -/
def out (i : Fin 15) (r : Fin 256) (n : Fin 1024) : EReal := H1 inp brg Wih Whh bih bhh r i.val n

end

end Cert.Spec

end
-- ==== Proof.K.ValueRec.lean ====
/-
  One batch row walked node by node by a machine with two banks of sixteen row slots.

  The machine works through 30 points, point `t` being node `t % 15 + 1` of batch half `t / 15`. For a fixed row of
  the half it keeps sixteen hidden rows and sixteen cell rows, slot `j` for node `j` (slot 0 is the root's and is never
  written). At the first point of a half (`t % 15 = 0`) every slot is cleared before anything is read. Then, at every
  point, the machine reads the two rows in the slot a table names for this node, forms the LSTM cell of the point's
  input row and those two rows, writes the new hidden and cell rows into slot `t % 15 + 1`, and emits the new hidden
  row; every other slot keeps what the point before left in it.

  If the table names the tree's parents, then after node `i + 1` of a half the slots hold exactly the rows the
  specification has after `i + 1` nodes, and the emitted row is the specification's hidden row of node `i + 1`. The
  proof is an induction over the nodes of one half: both sides start from zero rows and make the same update of the
  same state, and the parent's slot is already filled because a parent never comes after its child's predecessor.
-/
import proofs.«109754_j89713276879117_1_alg».proof.Proof.Spec

noncomputable section

namespace Cert.KernelIdeal.KValue

open Cert.Spec

section
variable (X : ℕ → Row) (W U : Fin 4096 → Fin 1024 → EReal) (b b' : Fin 4096 → EReal)

/-! ## The specification's walk, one node at a time -/

theorem run_zero_h (j : ℕ) : (run X W U b b' 0).h j = fun _ => 0 := rfl
theorem run_zero_c (j : ℕ) : (run X W U b b' 0).c j = fun _ => 0 := rfl

/-- Walking node `i + 1` puts the cell of its input row and its parent's rows into its own slot, -/
theorem run_succ_h_self (i : ℕ) : (run X W U b b' (i + 1)).h (i + 1)
    = cellH (X i) ((run X W U b b' i).h (par i)) ((run X W U b b' i).c (par i)) W U b b' := by
  show Function.update _ (i + 1) _ (i + 1) = _
  rw [Function.update_self]

theorem run_succ_c_self (i : ℕ) : (run X W U b b' (i + 1)).c (i + 1)
    = cellC (X i) ((run X W U b b' i).h (par i)) ((run X W U b b' i).c (par i)) W U b b' := by
  show Function.update _ (i + 1) _ (i + 1) = _
  rw [Function.update_self]

/-- and leaves every other slot alone. -/
theorem run_succ_h_ne (i j : ℕ) (h : j ≠ i + 1) : (run X W U b b' (i + 1)).h j = (run X W U b b' i).h j := by
  show Function.update _ (i + 1) _ j = _
  rw [Function.update_of_ne h]

theorem run_succ_c_ne (i j : ℕ) (h : j ≠ i + 1) : (run X W U b b' (i + 1)).c j = (run X W U b b' i).c j := by
  show Function.update _ (i + 1) _ j = _
  rw [Function.update_of_ne h]

/-! ## The machine's walk -/

variable (xP oP : ℕ → Fin 128 → Row) (hP cP : ℕ → Fin 16 → Fin 128 → Row) (v : ℕ → Fin 16)

/-- THE WALK. `hP t j r`, `cP t j r`: the hidden and cell row in slot `j` for row `r` after point `t`; `xP t r` the
    point's input row; `v i` the slot the table names for node `i + 1`. Given the machine's two kinds of point
    (`hA`: the first of a half, from cleared slots; `hB`: any other, from what the point before left) and a table of
    the tree's parents (`hv`), the slots after node `i + 1` of half `bb` are the specification's rows after `i + 1`
    nodes over the half's input rows. -/
theorem slots_eq_run
    (hv : ∀ i, i < 15 → (v i).val = par i)
    (hA : ∀ t, t < 30 → t % 15 = 0 → ∀ r : Fin 128,
        (∀ j : Fin 16, hP t j r
            = if j.val = 1 then cellH (xP t r) (fun _ => 0) (fun _ => 0) W U b b' else fun _ => 0)
      ∧ (∀ j : Fin 16, cP t j r
            = if j.val = 1 then cellC (xP t r) (fun _ => 0) (fun _ => 0) W U b b' else fun _ => 0)
      ∧ oP t r = cellH (xP t r) (fun _ => 0) (fun _ => 0) W U b b')
    (hB : ∀ t, t < 30 → t % 15 ≠ 0 → ∀ r : Fin 128,
        (∀ j : Fin 16, hP t j r
            = if j.val = t % 15 + 1
              then cellH (xP t r) (hP (t - 1) (v (t % 15)) r) (cP (t - 1) (v (t % 15)) r) W U b b'
              else hP (t - 1) j r)
      ∧ (∀ j : Fin 16, cP t j r
            = if j.val = t % 15 + 1
              then cellC (xP t r) (hP (t - 1) (v (t % 15)) r) (cP (t - 1) (v (t % 15)) r) W U b b'
              else cP (t - 1) j r)
      ∧ oP t r = cellH (xP t r) (hP (t - 1) (v (t % 15)) r) (cP (t - 1) (v (t % 15)) r) W U b b')
    (bb : ℕ) (hbb : bb < 2) (r : Fin 128) (hX : ∀ i, i < 15 → xP (bb * 15 + i) r = X i) :
    ∀ i, i < 15 → ∀ j : Fin 16,
      hP (bb * 15 + i) j r = (run X W U b b' (i + 1)).h j.val
        ∧ cP (bb * 15 + i) j r = (run X W U b b' (i + 1)).c j.val := by
  intro i
  induction i with
  | zero =>
    intro hi j
    obtain ⟨eh, ec, -⟩ := hA (bb * 15 + 0) (by omega) (by omega) r
    by_cases hj : j.val = 1
    · constructor
      · rw [(eh j).trans (if_pos hj), hj, hX 0 hi]
        exact (run_succ_h_self X W U b b' 0).symm
      · rw [(ec j).trans (if_pos hj), hj, hX 0 hi]
        exact (run_succ_c_self X W U b b' 0).symm
    · constructor
      · rw [(eh j).trans (if_neg hj), run_succ_h_ne X W U b b' 0 j.val hj]
        rfl
      · rw [(ec j).trans (if_neg hj), run_succ_c_ne X W U b b' 0 j.val hj]
        rfl
  | succ i ih =>
    intro hi j
    have ht : (bb * 15 + (i + 1)) % 15 = i + 1 := by omega
    have ht1 : bb * 15 + (i + 1) - 1 = bb * 15 + i := by omega
    obtain ⟨eh, ec, -⟩ := hB (bb * 15 + (i + 1)) (by omega) (by omega) r
    rw [ht, ht1] at eh ec
    obtain ⟨ihh, ihc⟩ := ih (by omega) (v (i + 1))
    by_cases hj : j.val = i + 1 + 1
    · constructor
      · rw [(eh j).trans (if_pos hj), hj, run_succ_h_self, ihh, ihc, hv (i + 1) hi, hX (i + 1) hi]
      · rw [(ec j).trans (if_pos hj), hj, run_succ_c_self, ihh, ihc, hv (i + 1) hi, hX (i + 1) hi]
    · constructor
      · rw [(eh j).trans (if_neg hj), run_succ_h_ne X W U b b' (i + 1) j.val hj]
        exact (ih (by omega) j).1
      · rw [(ec j).trans (if_neg hj), run_succ_c_ne X W U b b' (i + 1) j.val hj]
        exact (ih (by omega) j).2

/-- WHAT THE MACHINE EMITS at node `i + 1` of half `bb` is the specification's hidden row of that node. -/
theorem emitted_eq_nodeH
    (hv : ∀ i, i < 15 → (v i).val = par i)
    (hA : ∀ t, t < 30 → t % 15 = 0 → ∀ r : Fin 128,
        (∀ j : Fin 16, hP t j r
            = if j.val = 1 then cellH (xP t r) (fun _ => 0) (fun _ => 0) W U b b' else fun _ => 0)
      ∧ (∀ j : Fin 16, cP t j r
            = if j.val = 1 then cellC (xP t r) (fun _ => 0) (fun _ => 0) W U b b' else fun _ => 0)
      ∧ oP t r = cellH (xP t r) (fun _ => 0) (fun _ => 0) W U b b')
    (hB : ∀ t, t < 30 → t % 15 ≠ 0 → ∀ r : Fin 128,
        (∀ j : Fin 16, hP t j r
            = if j.val = t % 15 + 1
              then cellH (xP t r) (hP (t - 1) (v (t % 15)) r) (cP (t - 1) (v (t % 15)) r) W U b b'
              else hP (t - 1) j r)
      ∧ (∀ j : Fin 16, cP t j r
            = if j.val = t % 15 + 1
              then cellC (xP t r) (hP (t - 1) (v (t % 15)) r) (cP (t - 1) (v (t % 15)) r) W U b b'
              else cP (t - 1) j r)
      ∧ oP t r = cellH (xP t r) (hP (t - 1) (v (t % 15)) r) (cP (t - 1) (v (t % 15)) r) W U b b')
    (bb : ℕ) (hbb : bb < 2) (r : Fin 128) (hX : ∀ i, i < 15 → xP (bb * 15 + i) r = X i)
    (i : ℕ) (hi : i < 15) : oP (bb * 15 + i) r = nodeH X W U b b' i := by
  have hslots := slots_eq_run X W U b b' xP oP hP cP v hv hA hB bb hbb r hX
  rw [nodeH_eq]
  cases i with
  | zero =>
    rw [(hA (bb * 15 + 0) (by omega) (by omega) r).2.2, hX 0 hi]
    have hp0 : par 0 = 0 := rfl
    rw [hp0]
    rfl
  | succ i =>
    have ht : (bb * 15 + (i + 1)) % 15 = i + 1 := by omega
    have ht1 : bb * 15 + (i + 1) - 1 = bb * 15 + i := by omega
    have eo := (hB (bb * 15 + (i + 1)) (by omega) (by omega) r).2.2
    rw [ht, ht1] at eo
    obtain ⟨ihh, ihc⟩ := hslots i (by omega) (v (i + 1))
    rw [eo, ihh, ihc, hv (i + 1) hi, hX (i + 1) hi,
      run_h_eq_hAt X W U b b' (i + 1) (par (i + 1)) (par_le (i + 1)),
      run_c_eq_cAt X W U b b' (i + 1) (par (i + 1)) (par_le (i + 1))]

/-- The same at a point `t`: the node is `t % 15 + 1`, the half `t / 15`. -/
theorem emitted_eq_nodeH_at
    (hv : ∀ i, i < 15 → (v i).val = par i)
    (hA : ∀ t, t < 30 → t % 15 = 0 → ∀ r : Fin 128,
        (∀ j : Fin 16, hP t j r
            = if j.val = 1 then cellH (xP t r) (fun _ => 0) (fun _ => 0) W U b b' else fun _ => 0)
      ∧ (∀ j : Fin 16, cP t j r
            = if j.val = 1 then cellC (xP t r) (fun _ => 0) (fun _ => 0) W U b b' else fun _ => 0)
      ∧ oP t r = cellH (xP t r) (fun _ => 0) (fun _ => 0) W U b b')
    (hB : ∀ t, t < 30 → t % 15 ≠ 0 → ∀ r : Fin 128,
        (∀ j : Fin 16, hP t j r
            = if j.val = t % 15 + 1
              then cellH (xP t r) (hP (t - 1) (v (t % 15)) r) (cP (t - 1) (v (t % 15)) r) W U b b'
              else hP (t - 1) j r)
      ∧ (∀ j : Fin 16, cP t j r
            = if j.val = t % 15 + 1
              then cellC (xP t r) (hP (t - 1) (v (t % 15)) r) (cP (t - 1) (v (t % 15)) r) W U b b'
              else cP (t - 1) j r)
      ∧ oP t r = cellH (xP t r) (hP (t - 1) (v (t % 15)) r) (cP (t - 1) (v (t % 15)) r) W U b b')
    (t : ℕ) (ht : t < 30) (r : Fin 128) (hX : ∀ i, i < 15 → xP (t / 15 * 15 + i) r = X i) :
    oP t r = nodeH X W U b b' (t % 15) := by
  have e : t = t / 15 * 15 + t % 15 := by omega
  have h := emitted_eq_nodeH X W U b b' xP oP hP cP v hv hA hB (t / 15) (by omega) r hX (t % 15) (by omega)
  rw [← e] at h
  exact h

end

end Cert.KernelIdeal.KValue

end
-- ==== Proof.KCell.lean ====
/-
  The cell of one grid point, read entry by entry, and the host operations that prepare a layer's operands.

  A grid point holds the parent's hidden rows and cell rows (128 rows of 1024), the node's 128 input rows, the layer's two
  weight matrices (1024 x 4096, already transposed) and the summed bias row (1 x 4096). Its new cell rows and hidden rows
  are, entry (r, n): the LSTM cell of row r's three input rows, with gate column q's pre-activation
      (x . W_q + h . U_q) + bias_q,
  the two products each one sum over the 1024 features (a matrix product into a zero accumulator is that sum; at the ideal
  values the change of float format before the second product is the identity). That is `Cert.Spec.cellC` / `cellH`.

  The operands a layer's launch reads are prepared on the host: the two input arrays side by side along the feature axis;
  each weight array's layer slice, reshaped to a matrix and transposed; the two bias arrays' layer slices, added. Each is
  read here at an index as the argument array at the matching index.
-/
import proofs.«109754_j89713276879117_1_alg».proof.Proof.Gen.KernelIdeal.Skeleton
import proofs.«109754_j89713276879117_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KCell

open Cert.KernelIdeal Cert.KernelIdeal.Gen Idealize.ShloMosaic Idealize.ShloMosaic.ValueIdx
open scoped BigOperators

/-! ## A matrix product into the zero accumulator, at an index

The product's dimension numbers contract the left operand's axis 1 with the right operand's axis 0; the contraction's one
coordinate is a feature `k : Fin 1024`, and at output entry `(r, q)` the two operands are read at `(r, k)` and `(k, q)`. -/

theorem lhs_mm_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl

theorem lhs_mm_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q

theorem rhs_mm_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q

theorem rhs_mm_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

/-- Entry `(r, q)` of the product of a 128 x 1024 and a 1024 x 4096 matrix into the zero accumulator: the sum over the
    1024 features of the products. -/
theorem mm_apply {φ₁ φ₂ : FTy} (x : FVec Ideal S128x1024 φ₁) (y : FVec Ideal S1024x4096 φ₂) (r : Fin 128) (q : Fin 4096) :
    matmul dot_S128x1024_S1024x4096_S128x4096_1_0_0_1_n_n none x y (constant (F := Ideal) S128x4096 .f32 0x00000000#32) (ix2 r q)
      = ∑ k : Fin 1024, x (ix2 r k) * y (ix2 k q) := by
  show FloatOps.matmul dot_S128x1024_S1024x4096_S128x4096_1_0_0_1_n_n none x y (constant (F := Ideal) S128x4096 .f32 0x00000000#32) (ix2 r q) = _
  rw [Ideal.matmul_constant_zero_apply,
    ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 r q) ((contrEquiv1 dot_S128x1024_S1024x4096_S128x4096_1_0_0_1_n_n 1024 rfl rfl).symm k) = ix2 r k :=
    funext fun a => Fin.ext (by
      match a with
      | ⟨0, _⟩ => exact lhs_mm_0 _ _
      | ⟨1, _⟩ => exact (lhs_mm_1 _ _).trans hk)
  have er : dot_S128x1024_S1024x4096_S128x4096_1_0_0_1_n_n.rhsIdx (ix2 r q) ((contrEquiv1 dot_S128x1024_S1024x4096_S128x4096_1_0_0_1_n_n 1024 rfl rfl).symm k) = ix2 k q :=
    funext fun a => Fin.ext (by
      match a with
      | ⟨0, _⟩ => exact (rhs_mm_0 _ _).trans hk
      | ⟨1, _⟩ => exact rhs_mm_1 _ _)
  rw [el, er]

/-! ## The gate pre-activations -/

/-- Entry `(r, q)` of the 128 x 4096 pre-activation block is gate column `q`'s pre-activation of row `r`'s rows. -/
theorem pay6_apply (v6 : Vec Ideal S1x128x1024 .f32) (v11 : Vec Ideal S1x128x1024 .bf16) (v13 v15 : Vec Ideal S1024x4096 .bf16)
    (v17 : Vec Ideal S1x4096 .f32) (b b' : Fin 4096 → EReal) (hb : ∀ q : Fin 4096, v17 (ix2 (0 : Fin 1) q) = b q + b' q)
    (r : Fin 128) (q : Fin 4096) :
    k0_pay6 (F := Ideal) v6 v11 v13 v15 v17 (ix2 r q)
      = Cert.Spec.gate (fun k => v11 (ix3 (0 : Fin 1) r k)) (fun k => v6 (ix3 (0 : Fin 1) r k))
          (fun q k => v13 (ix2 k q)) (fun q k => v15 (ix2 k q)) b b' q := by
  unfold Cert.Spec.gate
  show (matmul dot_S128x1024_S1024x4096_S128x4096_1_0_0_1_n_n none (shapeCast S128x1024 v11 shapeCasts_S1x128x1024_S128x1024)
            (shapeCast S1024x4096 v13 shapeCasts_S1024x4096_S1024x4096) (constant (F := Ideal) S128x4096 .f32 0x00000000#32) (ix2 r q)
        + matmul dot_S128x1024_S1024x4096_S128x4096_1_0_0_1_n_n none (truncf .bf16 (shapeCast S128x1024 v6 shapeCasts_S1x128x1024_S128x1024) bitsLt_bf16_f32)
            (shapeCast S1024x4096 v15 shapeCasts_S1024x4096_S1024x4096) (constant (F := Ideal) S128x4096 .f32 0x00000000#32) (ix2 r q))
      + broadcastTo S128x4096 (shapeCast S1x4096 v17 shapeCasts_S1x4096_S1x4096) broadcasts_S1x4096_S128x4096 (ix2 r q) = _
  rw [mm_apply, mm_apply, broadcastTo_1b_ab_apply]
  simp only [shapeCast_1ab_ab_apply, shapeCast_self, truncf_apply, hb]

/-- A block of 1024 gate columns cut out of the 4096: column `n` of gate `g`. -/
theorem slice_gate (X : S128x4096.Idx → EReal) (g : Fin 4) (o : Nat) (ho : o = g.val * 1024)
    (h : S128x4096.Slices ![0, o] S128x1024) (r : Fin 128) (n : Fin 1024) :
    extractStridedSlice S128x1024 ![0, o] X h (ix2 r n) = X (ix2 r (Cert.Spec.gq g n)) :=
  slice2_axis1_apply o X h r n _ (by subst ho; rfl)

/-! ## The payloads at an index -/

/-- The new cell rows, entry `(r, n)`. -/
theorem pay7_apply (v6 v9 : Vec Ideal S1x128x1024 .f32) (v11 : Vec Ideal S1x128x1024 .bf16) (v13 v15 : Vec Ideal S1024x4096 .bf16)
    (v17 : Vec Ideal S1x4096 .f32) (b b' : Fin 4096 → EReal) (hb : ∀ q : Fin 4096, v17 (ix2 (0 : Fin 1) q) = b q + b' q)
    (r : Fin 128) (n : Fin 1024) :
    k0_pay7 (F := Ideal) v6 v9 v11 v13 v15 v17 (ix2 r n)
      = Cert.Spec.cellC (fun k => v11 (ix3 (0 : Fin 1) r k)) (fun k => v6 (ix3 (0 : Fin 1) r k)) (fun k => v9 (ix3 (0 : Fin 1) r k))
          (fun q k => v13 (ix2 k q)) (fun q k => v15 (ix2 k q)) b b' n := by
  unfold Cert.Spec.cellC
  show Ideal.logistic (extractStridedSlice S128x1024 ![0, 1024] (k0_pay6 (F := Ideal) v6 v11 v13 v15 v17) slices_S128x4096_o0_1024_S128x1024 (ix2 r n))
          * shapeCast S128x1024 v9 shapeCasts_S1x128x1024_S128x1024 (ix2 r n)
        + Ideal.logistic (extractStridedSlice S128x1024 ![0, 0] (k0_pay6 (F := Ideal) v6 v11 v13 v15 v17) slices_S128x4096_o0_0_S128x1024 (ix2 r n))
          * Ideal.tanh (extractStridedSlice S128x1024 ![0, 2048] (k0_pay6 (F := Ideal) v6 v11 v13 v15 v17) slices_S128x4096_o0_2048_S128x1024 (ix2 r n)) = _
  rw [slice_gate _ 1 1024 rfl, slice_gate _ 0 0 rfl, slice_gate _ 2 2048 rfl, shapeCast_1ab_ab_apply,
    pay6_apply v6 v11 v13 v15 v17 b b' hb, pay6_apply v6 v11 v13 v15 v17 b b' hb, pay6_apply v6 v11 v13 v15 v17 b b' hb]

/-- The new hidden rows, entry `(r, n)`. -/
theorem pay8_apply (v6 v9 : Vec Ideal S1x128x1024 .f32) (v11 : Vec Ideal S1x128x1024 .bf16) (v13 v15 : Vec Ideal S1024x4096 .bf16)
    (v17 : Vec Ideal S1x4096 .f32) (b b' : Fin 4096 → EReal) (hb : ∀ q : Fin 4096, v17 (ix2 (0 : Fin 1) q) = b q + b' q)
    (r : Fin 128) (n : Fin 1024) :
    k0_pay8 (F := Ideal) v6 v9 v11 v13 v15 v17 (ix2 r n)
      = Cert.Spec.cellH (fun k => v11 (ix3 (0 : Fin 1) r k)) (fun k => v6 (ix3 (0 : Fin 1) r k)) (fun k => v9 (ix3 (0 : Fin 1) r k))
          (fun q k => v13 (ix2 k q)) (fun q k => v15 (ix2 k q)) b b' n := by
  unfold Cert.Spec.cellH
  show Ideal.logistic (extractStridedSlice S128x1024 ![0, 3072] (k0_pay6 (F := Ideal) v6 v11 v13 v15 v17) slices_S128x4096_o0_3072_S128x1024 (ix2 r n))
        * Ideal.tanh (k0_pay7 (F := Ideal) v6 v9 v11 v13 v15 v17 (ix2 r n)) = _
  rw [slice_gate _ 3 3072 rfl, pay6_apply v6 v11 v13 v15 v17 b b' hb, pay7_apply v6 v9 v11 v13 v15 v17 b b' hb]

/-- The rows stored back into a 1 x 128 x 1024 slab or block: the 128 x 1024 rows themselves. -/
theorem pay1_apply (v37 : FVec Ideal S128x1024 .f32) (u : Fin 1) (r : Fin 128) (n : Fin 1024) :
    k0_pay1 (F := Ideal) v37 (ix3 u r n) = v37 (ix2 r n) :=
  shapeCast_ab_1ab_apply v37 shapeCasts_S128x1024_S1x128x1024 u r n

theorem pay2_apply (v34 : FVec Ideal S128x1024 .f32) (u : Fin 1) (r : Fin 128) (n : Fin 1024) :
    k0_pay2 (F := Ideal) v34 (ix3 u r n) = v34 (ix2 r n) :=
  shapeCast_ab_1ab_apply v34 shapeCasts_S128x1024_S1x128x1024 u r n

theorem pay3_apply (v37 : FVec Ideal S128x1024 .f32) (u : Fin 1) (r : Fin 128) (n : Fin 1024) :
    k0_pay3 (F := Ideal) v37 (ix3 u r n) = v37 (ix2 r n) :=
  shapeCast_ab_1ab_apply v37 shapeCasts_S128x1024_S1x128x1024 u r n

/-- The reset value of a scratch buffer: zero everywhere. -/
theorem pay4_apply (j : S16x128x1024.Idx) : (k0_pay4 (F := Ideal)) j = 0 := by
  show shapeCast S16x128x1024 (broadcast S16x128x1024 (Scalar.ofBits (F := Ideal) .f32 0x00000000#32))
    shapeCasts_S16x128x1024_S16x128x1024 j = 0
  rw [shapeCast_self]
  exact Ideal.ofBits_zero_f32

theorem pay5_apply (j : S16x128x1024.Idx) : (k0_pay5 (F := Ideal)) j = 0 := by
  show shapeCast S16x128x1024 (broadcast S16x128x1024 (Scalar.ofBits (F := Ideal) .f32 0x00000000#32))
    shapeCasts_S16x128x1024_S16x128x1024 j = 0
  rw [shapeCast_self]
  exact Ideal.ofBits_zero_f32

/-! ## The second layer's payloads: the same functions -/

theorem k1_pay7_eq (v6 v9 : Vec Ideal S1x128x1024 .f32) (v11 : Vec Ideal S1x128x1024 .bf16) (v13 v15 : Vec Ideal S1024x4096 .bf16)
    (v17 : Vec Ideal S1x4096 .f32) :
    k1_pay7 (F := Ideal) v6 v9 v11 v13 v15 v17 = k0_pay7 (F := Ideal) v6 v9 v11 v13 v15 v17 := rfl

theorem k1_pay8_eq (v6 v9 : Vec Ideal S1x128x1024 .f32) (v11 : Vec Ideal S1x128x1024 .bf16) (v13 v15 : Vec Ideal S1024x4096 .bf16)
    (v17 : Vec Ideal S1x4096 .f32) :
    k1_pay8 (F := Ideal) v6 v9 v11 v13 v15 v17 = k0_pay8 (F := Ideal) v6 v9 v11 v13 v15 v17 := rfl

theorem pay7_apply1 (v6 v9 : Vec Ideal S1x128x1024 .f32) (v11 : Vec Ideal S1x128x1024 .bf16) (v13 v15 : Vec Ideal S1024x4096 .bf16)
    (v17 : Vec Ideal S1x4096 .f32) (b b' : Fin 4096 → EReal) (hb : ∀ q : Fin 4096, v17 (ix2 (0 : Fin 1) q) = b q + b' q)
    (r : Fin 128) (n : Fin 1024) :
    k1_pay7 (F := Ideal) v6 v9 v11 v13 v15 v17 (ix2 r n)
      = Cert.Spec.cellC (fun k => v11 (ix3 (0 : Fin 1) r k)) (fun k => v6 (ix3 (0 : Fin 1) r k)) (fun k => v9 (ix3 (0 : Fin 1) r k))
          (fun q k => v13 (ix2 k q)) (fun q k => v15 (ix2 k q)) b b' n := by
  rw [k1_pay7_eq]; exact pay7_apply v6 v9 v11 v13 v15 v17 b b' hb r n

theorem pay8_apply1 (v6 v9 : Vec Ideal S1x128x1024 .f32) (v11 : Vec Ideal S1x128x1024 .bf16) (v13 v15 : Vec Ideal S1024x4096 .bf16)
    (v17 : Vec Ideal S1x4096 .f32) (b b' : Fin 4096 → EReal) (hb : ∀ q : Fin 4096, v17 (ix2 (0 : Fin 1) q) = b q + b' q)
    (r : Fin 128) (n : Fin 1024) :
    k1_pay8 (F := Ideal) v6 v9 v11 v13 v15 v17 (ix2 r n)
      = Cert.Spec.cellH (fun k => v11 (ix3 (0 : Fin 1) r k)) (fun k => v6 (ix3 (0 : Fin 1) r k)) (fun k => v9 (ix3 (0 : Fin 1) r k))
          (fun q k => v13 (ix2 k q)) (fun q k => v15 (ix2 k q)) b b' n := by
  rw [k1_pay8_eq]; exact pay8_apply v6 v9 v11 v13 v15 v17 b b' hb r n

theorem pay1_apply1 (v37 : FVec Ideal S128x1024 .f32) (u : Fin 1) (r : Fin 128) (n : Fin 1024) :
    k1_pay1 (F := Ideal) v37 (ix3 u r n) = v37 (ix2 r n) :=
  shapeCast_ab_1ab_apply v37 shapeCasts_S128x1024_S1x128x1024 u r n

theorem pay2_apply1 (v34 : FVec Ideal S128x1024 .f32) (u : Fin 1) (r : Fin 128) (n : Fin 1024) :
    k1_pay2 (F := Ideal) v34 (ix3 u r n) = v34 (ix2 r n) :=
  shapeCast_ab_1ab_apply v34 shapeCasts_S128x1024_S1x128x1024 u r n

theorem pay3_apply1 (v37 : FVec Ideal S128x1024 .f32) (u : Fin 1) (r : Fin 128) (n : Fin 1024) :
    k1_pay3 (F := Ideal) v37 (ix3 u r n) = v37 (ix2 r n) :=
  shapeCast_ab_1ab_apply v37 shapeCasts_S128x1024_S1x128x1024 u r n

theorem pay4_apply1 (j : S16x128x1024.Idx) : (k1_pay4 (F := Ideal)) j = 0 := pay4_apply j

theorem pay5_apply1 (j : S16x128x1024.Idx) : (k1_pay5 (F := Ideal)) j = 0 := pay5_apply j

/-! ## The host operations before a launch, read at an index -/

/-- The first layer's input: the two input arrays side by side along the feature axis (features 0 … 511 from the first,
    512 … 1023 from the second); the change of float format is the identity. -/
theorem xin_apply (a0 a1 : FVec Ideal S15x256x512 .f32) (i : Fin 15) (r : Fin 256) (k : Fin 1024) :
    (truncf .bf16 (concatenate S15x256x1024 2 [⟨S15x256x512, a0⟩, ⟨S15x256x512, a1⟩]
        concatenates_S15x256x512_S15x256x512_S15x256x1024_d2) bitsLt_bf16_f32 : FVec Ideal S15x256x1024 .bf16) (ix3 i r k)
      = if hk : k.val < 512 then a0 (ix3 i r ⟨k.val, hk⟩) else a1 (ix3 i r ⟨k.val - 512, by have := k.isLt; omega⟩) := by
  rw [truncf_apply]
  split
  · next hk =>
    exact concatenate_pair_apply_left 2 a0 a1 _ (ix3 i r k) rfl (ix3 i r ⟨k.val, hk⟩) (fun b => by
      match b with
      | ⟨0, _⟩ => rfl
      | ⟨1, _⟩ => rfl
      | ⟨2, _⟩ => rfl)
  · next hk =>
    exact concatenate_pair_apply_right 2 a0 a1 _ (ix3 i r k) rfl rfl (ix3 i r ⟨k.val - 512, by have := k.isLt; omega⟩)
      (fun b hb => by
        match b with
        | ⟨0, _⟩ => rfl
        | ⟨1, _⟩ => rfl
        | ⟨2, _⟩ => exact absurd (Fin.ext rfl) hb)
      (by show (k.val - 512) + 512 = k.val; omega)

/-- The second layer's input: the first layer's result, the change of float format the identity. -/
theorem xin1_apply (X : FVec Ideal S15x256x1024 .f32) (j : S15x256x1024.Idx) :
    (truncf .bf16 X bitsLt_bf16_f32 : FVec Ideal S15x256x1024 .bf16) j = X j := rfl

/-- A layer's weight matrix as the launch reads it, entry `(k, q)`: the weight array's layer slice at `(q, k)`. -/
theorem wT0_apply (W : FVec Ideal S2x4096x1024 .f32) (k : Fin 1024) (q : Fin 4096) :
    (truncf .bf16 (transpose S1024x4096 [1, 0] (shapeCast S4096x1024
        (extractStridedSlice S1x4096x1024 ![0, 0, 0] W slices_S2x4096x1024_S1x4096x1024_0_0_0)
        shapeCasts_S1x4096x1024_S4096x1024) transposes_S4096x1024_S1024x4096_1_0) bitsLt_bf16_f32
      : FVec Ideal S1024x4096 .bf16) (ix2 k q) = W (ix3 (0 : Fin 2) q k) := by
  rw [truncf_apply]
  refine (transpose_ix2_apply _ _ k q).trans ?_
  refine (shapeCast_1ab_ab_apply _ _ q k).trans ?_
  exact extractStridedSlice_apply _ _ _ _ _ (fun ax => by
    match ax with
    | ⟨0, _⟩ => rfl
    | ⟨1, _⟩ => exact (Nat.zero_add _).symm
    | ⟨2, _⟩ => exact (Nat.zero_add _).symm)

theorem wT1_apply (W : FVec Ideal S2x4096x1024 .f32) (k : Fin 1024) (q : Fin 4096) :
    (truncf .bf16 (transpose S1024x4096 [1, 0] (shapeCast S4096x1024
        (extractStridedSlice S1x4096x1024 ![1, 0, 0] W slices_S2x4096x1024_S1x4096x1024_1_0_0)
        shapeCasts_S1x4096x1024_S4096x1024) transposes_S4096x1024_S1024x4096_1_0) bitsLt_bf16_f32
      : FVec Ideal S1024x4096 .bf16) (ix2 k q) = W (ix3 (1 : Fin 2) q k) := by
  rw [truncf_apply]
  refine (transpose_ix2_apply _ _ k q).trans ?_
  refine (shapeCast_1ab_ab_apply _ _ q k).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- A layer's bias row as the launch reads it, column `q`: the sum of the two bias arrays' layer rows at `q`. -/
theorem bias0_apply (B B' : FVec Ideal S2x4096 .f32) (q : Fin 4096) :
    (shapeCast S1x4096 (addf (F := Ideal)
        (shapeCast S4096 (extractStridedSlice S1x4096 ![0, 0] B slices_S2x4096_S1x4096_0_0) shapeCasts_S1x4096_S4096)
        (shapeCast S4096 (extractStridedSlice S1x4096 ![0, 0] B' slices_S2x4096_S1x4096_0_0) shapeCasts_S1x4096_S4096))
      shapeCasts_S4096_S1x4096 : FVec Ideal S1x4096 .f32) (ix2 (0 : Fin 1) q)
      = B (ix2 (0 : Fin 2) q) + B' (ix2 (0 : Fin 2) q) := by
  refine (shapeCast_a_1a_apply _ _ (0 : Fin 1) q).trans ?_
  rw [addf_apply]
  refine congrArg₂ (· + ·) ?_ ?_
  · refine (shapeCast_1a_a_apply _ _ q).trans ?_
    exact extractStridedSlice_apply _ _ _ _ _ (fun ax => by
      match ax with
      | ⟨0, _⟩ => rfl
      | ⟨1, _⟩ => exact (Nat.zero_add _).symm)
  · refine (shapeCast_1a_a_apply _ _ q).trans ?_
    exact extractStridedSlice_apply _ _ _ _ _ (fun ax => by
      match ax with
      | ⟨0, _⟩ => rfl
      | ⟨1, _⟩ => exact (Nat.zero_add _).symm)

theorem bias1_apply (B B' : FVec Ideal S2x4096 .f32) (q : Fin 4096) :
    (shapeCast S1x4096 (addf (F := Ideal)
        (shapeCast S4096 (extractStridedSlice S1x4096 ![1, 0] B slices_S2x4096_S1x4096_1_0) shapeCasts_S1x4096_S4096)
        (shapeCast S4096 (extractStridedSlice S1x4096 ![1, 0] B' slices_S2x4096_S1x4096_1_0) shapeCasts_S1x4096_S4096))
      shapeCasts_S4096_S1x4096 : FVec Ideal S1x4096 .f32) (ix2 (0 : Fin 1) q)
      = B (ix2 (1 : Fin 2) q) + B' (ix2 (1 : Fin 2) q) := by
  refine (shapeCast_a_1a_apply _ _ (0 : Fin 1) q).trans ?_
  rw [addf_apply]
  refine congrArg₂ (· + ·) ?_ ?_
  · refine (shapeCast_1a_a_apply _ _ q).trans ?_
    exact extractStridedSlice_apply _ _ _ _ _ (fun ax => by
      match ax with
      | ⟨0, _⟩ => rfl
      | ⟨1, _⟩ => exact (Nat.zero_add _).symm)
  · refine (shapeCast_1a_a_apply _ _ q).trans ?_
    exact extractStridedSlice_apply _ _ _ _ _ (fun ax => by
      match ax with
      | ⟨0, _⟩ => rfl
      | ⟨1, _⟩ => exact (Nat.zero_add _).symm)

end Cert.KernelIdeal.KCell

end
-- ==== Proof.K.Value0.lean ====
/-
  One region, read index by index: the array its output window ends holding is, entry by entry, the specification's
  hidden row of one layer.

  The region's grid has 30 points, point `t` being node `t % 15 + 1` of batch half `t / 15`. The input window's block
  at `t` is rows `128 (t / 15) … 128 (t / 15) + 127` of node `t % 15`'s slice of the input array; the two weight
  windows and the bias window are their whole arrays at every point; the output window's block at `t` is the same rows
  of node `t % 15`'s slice of the output array. What the body leaves at a point is stated (in the region's data) as
  the cell's payloads over slab loads of the two scratches, the new rows overlaid on slab `t % 15 + 1`. Read at an
  index this is: slot `j` of row `r` after point `t` is the new row if `j = t % 15 + 1` and what it was otherwise, the
  new row being the LSTM cell of the point's input row and of the two rows in the slot the table names — exactly the
  machine whose walk is the specification's. So the output block at `t`, row `r`, is the specification's hidden row of
  node `t % 15 + 1` for batch row `128 (t / 15) + r`; the 30 blocks tile the output array; hence the array.
-/
import proofs.«109754_j89713276879117_1_alg».proof.Proof.K.ValueRec
import proofs.«109754_j89713276879117_1_alg».proof.Proof.K.Data0
import proofs.«109754_j89713276879117_1_alg».proof.Proof.KCell
import Idealize.ShloMosaic.Lib.Pipeline.Value
import Idealize.ShloMosaic.Lib.ValueIdx

set_option maxRecDepth 16384

noncomputable section

namespace Cert.KernelIdeal.KValue0

open Cert.KernelIdeal Cert.KernelIdeal.Gen Cert.KernelIdeal.K0
open Idealize.ShloMosaic Idealize.ShloMosaic.TcCoe Idealize.ShloMosaic.ValueIdx Idealize.SL.Sem
open Idealize.ShloMosaic.Pipeline (Dat)

/-- The table's contents the region runs at. -/
abbrev A0 : (pcfg0 (F := Ideal)).Adm := KC.adm (F := Ideal) 0

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The grid's arithmetic, decided over its 30 points -/

/-- Point `t`'s input and output blocks are at block index (node `t % 15`, half `t / 15`, 0); the body's own slab is
    `t % 15 + 1`. -/
theorem grid_facts : ∀ t : Fin grid0.N,
    cc0_transform_0 (grid0.coords t) = ![t.val % 15, t.val / 15, 0]
    ∧ cc0_transform_4 (grid0.coords t) = ![t.val % 15, t.val / 15, 0]
    ∧ k0_off3 (grid0.coords t) = ![t.val % 15 + 1, 0, 0] := by
  decide +kernel

/-- The table word the body reads at point `t` names the tree's parent of node `t % 15 + 1`. -/
theorem word_facts : ∀ t : Fin grid0.N,
    k0_off2 (tblWord (KC.tblC (F := Ideal)) (grid0.coords t)) 0 = Cert.Spec.par (t.val % 15) := by
  decide +kernel

/-- Every point of the grid writes its output block back: consecutive points have different blocks. -/
theorem flush_all : ∀ t : Fin (cfg0 A0).N, ((cfg0 A0).win 4).flush t = true := by
  decide +kernel

/-- The slot the table names for node `i + 1`. -/
def slotOf (i : ℕ) : Fin 16 := ⟨Cert.Spec.par i % 16, Nat.mod_lt _ (by decide)⟩

theorem slotOf_val (i : ℕ) (hi : i < 15) : (slotOf i).val = Cert.Spec.par i := by
  have := Cert.Spec.par_le i
  show Cert.Spec.par i % 16 = _
  exact Nat.mod_eq_of_lt (by omega)

/-- The slab a table word names, as a slot. -/
def parSlot (v : BitVec 32) (hv : k0_chk1 v) : Fin 16 :=
  ⟨k0_off2 v 0, by have h : k0_off2 v 0 + 1 ≤ 16 := hv 0; omega⟩

/-! ## One point over any contents: the three things it leaves, index by index -/

section Cell

variable (v : BitVec 32) (hv : k0_chk1 v) (hs cs : Vec Ideal S16x128x1024 .f32)
  (x : Vec Ideal S1x128x1024 .bf16) (w u : Vec Ideal S1024x4096 .bf16) (b : Vec Ideal S1x4096 .f32)
  (bq bq' : Fin 4096 → EReal)

/-- A load of the named slab reads that slot's rows. -/
theorem ld_par (X : Vec Ideal S16x128x1024 .f32) (r : Fin 128) (k : Fin 1024) :
    View.ld X (rPar v hv) (ix3 (0 : Fin 1) r k) = X (ix3 (parSlot v hv) r k) := by
  show X ((rPar v hv).idx (ix3 (0 : Fin 1) r k)) = _
  refine congrArg X (funext fun a => Fin.ext ?_)
  match a with
  | ⟨0, _⟩ => show k0_off2 v 0 + 1 * 0 = k0_off2 v 0; omega
  | ⟨1, _⟩ => show 0 + 1 * r.val = r.val; omega
  | ⟨2, _⟩ => show 0 + 1 * k.val = k.val; omega

/-- The new hidden rows at (row `r`, feature `n`): the cell of the input block's row `r` and of row `r` of the named
    slot of the two scratches. -/
theorem cellH_apply (hb : ∀ q : Fin 4096, b (ix2 (0 : Fin 1) q) = bq q + bq' q) (r : Fin 128) (n : Fin 1024) :
    K0.cellH v hv hs cs x w u b (ix2 r n)
      = Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n := by
  have ex : View.ld x rX = x := View.ld_unit_zero (S := S1x128x1024) hz3 _ x
  have ew : View.ld w rW = w := View.ld_unit_zero (S := S1024x4096) hz2 _ w
  have eu : View.ld u rW = u := View.ld_unit_zero (S := S1024x4096) hz2 _ u
  have eb : View.ld b rB = b := View.ld_unit_zero (S := S1x4096) hz2 _ b
  have eh : (fun k => View.ld hs (rPar v hv) (ix3 (0 : Fin 1) r k)) = fun k => hs (ix3 (parSlot v hv) r k) :=
    funext fun k => ld_par v hv hs r k
  have ec : (fun k => View.ld cs (rPar v hv) (ix3 (0 : Fin 1) r k)) = fun k => cs (ix3 (parSlot v hv) r k) :=
    funext fun k => ld_par v hv cs r k
  unfold K0.cellH
  refine (KCell.pay8_apply (View.ld hs (rPar v hv)) (View.ld cs (rPar v hv)) (View.ld x rX) (View.ld w rW)
    (View.ld u rW) (View.ld b rB) bq bq' (fun q => (congrFun eb (ix2 (0 : Fin 1) q)).trans (hb q)) r n).trans ?_
  rw [ex, ew, eu, eh, ec]

/-- The new cell rows, likewise. -/
theorem cellC_apply (hb : ∀ q : Fin 4096, b (ix2 (0 : Fin 1) q) = bq q + bq' q) (r : Fin 128) (n : Fin 1024) :
    K0.cellC v hv hs cs x w u b (ix2 r n)
      = Cert.Spec.cellC (fun k => x (ix3 (0 : Fin 1) r k)) (fun k => hs (ix3 (parSlot v hv) r k))
          (fun k => cs (ix3 (parSlot v hv) r k)) (fun q k => w (ix2 k q)) (fun q k => u (ix2 k q)) bq bq' n := by
  have ex : View.ld x rX = x := View.ld_unit_zero (S := S1x128x1024) hz3 _ x
  have ew : View.ld w rW = w := View.ld_unit_zero (S := S1024x4096) hz2 _ w
  have eu : View.ld u rW = u := View.ld_unit_zero (S := S1024x4096) hz2 _ u
  have eb : View.ld b rB = b := View.ld_unit_zero (S := S1x4096) hz2 _ b
  have eh : (fun k => View.ld hs (rPar v hv) (ix3 (0 : Fin 1) r k)) = fun k => hs (ix3 (parSlot v hv) r k) :=
    funext fun k => ld_par v hv hs r k
  have ec : (fun k => View.ld cs (rPar v hv) (ix3 (0 : Fin 1) r k)) = fun k => cs (ix3 (parSlot v hv) r k) :=
    funext fun k => ld_par v hv cs r k
  unfold K0.cellC
  refine (KCell.pay7_apply (View.ld hs (rPar v hv)) (View.ld cs (rPar v hv)) (View.ld x rX) (View.ld w rW)
    (View.ld u rW) (View.ld b rB) bq bq' (fun q => (congrFun eb (ix2 (0 : Fin 1) q)).trans (hb q)) r n).trans ?_
  rw [ex, ew, eu, eh, ec]

/-- A store of new rows `p` into the point's own slab, read at (slot `j`, row `r`, feature `n`): the new row in that
    slab, the old contents in every other. -/
theorem overlay_new (i : grid0.Coords) (X : Vec Ideal S16x128x1024 .f32) (p : Vec Ideal S1x128x1024 .f32)
    (j : Fin 16) (r : Fin 128) (n : Fin 1024) :
    (rNew i).overlay X p (ix3 j r n) = if j.val = k0_off3 i 0 then p (ix3 (0 : Fin 1) r n) else X (ix3 j r n) := by
  by_cases h : j.val = k0_off3 i 0
  · rw [if_pos h]
    have e : (ix3 j r n : S16x128x1024.Idx) = (rNew i).emb (ix3 (0 : Fin 1) r n) := by
      funext a; apply Fin.ext
      match a with
      | ⟨0, _⟩ => show j.val = k0_off3 i 0 + 1 * 0; omega
      | ⟨1, _⟩ => show r.val = 0 + 1 * r.val; omega
      | ⟨2, _⟩ => show n.val = 0 + 1 * n.val; omega
    rw [e, Rect.overlay_emb]
  · rw [if_neg h]
    refine Rect.overlay_of_not_mem _ _ _ fun hm => h ?_
    rw [Rect.mem_set_unit] at hm
    have h0 : k0_off3 i 0 ≤ j.val ∧ j.val < k0_off3 i 0 + 1 := hm 0
    omega

/-- The output block a point leaves, at (row `r`, feature `n`). -/
theorem cellOut_out (hb : ∀ q : Fin 4096, b (ix2 (0 : Fin 1) q) = bq q + bq' q) (i : grid0.Coords) (r : Fin 128) (n : Fin 1024) :
    (cellOut v hv hs cs x w u b i).1 (ix3 (0 : Fin 1) r n)
      = Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n := by
  show k0_pay3 (K0.cellH v hv hs cs x w u b) (ix3 (0 : Fin 1) r n) = _
  rw [KCell.pay3_apply]
  exact cellH_apply v hv hs cs x w u b bq bq' hb r n

/-- The hidden scratch a point leaves, at (slot `j`, row `r`, feature `n`). -/
theorem cellOut_h (hb : ∀ q : Fin 4096, b (ix2 (0 : Fin 1) q) = bq q + bq' q) (i : grid0.Coords) (j : Fin 16) (r : Fin 128) (n : Fin 1024) :
    (cellOut v hv hs cs x w u b i).2.1 (ix3 j r n)
      = if j.val = k0_off3 i 0
        then Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n
        else hs (ix3 j r n) := by
  unfold cellOut
  dsimp only
  rw [overlay_new, KCell.pay1_apply, cellH_apply v hv hs cs x w u b bq bq' hb r n]

/-- The cell scratch a point leaves, likewise. -/
theorem cellOut_c (hb : ∀ q : Fin 4096, b (ix2 (0 : Fin 1) q) = bq q + bq' q) (i : grid0.Coords) (j : Fin 16) (r : Fin 128) (n : Fin 1024) :
    (cellOut v hv hs cs x w u b i).2.2 (ix3 j r n)
      = if j.val = k0_off3 i 0
        then Cert.Spec.cellC (fun k => x (ix3 (0 : Fin 1) r k)) (fun k => hs (ix3 (parSlot v hv) r k))
          (fun k => cs (ix3 (parSlot v hv) r k)) (fun q k => w (ix2 k q)) (fun q k => u (ix2 k q)) bq bq' n
        else cs (ix3 j r n) := by
  unfold cellOut
  dsimp only
  rw [overlay_new, KCell.pay2_apply, cellC_apply v hv hs cs x w u b bq bq' hb r n]

end Cell

/-! ## The region at entry contents `V` -/

section Region

variable (V : (c : Dev nD) → (b : Ref sig .tc) → Buf (Elt Ideal) ((c : Thread nD τ).loc b)) (c : Dev nD)

/-- The windows' arrays as the region finds them, at their literal types: input rows, the two weight matrices
    (stored transposed: feature by gate column), the bias row. -/
abbrev xArr : Vec Ideal S15x256x1024 .bf16 := V c main_v1
abbrev wArr : Vec Ideal S1024x4096 .bf16 := V c main_v5
abbrev uArr : Vec Ideal S1024x4096 .bf16 := V c main_v9
abbrev bArr : Vec Ideal S1x4096 .f32 := V c main_v15

/-- The weights as the specification indexes them: gate column, then feature. -/
abbrev Wf : Fin 4096 → Fin 1024 → EReal := fun q k => wArr V c (ix2 k q)
abbrev Uf : Fin 4096 → Fin 1024 → EReal := fun q k => uArr V c (ix2 k q)

theorem lt30 (T : Fin (cfg0 A0).N) : T.val < 30 := lt_of_lt_of_eq T.isLt N_A

/-! ### The windows' blocks -/

/-- The input block at point `T`, row `r`: node `T % 15`'s slice, batch row `128 (T / 15) + r`. -/
theorem iblk_x (T : Fin (cfg0 A0).N) (r : Fin 128) (k : Fin 1024) :
    (iblk0 V c 0 T : Vec Ideal S1x128x1024 .bf16) (ix3 (0 : Fin 1) r k)
      = xArr V c (ix3 (⟨T.val % 15, Nat.mod_lt _ (by decide)⟩ : Fin 15)
          (⟨T.val / 15 * 128 + r.val, by have := lt30 T; have := r.isLt; omega⟩ : Fin 256) k) := by
  obtain ⟨e0, -, -⟩ := grid_facts T
  have h0 : cc0_transform_0 (grid0.coords T) 0 = T.val % 15 := congrFun e0 0
  have h1 : cc0_transform_0 (grid0.coords T) 1 = T.val / 15 := congrFun e0 1
  have h2 : cc0_transform_0 (grid0.coords T) 2 = 0 := congrFun e0 2
  unfold iblk0
  rw [View.read_apply]
  show V c main_v1 _ = V c main_v1 _
  congr 1
  funext a
  apply Fin.ext
  match a with
  | ⟨0, _⟩ => show cc0_transform_0 (grid0.coords T) 0 * 1 + 1 * 0 = T.val % 15; omega
  | ⟨1, _⟩ => show cc0_transform_0 (grid0.coords T) 1 * 128 + 1 * r.val = T.val / 15 * 128 + r.val; omega
  | ⟨2, _⟩ => show cc0_transform_0 (grid0.coords T) 2 * 1024 + 1 * k.val = k.val; omega

/-- The weight and bias windows' blocks are their whole arrays at every point. -/
theorem iblk_w (T : Fin (cfg0 A0).N) : (iblk0 V c 1 T : Vec Ideal S1024x4096 .bf16) = wArr V c := by
  funext y
  unfold iblk0
  rw [View.read_apply]
  show V c main_v5 _ = V c main_v5 _
  congr 1
  funext a
  apply Fin.ext
  match a with
  | ⟨0, _⟩ => show 0 * 1024 + 1 * (y 0).val = (y 0).val; omega
  | ⟨1, _⟩ => show 0 * 4096 + 1 * (y 1).val = (y 1).val; omega

theorem iblk_u (T : Fin (cfg0 A0).N) : (iblk0 V c 2 T : Vec Ideal S1024x4096 .bf16) = uArr V c := by
  funext y
  unfold iblk0
  rw [View.read_apply]
  show V c main_v9 _ = V c main_v9 _
  congr 1
  funext a
  apply Fin.ext
  match a with
  | ⟨0, _⟩ => show 0 * 1024 + 1 * (y 0).val = (y 0).val; omega
  | ⟨1, _⟩ => show 0 * 4096 + 1 * (y 1).val = (y 1).val; omega

theorem iblk_b (T : Fin (cfg0 A0).N) : (iblk0 V c 3 T : Vec Ideal S1x4096 .f32) = bArr V c := by
  funext y
  unfold iblk0
  rw [View.read_apply]
  show V c main_v15 _ = V c main_v15 _
  congr 1
  funext a
  apply Fin.ext
  match a with
  | ⟨0, _⟩ => show 0 * 1 + 1 * (y 0).val = (y 0).val; omega
  | ⟨1, _⟩ => show 0 * 4096 + 1 * (y 1).val = (y 1).val; omega

/-- The slab the point's table word names is the tree's parent's slot. -/
theorem parSlot_eq (T : Fin (cfg0 A0).N) :
    parSlot (tblWord (KC.tblC (F := Ideal)) (grid0.coords T)) (chk_tbl (grid0.coords T)) = slotOf (T.val % 15) := by
  apply Fin.ext
  show k0_off2 (tblWord (KC.tblC (F := Ideal)) (grid0.coords T)) 0 = Cert.Spec.par (T.val % 15) % 16
  rw [word_facts T]
  have := Cert.Spec.par_le (T.val % 15)
  have := Nat.mod_lt T.val (show 0 < 15 by decide)
  exact (Nat.mod_eq_of_lt (by omega)).symm

/-! ### The machine's rows, point by point -/

/-- The input row of point `t` for block row `r`; the hidden and cell row in slot `j` and the emitted row after it. -/
def xP (t : ℕ) (r : Fin 128) : Cert.Spec.Row := fun k =>
  if h : t < (cfg0 A0).N then (iblk0 V c 0 ⟨t, h⟩ : Vec Ideal S1x128x1024 .bf16) (ix3 (0 : Fin 1) r k) else 0
def hP (t : ℕ) (j : Fin 16) (r : Fin 128) : Cert.Spec.Row := fun n =>
  if h : t < (cfg0 A0).N then ((outsAt0 V c t h).2.1 : Vec Ideal S16x128x1024 .f32) (ix3 j r n) else 0
def cP (t : ℕ) (j : Fin 16) (r : Fin 128) : Cert.Spec.Row := fun n =>
  if h : t < (cfg0 A0).N then ((outsAt0 V c t h).2.2 : Vec Ideal S16x128x1024 .f32) (ix3 j r n) else 0
def oP (t : ℕ) (r : Fin 128) : Cert.Spec.Row := fun n =>
  if h : t < (cfg0 A0).N then ((outsAt0 V c t h).1 : Vec Ideal S1x128x1024 .f32) (ix3 (0 : Fin 1) r n) else 0

theorem xP_of (t : ℕ) (h : t < (cfg0 A0).N) (r : Fin 128) :
    xP V c t r = fun k => (iblk0 V c 0 ⟨t, h⟩ : Vec Ideal S1x128x1024 .bf16) (ix3 (0 : Fin 1) r k) :=
  funext fun k => dif_pos h
theorem hP_of (t : ℕ) (h : t < (cfg0 A0).N) (j : Fin 16) (r : Fin 128) :
    hP V c t j r = fun n => ((outsAt0 V c t h).2.1 : Vec Ideal S16x128x1024 .f32) (ix3 j r n) :=
  funext fun n => dif_pos h
theorem cP_of (t : ℕ) (h : t < (cfg0 A0).N) (j : Fin 16) (r : Fin 128) :
    cP V c t j r = fun n => ((outsAt0 V c t h).2.2 : Vec Ideal S16x128x1024 .f32) (ix3 j r n) :=
  funext fun n => dif_pos h
theorem oP_of (t : ℕ) (h : t < (cfg0 A0).N) (r : Fin 128) :
    oP V c t r = fun n => ((outsAt0 V c t h).1 : Vec Ideal S1x128x1024 .f32) (ix3 (0 : Fin 1) r n) :=
  funext fun n => dif_pos h

variable (bq bq' : Fin 4096 → EReal) (X : Fin 256 → ℕ → Cert.Spec.Row)

/-! ### One point of the region from scratches `hs`, `cs`, index by index -/

theorem point_h (hb : ∀ q : Fin 4096, bArr V c (ix2 (0 : Fin 1) q) = bq q + bq' q) (T : Fin (cfg0 A0).N) (hs cs : Vec Ideal S16x128x1024 .f32) (j : Fin 16) (r : Fin 128) (n : Fin 1024) :
    ((cellAt V c T hs cs).2.1 : Vec Ideal S16x128x1024 .f32) (ix3 j r n)
      = if j.val = T.val % 15 + 1
        then Cert.Spec.cellH (xP V c T.val r) (fun k => hs (ix3 (slotOf (T.val % 15)) r k))
          (fun k => cs (ix3 (slotOf (T.val % 15)) r k)) (Wf V c) (Uf V c) bq bq' n
        else hs (ix3 j r n) := by
  obtain ⟨-, -, e3⟩ := grid_facts T
  have h3 : k0_off3 (grid0.coords T) 0 = T.val % 15 + 1 := congrFun e3 0
  unfold cellAt
  refine (cellOut_h (tblWord (KC.tblC (F := Ideal)) (grid0.coords T)) (chk_tbl (grid0.coords T)) hs cs
    (iblk0 V c 0 T) (iblk0 V c 1 T) (iblk0 V c 2 T) (iblk0 V c 3 T) bq bq'
    (fun q => (congrFun (iblk_b V c T) (ix2 (0 : Fin 1) q)).trans (hb q)) (grid0.coords T) j r n).trans ?_
  rw [h3, parSlot_eq T, iblk_w V c T, iblk_u V c T, xP_of V c T.val T.isLt r]

theorem point_c (hb : ∀ q : Fin 4096, bArr V c (ix2 (0 : Fin 1) q) = bq q + bq' q) (T : Fin (cfg0 A0).N) (hs cs : Vec Ideal S16x128x1024 .f32) (j : Fin 16) (r : Fin 128) (n : Fin 1024) :
    ((cellAt V c T hs cs).2.2 : Vec Ideal S16x128x1024 .f32) (ix3 j r n)
      = if j.val = T.val % 15 + 1
        then Cert.Spec.cellC (xP V c T.val r) (fun k => hs (ix3 (slotOf (T.val % 15)) r k))
          (fun k => cs (ix3 (slotOf (T.val % 15)) r k)) (Wf V c) (Uf V c) bq bq' n
        else cs (ix3 j r n) := by
  obtain ⟨-, -, e3⟩ := grid_facts T
  have h3 : k0_off3 (grid0.coords T) 0 = T.val % 15 + 1 := congrFun e3 0
  unfold cellAt
  refine (cellOut_c (tblWord (KC.tblC (F := Ideal)) (grid0.coords T)) (chk_tbl (grid0.coords T)) hs cs
    (iblk0 V c 0 T) (iblk0 V c 1 T) (iblk0 V c 2 T) (iblk0 V c 3 T) bq bq'
    (fun q => (congrFun (iblk_b V c T) (ix2 (0 : Fin 1) q)).trans (hb q)) (grid0.coords T) j r n).trans ?_
  rw [h3, parSlot_eq T, iblk_w V c T, iblk_u V c T, xP_of V c T.val T.isLt r]

theorem point_o (hb : ∀ q : Fin 4096, bArr V c (ix2 (0 : Fin 1) q) = bq q + bq' q) (T : Fin (cfg0 A0).N) (hs cs : Vec Ideal S16x128x1024 .f32) (r : Fin 128) (n : Fin 1024) :
    ((cellAt V c T hs cs).1 : Vec Ideal S1x128x1024 .f32) (ix3 (0 : Fin 1) r n)
      = Cert.Spec.cellH (xP V c T.val r) (fun k => hs (ix3 (slotOf (T.val % 15)) r k))
          (fun k => cs (ix3 (slotOf (T.val % 15)) r k)) (Wf V c) (Uf V c) bq bq' n := by
  unfold cellAt
  refine (cellOut_out (tblWord (KC.tblC (F := Ideal)) (grid0.coords T)) (chk_tbl (grid0.coords T)) hs cs
    (iblk0 V c 0 T) (iblk0 V c 1 T) (iblk0 V c 2 T) (iblk0 V c 3 T) bq bq'
    (fun q => (congrFun (iblk_b V c T) (ix2 (0 : Fin 1) q)).trans (hb q)) (grid0.coords T) r n).trans ?_
  rw [parSlot_eq T, iblk_w V c T, iblk_u V c T, xP_of V c T.val T.isLt r]

/-- The zero scratches read zero rows. -/
theorem zero_h (s : Fin 16) (r : Fin 128) : (fun k => (k0_pay4 (F := Ideal)) (ix3 s r k)) = fun _ => (0 : EReal) :=
  funext fun k => KCell.pay4_apply _
theorem zero_c (s : Fin 16) (r : Fin 128) : (fun k => (k0_pay5 (F := Ideal)) (ix3 s r k)) = fun _ => (0 : EReal) :=
  funext fun k => KCell.pay5_apply _

/-! ### The two kinds of point, as the walk asks for them -/

/-- The first point of a half, the hidden slots: the cell over cleared slots. -/
theorem first_point_h (hb : ∀ q : Fin 4096, bArr V c (ix2 (0 : Fin 1) q) = bq q + bq' q) (t : ℕ) (ht : t < 30) (h0 : t % 15 = 0) (r : Fin 128) (j : Fin 16) :
    hP V c t j r
      = if j.val = 1 then Cert.Spec.cellH (xP V c t r) (fun _ => 0) (fun _ => 0) (Wf V c) (Uf V c) bq bq' else fun _ => 0 := by
  have ht' : t < (cfg0 A0).N := lt_of_lt_of_eq ht N_A.symm
  have e : outsAt0 V c t ht' = cellAt V c ⟨t, ht'⟩ (k0_pay4 (F := Ideal)) (k0_pay5 (F := Ideal)) := outsAt0_A V c ⟨t, ht'⟩ h0
  rw [hP_of V c t ht' j r, e]
  funext n
  refine (point_h V c bq bq' hb ⟨t, ht'⟩ (k0_pay4 (F := Ideal)) (k0_pay5 (F := Ideal)) j r n).trans ?_
  show (if j.val = t % 15 + 1
      then Cert.Spec.cellH (xP V c t r) (fun k => (k0_pay4 (F := Ideal)) (ix3 (slotOf (t % 15)) r k))
        (fun k => (k0_pay5 (F := Ideal)) (ix3 (slotOf (t % 15)) r k)) (Wf V c) (Uf V c) bq bq' n
      else (k0_pay4 (F := Ideal)) (ix3 j r n)) = _
  by_cases hj : j.val = 1
  · rw [if_pos (show j.val = t % 15 + 1 by omega), if_pos hj]
    exact congrArg₂ (fun a a' => Cert.Spec.cellH (xP V c t r) a a' (Wf V c) (Uf V c) bq bq' n)
      (zero_h (slotOf (t % 15)) r) (zero_c (slotOf (t % 15)) r)
  · rw [if_neg (show ¬j.val = t % 15 + 1 by omega), if_neg hj]; exact KCell.pay4_apply _

/-- The cell slots, likewise. -/
theorem first_point_c (hb : ∀ q : Fin 4096, bArr V c (ix2 (0 : Fin 1) q) = bq q + bq' q) (t : ℕ) (ht : t < 30) (h0 : t % 15 = 0) (r : Fin 128) (j : Fin 16) :
    cP V c t j r
      = if j.val = 1 then Cert.Spec.cellC (xP V c t r) (fun _ => 0) (fun _ => 0) (Wf V c) (Uf V c) bq bq' else fun _ => 0 := by
  have ht' : t < (cfg0 A0).N := lt_of_lt_of_eq ht N_A.symm
  have e : outsAt0 V c t ht' = cellAt V c ⟨t, ht'⟩ (k0_pay4 (F := Ideal)) (k0_pay5 (F := Ideal)) := outsAt0_A V c ⟨t, ht'⟩ h0
  rw [cP_of V c t ht' j r, e]
  funext n
  refine (point_c V c bq bq' hb ⟨t, ht'⟩ (k0_pay4 (F := Ideal)) (k0_pay5 (F := Ideal)) j r n).trans ?_
  show (if j.val = t % 15 + 1
      then Cert.Spec.cellC (xP V c t r) (fun k => (k0_pay4 (F := Ideal)) (ix3 (slotOf (t % 15)) r k))
        (fun k => (k0_pay5 (F := Ideal)) (ix3 (slotOf (t % 15)) r k)) (Wf V c) (Uf V c) bq bq' n
      else (k0_pay5 (F := Ideal)) (ix3 j r n)) = _
  by_cases hj : j.val = 1
  · rw [if_pos (show j.val = t % 15 + 1 by omega), if_pos hj]
    exact congrArg₂ (fun a a' => Cert.Spec.cellC (xP V c t r) a a' (Wf V c) (Uf V c) bq bq' n)
      (zero_h (slotOf (t % 15)) r) (zero_c (slotOf (t % 15)) r)
  · rw [if_neg (show ¬j.val = t % 15 + 1 by omega), if_neg hj]; exact KCell.pay5_apply _

/-- The emitted row, likewise. -/
theorem first_point_o (hb : ∀ q : Fin 4096, bArr V c (ix2 (0 : Fin 1) q) = bq q + bq' q) (t : ℕ) (ht : t < 30) (h0 : t % 15 = 0) (r : Fin 128) :
    oP V c t r = Cert.Spec.cellH (xP V c t r) (fun _ => 0) (fun _ => 0) (Wf V c) (Uf V c) bq bq' := by
  have ht' : t < (cfg0 A0).N := lt_of_lt_of_eq ht N_A.symm
  have e : outsAt0 V c t ht' = cellAt V c ⟨t, ht'⟩ (k0_pay4 (F := Ideal)) (k0_pay5 (F := Ideal)) := outsAt0_A V c ⟨t, ht'⟩ h0
  rw [oP_of V c t ht' r, e]
  funext n
  refine (point_o V c bq bq' hb ⟨t, ht'⟩ (k0_pay4 (F := Ideal)) (k0_pay5 (F := Ideal)) r n).trans ?_
  exact congrArg₂ (fun a a' => Cert.Spec.cellH (xP V c t r) a a' (Wf V c) (Uf V c) bq bq' n)
    (zero_h (slotOf (t % 15)) r) (zero_c (slotOf (t % 15)) r)

/-- The first point of a half: the cell over cleared slots. -/
theorem first_point (hb : ∀ q : Fin 4096, bArr V c (ix2 (0 : Fin 1) q) = bq q + bq' q) (t : ℕ) (ht : t < 30) (h0 : t % 15 = 0) (r : Fin 128) :
    (∀ j : Fin 16, hP V c t j r
        = if j.val = 1 then Cert.Spec.cellH (xP V c t r) (fun _ => 0) (fun _ => 0) (Wf V c) (Uf V c) bq bq' else fun _ => 0)
    ∧ (∀ j : Fin 16, cP V c t j r
        = if j.val = 1 then Cert.Spec.cellC (xP V c t r) (fun _ => 0) (fun _ => 0) (Wf V c) (Uf V c) bq bq' else fun _ => 0)
    ∧ oP V c t r = Cert.Spec.cellH (xP V c t r) (fun _ => 0) (fun _ => 0) (Wf V c) (Uf V c) bq bq' :=
  ⟨fun j => first_point_h V c bq bq' hb t ht h0 r j, fun j => first_point_c V c bq bq' hb t ht h0 r j,
    first_point_o V c bq bq' hb t ht h0 r⟩

/-- Any other point: the cell over what the point before left. -/
theorem later_point (hb : ∀ q : Fin 4096, bArr V c (ix2 (0 : Fin 1) q) = bq q + bq' q) (t : ℕ) (ht : t < 30) (h0 : t % 15 ≠ 0) (r : Fin 128) :
    (∀ j : Fin 16, hP V c t j r
        = if j.val = t % 15 + 1
          then Cert.Spec.cellH (xP V c t r) (hP V c (t - 1) (slotOf (t % 15)) r) (cP V c (t - 1) (slotOf (t % 15)) r)
            (Wf V c) (Uf V c) bq bq'
          else hP V c (t - 1) j r)
    ∧ (∀ j : Fin 16, cP V c t j r
        = if j.val = t % 15 + 1
          then Cert.Spec.cellC (xP V c t r) (hP V c (t - 1) (slotOf (t % 15)) r) (cP V c (t - 1) (slotOf (t % 15)) r)
            (Wf V c) (Uf V c) bq bq'
          else cP V c (t - 1) j r)
    ∧ oP V c t r = Cert.Spec.cellH (xP V c t r) (hP V c (t - 1) (slotOf (t % 15)) r)
        (cP V c (t - 1) (slotOf (t % 15)) r) (Wf V c) (Uf V c) bq bq' := by
  have ht' : t < (cfg0 A0).N := lt_of_lt_of_eq ht N_A.symm
  have hp' : t - 1 < (cfg0 A0).N := Nat.lt_of_le_of_lt (Nat.sub_le _ _) ht'
  have e : outsAt0 V c t ht' = cellAt V c ⟨t, ht'⟩ (outsAt0 V c (t - 1) hp').2.1 (outsAt0 V c (t - 1) hp').2.2 :=
    outsAt0_B V c ⟨t, ht'⟩ h0
  refine ⟨fun j => ?_, fun j => ?_, ?_⟩
  · rw [hP_of V c t ht' j r, e, hP_of V c (t - 1) hp' (slotOf (t % 15)) r, cP_of V c (t - 1) hp' (slotOf (t % 15)) r,
      hP_of V c (t - 1) hp' j r]
    funext n
    refine (point_h V c bq bq' hb ⟨t, ht'⟩ (outsAt0 V c (t - 1) hp').2.1 (outsAt0 V c (t - 1) hp').2.2 j r n).trans ?_
    show (if j.val = t % 15 + 1
        then Cert.Spec.cellH (xP V c t r) (fun k => ((outsAt0 V c (t - 1) hp').2.1 : Vec Ideal S16x128x1024 .f32) (ix3 (slotOf (t % 15)) r k))
          (fun k => ((outsAt0 V c (t - 1) hp').2.2 : Vec Ideal S16x128x1024 .f32) (ix3 (slotOf (t % 15)) r k)) (Wf V c) (Uf V c) bq bq' n
        else ((outsAt0 V c (t - 1) hp').2.1 : Vec Ideal S16x128x1024 .f32) (ix3 j r n)) = _
    by_cases hj : j.val = t % 15 + 1
    · rw [if_pos hj, if_pos hj]
    · rw [if_neg hj, if_neg hj]
  · rw [cP_of V c t ht' j r, e, hP_of V c (t - 1) hp' (slotOf (t % 15)) r, cP_of V c (t - 1) hp' (slotOf (t % 15)) r,
      cP_of V c (t - 1) hp' j r]
    funext n
    refine (point_c V c bq bq' hb ⟨t, ht'⟩ (outsAt0 V c (t - 1) hp').2.1 (outsAt0 V c (t - 1) hp').2.2 j r n).trans ?_
    show (if j.val = t % 15 + 1
        then Cert.Spec.cellC (xP V c t r) (fun k => ((outsAt0 V c (t - 1) hp').2.1 : Vec Ideal S16x128x1024 .f32) (ix3 (slotOf (t % 15)) r k))
          (fun k => ((outsAt0 V c (t - 1) hp').2.2 : Vec Ideal S16x128x1024 .f32) (ix3 (slotOf (t % 15)) r k)) (Wf V c) (Uf V c) bq bq' n
        else ((outsAt0 V c (t - 1) hp').2.2 : Vec Ideal S16x128x1024 .f32) (ix3 j r n)) = _
    by_cases hj : j.val = t % 15 + 1
    · rw [if_pos hj, if_pos hj]
    · rw [if_neg hj, if_neg hj]
  · rw [oP_of V c t ht' r, e, hP_of V c (t - 1) hp' (slotOf (t % 15)) r, cP_of V c (t - 1) hp' (slotOf (t % 15)) r]
    funext n
    exact point_o V c bq bq' hb ⟨t, ht'⟩ (outsAt0 V c (t - 1) hp').2.1 (outsAt0 V c (t - 1) hp').2.2 r n

/-! ### What a point emits, and the output array -/

/-- The input rows of the half of point `T`, for block row `r`, are the rows `X` names for batch row
    `128 (T / 15) + r`. -/
theorem xP_half (hX : ∀ (R : Fin 256) (i : Fin 15), (fun k => xArr V c (ix3 i R k)) = X R i.val) (T : Fin (cfg0 A0).N) (r : Fin 128) (i : ℕ) (hi : i < 15) :
    xP V c (T.val / 15 * 15 + i) r
      = X (⟨T.val / 15 * 128 + r.val, by have := lt30 T; have := r.isLt; omega⟩ : Fin 256) i := by
  have hT := lt30 T
  have ht' : T.val / 15 * 15 + i < (cfg0 A0).N := lt_of_lt_of_eq (by omega) N_A.symm
  have hr := r.isLt
  rw [xP_of V c _ ht' r]
  refine Eq.trans (funext fun k => ?_) (hX ⟨T.val / 15 * 128 + r.val, by omega⟩ ⟨i, hi⟩)
  refine (iblk_x V c ⟨T.val / 15 * 15 + i, ht'⟩ r k).trans ?_
  have ea : (⟨(T.val / 15 * 15 + i) % 15, Nat.mod_lt _ (by decide)⟩ : Fin 15) = ⟨i, hi⟩ :=
    Fin.ext (show (T.val / 15 * 15 + i) % 15 = i by omega)
  have eb : (⟨(T.val / 15 * 15 + i) / 15 * 128 + r.val, by omega⟩ : Fin 256) = ⟨T.val / 15 * 128 + r.val, by omega⟩ :=
    Fin.ext (show (T.val / 15 * 15 + i) / 15 * 128 + r.val = T.val / 15 * 128 + r.val by omega)
  show xArr V c (ix3 (⟨(T.val / 15 * 15 + i) % 15, Nat.mod_lt _ (by decide)⟩ : Fin 15)
    (⟨(T.val / 15 * 15 + i) / 15 * 128 + r.val, by omega⟩ : Fin 256) k) = _
  rw [ea, eb]

/-- WHAT POINT `T` EMITS for block row `r` is the specification's hidden row of node `T % 15 + 1` over batch row
    `128 (T / 15) + r`'s input rows. -/
theorem emitted (hb : ∀ q : Fin 4096, bArr V c (ix2 (0 : Fin 1) q) = bq q + bq' q) (hX : ∀ (R : Fin 256) (i : Fin 15), (fun k => xArr V c (ix3 i R k)) = X R i.val) (T : Fin (cfg0 A0).N) (r : Fin 128) :
    oP V c T.val r = Cert.Spec.nodeH (X (⟨T.val / 15 * 128 + r.val, by have := lt30 T; have := r.isLt; omega⟩ : Fin 256))
      (Wf V c) (Uf V c) bq bq' (T.val % 15) :=
  KValue.emitted_eq_nodeH_at _ (Wf V c) (Uf V c) bq bq' (xP V c) (oP V c) (hP V c) (cP V c) slotOf slotOf_val
    (first_point V c bq bq' hb) (later_point V c bq bq' hb) T.val (lt30 T) r (xP_half V c X hX T r)

/-- The whole output array, as the specification has it: entry (node `i`, batch row `R`, feature `n`) is the hidden row
    of node `i + 1` over batch row `R`'s input rows. -/
def G : Vec Ideal S15x256x1024 .f32 := fun j =>
  Cert.Spec.nodeH (X (j 1)) (Wf V c) (Uf V c) bq bq' (j 0).val (j 2)

/-- What point `T` leaves in the output window's buffer, index by index. -/
theorem out_at (hb : ∀ q : Fin 4096, bArr V c (ix2 (0 : Fin 1) q) = bq q + bq' q) (hX : ∀ (R : Fin 256) (i : Fin 15), (fun k => xArr V c (ix3 i R k)) = X R i.val) (T : Fin (cfg0 A0).N) (y : S1x128x1024.Idx) :
    ((outsAt0 V c T.val T.isLt).1 : Vec Ideal S1x128x1024 .f32) y
      = Cert.Spec.nodeH (X (⟨T.val / 15 * 128 + (y 1).val, by have := lt30 T; have h128 : (y 1).val < 128 := (y 1).isLt; omega⟩ : Fin 256))
          (Wf V c) (Uf V c) bq bq' (T.val % 15) (y 2) := by
  have e := congrFun (emitted V c bq bq' X hb hX T (y 1)) (y 2)
  rw [oP_of V c T.val T.isLt (y 1)] at e
  have h0y : y 0 = (0 : Fin 1) := Fin.ext (show (y 0).val = 0 by have h : (y 0).val < 1 := (y 0).isLt; omega)
  have hy : y = ix3 (0 : Fin 1) (y 1) (y 2) := (eq_ix3 y).trans (congrArg (fun a : Fin 1 => ix3 a (y 1) (y 2)) h0y)
  exact (congrArg ((outsAt0 V c T.val T.isLt).1 : Vec Ideal S1x128x1024 .f32) hy).trans e

/-- WHAT POINT `T` WRITES BACK is its block of `G`. -/
theorem flushed_eq (hb : ∀ q : Fin 4096, bArr V c (ix2 (0 : Fin 1) q) = bq q + bq' q) (hX : ∀ (R : Fin 256) (i : Fin 15), (fun k => xArr V c (ix3 i R k)) = X R i.val) (T : Fin (cfg0 A0).N) :
    (dat0 V c).flushed 4 T = (((cfg0 A0).win 4).blk T).view.read (Elt Ideal) (G V c bq bq' X) := by
  obtain ⟨-, e4, -⟩ := grid_facts T
  have h0 : cc0_transform_4 (grid0.coords T) 0 = T.val % 15 := congrFun e4 0
  have h1 : cc0_transform_4 (grid0.coords T) 1 = T.val / 15 := congrFun e4 1
  have h2 : cc0_transform_4 (grid0.coords T) 2 = 0 := congrFun e4 2
  show ((cfg0 A0).win 4).cut ((cfg0 A0).grid.coords T) ((dat0 V c).after 4 T) = _
  rw [after0_4]
  funext y
  rw [View.read_apply]
  refine (out_at V c bq bq' X hb hX T y).trans ?_
  have hemb : ((((cfg0 A0).win 4).blk T).view.emb y : S15x256x1024.Idx)
      = ix3 (⟨T.val % 15, Nat.mod_lt _ (by decide)⟩ : Fin 15)
          (⟨T.val / 15 * 128 + (y 1).val, by have := lt30 T; have h128 : (y 1).val < 128 := (y 1).isLt; omega⟩ : Fin 256) (y 2) := by
    funext a
    apply Fin.ext
    match a with
    | ⟨0, _⟩ => show cc0_transform_4 (grid0.coords T) 0 * 1 + 1 * (y 0).val = T.val % 15
                have hy0 : (y 0).val < 1 := (y 0).isLt
                omega
    | ⟨1, _⟩ => show cc0_transform_4 (grid0.coords T) 1 * 128 + 1 * (y 1).val = T.val / 15 * 128 + (y 1).val; omega
    | ⟨2, _⟩ => show cc0_transform_4 (grid0.coords T) 2 * 1024 + 1 * (y 2).val = (y 2).val; omega
  show _ = G V c bq bq' X ((((cfg0 A0).win 4).blk T).view.emb y)
  rw [hemb]
  rfl

/-- The 30 blocks tile the output array: entry (node `i`, batch row `R`, ·) is in the block of point `15 (R / 128) + i`. -/
theorem cover (i : S15x256x1024.Idx) :
    ∃ T : Fin (cfg0 A0).N, ((cfg0 A0).win 4).flush T = true ∧ i ∈ (((cfg0 A0).win 4).blk T).view.set := by
  have b0 : (i 0).val < 15 := (i 0).isLt
  have b1 : (i 1).val < 256 := (i 1).isLt
  have b2 : (i 2).val < 1024 := (i 2).isLt
  have hT : (i 1).val / 128 * 15 + (i 0).val < (cfg0 A0).N := lt_of_lt_of_eq (by omega) N_A.symm
  refine ⟨⟨(i 1).val / 128 * 15 + (i 0).val, hT⟩, flush_all _, ?_⟩
  obtain ⟨-, e4, -⟩ := grid_facts ⟨(i 1).val / 128 * 15 + (i 0).val, hT⟩
  have h0 : cc0_transform_4 (grid0.coords ⟨(i 1).val / 128 * 15 + (i 0).val, hT⟩) 0
      = ((i 1).val / 128 * 15 + (i 0).val) % 15 := congrFun e4 0
  have h1 : cc0_transform_4 (grid0.coords ⟨(i 1).val / 128 * 15 + (i 0).val, hT⟩) 1
      = ((i 1).val / 128 * 15 + (i 0).val) / 15 := congrFun e4 1
  have h2 : cc0_transform_4 (grid0.coords ⟨(i 1).val / 128 * 15 + (i 0).val, hT⟩) 2 = 0 := congrFun e4 2
  show i ∈ ((View.whole main_v16).slice (((cfg0 A0).win 4).rect ⟨(i 1).val / 128 * 15 + (i 0).val, hT⟩)).set
  rw [View.set_slice_whole, Rect.mem_set_unit]
  intro a
  match a with
  | ⟨0, _⟩ =>
    show cc0_transform_4 (grid0.coords ⟨(i 1).val / 128 * 15 + (i 0).val, hT⟩) 0 * 1 ≤ (i 0).val
      ∧ (i 0).val < cc0_transform_4 (grid0.coords ⟨(i 1).val / 128 * 15 + (i 0).val, hT⟩) 0 * 1 + 1
    omega
  | ⟨1, _⟩ =>
    show cc0_transform_4 (grid0.coords ⟨(i 1).val / 128 * 15 + (i 0).val, hT⟩) 1 * 128 ≤ (i 1).val
      ∧ (i 1).val < cc0_transform_4 (grid0.coords ⟨(i 1).val / 128 * 15 + (i 0).val, hT⟩) 1 * 128 + 128
    omega
  | ⟨2, _⟩ =>
    show cc0_transform_4 (grid0.coords ⟨(i 1).val / 128 * 15 + (i 0).val, hT⟩) 2 * 1024 ≤ (i 2).val
      ∧ (i 2).val < cc0_transform_4 (grid0.coords ⟨(i 1).val / 128 * 15 + (i 0).val, hT⟩) 2 * 1024 + 1024
    omega

/-- THE OUTPUT ARRAY after the region. -/
theorem arr_eq (hb : ∀ q : Fin 4096, bArr V c (ix2 (0 : Fin 1) q) = bq q + bq' q) (hX : ∀ (R : Fin 256) (i : Fin 15), (fun k => xArr V c (ix3 i R k)) = X R i.val) : (dat0 V c).arrAt 4 (cfg0 A0).N = G V c bq bq' X :=
  (dat0 V c).arrAt_eq_of_cover 4 (G V c bq bq' X) (fun T _ => flushed_eq V c bq bq' X hb hX T) (cover)

/-- THE REGION'S VALUE: entry (node `i`, batch row `R`, feature `n`) of the output array is the specification's hidden
    row of node `i + 1` of one layer, over the input rows `X R`, the region's weights and the two bias vectors. -/
theorem region_value (hb : ∀ q : Fin 4096, bArr V c (ix2 (0 : Fin 1) q) = bq q + bq' q) (hX : ∀ (R : Fin 256) (i : Fin 15), (fun k => xArr V c (ix3 i R k)) = X R i.val) (i : Fin 15) (R : Fin 256) (n : Fin 1024) :
    ((dat0 V c).arrAt 4 (cfg0 A0).N : Vec Ideal S15x256x1024 .f32) (ix3 i R n)
      = Cert.Spec.nodeH (X R) (Wf V c) (Uf V c) bq bq' i.val n := by
  rw [arr_eq V c bq bq' X hb hX]
  rfl

end Region

end Cert.KernelIdeal.KValue0

end
-- ==== Proof.K.Value1.lean ====
/-
  One region, read index by index: the array its output window ends holding is, entry by entry, the specification's
  hidden row of one layer.

  The region's grid has 30 points, point `t` being node `t % 15 + 1` of batch half `t / 15`. The input window's block
  at `t` is rows `128 (t / 15) … 128 (t / 15) + 127` of node `t % 15`'s slice of the input array; the two weight
  windows and the bias window are their whole arrays at every point; the output window's block at `t` is the same rows
  of node `t % 15`'s slice of the output array. What the body leaves at a point is stated (in the region's data) as
  the cell's payloads over slab loads of the two scratches, the new rows overlaid on slab `t % 15 + 1`. Read at an
  index this is: slot `j` of row `r` after point `t` is the new row if `j = t % 15 + 1` and what it was otherwise, the
  new row being the LSTM cell of the point's input row and of the two rows in the slot the table names — exactly the
  machine whose walk is the specification's. So the output block at `t`, row `r`, is the specification's hidden row of
  node `t % 15 + 1` for batch row `128 (t / 15) + r`; the 30 blocks tile the output array; hence the array.
-/
import proofs.«109754_j89713276879117_1_alg».proof.Proof.K.ValueRec
import proofs.«109754_j89713276879117_1_alg».proof.Proof.K.Data1
import proofs.«109754_j89713276879117_1_alg».proof.Proof.KCell
import Idealize.ShloMosaic.Lib.Pipeline.Value
import Idealize.ShloMosaic.Lib.ValueIdx

set_option maxRecDepth 16384

noncomputable section

namespace Cert.KernelIdeal.KValue1

open Cert.KernelIdeal Cert.KernelIdeal.Gen Cert.KernelIdeal.K1
open Idealize.ShloMosaic Idealize.ShloMosaic.TcCoe Idealize.ShloMosaic.ValueIdx Idealize.SL.Sem
open Idealize.ShloMosaic.Pipeline (Dat)

/-- The table's contents the region runs at. -/
abbrev A1 : (pcfg1 (F := Ideal)).Adm := KC.adm (F := Ideal) 1

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl

/-! ## The grid's arithmetic, decided over its 30 points -/

/-- Point `t`'s input and output blocks are at block index (node `t % 15`, half `t / 15`, 0); the body's own slab is
    `t % 15 + 1`. -/
theorem grid_facts : ∀ t : Fin grid1.N,
    cc1_transform_0 (grid1.coords t) = ![t.val % 15, t.val / 15, 0]
    ∧ cc1_transform_4 (grid1.coords t) = ![t.val % 15, t.val / 15, 0]
    ∧ k1_off3 (grid1.coords t) = ![t.val % 15 + 1, 0, 0] := by
  decide +kernel

/-- The table word the body reads at point `t` names the tree's parent of node `t % 15 + 1`. -/
theorem word_facts : ∀ t : Fin grid1.N,
    k1_off2 (tblWord (KC.tblC (F := Ideal)) (grid1.coords t)) 0 = Cert.Spec.par (t.val % 15) := by
  decide +kernel

/-- Every point of the grid writes its output block back: consecutive points have different blocks. -/
theorem flush_all : ∀ t : Fin (cfg1 A1).N, ((cfg1 A1).win 4).flush t = true := by
  decide +kernel

/-- The slot the table names for node `i + 1`. -/
def slotOf (i : ℕ) : Fin 16 := ⟨Cert.Spec.par i % 16, Nat.mod_lt _ (by decide)⟩

theorem slotOf_val (i : ℕ) (hi : i < 15) : (slotOf i).val = Cert.Spec.par i := by
  have := Cert.Spec.par_le i
  show Cert.Spec.par i % 16 = _
  exact Nat.mod_eq_of_lt (by omega)

/-- The slab a table word names, as a slot. -/
def parSlot (v : BitVec 32) (hv : k1_chk1 v) : Fin 16 :=
  ⟨k1_off2 v 0, by have h : k1_off2 v 0 + 1 ≤ 16 := hv 0; omega⟩

/-! ## One point over any contents: the three things it leaves, index by index -/

section Cell

variable (v : BitVec 32) (hv : k1_chk1 v) (hs cs : Vec Ideal S16x128x1024 .f32)
  (x : Vec Ideal S1x128x1024 .bf16) (w u : Vec Ideal S1024x4096 .bf16) (b : Vec Ideal S1x4096 .f32)
  (bq bq' : Fin 4096 → EReal)

/-- A load of the named slab reads that slot's rows. -/
theorem ld_par (X : Vec Ideal S16x128x1024 .f32) (r : Fin 128) (k : Fin 1024) :
    View.ld X (rPar v hv) (ix3 (0 : Fin 1) r k) = X (ix3 (parSlot v hv) r k) := by
  show X ((rPar v hv).idx (ix3 (0 : Fin 1) r k)) = _
  refine congrArg X (funext fun a => Fin.ext ?_)
  match a with
  | ⟨0, _⟩ => show k1_off2 v 0 + 1 * 0 = k1_off2 v 0; omega
  | ⟨1, _⟩ => show 0 + 1 * r.val = r.val; omega
  | ⟨2, _⟩ => show 0 + 1 * k.val = k.val; omega

/-- The new hidden rows at (row `r`, feature `n`): the cell of the input block's row `r` and of row `r` of the named
    slot of the two scratches. -/
theorem cellH_apply (hb : ∀ q : Fin 4096, b (ix2 (0 : Fin 1) q) = bq q + bq' q) (r : Fin 128) (n : Fin 1024) :
    K1.cellH v hv hs cs x w u b (ix2 r n)
      = Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n := by
  have ex : View.ld x rX = x := View.ld_unit_zero (S := S1x128x1024) hz3 _ x
  have ew : View.ld w rW = w := View.ld_unit_zero (S := S1024x4096) hz2 _ w
  have eu : View.ld u rW = u := View.ld_unit_zero (S := S1024x4096) hz2 _ u
  have eb : View.ld b rB = b := View.ld_unit_zero (S := S1x4096) hz2 _ b
  have eh : (fun k => View.ld hs (rPar v hv) (ix3 (0 : Fin 1) r k)) = fun k => hs (ix3 (parSlot v hv) r k) :=
    funext fun k => ld_par v hv hs r k
  have ec : (fun k => View.ld cs (rPar v hv) (ix3 (0 : Fin 1) r k)) = fun k => cs (ix3 (parSlot v hv) r k) :=
    funext fun k => ld_par v hv cs r k
  unfold K1.cellH
  refine (KCell.pay8_apply1 (View.ld hs (rPar v hv)) (View.ld cs (rPar v hv)) (View.ld x rX) (View.ld w rW)
    (View.ld u rW) (View.ld b rB) bq bq' (fun q => (congrFun eb (ix2 (0 : Fin 1) q)).trans (hb q)) r n).trans ?_
  rw [ex, ew, eu, eh, ec]

/-- The new cell rows, likewise. -/
theorem cellC_apply (hb : ∀ q : Fin 4096, b (ix2 (0 : Fin 1) q) = bq q + bq' q) (r : Fin 128) (n : Fin 1024) :
    K1.cellC v hv hs cs x w u b (ix2 r n)
      = Cert.Spec.cellC (fun k => x (ix3 (0 : Fin 1) r k)) (fun k => hs (ix3 (parSlot v hv) r k))
          (fun k => cs (ix3 (parSlot v hv) r k)) (fun q k => w (ix2 k q)) (fun q k => u (ix2 k q)) bq bq' n := by
  have ex : View.ld x rX = x := View.ld_unit_zero (S := S1x128x1024) hz3 _ x
  have ew : View.ld w rW = w := View.ld_unit_zero (S := S1024x4096) hz2 _ w
  have eu : View.ld u rW = u := View.ld_unit_zero (S := S1024x4096) hz2 _ u
  have eb : View.ld b rB = b := View.ld_unit_zero (S := S1x4096) hz2 _ b
  have eh : (fun k => View.ld hs (rPar v hv) (ix3 (0 : Fin 1) r k)) = fun k => hs (ix3 (parSlot v hv) r k) :=
    funext fun k => ld_par v hv hs r k
  have ec : (fun k => View.ld cs (rPar v hv) (ix3 (0 : Fin 1) r k)) = fun k => cs (ix3 (parSlot v hv) r k) :=
    funext fun k => ld_par v hv cs r k
  unfold K1.cellC
  refine (KCell.pay7_apply1 (View.ld hs (rPar v hv)) (View.ld cs (rPar v hv)) (View.ld x rX) (View.ld w rW)
    (View.ld u rW) (View.ld b rB) bq bq' (fun q => (congrFun eb (ix2 (0 : Fin 1) q)).trans (hb q)) r n).trans ?_
  rw [ex, ew, eu, eh, ec]

/-- A store of new rows `p` into the point's own slab, read at (slot `j`, row `r`, feature `n`): the new row in that
    slab, the old contents in every other. -/
theorem overlay_new (i : grid1.Coords) (X : Vec Ideal S16x128x1024 .f32) (p : Vec Ideal S1x128x1024 .f32)
    (j : Fin 16) (r : Fin 128) (n : Fin 1024) :
    (rNew i).overlay X p (ix3 j r n) = if j.val = k1_off3 i 0 then p (ix3 (0 : Fin 1) r n) else X (ix3 j r n) := by
  by_cases h : j.val = k1_off3 i 0
  · rw [if_pos h]
    have e : (ix3 j r n : S16x128x1024.Idx) = (rNew i).emb (ix3 (0 : Fin 1) r n) := by
      funext a; apply Fin.ext
      match a with
      | ⟨0, _⟩ => show j.val = k1_off3 i 0 + 1 * 0; omega
      | ⟨1, _⟩ => show r.val = 0 + 1 * r.val; omega
      | ⟨2, _⟩ => show n.val = 0 + 1 * n.val; omega
    rw [e, Rect.overlay_emb]
  · rw [if_neg h]
    refine Rect.overlay_of_not_mem _ _ _ fun hm => h ?_
    rw [Rect.mem_set_unit] at hm
    have h0 : k1_off3 i 0 ≤ j.val ∧ j.val < k1_off3 i 0 + 1 := hm 0
    omega

/-- The output block a point leaves, at (row `r`, feature `n`). -/
theorem cellOut_out (hb : ∀ q : Fin 4096, b (ix2 (0 : Fin 1) q) = bq q + bq' q) (i : grid1.Coords) (r : Fin 128) (n : Fin 1024) :
    (cellOut v hv hs cs x w u b i).1 (ix3 (0 : Fin 1) r n)
      = Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n := by
  show k1_pay3 (K1.cellH v hv hs cs x w u b) (ix3 (0 : Fin 1) r n) = _
  rw [KCell.pay3_apply1]
  exact cellH_apply v hv hs cs x w u b bq bq' hb r n

/-- The hidden scratch a point leaves, at (slot `j`, row `r`, feature `n`). -/
theorem cellOut_h (hb : ∀ q : Fin 4096, b (ix2 (0 : Fin 1) q) = bq q + bq' q) (i : grid1.Coords) (j : Fin 16) (r : Fin 128) (n : Fin 1024) :
    (cellOut v hv hs cs x w u b i).2.1 (ix3 j r n)
      = if j.val = k1_off3 i 0
        then Cert.Spec.cellH (fun k => x (ix3 (0 : Fin 1) r k)) (fun k => hs (ix3 (parSlot v hv) r k))
          (fun k => cs (ix3 (parSlot v hv) r k)) (fun q k => w (ix2 k q)) (fun q k => u (ix2 k q)) bq bq' n
        else hs (ix3 j r n) := by
  unfold cellOut
  dsimp only
  rw [overlay_new, KCell.pay1_apply1, cellH_apply v hv hs cs x w u b bq bq' hb r n]

/-- The cell scratch a point leaves, likewise. -/
theorem cellOut_c (hb : ∀ q : Fin 4096, b (ix2 (0 : Fin 1) q) = bq q + bq' q) (i : grid1.Coords) (j : Fin 16) (r : Fin 128) (n : Fin 1024) :
    (cellOut v hv hs cs x w u b i).2.2 (ix3 j r n)
      = if j.val = k1_off3 i 0
        then Cert.Spec.cellC (fun k => x (ix3 (0 : Fin 1) r k)) (fun k => hs (ix3 (parSlot v hv) r k))
          (fun k => cs (ix3 (parSlot v hv) r k)) (fun q k => w (ix2 k q)) (fun q k => u (ix2 k q)) bq bq' n
        else cs (ix3 j r n) := by
  unfold cellOut
  dsimp only
  rw [overlay_new, KCell.pay2_apply1, cellC_apply v hv hs cs x w u b bq bq' hb r n]

end Cell

/-! ## The region at entry contents `V` -/

section Region

variable (V : (c : Dev nD) → (b : Ref sig .tc) → Buf (Elt Ideal) ((c : Thread nD τ).loc b)) (c : Dev nD)

/-- The windows' arrays as the region finds them, at their literal types: input rows, the two weight matrices
    (stored transposed: feature by gate column), the bias row. -/
abbrev xArr : Vec Ideal S15x256x1024 .bf16 := V c main_v17
abbrev wArr : Vec Ideal S1024x4096 .bf16 := V c main_v21
abbrev uArr : Vec Ideal S1024x4096 .bf16 := V c main_v25
abbrev bArr : Vec Ideal S1x4096 .f32 := V c main_v31

/-- The weights as the specification indexes them: gate column, then feature. -/
abbrev Wf : Fin 4096 → Fin 1024 → EReal := fun q k => wArr V c (ix2 k q)
abbrev Uf : Fin 4096 → Fin 1024 → EReal := fun q k => uArr V c (ix2 k q)

theorem lt30 (T : Fin (cfg1 A1).N) : T.val < 30 := lt_of_lt_of_eq T.isLt N_A

/-! ### The windows' blocks -/

/-- The input block at point `T`, row `r`: node `T % 15`'s slice, batch row `128 (T / 15) + r`. -/
theorem iblk_x (T : Fin (cfg1 A1).N) (r : Fin 128) (k : Fin 1024) :
    (iblk1 V c 0 T : Vec Ideal S1x128x1024 .bf16) (ix3 (0 : Fin 1) r k)
      = xArr V c (ix3 (⟨T.val % 15, Nat.mod_lt _ (by decide)⟩ : Fin 15)
          (⟨T.val / 15 * 128 + r.val, by have := lt30 T; have := r.isLt; omega⟩ : Fin 256) k) := by
  obtain ⟨e0, -, -⟩ := grid_facts T
  have h0 : cc1_transform_0 (grid1.coords T) 0 = T.val % 15 := congrFun e0 0
  have h1 : cc1_transform_0 (grid1.coords T) 1 = T.val / 15 := congrFun e0 1
  have h2 : cc1_transform_0 (grid1.coords T) 2 = 0 := congrFun e0 2
  unfold iblk1
  rw [View.read_apply]
  show V c main_v17 _ = V c main_v17 _
  congr 1
  funext a
  apply Fin.ext
  match a with
  | ⟨0, _⟩ => show cc1_transform_0 (grid1.coords T) 0 * 1 + 1 * 0 = T.val % 15; omega
  | ⟨1, _⟩ => show cc1_transform_0 (grid1.coords T) 1 * 128 + 1 * r.val = T.val / 15 * 128 + r.val; omega
  | ⟨2, _⟩ => show cc1_transform_0 (grid1.coords T) 2 * 1024 + 1 * k.val = k.val; omega

/-- The weight and bias windows' blocks are their whole arrays at every point. -/
theorem iblk_w (T : Fin (cfg1 A1).N) : (iblk1 V c 1 T : Vec Ideal S1024x4096 .bf16) = wArr V c := by
  funext y
  unfold iblk1
  rw [View.read_apply]
  show V c main_v21 _ = V c main_v21 _
  congr 1
  funext a
  apply Fin.ext
  match a with
  | ⟨0, _⟩ => show 0 * 1024 + 1 * (y 0).val = (y 0).val; omega
  | ⟨1, _⟩ => show 0 * 4096 + 1 * (y 1).val = (y 1).val; omega

theorem iblk_u (T : Fin (cfg1 A1).N) : (iblk1 V c 2 T : Vec Ideal S1024x4096 .bf16) = uArr V c := by
  funext y
  unfold iblk1
  rw [View.read_apply]
  show V c main_v25 _ = V c main_v25 _
  congr 1
  funext a
  apply Fin.ext
  match a with
  | ⟨0, _⟩ => show 0 * 1024 + 1 * (y 0).val = (y 0).val; omega
  | ⟨1, _⟩ => show 0 * 4096 + 1 * (y 1).val = (y 1).val; omega

theorem iblk_b (T : Fin (cfg1 A1).N) : (iblk1 V c 3 T : Vec Ideal S1x4096 .f32) = bArr V c := by
  funext y
  unfold iblk1
  rw [View.read_apply]
  show V c main_v31 _ = V c main_v31 _
  congr 1
  funext a
  apply Fin.ext
  match a with
  | ⟨0, _⟩ => show 0 * 1 + 1 * (y 0).val = (y 0).val; omega
  | ⟨1, _⟩ => show 0 * 4096 + 1 * (y 1).val = (y 1).val; omega

/-- The slab the point's table word names is the tree's parent's slot. -/
theorem parSlot_eq (T : Fin (cfg1 A1).N) :
    parSlot (tblWord (KC.tblC (F := Ideal)) (grid1.coords T)) (chk_tbl (grid1.coords T)) = slotOf (T.val % 15) := by
  apply Fin.ext
  show k1_off2 (tblWord (KC.tblC (F := Ideal)) (grid1.coords T)) 0 = Cert.Spec.par (T.val % 15) % 16
  rw [word_facts T]
  have := Cert.Spec.par_le (T.val % 15)
  have := Nat.mod_lt T.val (show 0 < 15 by decide)
  exact (Nat.mod_eq_of_lt (by omega)).symm

/-! ### The machine's rows, point by point -/

/-- The input row of point `t` for block row `r`; the hidden and cell row in slot `j` and the emitted row after it. -/
def xP (t : ℕ) (r : Fin 128) : Cert.Spec.Row := fun k =>
  if h : t < (cfg1 A1).N then (iblk1 V c 0 ⟨t, h⟩ : Vec Ideal S1x128x1024 .bf16) (ix3 (0 : Fin 1) r k) else 0
def hP (t : ℕ) (j : Fin 16) (r : Fin 128) : Cert.Spec.Row := fun n =>
  if h : t < (cfg1 A1).N then ((outsAt1 V c t h).2.1 : Vec Ideal S16x128x1024 .f32) (ix3 j r n) else 0
def cP (t : ℕ) (j : Fin 16) (r : Fin 128) : Cert.Spec.Row := fun n =>
  if h : t < (cfg1 A1).N then ((outsAt1 V c t h).2.2 : Vec Ideal S16x128x1024 .f32) (ix3 j r n) else 0
def oP (t : ℕ) (r : Fin 128) : Cert.Spec.Row := fun n =>
  if h : t < (cfg1 A1).N then ((outsAt1 V c t h).1 : Vec Ideal S1x128x1024 .f32) (ix3 (0 : Fin 1) r n) else 0

theorem xP_of (t : ℕ) (h : t < (cfg1 A1).N) (r : Fin 128) :
    xP V c t r = fun k => (iblk1 V c 0 ⟨t, h⟩ : Vec Ideal S1x128x1024 .bf16) (ix3 (0 : Fin 1) r k) :=
  funext fun k => dif_pos h
theorem hP_of (t : ℕ) (h : t < (cfg1 A1).N) (j : Fin 16) (r : Fin 128) :
    hP V c t j r = fun n => ((outsAt1 V c t h).2.1 : Vec Ideal S16x128x1024 .f32) (ix3 j r n) :=
  funext fun n => dif_pos h
theorem cP_of (t : ℕ) (h : t < (cfg1 A1).N) (j : Fin 16) (r : Fin 128) :
    cP V c t j r = fun n => ((outsAt1 V c t h).2.2 : Vec Ideal S16x128x1024 .f32) (ix3 j r n) :=
  funext fun n => dif_pos h
theorem oP_of (t : ℕ) (h : t < (cfg1 A1).N) (r : Fin 128) :
    oP V c t r = fun n => ((outsAt1 V c t h).1 : Vec Ideal S1x128x1024 .f32) (ix3 (0 : Fin 1) r n) :=
  funext fun n => dif_pos h

variable (bq bq' : Fin 4096 → EReal) (X : Fin 256 → ℕ → Cert.Spec.Row)

/-! ### One point of the region from scratches `hs`, `cs`, index by index -/

theorem point_h (hb : ∀ q : Fin 4096, bArr V c (ix2 (0 : Fin 1) q) = bq q + bq' q) (T : Fin (cfg1 A1).N) (hs cs : Vec Ideal S16x128x1024 .f32) (j : Fin 16) (r : Fin 128) (n : Fin 1024) :
    ((cellAt V c T hs cs).2.1 : Vec Ideal S16x128x1024 .f32) (ix3 j r n)
      = if j.val = T.val % 15 + 1
        then Cert.Spec.cellH (xP V c T.val r) (fun k => hs (ix3 (slotOf (T.val % 15)) r k))
          (fun k => cs (ix3 (slotOf (T.val % 15)) r k)) (Wf V c) (Uf V c) bq bq' n
        else hs (ix3 j r n) := by
  obtain ⟨-, -, e3⟩ := grid_facts T
  have h3 : k1_off3 (grid1.coords T) 0 = T.val % 15 + 1 := congrFun e3 0
  unfold cellAt
  refine (cellOut_h (tblWord (KC.tblC (F := Ideal)) (grid1.coords T)) (chk_tbl (grid1.coords T)) hs cs
    (iblk1 V c 0 T) (iblk1 V c 1 T) (iblk1 V c 2 T) (iblk1 V c 3 T) bq bq'
    (fun q => (congrFun (iblk_b V c T) (ix2 (0 : Fin 1) q)).trans (hb q)) (grid1.coords T) j r n).trans ?_
  rw [h3, parSlot_eq T, iblk_w V c T, iblk_u V c T, xP_of V c T.val T.isLt r]

theorem point_c (hb : ∀ q : Fin 4096, bArr V c (ix2 (0 : Fin 1) q) = bq q + bq' q) (T : Fin (cfg1 A1).N) (hs cs : Vec Ideal S16x128x1024 .f32) (j : Fin 16) (r : Fin 128) (n : Fin 1024) :
    ((cellAt V c T hs cs).2.2 : Vec Ideal S16x128x1024 .f32) (ix3 j r n)
      = if j.val = T.val % 15 + 1
        then Cert.Spec.cellC (xP V c T.val r) (fun k => hs (ix3 (slotOf (T.val % 15)) r k))
          (fun k => cs (ix3 (slotOf (T.val % 15)) r k)) (Wf V c) (Uf V c) bq bq' n
        else cs (ix3 j r n) := by
  obtain ⟨-, -, e3⟩ := grid_facts T
  have h3 : k1_off3 (grid1.coords T) 0 = T.val % 15 + 1 := congrFun e3 0
  unfold cellAt
  refine (cellOut_c (tblWord (KC.tblC (F := Ideal)) (grid1.coords T)) (chk_tbl (grid1.coords T)) hs cs
    (iblk1 V c 0 T) (iblk1 V c 1 T) (iblk1 V c 2 T) (iblk1 V c 3 T) bq bq'
    (fun q => (congrFun (iblk_b V c T) (ix2 (0 : Fin 1) q)).trans (hb q)) (grid1.coords T) j r n).trans ?_
  rw [h3, parSlot_eq T, iblk_w V c T, iblk_u V c T, xP_of V c T.val T.isLt r]

theorem point_o (hb : ∀ q : Fin 4096, bArr V c (ix2 (0 : Fin 1) q) = bq q + bq' q) (T : Fin (cfg1 A1).N) (hs cs : Vec Ideal S16x128x1024 .f32) (r : Fin 128) (n : Fin 1024) :
    ((cellAt V c T hs cs).1 : Vec Ideal S1x128x1024 .f32) (ix3 (0 : Fin 1) r n)
      = Cert.Spec.cellH (xP V c T.val r) (fun k => hs (ix3 (slotOf (T.val % 15)) r k))
          (fun k => cs (ix3 (slotOf (T.val % 15)) r k)) (Wf V c) (Uf V c) bq bq' n := by
  unfold cellAt
  refine (cellOut_out (tblWord (KC.tblC (F := Ideal)) (grid1.coords T)) (chk_tbl (grid1.coords T)) hs cs
    (iblk1 V c 0 T) (iblk1 V c 1 T) (iblk1 V c 2 T) (iblk1 V c 3 T) bq bq'
    (fun q => (congrFun (iblk_b V c T) (ix2 (0 : Fin 1) q)).trans (hb q)) (grid1.coords T) r n).trans ?_
  rw [parSlot_eq T, iblk_w V c T, iblk_u V c T, xP_of V c T.val T.isLt r]

/-- The zero scratches read zero rows. -/
theorem zero_h (s : Fin 16) (r : Fin 128) : (fun k => (k1_pay4 (F := Ideal)) (ix3 s r k)) = fun _ => (0 : EReal) :=
  funext fun k => KCell.pay4_apply1 _
theorem zero_c (s : Fin 16) (r : Fin 128) : (fun k => (k1_pay5 (F := Ideal)) (ix3 s r k)) = fun _ => (0 : EReal) :=
  funext fun k => KCell.pay5_apply1 _

/-! ### The two kinds of point, as the walk asks for them -/

/-- The first point of a half, the hidden slots: the cell over cleared slots. -/
theorem first_point_h (hb : ∀ q : Fin 4096, bArr V c (ix2 (0 : Fin 1) q) = bq q + bq' q) (t : ℕ) (ht : t < 30) (h0 : t % 15 = 0) (r : Fin 128) (j : Fin 16) :
    hP V c t j r
      = if j.val = 1 then Cert.Spec.cellH (xP V c t r) (fun _ => 0) (fun _ => 0) (Wf V c) (Uf V c) bq bq' else fun _ => 0 := by
  have ht' : t < (cfg1 A1).N := lt_of_lt_of_eq ht N_A.symm
  have e : outsAt1 V c t ht' = cellAt V c ⟨t, ht'⟩ (k1_pay4 (F := Ideal)) (k1_pay5 (F := Ideal)) := outsAt1_A V c ⟨t, ht'⟩ h0
  rw [hP_of V c t ht' j r, e]
  funext n
  refine (point_h V c bq bq' hb ⟨t, ht'⟩ (k1_pay4 (F := Ideal)) (k1_pay5 (F := Ideal)) j r n).trans ?_
  show (if j.val = t % 15 + 1
      then Cert.Spec.cellH (xP V c t r) (fun k => (k1_pay4 (F := Ideal)) (ix3 (slotOf (t % 15)) r k))
        (fun k => (k1_pay5 (F := Ideal)) (ix3 (slotOf (t % 15)) r k)) (Wf V c) (Uf V c) bq bq' n
      else (k1_pay4 (F := Ideal)) (ix3 j r n)) = _
  by_cases hj : j.val = 1
  · rw [if_pos (show j.val = t % 15 + 1 by omega), if_pos hj]
    exact congrArg₂ (fun a a' => Cert.Spec.cellH (xP V c t r) a a' (Wf V c) (Uf V c) bq bq' n)
      (zero_h (slotOf (t % 15)) r) (zero_c (slotOf (t % 15)) r)
  · rw [if_neg (show ¬j.val = t % 15 + 1 by omega), if_neg hj]; exact KCell.pay4_apply1 _

/-- The cell slots, likewise. -/
theorem first_point_c (hb : ∀ q : Fin 4096, bArr V c (ix2 (0 : Fin 1) q) = bq q + bq' q) (t : ℕ) (ht : t < 30) (h0 : t % 15 = 0) (r : Fin 128) (j : Fin 16) :
    cP V c t j r
      = if j.val = 1 then Cert.Spec.cellC (xP V c t r) (fun _ => 0) (fun _ => 0) (Wf V c) (Uf V c) bq bq' else fun _ => 0 := by
  have ht' : t < (cfg1 A1).N := lt_of_lt_of_eq ht N_A.symm
  have e : outsAt1 V c t ht' = cellAt V c ⟨t, ht'⟩ (k1_pay4 (F := Ideal)) (k1_pay5 (F := Ideal)) := outsAt1_A V c ⟨t, ht'⟩ h0
  rw [cP_of V c t ht' j r, e]
  funext n
  refine (point_c V c bq bq' hb ⟨t, ht'⟩ (k1_pay4 (F := Ideal)) (k1_pay5 (F := Ideal)) j r n).trans ?_
  show (if j.val = t % 15 + 1
      then Cert.Spec.cellC (xP V c t r) (fun k => (k1_pay4 (F := Ideal)) (ix3 (slotOf (t % 15)) r k))
        (fun k => (k1_pay5 (F := Ideal)) (ix3 (slotOf (t % 15)) r k)) (Wf V c) (Uf V c) bq bq' n
      else (k1_pay5 (F := Ideal)) (ix3 j r n)) = _
  by_cases hj : j.val = 1
  · rw [if_pos (show j.val = t % 15 + 1 by omega), if_pos hj]
    exact congrArg₂ (fun a a' => Cert.Spec.cellC (xP V c t r) a a' (Wf V c) (Uf V c) bq bq' n)
      (zero_h (slotOf (t % 15)) r) (zero_c (slotOf (t % 15)) r)
  · rw [if_neg (show ¬j.val = t % 15 + 1 by omega), if_neg hj]; exact KCell.pay5_apply1 _

/-- The emitted row, likewise. -/
theorem first_point_o (hb : ∀ q : Fin 4096, bArr V c (ix2 (0 : Fin 1) q) = bq q + bq' q) (t : ℕ) (ht : t < 30) (h0 : t % 15 = 0) (r : Fin 128) :
    oP V c t r = Cert.Spec.cellH (xP V c t r) (fun _ => 0) (fun _ => 0) (Wf V c) (Uf V c) bq bq' := by
  have ht' : t < (cfg1 A1).N := lt_of_lt_of_eq ht N_A.symm
  have e : outsAt1 V c t ht' = cellAt V c ⟨t, ht'⟩ (k1_pay4 (F := Ideal)) (k1_pay5 (F := Ideal)) := outsAt1_A V c ⟨t, ht'⟩ h0
  rw [oP_of V c t ht' r, e]
  funext n
  refine (point_o V c bq bq' hb ⟨t, ht'⟩ (k1_pay4 (F := Ideal)) (k1_pay5 (F := Ideal)) r n).trans ?_
  exact congrArg₂ (fun a a' => Cert.Spec.cellH (xP V c t r) a a' (Wf V c) (Uf V c) bq bq' n)
    (zero_h (slotOf (t % 15)) r) (zero_c (slotOf (t % 15)) r)

/-- The first point of a half: the cell over cleared slots. -/
theorem first_point (hb : ∀ q : Fin 4096, bArr V c (ix2 (0 : Fin 1) q) = bq q + bq' q) (t : ℕ) (ht : t < 30) (h0 : t % 15 = 0) (r : Fin 128) :
    (∀ j : Fin 16, hP V c t j r
        = if j.val = 1 then Cert.Spec.cellH (xP V c t r) (fun _ => 0) (fun _ => 0) (Wf V c) (Uf V c) bq bq' else fun _ => 0)
    ∧ (∀ j : Fin 16, cP V c t j r
        = if j.val = 1 then Cert.Spec.cellC (xP V c t r) (fun _ => 0) (fun _ => 0) (Wf V c) (Uf V c) bq bq' else fun _ => 0)
    ∧ oP V c t r = Cert.Spec.cellH (xP V c t r) (fun _ => 0) (fun _ => 0) (Wf V c) (Uf V c) bq bq' :=
  ⟨fun j => first_point_h V c bq bq' hb t ht h0 r j, fun j => first_point_c V c bq bq' hb t ht h0 r j,
    first_point_o V c bq bq' hb t ht h0 r⟩

/-- Any other point: the cell over what the point before left. -/
theorem later_point (hb : ∀ q : Fin 4096, bArr V c (ix2 (0 : Fin 1) q) = bq q + bq' q) (t : ℕ) (ht : t < 30) (h0 : t % 15 ≠ 0) (r : Fin 128) :
    (∀ j : Fin 16, hP V c t j r
        = if j.val = t % 15 + 1
          then Cert.Spec.cellH (xP V c t r) (hP V c (t - 1) (slotOf (t % 15)) r) (cP V c (t - 1) (slotOf (t % 15)) r)
            (Wf V c) (Uf V c) bq bq'
          else hP V c (t - 1) j r)
    ∧ (∀ j : Fin 16, cP V c t j r
        = if j.val = t % 15 + 1
          then Cert.Spec.cellC (xP V c t r) (hP V c (t - 1) (slotOf (t % 15)) r) (cP V c (t - 1) (slotOf (t % 15)) r)
            (Wf V c) (Uf V c) bq bq'
          else cP V c (t - 1) j r)
    ∧ oP V c t r = Cert.Spec.cellH (xP V c t r) (hP V c (t - 1) (slotOf (t % 15)) r)
        (cP V c (t - 1) (slotOf (t % 15)) r) (Wf V c) (Uf V c) bq bq' := by
  have ht' : t < (cfg1 A1).N := lt_of_lt_of_eq ht N_A.symm
  have hp' : t - 1 < (cfg1 A1).N := Nat.lt_of_le_of_lt (Nat.sub_le _ _) ht'
  have e : outsAt1 V c t ht' = cellAt V c ⟨t, ht'⟩ (outsAt1 V c (t - 1) hp').2.1 (outsAt1 V c (t - 1) hp').2.2 :=
    outsAt1_B V c ⟨t, ht'⟩ h0
  refine ⟨fun j => ?_, fun j => ?_, ?_⟩
  · rw [hP_of V c t ht' j r, e, hP_of V c (t - 1) hp' (slotOf (t % 15)) r, cP_of V c (t - 1) hp' (slotOf (t % 15)) r,
      hP_of V c (t - 1) hp' j r]
    funext n
    refine (point_h V c bq bq' hb ⟨t, ht'⟩ (outsAt1 V c (t - 1) hp').2.1 (outsAt1 V c (t - 1) hp').2.2 j r n).trans ?_
    show (if j.val = t % 15 + 1
        then Cert.Spec.cellH (xP V c t r) (fun k => ((outsAt1 V c (t - 1) hp').2.1 : Vec Ideal S16x128x1024 .f32) (ix3 (slotOf (t % 15)) r k))
          (fun k => ((outsAt1 V c (t - 1) hp').2.2 : Vec Ideal S16x128x1024 .f32) (ix3 (slotOf (t % 15)) r k)) (Wf V c) (Uf V c) bq bq' n
        else ((outsAt1 V c (t - 1) hp').2.1 : Vec Ideal S16x128x1024 .f32) (ix3 j r n)) = _
    by_cases hj : j.val = t % 15 + 1
    · rw [if_pos hj, if_pos hj]
    · rw [if_neg hj, if_neg hj]
  · rw [cP_of V c t ht' j r, e, hP_of V c (t - 1) hp' (slotOf (t % 15)) r, cP_of V c (t - 1) hp' (slotOf (t % 15)) r,
      cP_of V c (t - 1) hp' j r]
    funext n
    refine (point_c V c bq bq' hb ⟨t, ht'⟩ (outsAt1 V c (t - 1) hp').2.1 (outsAt1 V c (t - 1) hp').2.2 j r n).trans ?_
    show (if j.val = t % 15 + 1
        then Cert.Spec.cellC (xP V c t r) (fun k => ((outsAt1 V c (t - 1) hp').2.1 : Vec Ideal S16x128x1024 .f32) (ix3 (slotOf (t % 15)) r k))
          (fun k => ((outsAt1 V c (t - 1) hp').2.2 : Vec Ideal S16x128x1024 .f32) (ix3 (slotOf (t % 15)) r k)) (Wf V c) (Uf V c) bq bq' n
        else ((outsAt1 V c (t - 1) hp').2.2 : Vec Ideal S16x128x1024 .f32) (ix3 j r n)) = _
    by_cases hj : j.val = t % 15 + 1
    · rw [if_pos hj, if_pos hj]
    · rw [if_neg hj, if_neg hj]
  · rw [oP_of V c t ht' r, e, hP_of V c (t - 1) hp' (slotOf (t % 15)) r, cP_of V c (t - 1) hp' (slotOf (t % 15)) r]
    funext n
    exact point_o V c bq bq' hb ⟨t, ht'⟩ (outsAt1 V c (t - 1) hp').2.1 (outsAt1 V c (t - 1) hp').2.2 r n

/-! ### What a point emits, and the output array -/

/-- The input rows of the half of point `T`, for block row `r`, are the rows `X` names for batch row
    `128 (T / 15) + r`. -/
theorem xP_half (hX : ∀ (R : Fin 256) (i : Fin 15), (fun k => xArr V c (ix3 i R k)) = X R i.val) (T : Fin (cfg1 A1).N) (r : Fin 128) (i : ℕ) (hi : i < 15) :
    xP V c (T.val / 15 * 15 + i) r
      = X (⟨T.val / 15 * 128 + r.val, by have := lt30 T; have := r.isLt; omega⟩ : Fin 256) i := by
  have hT := lt30 T
  have ht' : T.val / 15 * 15 + i < (cfg1 A1).N := lt_of_lt_of_eq (by omega) N_A.symm
  have hr := r.isLt
  rw [xP_of V c _ ht' r]
  refine Eq.trans (funext fun k => ?_) (hX ⟨T.val / 15 * 128 + r.val, by omega⟩ ⟨i, hi⟩)
  refine (iblk_x V c ⟨T.val / 15 * 15 + i, ht'⟩ r k).trans ?_
  have ea : (⟨(T.val / 15 * 15 + i) % 15, Nat.mod_lt _ (by decide)⟩ : Fin 15) = ⟨i, hi⟩ :=
    Fin.ext (show (T.val / 15 * 15 + i) % 15 = i by omega)
  have eb : (⟨(T.val / 15 * 15 + i) / 15 * 128 + r.val, by omega⟩ : Fin 256) = ⟨T.val / 15 * 128 + r.val, by omega⟩ :=
    Fin.ext (show (T.val / 15 * 15 + i) / 15 * 128 + r.val = T.val / 15 * 128 + r.val by omega)
  show xArr V c (ix3 (⟨(T.val / 15 * 15 + i) % 15, Nat.mod_lt _ (by decide)⟩ : Fin 15)
    (⟨(T.val / 15 * 15 + i) / 15 * 128 + r.val, by omega⟩ : Fin 256) k) = _
  rw [ea, eb]

/-- WHAT POINT `T` EMITS for block row `r` is the specification's hidden row of node `T % 15 + 1` over batch row
    `128 (T / 15) + r`'s input rows. -/
theorem emitted (hb : ∀ q : Fin 4096, bArr V c (ix2 (0 : Fin 1) q) = bq q + bq' q) (hX : ∀ (R : Fin 256) (i : Fin 15), (fun k => xArr V c (ix3 i R k)) = X R i.val) (T : Fin (cfg1 A1).N) (r : Fin 128) :
    oP V c T.val r = Cert.Spec.nodeH (X (⟨T.val / 15 * 128 + r.val, by have := lt30 T; have := r.isLt; omega⟩ : Fin 256))
      (Wf V c) (Uf V c) bq bq' (T.val % 15) :=
  KValue.emitted_eq_nodeH_at _ (Wf V c) (Uf V c) bq bq' (xP V c) (oP V c) (hP V c) (cP V c) slotOf slotOf_val
    (first_point V c bq bq' hb) (later_point V c bq bq' hb) T.val (lt30 T) r (xP_half V c X hX T r)

/-- The whole output array, as the specification has it: entry (node `i`, batch row `R`, feature `n`) is the hidden row
    of node `i + 1` over batch row `R`'s input rows. -/
def G : Vec Ideal S15x256x1024 .f32 := fun j =>
  Cert.Spec.nodeH (X (j 1)) (Wf V c) (Uf V c) bq bq' (j 0).val (j 2)

/-- What point `T` leaves in the output window's buffer, index by index. -/
theorem out_at (hb : ∀ q : Fin 4096, bArr V c (ix2 (0 : Fin 1) q) = bq q + bq' q) (hX : ∀ (R : Fin 256) (i : Fin 15), (fun k => xArr V c (ix3 i R k)) = X R i.val) (T : Fin (cfg1 A1).N) (y : S1x128x1024.Idx) :
    ((outsAt1 V c T.val T.isLt).1 : Vec Ideal S1x128x1024 .f32) y
      = Cert.Spec.nodeH (X (⟨T.val / 15 * 128 + (y 1).val, by have := lt30 T; have h128 : (y 1).val < 128 := (y 1).isLt; omega⟩ : Fin 256))
          (Wf V c) (Uf V c) bq bq' (T.val % 15) (y 2) := by
  have e := congrFun (emitted V c bq bq' X hb hX T (y 1)) (y 2)
  rw [oP_of V c T.val T.isLt (y 1)] at e
  have h0y : y 0 = (0 : Fin 1) := Fin.ext (show (y 0).val = 0 by have h : (y 0).val < 1 := (y 0).isLt; omega)
  have hy : y = ix3 (0 : Fin 1) (y 1) (y 2) := (eq_ix3 y).trans (congrArg (fun a : Fin 1 => ix3 a (y 1) (y 2)) h0y)
  exact (congrArg ((outsAt1 V c T.val T.isLt).1 : Vec Ideal S1x128x1024 .f32) hy).trans e

/-- WHAT POINT `T` WRITES BACK is its block of `G`. -/
theorem flushed_eq (hb : ∀ q : Fin 4096, bArr V c (ix2 (0 : Fin 1) q) = bq q + bq' q) (hX : ∀ (R : Fin 256) (i : Fin 15), (fun k => xArr V c (ix3 i R k)) = X R i.val) (T : Fin (cfg1 A1).N) :
    (dat1 V c).flushed 4 T = (((cfg1 A1).win 4).blk T).view.read (Elt Ideal) (G V c bq bq' X) := by
  obtain ⟨-, e4, -⟩ := grid_facts T
  have h0 : cc1_transform_4 (grid1.coords T) 0 = T.val % 15 := congrFun e4 0
  have h1 : cc1_transform_4 (grid1.coords T) 1 = T.val / 15 := congrFun e4 1
  have h2 : cc1_transform_4 (grid1.coords T) 2 = 0 := congrFun e4 2
  show ((cfg1 A1).win 4).cut ((cfg1 A1).grid.coords T) ((dat1 V c).after 4 T) = _
  rw [after1_4]
  funext y
  rw [View.read_apply]
  refine (out_at V c bq bq' X hb hX T y).trans ?_
  have hemb : ((((cfg1 A1).win 4).blk T).view.emb y : S15x256x1024.Idx)
      = ix3 (⟨T.val % 15, Nat.mod_lt _ (by decide)⟩ : Fin 15)
          (⟨T.val / 15 * 128 + (y 1).val, by have := lt30 T; have h128 : (y 1).val < 128 := (y 1).isLt; omega⟩ : Fin 256) (y 2) := by
    funext a
    apply Fin.ext
    match a with
    | ⟨0, _⟩ => show cc1_transform_4 (grid1.coords T) 0 * 1 + 1 * (y 0).val = T.val % 15
                have hy0 : (y 0).val < 1 := (y 0).isLt
                omega
    | ⟨1, _⟩ => show cc1_transform_4 (grid1.coords T) 1 * 128 + 1 * (y 1).val = T.val / 15 * 128 + (y 1).val; omega
    | ⟨2, _⟩ => show cc1_transform_4 (grid1.coords T) 2 * 1024 + 1 * (y 2).val = (y 2).val; omega
  show _ = G V c bq bq' X ((((cfg1 A1).win 4).blk T).view.emb y)
  rw [hemb]
  rfl

/-- The 30 blocks tile the output array: entry (node `i`, batch row `R`, ·) is in the block of point `15 (R / 128) + i`. -/
theorem cover (i : S15x256x1024.Idx) :
    ∃ T : Fin (cfg1 A1).N, ((cfg1 A1).win 4).flush T = true ∧ i ∈ (((cfg1 A1).win 4).blk T).view.set := by
  have b0 : (i 0).val < 15 := (i 0).isLt
  have b1 : (i 1).val < 256 := (i 1).isLt
  have b2 : (i 2).val < 1024 := (i 2).isLt
  have hT : (i 1).val / 128 * 15 + (i 0).val < (cfg1 A1).N := lt_of_lt_of_eq (by omega) N_A.symm
  refine ⟨⟨(i 1).val / 128 * 15 + (i 0).val, hT⟩, flush_all _, ?_⟩
  obtain ⟨-, e4, -⟩ := grid_facts ⟨(i 1).val / 128 * 15 + (i 0).val, hT⟩
  have h0 : cc1_transform_4 (grid1.coords ⟨(i 1).val / 128 * 15 + (i 0).val, hT⟩) 0
      = ((i 1).val / 128 * 15 + (i 0).val) % 15 := congrFun e4 0
  have h1 : cc1_transform_4 (grid1.coords ⟨(i 1).val / 128 * 15 + (i 0).val, hT⟩) 1
      = ((i 1).val / 128 * 15 + (i 0).val) / 15 := congrFun e4 1
  have h2 : cc1_transform_4 (grid1.coords ⟨(i 1).val / 128 * 15 + (i 0).val, hT⟩) 2 = 0 := congrFun e4 2
  show i ∈ ((View.whole main_v32).slice (((cfg1 A1).win 4).rect ⟨(i 1).val / 128 * 15 + (i 0).val, hT⟩)).set
  rw [View.set_slice_whole, Rect.mem_set_unit]
  intro a
  match a with
  | ⟨0, _⟩ =>
    show cc1_transform_4 (grid1.coords ⟨(i 1).val / 128 * 15 + (i 0).val, hT⟩) 0 * 1 ≤ (i 0).val
      ∧ (i 0).val < cc1_transform_4 (grid1.coords ⟨(i 1).val / 128 * 15 + (i 0).val, hT⟩) 0 * 1 + 1
    omega
  | ⟨1, _⟩ =>
    show cc1_transform_4 (grid1.coords ⟨(i 1).val / 128 * 15 + (i 0).val, hT⟩) 1 * 128 ≤ (i 1).val
      ∧ (i 1).val < cc1_transform_4 (grid1.coords ⟨(i 1).val / 128 * 15 + (i 0).val, hT⟩) 1 * 128 + 128
    omega
  | ⟨2, _⟩ =>
    show cc1_transform_4 (grid1.coords ⟨(i 1).val / 128 * 15 + (i 0).val, hT⟩) 2 * 1024 ≤ (i 2).val
      ∧ (i 2).val < cc1_transform_4 (grid1.coords ⟨(i 1).val / 128 * 15 + (i 0).val, hT⟩) 2 * 1024 + 1024
    omega

/-- THE OUTPUT ARRAY after the region. -/
theorem arr_eq (hb : ∀ q : Fin 4096, bArr V c (ix2 (0 : Fin 1) q) = bq q + bq' q) (hX : ∀ (R : Fin 256) (i : Fin 15), (fun k => xArr V c (ix3 i R k)) = X R i.val) : (dat1 V c).arrAt 4 (cfg1 A1).N = G V c bq bq' X :=
  (dat1 V c).arrAt_eq_of_cover 4 (G V c bq bq' X) (fun T _ => flushed_eq V c bq bq' X hb hX T) (cover)

/-- THE REGION'S VALUE: entry (node `i`, batch row `R`, feature `n`) of the output array is the specification's hidden
    row of node `i + 1` of one layer, over the input rows `X R`, the region's weights and the two bias vectors. -/
theorem region_value (hb : ∀ q : Fin 4096, bArr V c (ix2 (0 : Fin 1) q) = bq q + bq' q) (hX : ∀ (R : Fin 256) (i : Fin 15), (fun k => xArr V c (ix3 i R k)) = X R i.val) (i : Fin 15) (R : Fin 256) (n : Fin 1024) :
    ((dat1 V c).arrAt 4 (cfg1 A1).N : Vec Ideal S15x256x1024 .f32) (ix3 i R n)
      = Cert.Spec.nodeH (X R) (Wf V c) (Uf V c) bq bq' i.val n := by
  rw [arr_eq V c bq bq' X hb hX]
  rfl

end Region

end Cert.KernelIdeal.KValue1

end
-- ==== Proof.K.Value.lean ====
/-
  The program's result, entry by entry, is the specification's.

  The program is two regions with host operations around them. Before region 0 the host lays the two input arrays side
  by side (the region's input rows), slices layer 0 out of the two weight arrays and transposes it (the region's two
  weight matrices), and adds layer 0's two bias vectors (the region's bias row). Region 0's output array is then, by
  the region's value, layer 0's hidden rows. Before region 1 the host passes that array on unchanged (a change of float
  format, the identity on extended reals) and prepares layer 1's weights and bias in the same way; region 1's output
  array is layer 1's hidden rows over layer 0's: the specification's result.
-/
import proofs.«109754_j89713276879117_1_alg».proof.Proof.K.Value0
import proofs.«109754_j89713276879117_1_alg».proof.Proof.K.Value1
import proofs.«109754_j89713276879117_1_alg».proof.Proof.K.Launch
import proofs.«109754_j89713276879117_1_alg».proof.Proof.KCell
import Idealize.ShloMosaic.Lib.StableHlo.Run

set_option maxRecDepth 16384

noncomputable section

namespace Cert.KernelIdeal.KRun

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The arguments, as the specification reads them -/

abbrev inpF : Fin 15 → Fin 256 → Fin 512 → EReal := fun i r k => m ((c.tc : Thread nD τ).loc main_arg0) (ix3 i r k)
abbrev brgF : Fin 15 → Fin 256 → Fin 512 → EReal := fun i r k => m ((c.tc : Thread nD τ).loc main_arg1) (ix3 i r k)
abbrev WihF : Fin 2 → Fin 4096 → Fin 1024 → EReal := fun l q k => m ((c.tc : Thread nD τ).loc main_arg2) (ix3 l q k)
abbrev WhhF : Fin 2 → Fin 4096 → Fin 1024 → EReal := fun l q k => m ((c.tc : Thread nD τ).loc main_arg3) (ix3 l q k)
abbrev bihF : Fin 2 → Fin 4096 → EReal := fun l q => m ((c.tc : Thread nD τ).loc main_arg4) (ix2 l q)
abbrev bhhF : Fin 2 → Fin 4096 → EReal := fun l q => m ((c.tc : Thread nD τ).loc main_arg5) (ix2 l q)

/-- The two regions' entry contents, core by core. -/
abbrev VA : (c : Dev nD) → (b : Ref sig .tc) → Buf (Elt Ideal) ((c : Thread nD τ).loc b) := KC.Vr (Gen.V1 m)
abbrev VB : (c : Dev nD) → (b : Ref sig .tc) → Buf (Elt Ideal) ((c : Thread nD τ).loc b) := KC.Vr (Gen.V3 m (outs m))

/-! ## What the host operations before region 0 leave -/

/-- The input rows: the two input arrays side by side. -/
theorem va_x (i : Fin 15) (R : Fin 256) (k : Fin 1024) :
    (Gen.V1 m c main_v1 : Vec Ideal S15x256x1024 .bf16) (ix3 i R k) = Cert.Spec.X0 (inpF m c) (brgF m c) R i.val k := by
  have e : (Gen.V1 m c main_v1 : Vec Ideal S15x256x1024 .bf16)
      = truncf (F := Ideal) .bf16 (concatenate S15x256x1024 2 [⟨S15x256x512, (m ((c.tc : Thread nD τ).loc main_arg0) : FVec Ideal S15x256x512 .f32)⟩,
          ⟨S15x256x512, (m ((c.tc : Thread nD τ).loc main_arg1) : FVec Ideal S15x256x512 .f32)⟩] concatenates_S15x256x512_S15x256x512_S15x256x1024_d2) bitsLt_bf16_f32 := by
    show StableHlo.after hostOps0 (fun b => m (c, b)) (Proc.devRef .tc main_v1) = _
    after_results
    all_goals rfl
  rw [e, KCell.xin_apply]
  unfold Cert.Spec.X0
  rw [dif_pos i.isLt]

/-- Layer 0's input weights, transposed back: gate column `q`, feature `k`. -/
theorem va_w (q : Fin 4096) (k : Fin 1024) :
    (Gen.V1 m c main_v5 : Vec Ideal S1024x4096 .bf16) (ix2 k q) = WihF m c 0 q k := by
  have e : (Gen.V1 m c main_v5 : Vec Ideal S1024x4096 .bf16)
      = truncf (F := Ideal) .bf16 (transpose S1024x4096 [1, 0] (shapeCast S4096x1024 (extractStridedSlice S1x4096x1024 ![0, 0, 0]
          (m ((c.tc : Thread nD τ).loc main_arg2) : FVec Ideal S2x4096x1024 .f32) slices_S2x4096x1024_S1x4096x1024_0_0_0) shapeCasts_S1x4096x1024_S4096x1024)
          transposes_S4096x1024_S1024x4096_1_0) bitsLt_bf16_f32 := by
    show StableHlo.after hostOps0 (fun b => m (c, b)) (Proc.devRef .tc main_v5) = _
    after_results
    all_goals rfl
  rw [e, KCell.wT0_apply]

/-- Layer 0's hidden weights. -/
theorem va_u (q : Fin 4096) (k : Fin 1024) :
    (Gen.V1 m c main_v9 : Vec Ideal S1024x4096 .bf16) (ix2 k q) = WhhF m c 0 q k := by
  have e : (Gen.V1 m c main_v9 : Vec Ideal S1024x4096 .bf16)
      = truncf (F := Ideal) .bf16 (transpose S1024x4096 [1, 0] (shapeCast S4096x1024 (extractStridedSlice S1x4096x1024 ![0, 0, 0]
          (m ((c.tc : Thread nD τ).loc main_arg3) : FVec Ideal S2x4096x1024 .f32) slices_S2x4096x1024_S1x4096x1024_0_0_0) shapeCasts_S1x4096x1024_S4096x1024)
          transposes_S4096x1024_S1024x4096_1_0) bitsLt_bf16_f32 := by
    show StableHlo.after hostOps0 (fun b => m (c, b)) (Proc.devRef .tc main_v9) = _
    after_results
    all_goals rfl
  rw [e, KCell.wT0_apply]

/-- Layer 0's bias row: the two bias vectors added. -/
theorem va_b (q : Fin 4096) :
    (Gen.V1 m c main_v15 : Vec Ideal S1x4096 .f32) (ix2 (0 : Fin 1) q) = bihF m c 0 q + bhhF m c 0 q := by
  have e : (Gen.V1 m c main_v15 : Vec Ideal S1x4096 .f32)
      = shapeCast S1x4096 (addf (F := Ideal) (φ := .f32)
          (shapeCast S4096 (extractStridedSlice S1x4096 ![0, 0] (m ((c.tc : Thread nD τ).loc main_arg4) : FVec Ideal S2x4096 .f32) slices_S2x4096_S1x4096_0_0) shapeCasts_S1x4096_S4096)
          (shapeCast S4096 (extractStridedSlice S1x4096 ![0, 0] (m ((c.tc : Thread nD τ).loc main_arg5) : FVec Ideal S2x4096 .f32) slices_S2x4096_S1x4096_0_0) shapeCasts_S1x4096_S4096))
          shapeCasts_S4096_S1x4096 := by
    show StableHlo.after hostOps0 (fun b => m (c, b)) (Proc.devRef .tc main_v15) = _
    after_results
    all_goals rfl
  rw [e, KCell.bias0_apply]

/-! ## What the host operations before region 1 leave -/

/-- Region 0 changed only its output array; the arguments reach the second host stretch as launched. -/
theorem v2_arg2 : Gen.V2 m (outs m) c main_arg2 = m ((c.tc : Thread nD τ).loc main_arg2) :=
  (Gen.V2_of m (outs m) c main_arg2 (by decide)).trans ((Gen.V1_of m c main_arg2 (by decide)).trans rfl)
theorem v2_arg3 : Gen.V2 m (outs m) c main_arg3 = m ((c.tc : Thread nD τ).loc main_arg3) :=
  (Gen.V2_of m (outs m) c main_arg3 (by decide)).trans ((Gen.V1_of m c main_arg3 (by decide)).trans rfl)
theorem v2_arg4 : Gen.V2 m (outs m) c main_arg4 = m ((c.tc : Thread nD τ).loc main_arg4) :=
  (Gen.V2_of m (outs m) c main_arg4 (by decide)).trans ((Gen.V1_of m c main_arg4 (by decide)).trans rfl)
theorem v2_arg5 : Gen.V2 m (outs m) c main_arg5 = m ((c.tc : Thread nD τ).loc main_arg5) :=
  (Gen.V2_of m (outs m) c main_arg5 (by decide)).trans ((Gen.V1_of m c main_arg5 (by decide)).trans rfl)
/-- and region 0's output array holds what the region left. -/
theorem v2_v16 : Gen.V2 m (outs m) c main_v16 = outs m 2 main_v16 c := by
  show Function.update _ _ _ _ = _
  rw [Function.update_self]

/-- Region 1's input rows are region 0's output array (the change of float format is the identity). -/
theorem vb_x (i : Fin 15) (R : Fin 256) (k : Fin 1024) :
    (Gen.V3 m (outs m) c main_v17 : Vec Ideal S15x256x1024 .bf16) (ix3 i R k)
      = (outs m 2 main_v16 c : Vec Ideal S15x256x1024 .f32) (ix3 i R k) := by
  have e : (Gen.V3 m (outs m) c main_v17 : Vec Ideal S15x256x1024 .bf16)
      = truncf (F := Ideal) .bf16 (Gen.V2 m (outs m) c main_v16 : FVec Ideal S15x256x1024 .f32) bitsLt_bf16_f32 := by
    show StableHlo.after hostOps1 (Gen.V2 m (outs m) c) (Proc.devRef .tc main_v17) = _
    after_results
    all_goals rfl
  rw [e, KCell.xin1_apply, v2_v16]

theorem vb_w (q : Fin 4096) (k : Fin 1024) :
    (Gen.V3 m (outs m) c main_v21 : Vec Ideal S1024x4096 .bf16) (ix2 k q) = WihF m c 1 q k := by
  have e : (Gen.V3 m (outs m) c main_v21 : Vec Ideal S1024x4096 .bf16)
      = truncf (F := Ideal) .bf16 (transpose S1024x4096 [1, 0] (shapeCast S4096x1024 (extractStridedSlice S1x4096x1024 ![1, 0, 0]
          (Gen.V2 m (outs m) c main_arg2 : FVec Ideal S2x4096x1024 .f32) slices_S2x4096x1024_S1x4096x1024_1_0_0) shapeCasts_S1x4096x1024_S4096x1024)
          transposes_S4096x1024_S1024x4096_1_0) bitsLt_bf16_f32 := by
    show StableHlo.after hostOps1 (Gen.V2 m (outs m) c) (Proc.devRef .tc main_v21) = _
    after_results
    all_goals rfl
  rw [e, v2_arg2, KCell.wT1_apply]

theorem vb_u (q : Fin 4096) (k : Fin 1024) :
    (Gen.V3 m (outs m) c main_v25 : Vec Ideal S1024x4096 .bf16) (ix2 k q) = WhhF m c 1 q k := by
  have e : (Gen.V3 m (outs m) c main_v25 : Vec Ideal S1024x4096 .bf16)
      = truncf (F := Ideal) .bf16 (transpose S1024x4096 [1, 0] (shapeCast S4096x1024 (extractStridedSlice S1x4096x1024 ![1, 0, 0]
          (Gen.V2 m (outs m) c main_arg3 : FVec Ideal S2x4096x1024 .f32) slices_S2x4096x1024_S1x4096x1024_1_0_0) shapeCasts_S1x4096x1024_S4096x1024)
          transposes_S4096x1024_S1024x4096_1_0) bitsLt_bf16_f32 := by
    show StableHlo.after hostOps1 (Gen.V2 m (outs m) c) (Proc.devRef .tc main_v25) = _
    after_results
    all_goals rfl
  rw [e, v2_arg3, KCell.wT1_apply]

theorem vb_b (q : Fin 4096) :
    (Gen.V3 m (outs m) c main_v31 : Vec Ideal S1x4096 .f32) (ix2 (0 : Fin 1) q) = bihF m c 1 q + bhhF m c 1 q := by
  have e : (Gen.V3 m (outs m) c main_v31 : Vec Ideal S1x4096 .f32)
      = shapeCast S1x4096 (addf (F := Ideal) (φ := .f32)
          (shapeCast S4096 (extractStridedSlice S1x4096 ![1, 0] (Gen.V2 m (outs m) c main_arg4 : FVec Ideal S2x4096 .f32) slices_S2x4096_S1x4096_1_0) shapeCasts_S1x4096_S4096)
          (shapeCast S4096 (extractStridedSlice S1x4096 ![1, 0] (Gen.V2 m (outs m) c main_arg5 : FVec Ideal S2x4096 .f32) slices_S2x4096_S1x4096_1_0) shapeCasts_S1x4096_S4096))
          shapeCasts_S4096_S1x4096 := by
    show StableHlo.after hostOps1 (Gen.V2 m (outs m) c) (Proc.devRef .tc main_v31) = _
    after_results
    all_goals rfl
  rw [e, v2_arg4, v2_arg5, KCell.bias1_apply]

/-! ## Layer 0, then layer 1 -/

/-- Region 0's output array is layer 0's hidden rows. -/
theorem layer0 (i : Fin 15) (R : Fin 256) (k : Fin 1024) :
    (outs m 2 main_v16 c : Vec Ideal S15x256x1024 .f32) (ix3 i R k)
      = Cert.Spec.H0 (inpF m c) (brgF m c) (WihF m c) (WhhF m c) (bihF m c) (bhhF m c) R i.val k := by
  rw [out0_eq]
  refine (KValue0.region_value (VA m) c (bihF m c 0) (bhhF m c 0)
    (fun R => Cert.Spec.X0 (inpF m c) (brgF m c) R) (fun q => va_b m c q)
    (fun R i => funext fun k => va_x m c i R k) i R k).trans ?_
  have eW : KValue0.Wf (VA m) c = WihF m c 0 := funext fun q => funext fun k => va_w m c q k
  have eU : KValue0.Uf (VA m) c = WhhF m c 0 := funext fun q => funext fun k => va_u m c q k
  rw [eW, eU]
  rfl

/-- THE RESULT, entry by entry. -/
theorem kout_apply (i : Fin 15) (r : Fin 256) (n : Fin 1024) :
    kout (F := Ideal) m c (ix3 i r n)
      = Cert.Spec.out (fun i r k => m ((c.tc : Thread nD τ).loc main_arg0) (ix3 i r k))
          (fun i r k => m ((c.tc : Thread nD τ).loc main_arg1) (ix3 i r k))
          (fun l q k => m ((c.tc : Thread nD τ).loc main_arg2) (ix3 l q k))
          (fun l q k => m ((c.tc : Thread nD τ).loc main_arg3) (ix3 l q k))
          (fun l q => m ((c.tc : Thread nD τ).loc main_arg4) (ix2 l q))
          (fun l q => m ((c.tc : Thread nD τ).loc main_arg5) (ix2 l q)) i r n := by
  rw [kout_eq]
  refine (KValue1.region_value (VB m) c (bihF m c 1) (bhhF m c 1)
    (fun R => Cert.Spec.H0 (inpF m c) (brgF m c) (WihF m c) (WhhF m c) (bihF m c) (bhhF m c) R) (fun q => vb_b m c q)
    (fun R i => funext fun k => (vb_x m c i R k).trans (layer0 m c i R k)) i r n).trans ?_
  have eW : KValue1.Wf (VB m) c = WihF m c 1 := funext fun q => funext fun k => vb_w m c q k
  have eU : KValue1.Uf (VB m) c = WhhF m c 1 := funext fun q => funext fun k => vb_u m c q k
  rw [eW, eU]
  rfl

end Cert.KernelIdeal.KRun

end
-- ==== Proof.KB.Common.lean ====
/-
  What the two regions of the program share: the prefetched table's contents and the admissible contents both
  pipelines run at.
-/
import proofs.«109754_j89713276879117_1_alg».proof.Proof.Gen.Kernel.Launch
import Idealize.ShloMosaic.Lib.Pipeline.Kit

noncomputable section

namespace Cert.Kernel.KC

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The prefetched table -/

/-- The table's contents: the printed constant, element by element (the parent slab of each node). -/
def tblC : (main_c : Ref sig .tc).ty.Contents (Elt F) := fun i => lit0 (S15.rowMajor i)

/-- Both pipelines run at the same table: the admissible contents, pipeline by pipeline. Their side condition on
    the contents is trivial (no index map reads the table). -/
def adm : (p : Fin 2) → (pcfgs (F := F) p).Adm
  | ⟨0, _⟩ => ⟨fun | ⟨0, _⟩ => tblC | ⟨_ + 1, h⟩ => absurd h (Nat.not_lt.2 (Nat.le_add_left _ _)), trivial⟩
  | ⟨1, _⟩ => ⟨fun | ⟨0, _⟩ => tblC | ⟨_ + 1, h⟩ => absurd h (Nat.not_lt.2 (Nat.le_add_left _ _)), trivial⟩

/-- The one table of either pipeline is the constant. -/
theorem adm_tbl : (adm (F := F) 0).1 ⟨0, Nat.one_pos⟩ = tblC := rfl
theorem adm_tbl1 : (adm (F := F) 1).1 ⟨0, Nat.one_pos⟩ = tblC := rfl

/-! ## The state between two items of the program -/

/-- A valuation of every buffer of the core, read at the TensorCore's references. -/
abbrev Vr (W : Dev nD → Valuation τ sig (Elt F)) : (c : Dev nD) → (b : Ref sig .tc) → Buf (Elt F) ((c : Thread nD τ).loc b) :=
  fun c b => W c b

/-- What rides beside the unscoped buffers from one item of the program to the next: the generator register at some
    state, and the core owing nothing. -/
abbrev Rst (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.KC

end
-- ==== Proof.KB.Body0.lean ====
/-
  One region of the program: the kernel function on symbolic contents.

  The body at a grid point, run symbolically over its skeleton: at node coordinate 0 both scratches are
  first stored whole with zeros; then the table word at the node coordinate is read, the side condition on it (it
  names a slab of the scratches) is passed from a hypothesis, that slab of both scratches and the staged blocks are
  loaded, and the new rows are stored into the node's own slab of each scratch and into the output block. What the
  stores leave is recorded as pieces (last first), found by the run.
-/
import proofs.«109754_j89713276879117_1_alg».proof.Proof.Gen.Kernel.Launch
import proofs.«109754_j89713276879117_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the node coordinate -/

/-- The condition of the body's conditional: the node coordinate is 0. -/
abbrev cond0_0 (i : grid0.Coords) : Prop := (Scalar.cmpi .ne (Scalar.extui (Scalar.cmpi .eq (BitVec.ofNat 32 (i 1).val) 0#32)) 0#32) = 1#1
/-- It holds at the positions divisible by 15 (the first node of each batch half) — decided over the grid. -/
theorem hcond0_0 : ∀ t : Fin grid0.N, cond0_0 (grid0.coords t) ↔ t.val % 15 = 0 := by decide +kernel

/-! ## The table word -/

/-- The table as the body is handed it: its whole buffer as a memref. -/
abbrev tbM0 : Memref sig .tc .smem S15 .i32 := Memref.whole main_c
/-- The table's buffer on core `c`, and it held whole at contents `f`. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare} f

/-- The one multi-index of a one-word load. -/
abbrev i0 : S1.Idx := Shape.Idx.first (s := S1) (numel1_S1.symm ▸ Nat.one_pos)
/-- The table word's rectangle at node coordinate `i 1`, as the body's scalar load names it. -/
abbrev rWord (i : grid0.Coords) : Rect S15 := Rect.unit (s := S15) (k0_off1 i) S1.size (k0_off1_inb i)
/-- The word the body reads from table contents `T` at the point with coordinates `i`. -/
abbrev tblWord (T : (main_c : Ref sig .tc).ty.Contents (Elt F)) (i : grid0.Coords) : BitVec 32 :=
  tbM0.view.readAt (Elt F) (Rect.unit (s := S15) (k0_off1 i) S1.size (k0_off1_inb i)).toLoadRect T (Shape.Idx.first (numel1_S1.symm ▸ Nat.one_pos))

/-! ## The body's runs -/

set_option maxHeartbeats 4000000 in
/-- AT NODE COORDINATE 0. On whole staging memrefs, the inputs' at their contents, the output's at anything, both scratches
    held at given buffers `fh`, `fc`, the table held at contents whose word at the point names a slab: the body runs to the
    continuation holding the inputs' as they were, the output's buffer and each scratch with its pieces written over some contents
    (the zero fill first: nothing of `fh`, `fc` is left or read back), the table as it was. The pieces are the witness the run finds. -/
noncomputable def kernelRun0_A (c : Dev nD) (i : grid0.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : cond0_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf0 (F := F) c tbM0) (k0_hw1 : k0_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt0 c tbM0 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LH)
                ∗ (∃ f, arg9.view.loc (c : Thread nD τ) ↦[arg9.view.set]{fullShare} arg9.view.writes (Elt F) f LC)
                ∗ tbPt0 c tbM0 xt) -∗ K ⟨⟩))
          ⊢ wp frame (wpE (defs₀ (F := F)) Variants.none c none) E
              (cc0__cell_kernel i tbM0 (Memref.isWhole_whole _) arg3 harg3 arg4 harg4 arg5 harg5 arg6 harg6 arg7 harg7 arg8 harg8 arg9 harg9) K } := by
  refine ⟨?_, ?_, ?_, fun E K => ?run⟩
  case run =>
    simp only [cc0__cell_kernel_eq_skeleton]; unfold cc0__cell_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexists arg8.view.junk; iexact H8
    isplitl [H9]; · iexists arg9.view.junk; iexact H9
    iexact HT

set_option maxHeartbeats 4000000 in
/-- AT ANY OTHER NODE COORDINATE. The same without the zero fill: each scratch comes back with its one piece (the node's own
    slab) written over its buffer, the slab the table word names read off that buffer. -/
noncomputable def kernelRun0_B (c : Dev nD) (i : grid0.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : ¬cond0_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf0 (F := F) c tbM0) (k0_hw1 : k0_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt0 c tbM0 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) fh LH)
                ∗ (arg9.view.loc (c : Thread nD τ) ↦[arg9.view.set]{fullShare} arg9.view.writes (Elt F) fc LC)
                ∗ tbPt0 c tbM0 xt) -∗ K ⟨⟩))
          ⊢ wp frame (wpE (defs₀ (F := F)) Variants.none c none) E
              (cc0__cell_kernel i tbM0 (Memref.isWhole_whole _) arg3 harg3 arg4 harg4 arg5 harg5 arg6 harg6 arg7 harg7 arg8 harg8 arg9 harg9) K } := by
  refine ⟨?_, ?_, ?_, fun E K => ?run⟩
  case run =>
    simp only [cc0__cell_kernel_eq_skeleton]; unfold cc0__cell_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexact H8
    isplitl [H9]; · iexact H9
    iexact HT

end Cert.Kernel.K0

end
-- ==== Proof.KB.Data0.lean ====
/-
  One region of the program: the contents its buffers hold point by point, the invariant its pipeline carries,
  the proof data, and the body obligation.

  The kernel walks a tree in node order. Two scratch buffers of sixteen slabs hold the hidden rows and the cell
  rows of the nodes done so far (slab 0 the zero state every root reads). At node coordinate 0 both scratches
  are stored whole with zeros; at every point the body reads the table word at the node coordinate, loads that
  slab of both scratches (the parent's state), computes the cell from it and the staged blocks, and stores the
  new hidden rows into slab (node + 1) of the hidden scratch and into the output block, the new cell rows into
  slab (node + 1) of the cell scratch.
-/
import proofs.«109754_j89713276879117_1_alg».proof.Proof.KB.Common
import proofs.«109754_j89713276879117_1_alg».proof.Proof.KB.Body0
import Idealize.ShloMosaic.Lib.Pipeline.Value

set_option maxRecDepth 16384

noncomputable section

namespace Cert.Kernel.K0

open Cert.Kernel Cert.Kernel.Gen Cert.Kernel.KC
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The prefetched table -/

/-- Every word of the constant names a slab of the scratches: each is below 16. -/
theorem chk_tbl (i : grid0.Coords) : k0_chk1 (tblWord (tblC (F := F)) i) := by
  have key : ∀ j : Fin 15, k0_chk1 (lit0 j) := by decide +kernel
  show k0_chk1 (lit0 (S15.rowMajor ((rWord i).emb i0)))
  exact key _

/-! ## The pipeline at the table, its points and the body there -/

/-- The grid has 30 points: 2 batch halves of 15 nodes. -/
theorem N_A : (cfg0 (adm (F := F) 0)).N = 30 := N_0

/-- Each window's current staging memref at point `t`, as the pipeline passes it to the body, and its wholeness. -/
abbrev ms0_0 (t : Fin (cfg0 (adm (F := F) 0)).N) : Memref sig .tc .vmem S1x128x1024 .bf16 := spec0_0.stage ((cfg0 (adm (F := F) 0)).slots t 0)
abbrev hs0_0 (t : Fin (cfg0 (adm (F := F) 0)).N) : (ms0_0 (F := F) t).IsWhole := hstage0_0 (((cfg0 (adm (F := F) 0)).slots t 0).cast nbuf0_0)
abbrev ms0_1 (t : Fin (cfg0 (adm (F := F) 0)).N) : Memref sig .tc .vmem S1024x4096 .bf16 := spec0_1.stage ((cfg0 (adm (F := F) 0)).slots t 1)
abbrev hs0_1 (t : Fin (cfg0 (adm (F := F) 0)).N) : (ms0_1 (F := F) t).IsWhole := hstage0_1 (((cfg0 (adm (F := F) 0)).slots t 1).cast nbuf0_1)
abbrev ms0_2 (t : Fin (cfg0 (adm (F := F) 0)).N) : Memref sig .tc .vmem S1024x4096 .bf16 := spec0_2.stage ((cfg0 (adm (F := F) 0)).slots t 2)
abbrev hs0_2 (t : Fin (cfg0 (adm (F := F) 0)).N) : (ms0_2 (F := F) t).IsWhole := hstage0_2 (((cfg0 (adm (F := F) 0)).slots t 2).cast nbuf0_2)
abbrev ms0_3 (t : Fin (cfg0 (adm (F := F) 0)).N) : Memref sig .tc .vmem S1x4096 .f32 := spec0_3.stage ((cfg0 (adm (F := F) 0)).slots t 3)
abbrev hs0_3 (t : Fin (cfg0 (adm (F := F) 0)).N) : (ms0_3 (F := F) t).IsWhole := hstage0_3 (((cfg0 (adm (F := F) 0)).slots t 3).cast nbuf0_3)
abbrev ms0_4 (t : Fin (cfg0 (adm (F := F) 0)).N) : Memref sig .tc .vmem S1x128x1024 .f32 := spec0_4.stage ((cfg0 (adm (F := F) 0)).slots t 4)
abbrev hs0_4 (t : Fin (cfg0 (adm (F := F) 0)).N) : (ms0_4 (F := F) t).IsWhole := hstage0_4 (((cfg0 (adm (F := F) 0)).slots t 4).cast nbuf0_4)
/-- The two scratch operands: whole buffers passed beside the windows (the table's memref is `tbM0`). -/
abbrev scM0_0 : Memref sig .tc .vmem S16x128x1024 .f32 := Memref.whole cc0_scratch0
abbrev scM0_1 : Memref sig .tc .vmem S16x128x1024 .f32 := Memref.whole cc0_scratch1

/-- The kernel body at point `t`, on what the pipeline calls it with. -/
abbrev bodyAt0 (t : Fin (cfg0 (adm (F := F) 0)).N) : Prog (TpuEff nD τ sig (Elt F) Λ₀ .tc) PUnit :=
  cc0__cell_kernel (grid0.coords t) tbM0 (Memref.isWhole_whole _) (ms0_0 t) (hs0_0 t) (ms0_1 t) (hs0_1 t) (ms0_2 t) (hs0_2 t)
    (ms0_3 t) (hs0_3 t) (ms0_4 t) (hs0_4 t) scM0_0 (Memref.isWhole_whole _) scM0_1 (Memref.isWhole_whole _)

/-! ## The cell on contents -/

/-- The rectangles of the body's accesses: the staged blocks whole, the parent's slab, the node's own slab. -/
abbrev rX : Rect S1x128x1024 := Rect.unit (s := S1x128x1024) ![0, 0, 0] S1x128x1024.size inb_S1x128x1024_S1x128x1024_0_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rPar (v : BitVec 32) (h : k0_chk1 v) : Rect S16x128x1024 := Rect.unit (s := S16x128x1024) (k0_off2 v) S1x128x1024.size (k0_off2_inb v h)
abbrev rNew (i : grid0.Coords) : Rect S16x128x1024 := Rect.unit (s := S16x128x1024) (k0_off3 i) S1x128x1024.size (k0_off3_inb i)

section Cell

variable (v : BitVec 32) (hv : k0_chk1 v) (hs cs : Vec F S16x128x1024 .f32)
  (x : Vec F S1x128x1024 .bf16) (w u : Vec F S1024x4096 .bf16) (b : Vec F S1x4096 .f32)

/-- The new cell rows: the cell of the staged blocks and of slab `v` of the two scratches. -/
def cellC : FVec F S128x1024 .f32 :=
  k0_pay7 (View.ld hs (rPar v hv)) (View.ld cs (rPar v hv)) (View.ld x rX) (View.ld w rW) (View.ld u rW) (View.ld b rB)
/-- The new hidden rows. -/
def cellH : FVec F S128x1024 .f32 :=
  k0_pay8 (View.ld hs (rPar v hv)) (View.ld cs (rPar v hv)) (View.ld x rX) (View.ld w rW) (View.ld u rW) (View.ld b rB)

/-- What one point leaves from scratches `hs`, `cs`: the output block (the new hidden rows), the hidden scratch with the node's
    slab replaced by them, the cell scratch with the node's slab replaced by the new cell rows. -/
def cellOut (i : grid0.Coords) : Vec F S1x128x1024 .f32 × Vec F S16x128x1024 .f32 × Vec F S16x128x1024 .f32 :=
  (k0_pay3 (cellH v hv hs cs x w u b),
   (rNew i).overlay hs (k0_pay1 (cellH v hv hs cs x w u b)),
   (rNew i).overlay cs (k0_pay2 (cellC v hv hs cs x w u b)))

end Cell

/-! ## Small facts about contents and the invariant's parts -/

omit [FloatOps F] in
/-- What a run of stores leaves reads as the last store's payload laid over what the earlier ones left. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

omit [FloatOps F] in
/-- Laid over anything through the whole-shape rectangle at zero offsets, a payload is all there is. -/
theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rwa [Rect.emb_whole_apply] at e

/-- The zero offsets of the whole-block accesses, however they are spelt. -/
theorem zero3 : (![0, 0, 0] : Fin 3 → ℕ) = fun _ => 0 := funext fun a => by fin_cases a <;> rfl
theorem zero2 : (![0, 0] : Fin 2 → ℕ) = fun _ => 0 := funext fun a => by fin_cases a <;> rfl

/-- The scoped buffers no window stages: the two scratches, each whole at some contents, and the rest unopened. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] ⟨⟨by decide, by decide⟩, ⟨by decide, by decide⟩⟩ (by decide)

/-- What the region hands in beside the table, with the scratches as memrefs owned at some contents. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0_0, scM0_1, owns_whole]; try rfl

/-- The table whole at the constant, as the body's run holds it. -/
theorem prefHeld0_eq (c : Dev nD) :
    (Pipeline.prefHeld (Ix := Unit) (Name := ℕ) (U := UR sig nD τ) (Lvl := ℕ) pre0 c (fun _ => fullShare) (adm (F := F) 0).1 : sProp 𝕄)
      = tbPt0 c tbM0 (tblC (F := F)) := by
  unfold Pipeline.prefHeld
  rw [show (Finset.univ : Finset (Fin 1)) = {(0 : Fin 1)} from by decide, bigSep_singleton]
  rfl

/-! ## The region at entry contents `V` -/

section Region

variable (V : (c : Dev nD) → (b : Ref sig .tc) → Buf (Elt F) ((c : Thread nD τ).loc b))

/-- Window `w`'s block at point `t`, read off its array as the region finds it. -/
def iblk0 (c : Dev nD) (w : Fin (cfg0 (adm (F := F) 0)).W) (t : Fin (cfg0 (adm (F := F) 0)).N) :
    (((cfg0 (adm (F := F) 0)).win w).xblock ((cfg0 (adm (F := F) 0)).grid.coords t)).Idx → Elt F ((cfg0 (adm (F := F) 0)).win w).elt :=
  (((cfg0 (adm (F := F) 0)).win w).blk t).view.read (Elt F) (V c (Pipeline.arrRef spec0 w))

/-- One point from scratches `hs`, `cs`, at the point's table word and staged blocks. -/
def cellAt (c : Dev nD) (t : Fin (cfg0 (adm (F := F) 0)).N) (hs cs : Vec F S16x128x1024 .f32) :
    Vec F S1x128x1024 .f32 × Vec F S16x128x1024 .f32 × Vec F S16x128x1024 .f32 :=
  cellOut (tblWord (tblC (F := F)) (grid0.coords t)) (chk_tbl (grid0.coords t)) hs cs
    (iblk0 V c 0 t) (iblk0 V c 1 t) (iblk0 V c 2 t) (iblk0 V c 3 t) (grid0.coords t)

/-- THE ACCUMULATION. The output block, the hidden scratch and the cell scratch after the body at position `n`: at node
    coordinate 0 (the positions divisible by 15) the cell over the zero scratches, elsewhere over what the position before left. -/
def outsAt0 (c : Dev nD) : (n : ℕ) → n < (cfg0 (adm (F := F) 0)).N → Vec F S1x128x1024 .f32 × Vec F S16x128x1024 .f32 × Vec F S16x128x1024 .f32
  | 0, hn => cellAt V c ⟨0, hn⟩ k0_pay4 k0_pay5
  | n + 1, hn =>
    if (n + 1) % 15 = 0 then cellAt V c ⟨n + 1, hn⟩ k0_pay4 k0_pay5
    else cellAt V c ⟨n + 1, hn⟩ (outsAt0 c n (Nat.lt_of_succ_lt hn)).2.1 (outsAt0 c n (Nat.lt_of_succ_lt hn)).2.2

/-- At a point of node coordinate 0: the cell over the zero scratches. -/
theorem outsAt0_A (c : Dev nD) (t : Fin (cfg0 (adm (F := F) 0)).N) (h0 : t.val % 15 = 0) :
    outsAt0 V c t.val t.isLt = cellAt V c t k0_pay4 k0_pay5 := by
  obtain ⟨n, hn⟩ := t
  cases n with
  | zero => exact rfl
  | succ n => exact (if_pos h0).trans rfl

/-- At any other point: the cell over what the point before left in the scratches. -/
theorem outsAt0_B (c : Dev nD) (t : Fin (cfg0 (adm (F := F) 0)).N) (h0 : ¬t.val % 15 = 0) :
    outsAt0 V c t.val t.isLt = cellAt V c t (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (if_neg h0).trans rfl

/-- The region invariant before position `n`. Before the first point: what the region hands in, the scoped buffers no
    window stages at anything with the generator register, and the table whole at the constant. Afterwards: the two
    scratches at what the point before left, the other scoped buffers at anything, the register, the table. -/
def PhiS0 (c : Dev nD) : (n : ℕ) → n ≤ (cfg0 (adm (F := F) 0)).N → sProp 𝕄
  | 0, _ => iprop(Pipeline.ΦA spec0 c ∗ Pipeline.prefHeld pre0 c (fun _ => fullShare) (adm (F := F) 0).1)
  | n + 1, hn => iprop(owns (c : Thread nD τ) scM0_0 fullShare (outsAt0 V c n hn).2.1
      ∗ owns (c : Thread nD τ) scM0_1 fullShare (outsAt0 V c n hn).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1)

theorem PhiS0_zero (c : Dev nD) (n : ℕ) (h : n ≤ (cfg0 (adm (F := F) 0)).N) (hz : n = 0) :
    PhiS0 V c n h = iprop(Pipeline.ΦA spec0 c ∗ Pipeline.prefHeld pre0 c (fun _ => fullShare) (adm (F := F) 0).1) := by
  subst hz; rfl

theorem PhiS0_succ (c : Dev nD) (n : ℕ) (hn : n < (cfg0 (adm (F := F) 0)).N) :
    PhiS0 V c (n + 1) hn = iprop(owns (c : Thread nD τ) scM0_0 fullShare (outsAt0 V c n hn).2.1
      ∗ owns (c : Thread nD τ) scM0_1 fullShare (outsAt0 V c n hn).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1) := rfl

/-- Before a point that is not the first: the scratches at what the point before left. -/
theorem PhiS0_pos (c : Dev nD) (n : ℕ) (h : n ≤ (cfg0 (adm (F := F) 0)).N) (hz : n ≠ 0) :
    PhiS0 V c n h = iprop(owns (c : Thread nD τ) scM0_0 fullShare (outsAt0 V c (n - 1) (by omega)).2.1
      ∗ owns (c : Thread nD τ) scM0_1 fullShare (outsAt0 V c (n - 1) (by omega)).2.2
      ∗ Pipeline.scopedRestBut (Ix := Unit) (Name := ℕ) (U := UR sig nD τ) (Lvl := ℕ) (Val := Elt F) spec0 c [cc0_scratch0, cc0_scratch1]
      ∗ (∃ r, prngReg c r)
      ∗ Pipeline.prefHeld pre0 c (fun _ => fullShare) (adm (F := F) 0).1) := by
  cases n with
  | zero => exact absurd rfl hz
  | succ n => rfl

/-- The proof data of the pipeline on core `c`: the arrays as the region finds them; after the body at point `t` each
    input's buffer at its block and the output's at the point's new hidden rows; the invariant `PhiS0`; nothing owed;
    full shares. -/
def dat0 (c : Dev nD) : Dat τ (Elt F) Unit ℕ (UR sig nD τ) ℕ (cfg0 (adm (F := F) 0)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin (cfg0 (adm (F := F) 0)).W) : (dat0 V c).A w = V c (Pipeline.arrRef spec0 w) := by
  dsimp only [dat0]

theorem after0_0 (c : Dev nD) (t : Fin (cfg0 (adm (F := F) 0)).N) : (dat0 V c).after 0 t = iblk0 V c 0 t := by dsimp only [dat0] <;> rfl
theorem after0_1 (c : Dev nD) (t : Fin (cfg0 (adm (F := F) 0)).N) : (dat0 V c).after 1 t = iblk0 V c 1 t := by dsimp only [dat0] <;> rfl
theorem after0_2 (c : Dev nD) (t : Fin (cfg0 (adm (F := F) 0)).N) : (dat0 V c).after 2 t = iblk0 V c 2 t := by dsimp only [dat0] <;> rfl
theorem after0_3 (c : Dev nD) (t : Fin (cfg0 (adm (F := F) 0)).N) : (dat0 V c).after 3 t = iblk0 V c 3 t := by dsimp only [dat0] <;> rfl
theorem after0_4 (c : Dev nD) (t : Fin (cfg0 (adm (F := F) 0)).N) : (dat0 V c).after 4 t = (outsAt0 V c t.val t.isLt).1 := by dsimp only [dat0] <;> rfl

/-- The invariant at a point's start and end, restated at the point's position. -/
theorem Phi0_zero (c : Dev nD) : (dat0 V c).Φ 0 = iprop(Pipeline.ΦA spec0 c ∗ Pipeline.prefHeld pre0 c (fun _ => fullShare) (adm (F := F) 0).1) := rfl
theorem Phi0_castSucc (c : Dev nD) (t : Fin (cfg0 (adm (F := F) 0)).N) :
    (dat0 V c).Φ t.castSucc = PhiS0 V c t.val (Nat.le_of_lt t.isLt) := by
  dsimp only [dat0]; simp only [Fin.coe_castSucc]
theorem Phi0_succ (c : Dev nD) (t : Fin (cfg0 (adm (F := F) 0)).N) :
    (dat0 V c).Φ t.succ = PhiS0 V c (t.val + 1) t.isLt := rfl

/-- What the region hands in is the invariant before the first point, -/
theorem PhiS0_in (c : Dev nD) :
    iprop(Pipeline.ΦA spec0 c ∗ Pipeline.prefHeld pre0 c (fun _ => fullShare) (adm (F := F) 0).1) ⊢ (dat0 V c).Φ 0 := by
  rw [Phi0_zero]

/-- After any point the invariant gives that back: the scratches' named contents are forgotten. -/
theorem Phi0_out (c : Dev nD) (t : Fin ((cfg0 (adm (F := F) 0)).N + 1)) (ht : t.val ≠ 0) :
    (dat0 V c).Φ t ⊢ iprop(Pipeline.ΦA spec0 c ∗ Pipeline.prefHeld pre0 c (fun _ => fullShare) (adm (F := F) 0).1) := by
  rw [show (dat0 V c).Φ t = PhiS0 V c t.val (Nat.le_of_lt_succ t.isLt) from rfl, PhiS0_pos V c _ _ ht, PhiA0_eq]
  iintro ⟨HS0, HS1, HR, Hg, HT⟩
  isplitr [HT]
  · isplitl [HS0 HS1 HR]
    · isplitl [HS0 HS1]
      · isplitl [HS0]
        · iexists _; iexact HS0
        iexists _; iexact HS1
      iexact HR
    iexact Hg
  iexact HT

/-- The same after the last point. -/
theorem PhiS0_out (c : Dev nD) :
    (dat0 V c).Φ (Fin.last (cfg0 (adm (F := F) 0)).N) ⊢ iprop(Pipeline.ΦA spec0 c ∗ Pipeline.prefHeld pre0 c (fun _ => fullShare) (adm (F := F) 0).1) :=
  Phi0_out V c _ (by rw [Fin.val_last]; have : (cfg0 (adm (F := F) 0)).N = 30 := N_A; omega)

/-- Each input's current staging buffer holds its block at every point, fetched there or not. -/
theorem before0_0_of {c : Dev nD} (dat : Dat τ (Elt F) Unit ℕ (UR sig nD τ) ℕ (cfg0 (adm (F := F) 0)) c) (hA : dat.A 0 = V c (Pipeline.arrRef spec0 0))
    (hafter : ∀ t, dat.after 0 t = iblk0 V c 0 t) (t : Fin (cfg0 (adm (F := F) 0)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 (adm (F := F) 0)) c) (hA : dat.A 1 = V c (Pipeline.arrRef spec0 1))
    (hafter : ∀ t, dat.after 1 t = iblk0 V c 1 t) (t : Fin (cfg0 (adm (F := F) 0)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 (adm (F := F) 0)) c) (hA : dat.A 2 = V c (Pipeline.arrRef spec0 2))
    (hafter : ∀ t, dat.after 2 t = iblk0 V c 2 t) (t : Fin (cfg0 (adm (F := F) 0)).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 (adm (F := F) 0)) c) (hA : dat.A 3 = V c (Pipeline.arrRef spec0 3))
    (hafter : ∀ t, dat.after 3 t = iblk0 V c 3 t) (t : Fin (cfg0 (adm (F := F) 0)).N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin (cfg0 (adm (F := F) 0)).N) (d) : (dat0 V c).before 0 t d = iblk0 V c 0 t :=
  before0_0_of V (dat0 V c) (A_eq0 V c 0) (after0_0 V c) t d
theorem before0_1 (c : Dev nD) (t : Fin (cfg0 (adm (F := F) 0)).N) (d) : (dat0 V c).before 1 t d = iblk0 V c 1 t :=
  before0_1_of V (dat0 V c) (A_eq0 V c 1) (after0_1 V c) t d
theorem before0_2 (c : Dev nD) (t : Fin (cfg0 (adm (F := F) 0)).N) (d) : (dat0 V c).before 2 t d = iblk0 V c 2 t :=
  before0_2_of V (dat0 V c) (A_eq0 V c 2) (after0_2 V c) t d
theorem before0_3 (c : Dev nD) (t : Fin (cfg0 (adm (F := F) 0)).N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin (cfg0 (adm (F := F) 0)).N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin (cfg0 (adm (F := F) 0)).N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

end Region

/-! ## What the runs' pieces read back as -/

section Pieces

variable (c : Dev nD) (i : grid0.Coords)
  (arg3 : Memref sig .tc .vmem S1x128x1024 .bf16) (harg3 : arg3.IsWhole) (arg4 : Memref sig .tc .vmem S1024x4096 .bf16) (harg4 : arg4.IsWhole)
  (arg5 : Memref sig .tc .vmem S1024x4096 .bf16) (harg5 : arg5.IsWhole) (arg6 : Memref sig .tc .vmem S1x4096 .f32) (harg6 : arg6.IsWhole)
  (arg7 : Memref sig .tc .vmem S1x128x1024 .f32) (harg7 : arg7.IsWhole)
  (arg8 : Memref sig .tc .vmem S16x128x1024 .f32) (harg8 : arg8.IsWhole) (arg9 : Memref sig .tc .vmem S16x128x1024 .f32) (harg9 : arg9.IsWhole)
  (x0 : Vec F S1x128x1024 .bf16) (x1 x2 : Vec F S1024x4096 .bf16) (x3 : Vec F S1x4096 .f32)
  (xt : TbBuf0 (F := F) c tbM0) (hw : k0_chk1 (tblWord xt i))

/-- At node coordinate 0 the three buffers read back as the cell over the zero scratches, whatever they held. -/
theorem runA_reads (hc0 : cond0_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    (arg7.view.read (Elt F) (arg7.view.writes (Elt F) f7 (kernelRun0_A c i arg3 harg3 arg4 harg4 arg5 harg5 arg6 harg6 arg7 harg7 arg8 harg8 arg9 harg9 hc0 x0 x1 x2 x3 fh fc xt hw).1),
     arg8.view.read (Elt F) (arg8.view.writes (Elt F) f8 (kernelRun0_A c i arg3 harg3 arg4 harg4 arg5 harg5 arg6 harg6 arg7 harg7 arg8 harg8 arg9 harg9 hc0 x0 x1 x2 x3 fh fc xt hw).2.1),
     arg9.view.read (Elt F) (arg9.view.writes (Elt F) f9 (kernelRun0_A c i arg3 harg3 arg4 harg4 arg5 harg5 arg6 harg6 arg7 harg7 arg8 harg8 arg9 harg9 hc0 x0 x1 x2 x3 fh fc xt hw).2.2.1))
      = cellOut (tblWord xt i) hw k0_pay4 k0_pay5 x0 x1 x2 x3 i := by
  unfold kernelRun0_A cellOut cellH cellC
  dsimp only
  sl_unfold_run_names
  simp only [tblWord, read_writes_cons_overlay, View.writes_nil, overlay_unit_zero (S := S16x128x1024) zero3, overlay_unit_zero (S := S1x128x1024) zero3,
    View.readCov_eq_canon', View.canon_unit_zero (S := S16x128x1024) zero3, View.readAt_eq_ld, Memref.IsWhole.read_unread]
  try rfl

/-- At any other node coordinate they read back as the cell over what the scratches held. -/
theorem runB_reads (hc0 : ¬cond0_0 i) (f7 : arg7.view.ty.Contents (Elt F)) (fh : arg8.view.ty.Contents (Elt F)) (fc : arg9.view.ty.Contents (Elt F)) :
    (arg7.view.read (Elt F) (arg7.view.writes (Elt F) f7 (kernelRun0_B c i arg3 harg3 arg4 harg4 arg5 harg5 arg6 harg6 arg7 harg7 arg8 harg8 arg9 harg9 hc0 x0 x1 x2 x3 fh fc xt hw).1),
     arg8.view.read (Elt F) (arg8.view.writes (Elt F) fh (kernelRun0_B c i arg3 harg3 arg4 harg4 arg5 harg5 arg6 harg6 arg7 harg7 arg8 harg8 arg9 harg9 hc0 x0 x1 x2 x3 fh fc xt hw).2.1),
     arg9.view.read (Elt F) (arg9.view.writes (Elt F) fc (kernelRun0_B c i arg3 harg3 arg4 harg4 arg5 harg5 arg6 harg6 arg7 harg7 arg8 harg8 arg9 harg9 hc0 x0 x1 x2 x3 fh fc xt hw).2.2.1))
      = cellOut (tblWord xt i) hw (arg8.view.read (Elt F) fh) (arg9.view.read (Elt F) fc) x0 x1 x2 x3 i := by
  unfold kernelRun0_B cellOut cellH cellC
  dsimp only
  sl_unfold_run_names
  simp only [tblWord, read_writes_cons_overlay, View.writes_nil, overlay_unit_zero (S := S1x128x1024) zero3, View.readAt_eq_ld, Memref.IsWhole.read_unread]
  try rfl

/-- The same, component by component. -/
theorem runA_reads3 (hc0 : cond0_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    arg7.view.read (Elt F) (arg7.view.writes (Elt F) f7 (kernelRun0_A c i arg3 harg3 arg4 harg4 arg5 harg5 arg6 harg6 arg7 harg7 arg8 harg8 arg9 harg9 hc0 x0 x1 x2 x3 fh fc xt hw).1)
        = (cellOut (tblWord xt i) hw k0_pay4 k0_pay5 x0 x1 x2 x3 i).1
    ∧ arg8.view.read (Elt F) (arg8.view.writes (Elt F) f8 (kernelRun0_A c i arg3 harg3 arg4 harg4 arg5 harg5 arg6 harg6 arg7 harg7 arg8 harg8 arg9 harg9 hc0 x0 x1 x2 x3 fh fc xt hw).2.1)
        = (cellOut (tblWord xt i) hw k0_pay4 k0_pay5 x0 x1 x2 x3 i).2.1
    ∧ arg9.view.read (Elt F) (arg9.view.writes (Elt F) f9 (kernelRun0_A c i arg3 harg3 arg4 harg4 arg5 harg5 arg6 harg6 arg7 harg7 arg8 harg8 arg9 harg9 hc0 x0 x1 x2 x3 fh fc xt hw).2.2.1)
        = (cellOut (tblWord xt i) hw k0_pay4 k0_pay5 x0 x1 x2 x3 i).2.2 :=
  have h := runA_reads c i arg3 harg3 arg4 harg4 arg5 harg5 arg6 harg6 arg7 harg7 arg8 harg8 arg9 harg9 x0 x1 x2 x3 xt hw hc0 fh fc f7 f8 f9
  ⟨congrArg Prod.fst h, congrArg (fun p => p.2.1) h, congrArg (fun p => p.2.2) h⟩

theorem runB_reads3 (hc0 : ¬cond0_0 i) (f7 : arg7.view.ty.Contents (Elt F)) (fh : arg8.view.ty.Contents (Elt F)) (fc : arg9.view.ty.Contents (Elt F)) :
    arg7.view.read (Elt F) (arg7.view.writes (Elt F) f7 (kernelRun0_B c i arg3 harg3 arg4 harg4 arg5 harg5 arg6 harg6 arg7 harg7 arg8 harg8 arg9 harg9 hc0 x0 x1 x2 x3 fh fc xt hw).1)
        = (cellOut (tblWord xt i) hw (arg8.view.read (Elt F) fh) (arg9.view.read (Elt F) fc) x0 x1 x2 x3 i).1
    ∧ arg8.view.read (Elt F) (arg8.view.writes (Elt F) fh (kernelRun0_B c i arg3 harg3 arg4 harg4 arg5 harg5 arg6 harg6 arg7 harg7 arg8 harg8 arg9 harg9 hc0 x0 x1 x2 x3 fh fc xt hw).2.1)
        = (cellOut (tblWord xt i) hw (arg8.view.read (Elt F) fh) (arg9.view.read (Elt F) fc) x0 x1 x2 x3 i).2.1
    ∧ arg9.view.read (Elt F) (arg9.view.writes (Elt F) fc (kernelRun0_B c i arg3 harg3 arg4 harg4 arg5 harg5 arg6 harg6 arg7 harg7 arg8 harg8 arg9 harg9 hc0 x0 x1 x2 x3 fh fc xt hw).2.2.1)
        = (cellOut (tblWord xt i) hw (arg8.view.read (Elt F) fh) (arg9.view.read (Elt F) fc) x0 x1 x2 x3 i).2.2 :=
  have h := runB_reads c i arg3 harg3 arg4 harg4 arg5 harg5 arg6 harg6 arg7 harg7 arg8 harg8 arg9 harg9 x0 x1 x2 x3 xt hw hc0 f7 fh fc
  ⟨congrArg Prod.fst h, congrArg (fun p => p.2.1) h, congrArg (fun p => p.2.2) h⟩

end Pieces

section Region

variable (V : (c : Dev nD) → (b : Ref sig .tc) → Buf (Elt F) ((c : Thread nD τ).loc b))

set_option maxHeartbeats 4800000 in
/-- The body at any point. The inputs' memrefs hold their blocks; the node coordinate says which run applies. At node
    coordinate 0 the invariant hands the scratches at anything (the first point) or at what the point before left, which the
    run forgets; elsewhere at what the point before left, as buffers the run writes over. The run gives the scratches and
    the output block back at the cell's contents (`runA_reads`, `runB_reads`); the table, the other scoped buffers, the
    register and the core's dues pass through. -/
theorem sound_body0 (c : Dev nD) (t : Fin (cfg0 (adm (F := F) 0)).N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ, PhiS0_succ, after0_0, after0_1, after0_2, after0_3, after0_4, prefHeld0_eq]
  by_cases h0 : t.val % 15 = 0
  · have hc0 : cond0_0 (grid0.coords t) := (hcond0_0 t).mpr h0
    rw [outsAt0_A V c t h0]
    unfold cellAt
    by_cases hz : t.val = 0
    · rw [Phi0_castSucc, PhiS0_zero V c _ _ hz, PhiA0_eq, prefHeld0_eq]
      iintro ⟨⟨⟨⟨⟨⟨%dh, HS0⟩, ⟨%dc, HS1⟩⟩, HR⟩, Hg⟩, HT⟩, Ho, ⟨%d0, H0⟩, ⟨%d1, H1⟩, ⟨%d2, H2⟩, ⟨%d3, H3⟩, ⟨%d4, H4⟩⟩
      ihave HS0' := (show owns (c : Thread nD τ) scM0_0 fullShare dh ⊢ (iprop(∃ g, ⌜scM0_0.view.read (Elt F) g = dh⌝ ∗ scM0_0.view.loc (c : Thread nD τ) ↦[scM0_0.view.set]{fullShare} g) : sProp 𝕄) from .rfl) $$ HS0
      icases HS0' with ⟨%fh, -, HS0⟩
      ihave HS1' := (show owns (c : Thread nD τ) scM0_1 fullShare dc ⊢ (iprop(∃ g, ⌜scM0_1.view.read (Elt F) g = dc⌝ ∗ scM0_1.view.loc (c : Thread nD τ) ↦[scM0_1.view.set]{fullShare} g) : sProp 𝕄) from .rfl) $$ HS1
      icases HS1' with ⟨%fc, -, HS1⟩
      iapply ((kernelRun0_A c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid0.coords t) _ (hs0_0 t) _ (hs0_1 t) _ (hs0_2 t) _ (hs0_3 t) _ (hs0_4 t) scM0_0 (Memref.isWhole_whole _) scM0_1 (Memref.isWhole_whole _)
        (iblk0 V c 0 t) (iblk0 V c 1 t) (iblk0 V c 2 t) (iblk0 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
    · rw [Phi0_castSucc, PhiS0_pos V c _ _ hz, prefHeld0_eq]
      generalize (outsAt0 V c (t.val - 1) (Nat.lt_of_le_of_lt (Nat.sub_le _ _) t.isLt)).2.1 = dh
      generalize (outsAt0 V c (t.val - 1) (Nat.lt_of_le_of_lt (Nat.sub_le _ _) t.isLt)).2.2 = dc
      iintro ⟨⟨HS0, HS1, HR, Hg, HT⟩, Ho, ⟨%d0, H0⟩, ⟨%d1, H1⟩, ⟨%d2, H2⟩, ⟨%d3, H3⟩, ⟨%d4, H4⟩⟩
      ihave HS0' := (show owns (c : Thread nD τ) scM0_0 fullShare dh ⊢ (iprop(∃ g, ⌜scM0_0.view.read (Elt F) g = dh⌝ ∗ scM0_0.view.loc (c : Thread nD τ) ↦[scM0_0.view.set]{fullShare} g) : sProp 𝕄) from .rfl) $$ HS0
      icases HS0' with ⟨%fh, -, HS0⟩
      ihave HS1' := (show owns (c : Thread nD τ) scM0_1 fullShare dc ⊢ (iprop(∃ g, ⌜scM0_1.view.read (Elt F) g = dc⌝ ∗ scM0_1.view.loc (c : Thread nD τ) ↦[scM0_1.view.set]{fullShare} g) : sProp 𝕄) from .rfl) $$ HS1
      icases HS1' with ⟨%fc, -, HS1⟩
      iapply ((kernelRun0_A c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid0.coords t) _ (hs0_0 t) _ (hs0_1 t) _ (hs0_2 t) _ (hs0_3 t) _ (hs0_4 t) scM0_0 (Memref.isWhole_whole _) scM0_1 (Memref.isWhole_whole _)
        (iblk0 V c 0 t) (iblk0 V c 1 t) (iblk0 V c 2 t) (iblk0 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
  · have hc0 : ¬cond0_0 (grid0.coords t) := fun h => h0 ((hcond0_0 t).mp h)
    have hz : t.val ≠ 0 := fun h => h0 (by rw [h])
    rw [outsAt0_B V c t h0]
    unfold cellAt
    rw [Phi0_castSucc, PhiS0_pos V c _ _ hz, prefHeld0_eq]
    generalize (outsAt0 V c (t.val - 1) (Nat.lt_of_le_of_lt (Nat.sub_le _ _) t.isLt)).2.1 = hs
    generalize (outsAt0 V c (t.val - 1) (Nat.lt_of_le_of_lt (Nat.sub_le _ _) t.isLt)).2.2 = cs
    iintro ⟨⟨HS0, HS1, HR, Hg, HT⟩, Ho, ⟨%d0, H0⟩, ⟨%d1, H1⟩, ⟨%d2, H2⟩, ⟨%d3, H3⟩, ⟨%d4, H4⟩⟩
    ihave HS0' := (show owns (c : Thread nD τ) scM0_0 fullShare hs ⊢ (iprop(∃ g, ⌜scM0_0.view.read (Elt F) g = hs⌝ ∗ scM0_0.view.loc (c : Thread nD τ) ↦[scM0_0.view.set]{fullShare} g) : sProp 𝕄) from .rfl) $$ HS0
    icases HS0' with ⟨%fh, %hfh, HS0⟩
    ihave HS1' := (show owns (c : Thread nD τ) scM0_1 fullShare cs ⊢ (iprop(∃ g, ⌜scM0_1.view.read (Elt F) g = cs⌝ ∗ scM0_1.view.loc (c : Thread nD τ) ↦[scM0_1.view.set]{fullShare} g) : sProp 𝕄) from .rfl) $$ HS1
    icases HS1' with ⟨%fc, %hfc, HS1⟩
    subst hfh; subst hfc
    iapply ((kernelRun0_B c (grid0.coords t) _ _ _ _ _ _ _ _ _ _ _ _ _ _ hc0 (iblk0 V c 0 t) (iblk0 V c 1 t) (iblk0 V c 2 t) (iblk0 V c 3 t) fh fc tblC (chk_tbl _)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT]; · iexact HT
    iintro ⟨H0, H1, H2, H3, ⟨%e4, H4⟩, H8, H9, HT⟩
    obtain ⟨hr1, hr2, hr3⟩ := runB_reads3 c (grid0.coords t) _ (hs0_0 t) _ (hs0_1 t) _ (hs0_2 t) _ (hs0_3 t) _ (hs0_4 t) scM0_0 (Memref.isWhole_whole _) scM0_1 (Memref.isWhole_whole _)
      (iblk0 V c 0 t) (iblk0 V c 1 t) (iblk0 V c 2 t) (iblk0 V c 3 t) tblC (chk_tbl _) hc0 e4 fh fc
    isplitl [H8 H9 HR Hg HT]
    · isplitl [H8]
      · unfold owns; iexists _; isplitr
        swap; · iexact H8
        ipureintro; exact hr2
      isplitl [H9]
      · unfold owns; iexists _; isplitr
        swap; · iexact H9
        ipureintro; exact hr3
      isplitl [HR]; · iexact HR
      isplitl [Hg]; · iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact hr1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.K0

end
-- ==== Proof.KB.Region0.lean ====
/-
  One pallas_call of the program as one item of its run.

  Between two items of the program a core holds every unscoped buffer whole, at a valuation, beside its generator
  register and the fact that it owes nothing. This module shows that the call's pipeline carries such a state at a
  valuation `Vin` to such a state at a valuation `Vout`, for any two valuations with
    * the prefetched table's buffer holding, under `Vin`, the contents the pipeline is pinned at;
    * the output window's array holding, under `Vout`, the fold of all write-backs over its contents under `Vin`;
    * every other buffer the same under both.
  The windows' arrays leave the unscoped buffers at entry and come back at exit. What is new against a call without
  tables is the table: it is one of the unscoped buffers that are no window's array, it is handed whole to the body's
  invariant (the body loads its words), and the invariant hands it back after the last grid point, so that the
  unscoped buffers are complete again at exit.

  Stated for any family of proof data whose member at this pipeline is the data of this region (`hp`), so that the
  same text serves whichever family the launch is stated over.
-/
import proofs.«109754_j89713276879117_1_alg».proof.Proof.KB.Common
import proofs.«109754_j89713276879117_1_alg».proof.Proof.KB.Data0
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.Kernel.K0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Kernel.KC

variable {F : FTy → Type} [FloatOps F]

local notation "𝕄" => MT nD τ sig Unit (Elt F) ℕ (UR sig nD τ) ℕ

section Region

/- The region is stated between two valuations of the core's unscoped buffers: `Vin`, what it is entered from, and
   `Vout`, what it leaves. All that is asked of them: the table's buffer holds the admissible contents at entry
   (`htab`); at exit the output window's array holds what the write-backs leave (`hVout`), and every other buffer
   what it held at entry (`hVne`). -/
variable (L : GSem nD τ sig → Finset Unit) (lv : GSem nD τ sig → Unit → ℕ)
variable (Vin Vout : Dev nD → Valuation τ sig (Elt F))
variable (pdats : (p : Fin 2) → (c : Dev nD) → Dat τ (Elt F) Unit ℕ (UR sig nD τ) ℕ (Pipeline.pin (pcfgs (F := F)) adm p) c)

/-- The input windows' arrays are never written back, so at the exit they hold their entry contents, which `Vout`
    agrees with off the output array; the output window's array is `Vout`'s by hypothesis. -/
theorem arrAt_exit
    (hVout : ∀ c, Vout c main_v16 = (dat0 (Vr Vin) c).arrAt 4 (cfg0 (adm (F := F) 0)).N)
    (hVne : ∀ c (r : Ref sig .tc), r ≠ main_v16 → Vout c r = Vin c r) (c : Dev nD) :
    ∀ w : Fin 5, (dat0 (Vr Vin) c).arrAt w (cfg0 (adm (F := F) 0)).N = Vr Vout c (Pipeline.arrRef spec0 w)
  | ⟨0, _⟩ => ((dat0 (Vr Vin) c).arrAt_in 0 rfl _).trans (hVne c (Pipeline.arrRef spec0 0) (by decide)).symm
  | ⟨1, _⟩ => ((dat0 (Vr Vin) c).arrAt_in 1 rfl _).trans (hVne c (Pipeline.arrRef spec0 1) (by decide)).symm
  | ⟨2, _⟩ => ((dat0 (Vr Vin) c).arrAt_in 2 rfl _).trans (hVne c (Pipeline.arrRef spec0 2) (by decide)).symm
  | ⟨3, _⟩ => ((dat0 (Vr Vin) c).arrAt_in 3 rfl _).trans (hVne c (Pipeline.arrRef spec0 3) (by decide)).symm
  | ⟨4, _⟩ => (hVout c).symm

/-- Off the windows' arrays `Vout` is `Vin`: the output array is one of them. -/
theorem rest_exit (hVne : ∀ c (r : Ref sig .tc), r ≠ main_v16 → Vout c r = Vin c r) (c : Dev nD) :
    ∀ b, b ∉ Finset.univ.image (Pipeline.arrRef spec0) → Vr Vout c b = Vr Vin c b :=
  fun b hb => hVne c b fun e => hb (Finset.mem_image.mpr ⟨4, Finset.mem_univ _, e.symm⟩)

/-- The unscoped buffers that are no window's array: the prefetched table, whole, at the contents the pipeline is
    pinned at — which are the table's contents under `Vin` (`htab`) —, and the buffers that bypass the region. -/
theorem rest_split (htab : ∀ c k, Vr Vin c (pre0.ref k) = (adm (F := F) 0).1 k) (c : Dev nD) :
    (Pipeline.unscopedRest (Ix := Unit) (Name := ℕ) (U := UR sig nD τ) (Lvl := ℕ) spec0 c (Vr Vin c) : sProp 𝕄)
      = iprop(Pipeline.prefHeld (Ix := Unit) (Name := ℕ) (U := UR sig nD τ) (Lvl := ℕ) pre0 c (fun _ => fullShare) (adm (F := F) 0).1
          ∗ Pipeline.unscopedRestP (Ix := Unit) (Name := ℕ) (U := UR sig nD τ) (Lvl := ℕ) pre0 spec0 c (Vr Vin c)) := by
  rw [Pipeline.unscopedRest_split preFacts0 c (Vr Vin c)]
  exact congrArg (fun v => (iprop(Pipeline.prefHeld (Ix := Unit) (Name := ℕ) (U := UR sig nD τ) (Lvl := ℕ) pre0 c (fun _ => fullShare) v
      ∗ Pipeline.unscopedRestP (Ix := Unit) (Name := ℕ) (U := UR sig nD τ) (Lvl := ℕ) pre0 spec0 c (Vr Vin c)) : sProp 𝕄)) (funext (htab c))

set_option backward.isDefEq.respectTransparency.types false in
/-- THE REGION as a segment of the program: entered from every unscoped buffer of the core at `Vin` beside the
    generator register and nothing owed, left at `Vout` beside the same.

    At entry the windows' arrays are split out of the unscoped buffers; out of the rest comes the prefetched table,
    whole, at the contents the pipeline is pinned at (`htab`); what is left bypasses the region (`Z`). The table, the
    generator register and the scoped buffers no window stages make the invariant before the first point; after the
    last point the invariant gives all three back. At exit the arrays, the table and the bypassing buffers are the
    core's unscoped buffers again, at `Vout`. The kernel has no semaphore of its own and owes nothing. -/
def reg0
    (hp : ∀ c, pdats (0 : Fin 2) c = dat0 (Vr Vin) c)
    (htab : ∀ c k, Vr Vin c (pre0.ref k) = (adm (F := F) 0).1 k)
    (hVout : ∀ c, Vout c main_v16 = (dat0 (Vr Vin) c).arrAt 4 (cfg0 (adm (F := F) 0)).N)
    (hVne : ∀ c (r : Ref sig .tc), r ≠ main_v16 → Vout c r = Vin c r) :
    Pipeline.RegionSeg (pcfgs (F := F)) adm pdats () defs₀ Variants.none L lv (0 : Fin 2) where
  win := (launch0 (F := F)).win.to₀
  block_pos := (launch0 (F := F)).block_pos
  stage_whole := (launch0 (F := F)).stage_whole
  K := PEmpty
  osem k := k.elim
  ho := Pipeline.OwnSemFacts.none _
  hbody c := by rw [hp c]; exact (body_obligation0 (Vr Vin) c).loose
  hwaits := Pipeline.hwaits_of_owed_zero _ _ _ _ L lv (0 : Fin 2) fun c t => by rw [hp c]; rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r)
    ∗ Pipeline.prefHeld (Ix := Unit) (Name := ℕ) (U := UR sig nD τ) (Lvl := ℕ) pre0 c (fun _ => fullShare) (adm (F := F) 0).1)
  Z c := Pipeline.unscopedRestP (Ix := Unit) (Name := ℕ) (U := UR sig nD τ) (Lvl := ℕ) pre0 spec0 c (Vr Vin c)
  hentry c := by
    rw [Pipeline.ownSems0_none]
    have hsplit := Pipeline.arrays_of_unscopedBufs (p := (0 : Fin 2)) (pcfgs (F := F)) adm pdats (launch0 (F := F)).win (launch0 (F := F)).arr_whole c
      (fun w => by rw [hp c]; exact (dat0 (Vr Vin) c).share_full (fun _ => rfl) w) (Vr Vin c) (fun w => by rw [hp c]; rfl)
    rw [Pipeline.unscopedBufs_held] at hsplit
    iintro ⟨⟨Hub, Hp, HO⟩, -, -⟩
    ihave H := hsplit $$ Hub
    icases H with ⟨Ha, Hrest⟩
    ihave H' := (Entails.of_eq (rest_split Vin htab c)) $$ Hrest
    icases H' with ⟨Ht, Hrest⟩
    imodintro
    isplitl [Ha]; · iexact Ha
    isplitl [Ht]; · iexact Ht
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (PhiS0_in (Vr Vin) c)
    unfold Pipeline.ΦA
    iintro ⟨Hp, Ht, Hr⟩
    isplitr [Ht]
    · isplitl [Hr] <;> iassumption
    · iexact Ht
  hout c := by
    rw [Pipeline.ownSems0_none, hp c]
    refine (PhiS0_out (Vr Vin) c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := (0 : Fin 2)) (pcfgs (F := F)) adm (Ix := Unit) (Name := ℕ) (U := UR sig nD τ) (Lvl := ℕ)
      (launch0 (F := F)).win (launch0 (F := F)).arr_whole c pdats (fun w => by rw [hp c]; exact (dat0 (Vr Vin) c).share_full (fun _ => rfl) w)
      (Vr Vin c) (Vr Vout c) ((pdats (0 : Fin 2) c).arrAt · (cfg0 (adm (F := F) 0)).N)
      (fun w => by rw [hp c]; exact arrAt_exit Vin Vout hVout hVne c w) (rest_exit Vin Vout hVne c)
    rw [Pipeline.unscopedBufs_held] at hjoin
    iintro ⟨Ha, HO, ⟨HY, Ht⟩, HR⟩
    ihave Hrest := (Entails.of_eq (rest_split Vin htab c).symm) $$ [Ht HR]
    · isplitl [Ht]; · iexact Ht
      iexact HR
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Region

end Cert.Kernel.K0

end
-- ==== Proof.KB.Body1.lean ====
/-
  One region of the program: the kernel function on symbolic contents.

  The body at a grid point, run symbolically over its skeleton: at node coordinate 0 both scratches are
  first stored whole with zeros; then the table word at the node coordinate is read, the side condition on it (it
  names a slab of the scratches) is passed from a hypothesis, that slab of both scratches and the staged blocks are
  loaded, and the new rows are stored into the node's own slab of each scratch and into the output block. What the
  stores leave is recorded as pieces (last first), found by the run.
-/
import proofs.«109754_j89713276879117_1_alg».proof.Proof.Gen.Kernel.Launch
import proofs.«109754_j89713276879117_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the node coordinate -/

/-- The condition of the body's conditional: the node coordinate is 0. -/
abbrev cond1_0 (i : grid1.Coords) : Prop := (Scalar.cmpi .ne (Scalar.extui (Scalar.cmpi .eq (BitVec.ofNat 32 (i 1).val) 0#32)) 0#32) = 1#1
/-- It holds at the positions divisible by 15 (the first node of each batch half) — decided over the grid. -/
theorem hcond1_0 : ∀ t : Fin grid1.N, cond1_0 (grid1.coords t) ↔ t.val % 15 = 0 := by decide +kernel

/-! ## The table word -/

/-- The table as the body is handed it: its whole buffer as a memref. -/
abbrev tbM1 : Memref sig .tc .smem S15 .i32 := Memref.whole main_c
/-- The table's buffer on core `c`, and it held whole at contents `f`. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The one multi-index of a one-word load. -/
abbrev i0 : S1.Idx := Shape.Idx.first (s := S1) (numel1_S1.symm ▸ Nat.one_pos)
/-- The table word's rectangle at node coordinate `i 1`, as the body's scalar load names it. -/
abbrev rWord (i : grid1.Coords) : Rect S15 := Rect.unit (s := S15) (k1_off1 i) S1.size (k1_off1_inb i)
/-- The word the body reads from table contents `T` at the point with coordinates `i`. -/
abbrev tblWord (T : (main_c : Ref sig .tc).ty.Contents (Elt F)) (i : grid1.Coords) : BitVec 32 :=
  tbM1.view.readAt (Elt F) (Rect.unit (s := S15) (k1_off1 i) S1.size (k1_off1_inb i)).toLoadRect T (Shape.Idx.first (numel1_S1.symm ▸ Nat.one_pos))

/-! ## The body's runs -/

set_option maxHeartbeats 4000000 in
/-- AT NODE COORDINATE 0. On whole staging memrefs, the inputs' at their contents, the output's at anything, both scratches
    held at given buffers `fh`, `fc`, the table held at contents whose word at the point names a slab: the body runs to the
    continuation holding the inputs' as they were, the output's buffer and each scratch with its pieces written over some contents
    (the zero fill first: nothing of `fh`, `fc` is left or read back), the table as it was. The pieces are the witness the run finds. -/
noncomputable def kernelRun1_A (c : Dev nD) (i : grid1.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : cond1_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf1 (F := F) c tbM1) (k1_hw1 : k1_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt1 c tbM1 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LH)
                ∗ (∃ f, arg9.view.loc (c : Thread nD τ) ↦[arg9.view.set]{fullShare} arg9.view.writes (Elt F) f LC)
                ∗ tbPt1 c tbM1 xt) -∗ K ⟨⟩))
          ⊢ wp frame (wpE (defs₀ (F := F)) Variants.none c none) E
              (cc1__cell_kernel i tbM1 (Memref.isWhole_whole _) arg3 harg3 arg4 harg4 arg5 harg5 arg6 harg6 arg7 harg7 arg8 harg8 arg9 harg9) K } := by
  refine ⟨?_, ?_, ?_, fun E K => ?run⟩
  case run =>
    simp only [cc1__cell_kernel_eq_skeleton]; unfold cc1__cell_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexists arg8.view.junk; iexact H8
    isplitl [H9]; · iexists arg9.view.junk; iexact H9
    iexact HT

set_option maxHeartbeats 4000000 in
/-- AT ANY OTHER NODE COORDINATE. The same without the zero fill: each scratch comes back with its one piece (the node's own
    slab) written over its buffer, the slab the table word names read off that buffer. -/
noncomputable def kernelRun1_B (c : Dev nD) (i : grid1.Coords)
    (arg3 : Memref sig .tc .vmem S1x128x1024 .bf16) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S1x128x1024 .f32) (harg7 : arg7.IsWhole)
    (arg8 : Memref sig .tc .vmem S16x128x1024 .f32) (harg8 : arg8.IsWhole) (arg9 : Memref sig .tc .vmem S16x128x1024 .f32) (harg9 : arg9.IsWhole)
    (hc0 : ¬cond1_0 i)
    (x0 : Vec F S1x128x1024 .bf16) (x1 x2 : Vec F S1024x4096 .bf16) (x3 : Vec F S1x4096 .f32)
    (fh : arg8.view.ty.Contents (Elt F)) (fc : arg9.view.ty.Contents (Elt F))
    (xt : TbBuf1 (F := F) c tbM1) (k1_hw1 : k1_chk1 (tblWord xt i)) :
    Σ' (L4 : List (View.Piece (Elt F) S1x128x1024 .f32)) (LH : List (View.Piece (Elt F) S16x128x1024 .f32)), { LC : List (View.Piece (Elt F) S16x128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (arg8.view.loc (c : Thread nD τ) ↦[arg8.view.set]{fullShare} fh) ∗ (arg9.view.loc (c : Thread nD τ) ↦[arg9.view.set]{fullShare} fc) ∗ tbPt1 c tbM1 xt
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (∃ f, arg7.view.loc (c : Thread nD τ) ↦[arg7.view.set]{fullShare} arg7.view.writes (Elt F) f L4)
                ∗ (arg8.view.loc (c : Thread nD τ) ↦[arg8.view.set]{fullShare} arg8.view.writes (Elt F) fh LH)
                ∗ (arg9.view.loc (c : Thread nD τ) ↦[arg9.view.set]{fullShare} arg9.view.writes (Elt F) fc LC)
                ∗ tbPt1 c tbM1 xt) -∗ K ⟨⟩))
          ⊢ wp frame (wpE (defs₀ (F := F)) Variants.none c none) E
              (cc1__cell_kernel i tbM1 (Memref.isWhole_whole _) arg3 harg3 arg4 harg4 arg5 harg5 arg6 harg6 arg7 harg7 arg8 harg8 arg9 harg9) K } := by
  refine ⟨?_, ?_, ?_, fun E K => ?run⟩
  case run =>
    simp only [cc1__cell_kernel_eq_skeleton]; unfold cc1__cell_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, H8, H9, HT, Hk⟩
    obtain rfl := harg3.eq_unread hf0; obtain rfl := harg4.eq_unread hf1; obtain rfl := harg5.eq_unread hf2; obtain rfl := harg6.eq_unread hf3
    sl_exec (disch := first | exact hc0 | sl_exact k1_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists f4; iexact H4
    isplitl [H8]; · iexact H8
    isplitl [H9]; · iexact H9
    iexact HT

end Cert.Kernel.K1

end
-- ==== Proof.KB.Data1.lean ====
/-
  One region of the program: the contents its buffers hold point by point, the invariant its pipeline carries,
  the proof data, and the body obligation.

  The kernel walks a tree in node order. Two scratch buffers of sixteen slabs hold the hidden rows and the cell
  rows of the nodes done so far (slab 0 the zero state every root reads). At node coordinate 0 both scratches
  are stored whole with zeros; at every point the body reads the table word at the node coordinate, loads that
  slab of both scratches (the parent's state), computes the cell from it and the staged blocks, and stores the
  new hidden rows into slab (node + 1) of the hidden scratch and into the output block, the new cell rows into
  slab (node + 1) of the cell scratch.
-/
import proofs.«109754_j89713276879117_1_alg».proof.Proof.KB.Common
import proofs.«109754_j89713276879117_1_alg».proof.Proof.KB.Body1
import Idealize.ShloMosaic.Lib.Pipeline.Value

set_option maxRecDepth 16384

noncomputable section

namespace Cert.Kernel.K1

open Cert.Kernel Cert.Kernel.Gen Cert.Kernel.KC
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The prefetched table -/

/-- Every word of the constant names a slab of the scratches: each is below 16. -/
theorem chk_tbl (i : grid1.Coords) : k1_chk1 (tblWord (tblC (F := F)) i) := by
  have key : ∀ j : Fin 15, k1_chk1 (lit0 j) := by decide +kernel
  show k1_chk1 (lit0 (S15.rowMajor ((rWord i).emb i0)))
  exact key _

/-! ## The pipeline at the table, its points and the body there -/

/-- The grid has 30 points: 2 batch halves of 15 nodes. -/
theorem N_A : (cfg1 (adm (F := F) 1)).N = 30 := N_1

/-- Each window's current staging memref at point `t`, as the pipeline passes it to the body, and its wholeness. -/
abbrev ms1_0 (t : Fin (cfg1 (adm (F := F) 1)).N) : Memref sig .tc .vmem S1x128x1024 .bf16 := spec1_0.stage ((cfg1 (adm (F := F) 1)).slots t 0)
abbrev hs1_0 (t : Fin (cfg1 (adm (F := F) 1)).N) : (ms1_0 (F := F) t).IsWhole := hstage1_0 (((cfg1 (adm (F := F) 1)).slots t 0).cast nbuf1_0)
abbrev ms1_1 (t : Fin (cfg1 (adm (F := F) 1)).N) : Memref sig .tc .vmem S1024x4096 .bf16 := spec1_1.stage ((cfg1 (adm (F := F) 1)).slots t 1)
abbrev hs1_1 (t : Fin (cfg1 (adm (F := F) 1)).N) : (ms1_1 (F := F) t).IsWhole := hstage1_1 (((cfg1 (adm (F := F) 1)).slots t 1).cast nbuf1_1)
abbrev ms1_2 (t : Fin (cfg1 (adm (F := F) 1)).N) : Memref sig .tc .vmem S1024x4096 .bf16 := spec1_2.stage ((cfg1 (adm (F := F) 1)).slots t 2)
abbrev hs1_2 (t : Fin (cfg1 (adm (F := F) 1)).N) : (ms1_2 (F := F) t).IsWhole := hstage1_2 (((cfg1 (adm (F := F) 1)).slots t 2).cast nbuf1_2)
abbrev ms1_3 (t : Fin (cfg1 (adm (F := F) 1)).N) : Memref sig .tc .vmem S1x4096 .f32 := spec1_3.stage ((cfg1 (adm (F := F) 1)).slots t 3)
abbrev hs1_3 (t : Fin (cfg1 (adm (F := F) 1)).N) : (ms1_3 (F := F) t).IsWhole := hstage1_3 (((cfg1 (adm (F := F) 1)).slots t 3).cast nbuf1_3)
abbrev ms1_4 (t : Fin (cfg1 (adm (F := F) 1)).N) : Memref sig .tc .vmem S1x128x1024 .f32 := spec1_4.stage ((cfg1 (adm (F := F) 1)).slots t 4)
abbrev hs1_4 (t : Fin (cfg1 (adm (F := F) 1)).N) : (ms1_4 (F := F) t).IsWhole := hstage1_4 (((cfg1 (adm (F := F) 1)).slots t 4).cast nbuf1_4)
/-- The two scratch operands: whole buffers passed beside the windows (the table's memref is `tbM1`). -/
abbrev scM1_0 : Memref sig .tc .vmem S16x128x1024 .f32 := Memref.whole cc1_scratch0
abbrev scM1_1 : Memref sig .tc .vmem S16x128x1024 .f32 := Memref.whole cc1_scratch1

/-- The kernel body at point `t`, on what the pipeline calls it with. -/
abbrev bodyAt1 (t : Fin (cfg1 (adm (F := F) 1)).N) : Prog (TpuEff nD τ sig (Elt F) Λ₀ .tc) PUnit :=
  cc1__cell_kernel (grid1.coords t) tbM1 (Memref.isWhole_whole _) (ms1_0 t) (hs1_0 t) (ms1_1 t) (hs1_1 t) (ms1_2 t) (hs1_2 t)
    (ms1_3 t) (hs1_3 t) (ms1_4 t) (hs1_4 t) scM1_0 (Memref.isWhole_whole _) scM1_1 (Memref.isWhole_whole _)

/-! ## The cell on contents -/

/-- The rectangles of the body's accesses: the staged blocks whole, the parent's slab, the node's own slab. -/
abbrev rX : Rect S1x128x1024 := Rect.unit (s := S1x128x1024) ![0, 0, 0] S1x128x1024.size inb_S1x128x1024_S1x128x1024_0_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0
abbrev rPar (v : BitVec 32) (h : k1_chk1 v) : Rect S16x128x1024 := Rect.unit (s := S16x128x1024) (k1_off2 v) S1x128x1024.size (k1_off2_inb v h)
abbrev rNew (i : grid1.Coords) : Rect S16x128x1024 := Rect.unit (s := S16x128x1024) (k1_off3 i) S1x128x1024.size (k1_off3_inb i)

section Cell

variable (v : BitVec 32) (hv : k1_chk1 v) (hs cs : Vec F S16x128x1024 .f32)
  (x : Vec F S1x128x1024 .bf16) (w u : Vec F S1024x4096 .bf16) (b : Vec F S1x4096 .f32)

/-- The new cell rows: the cell of the staged blocks and of slab `v` of the two scratches. -/
def cellC : FVec F S128x1024 .f32 :=
  k1_pay7 (View.ld hs (rPar v hv)) (View.ld cs (rPar v hv)) (View.ld x rX) (View.ld w rW) (View.ld u rW) (View.ld b rB)
/-- The new hidden rows. -/
def cellH : FVec F S128x1024 .f32 :=
  k1_pay8 (View.ld hs (rPar v hv)) (View.ld cs (rPar v hv)) (View.ld x rX) (View.ld w rW) (View.ld u rW) (View.ld b rB)

/-- What one point leaves from scratches `hs`, `cs`: the output block (the new hidden rows), the hidden scratch with the node's
    slab replaced by them, the cell scratch with the node's slab replaced by the new cell rows. -/
def cellOut (i : grid1.Coords) : Vec F S1x128x1024 .f32 × Vec F S16x128x1024 .f32 × Vec F S16x128x1024 .f32 :=
  (k1_pay3 (cellH v hv hs cs x w u b),
   (rNew i).overlay hs (k1_pay1 (cellH v hv hs cs x w u b)),
   (rNew i).overlay cs (k1_pay2 (cellC v hv hs cs x w u b)))

end Cell

/-! ## Small facts about contents and the invariant's parts -/

omit [FloatOps F] in
/-- What a run of stores leaves reads as the last store's payload laid over what the earlier ones left. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [Rect.overlay_of_not_mem _ _ _ hy, View.writes_cons, View.read_slice_write_of_not_mem r _ _ _ hy']

omit [FloatOps F] in
/-- Laid over anything through the whole-shape rectangle at zero offsets, a payload is all there is. -/
theorem overlay_unit_zero {S : Shape} {α : Type} {off : Fin S.rank → ℕ} (h : off = fun _ => 0) (inb : ∀ a, off a + S.size a ≤ S.size a)
    (X : S.Idx → α) (w : S.Idx → α) : (Rect.unit off S.size inb).overlay X w = w := by
  subst h; funext y
  have e := Rect.overlay_emb (Rect.whole S) X w y
  rwa [Rect.emb_whole_apply] at e

/-- The zero offsets of the whole-block accesses, however they are spelt. -/
theorem zero3 : (![0, 0, 0] : Fin 3 → ℕ) = fun _ => 0 := funext fun a => by fin_cases a <;> rfl
theorem zero2 : (![0, 0] : Fin 2 → ℕ) = fun _ => 0 := funext fun a => by fin_cases a <;> rfl

/-- The scoped buffers no window stages: the two scratches, each whole at some contents, and the rest unopened. -/
theorem scopedRest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] ⟨⟨by decide, by decide⟩, ⟨by decide, by decide⟩⟩ (by decide)

/-- What the region hands in beside the table, with the scratches as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

/-- The table whole at the constant, as the body's run holds it. -/
theorem prefHeld1_eq (c : Dev nD) :
    (Pipeline.prefHeld (Ix := Unit) (Name := ℕ) (U := UR sig nD τ) (Lvl := ℕ) pre1 c (fun _ => fullShare) (adm (F := F) 1).1 : sProp 𝕄)
      = tbPt1 c tbM1 (tblC (F := F)) := by
  unfold Pipeline.prefHeld
  rw [show (Finset.univ : Finset (Fin 1)) = {(0 : Fin 1)} from by decide, bigSep_singleton]
  rfl

/-! ## The region at entry contents `V` -/

section Region

variable (V : (c : Dev nD) → (b : Ref sig .tc) → Buf (Elt F) ((c : Thread nD τ).loc b))

/-- Window `w`'s block at point `t`, read off its array as the region finds it. -/
def iblk1 (c : Dev nD) (w : Fin (cfg1 (adm (F := F) 1)).W) (t : Fin (cfg1 (adm (F := F) 1)).N) :
    (((cfg1 (adm (F := F) 1)).win w).xblock ((cfg1 (adm (F := F) 1)).grid.coords t)).Idx → Elt F ((cfg1 (adm (F := F) 1)).win w).elt :=
  (((cfg1 (adm (F := F) 1)).win w).blk t).view.read (Elt F) (V c (Pipeline.arrRef spec1 w))

/-- One point from scratches `hs`, `cs`, at the point's table word and staged blocks. -/
def cellAt (c : Dev nD) (t : Fin (cfg1 (adm (F := F) 1)).N) (hs cs : Vec F S16x128x1024 .f32) :
    Vec F S1x128x1024 .f32 × Vec F S16x128x1024 .f32 × Vec F S16x128x1024 .f32 :=
  cellOut (tblWord (tblC (F := F)) (grid1.coords t)) (chk_tbl (grid1.coords t)) hs cs
    (iblk1 V c 0 t) (iblk1 V c 1 t) (iblk1 V c 2 t) (iblk1 V c 3 t) (grid1.coords t)

/-- THE ACCUMULATION. The output block, the hidden scratch and the cell scratch after the body at position `n`: at node
    coordinate 0 (the positions divisible by 15) the cell over the zero scratches, elsewhere over what the position before left. -/
def outsAt1 (c : Dev nD) : (n : ℕ) → n < (cfg1 (adm (F := F) 1)).N → Vec F S1x128x1024 .f32 × Vec F S16x128x1024 .f32 × Vec F S16x128x1024 .f32
  | 0, hn => cellAt V c ⟨0, hn⟩ k1_pay4 k1_pay5
  | n + 1, hn =>
    if (n + 1) % 15 = 0 then cellAt V c ⟨n + 1, hn⟩ k1_pay4 k1_pay5
    else cellAt V c ⟨n + 1, hn⟩ (outsAt1 c n (Nat.lt_of_succ_lt hn)).2.1 (outsAt1 c n (Nat.lt_of_succ_lt hn)).2.2

/-- At a point of node coordinate 0: the cell over the zero scratches. -/
theorem outsAt1_A (c : Dev nD) (t : Fin (cfg1 (adm (F := F) 1)).N) (h0 : t.val % 15 = 0) :
    outsAt1 V c t.val t.isLt = cellAt V c t k1_pay4 k1_pay5 := by
  obtain ⟨n, hn⟩ := t
  cases n with
  | zero => exact rfl
  | succ n => exact (if_pos h0).trans rfl

/-- At any other point: the cell over what the point before left in the scratches. -/
theorem outsAt1_B (c : Dev nD) (t : Fin (cfg1 (adm (F := F) 1)).N) (h0 : ¬t.val % 15 = 0) :
    outsAt1 V c t.val t.isLt = cellAt V c t (outsAt1 V c (t.val - 1) (Nat.lt_of_le_of_lt (Nat.sub_le _ _) t.isLt)).2.1
      (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (if_neg h0).trans rfl

/-- The region invariant before position `n`. Before the first point: what the region hands in, the scoped buffers no
    window stages at anything with the generator register, and the table whole at the constant. Afterwards: the two
    scratches at what the point before left, the other scoped buffers at anything, the register, the table. -/
def PhiS1 (c : Dev nD) : (n : ℕ) → n ≤ (cfg1 (adm (F := F) 1)).N → sProp 𝕄
  | 0, _ => iprop(Pipeline.ΦA spec1 c ∗ Pipeline.prefHeld pre1 c (fun _ => fullShare) (adm (F := F) 1).1)
  | n + 1, hn => iprop(owns (c : Thread nD τ) scM1_0 fullShare (outsAt1 V c n hn).2.1
      ∗ owns (c : Thread nD τ) scM1_1 fullShare (outsAt1 V c n hn).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1)

theorem PhiS1_zero (c : Dev nD) (n : ℕ) (h : n ≤ (cfg1 (adm (F := F) 1)).N) (hz : n = 0) :
    PhiS1 V c n h = iprop(Pipeline.ΦA spec1 c ∗ Pipeline.prefHeld pre1 c (fun _ => fullShare) (adm (F := F) 1).1) := by
  subst hz; rfl

theorem PhiS1_succ (c : Dev nD) (n : ℕ) (hn : n < (cfg1 (adm (F := F) 1)).N) :
    PhiS1 V c (n + 1) hn = iprop(owns (c : Thread nD τ) scM1_0 fullShare (outsAt1 V c n hn).2.1
      ∗ owns (c : Thread nD τ) scM1_1 fullShare (outsAt1 V c n hn).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1) := rfl

/-- Before a point that is not the first: the scratches at what the point before left. -/
theorem PhiS1_pos (c : Dev nD) (n : ℕ) (h : n ≤ (cfg1 (adm (F := F) 1)).N) (hz : n ≠ 0) :
    PhiS1 V c n h = iprop(owns (c : Thread nD τ) scM1_0 fullShare (outsAt1 V c (n - 1) (by omega)).2.1
      ∗ owns (c : Thread nD τ) scM1_1 fullShare (outsAt1 V c (n - 1) (by omega)).2.2
      ∗ Pipeline.scopedRestBut (Ix := Unit) (Name := ℕ) (U := UR sig nD τ) (Lvl := ℕ) (Val := Elt F) spec1 c [cc1_scratch0, cc1_scratch1]
      ∗ (∃ r, prngReg c r)
      ∗ Pipeline.prefHeld pre1 c (fun _ => fullShare) (adm (F := F) 1).1) := by
  cases n with
  | zero => exact absurd rfl hz
  | succ n => rfl

/-- The proof data of the pipeline on core `c`: the arrays as the region finds them; after the body at point `t` each
    input's buffer at its block and the output's at the point's new hidden rows; the invariant `PhiS1`; nothing owed;
    full shares. -/
def dat1 (c : Dev nD) : Dat τ (Elt F) Unit ℕ (UR sig nD τ) ℕ (cfg1 (adm (F := F) 1)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin (cfg1 (adm (F := F) 1)).W) : (dat1 V c).A w = V c (Pipeline.arrRef spec1 w) := by
  dsimp only [dat1]

theorem after1_0 (c : Dev nD) (t : Fin (cfg1 (adm (F := F) 1)).N) : (dat1 V c).after 0 t = iblk1 V c 0 t := by dsimp only [dat1] <;> rfl
theorem after1_1 (c : Dev nD) (t : Fin (cfg1 (adm (F := F) 1)).N) : (dat1 V c).after 1 t = iblk1 V c 1 t := by dsimp only [dat1] <;> rfl
theorem after1_2 (c : Dev nD) (t : Fin (cfg1 (adm (F := F) 1)).N) : (dat1 V c).after 2 t = iblk1 V c 2 t := by dsimp only [dat1] <;> rfl
theorem after1_3 (c : Dev nD) (t : Fin (cfg1 (adm (F := F) 1)).N) : (dat1 V c).after 3 t = iblk1 V c 3 t := by dsimp only [dat1] <;> rfl
theorem after1_4 (c : Dev nD) (t : Fin (cfg1 (adm (F := F) 1)).N) : (dat1 V c).after 4 t = (outsAt1 V c t.val t.isLt).1 := by dsimp only [dat1] <;> rfl

/-- The invariant at a point's start and end, restated at the point's position. -/
theorem Phi1_zero (c : Dev nD) : (dat1 V c).Φ 0 = iprop(Pipeline.ΦA spec1 c ∗ Pipeline.prefHeld pre1 c (fun _ => fullShare) (adm (F := F) 1).1) := rfl
theorem Phi1_castSucc (c : Dev nD) (t : Fin (cfg1 (adm (F := F) 1)).N) :
    (dat1 V c).Φ t.castSucc = PhiS1 V c t.val (Nat.le_of_lt t.isLt) := by
  dsimp only [dat1]; simp only [Fin.coe_castSucc]
theorem Phi1_succ (c : Dev nD) (t : Fin (cfg1 (adm (F := F) 1)).N) :
    (dat1 V c).Φ t.succ = PhiS1 V c (t.val + 1) t.isLt := rfl

/-- What the region hands in is the invariant before the first point, -/
theorem PhiS1_in (c : Dev nD) :
    iprop(Pipeline.ΦA spec1 c ∗ Pipeline.prefHeld pre1 c (fun _ => fullShare) (adm (F := F) 1).1) ⊢ (dat1 V c).Φ 0 := by
  rw [Phi1_zero]

/-- After any point the invariant gives that back: the scratches' named contents are forgotten. -/
theorem Phi1_out (c : Dev nD) (t : Fin ((cfg1 (adm (F := F) 1)).N + 1)) (ht : t.val ≠ 0) :
    (dat1 V c).Φ t ⊢ iprop(Pipeline.ΦA spec1 c ∗ Pipeline.prefHeld pre1 c (fun _ => fullShare) (adm (F := F) 1).1) := by
  rw [show (dat1 V c).Φ t = PhiS1 V c t.val (Nat.le_of_lt_succ t.isLt) from rfl, PhiS1_pos V c _ _ ht, PhiA1_eq]
  iintro ⟨HS0, HS1, HR, Hg, HT⟩
  isplitr [HT]
  · isplitl [HS0 HS1 HR]
    · isplitl [HS0 HS1]
      · isplitl [HS0]
        · iexists _; iexact HS0
        iexists _; iexact HS1
      iexact HR
    iexact Hg
  iexact HT

/-- The same after the last point. -/
theorem PhiS1_out (c : Dev nD) :
    (dat1 V c).Φ (Fin.last (cfg1 (adm (F := F) 1)).N) ⊢ iprop(Pipeline.ΦA spec1 c ∗ Pipeline.prefHeld pre1 c (fun _ => fullShare) (adm (F := F) 1).1) :=
  Phi1_out V c _ (by rw [Fin.val_last]; have : (cfg1 (adm (F := F) 1)).N = 30 := N_A; omega)

/-- Each input's current staging buffer holds its block at every point, fetched there or not. -/
theorem before1_0_of {c : Dev nD} (dat : Dat τ (Elt F) Unit ℕ (UR sig nD τ) ℕ (cfg1 (adm (F := F) 1)) c) (hA : dat.A 0 = V c (Pipeline.arrRef spec1 0))
    (hafter : ∀ t, dat.after 0 t = iblk1 V c 0 t) (t : Fin (cfg1 (adm (F := F) 1)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 (adm (F := F) 1)) c) (hA : dat.A 1 = V c (Pipeline.arrRef spec1 1))
    (hafter : ∀ t, dat.after 1 t = iblk1 V c 1 t) (t : Fin (cfg1 (adm (F := F) 1)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 (adm (F := F) 1)) c) (hA : dat.A 2 = V c (Pipeline.arrRef spec1 2))
    (hafter : ∀ t, dat.after 2 t = iblk1 V c 2 t) (t : Fin (cfg1 (adm (F := F) 1)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ (cfg1 (adm (F := F) 1)) c) (hA : dat.A 3 = V c (Pipeline.arrRef spec1 3))
    (hafter : ∀ t, dat.after 3 t = iblk1 V c 3 t) (t : Fin (cfg1 (adm (F := F) 1)).N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfg1 (adm (F := F) 1)).N) (d) : (dat1 V c).before 0 t d = iblk1 V c 0 t :=
  before1_0_of V (dat1 V c) (A_eq1 V c 0) (after1_0 V c) t d
theorem before1_1 (c : Dev nD) (t : Fin (cfg1 (adm (F := F) 1)).N) (d) : (dat1 V c).before 1 t d = iblk1 V c 1 t :=
  before1_1_of V (dat1 V c) (A_eq1 V c 1) (after1_1 V c) t d
theorem before1_2 (c : Dev nD) (t : Fin (cfg1 (adm (F := F) 1)).N) (d) : (dat1 V c).before 2 t d = iblk1 V c 2 t :=
  before1_2_of V (dat1 V c) (A_eq1 V c 2) (after1_2 V c) t d
theorem before1_3 (c : Dev nD) (t : Fin (cfg1 (adm (F := F) 1)).N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin (cfg1 (adm (F := F) 1)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin (cfg1 (adm (F := F) 1)).N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

end Region

/-! ## What the runs' pieces read back as -/

section Pieces

variable (c : Dev nD) (i : grid1.Coords)
  (arg3 : Memref sig .tc .vmem S1x128x1024 .bf16) (harg3 : arg3.IsWhole) (arg4 : Memref sig .tc .vmem S1024x4096 .bf16) (harg4 : arg4.IsWhole)
  (arg5 : Memref sig .tc .vmem S1024x4096 .bf16) (harg5 : arg5.IsWhole) (arg6 : Memref sig .tc .vmem S1x4096 .f32) (harg6 : arg6.IsWhole)
  (arg7 : Memref sig .tc .vmem S1x128x1024 .f32) (harg7 : arg7.IsWhole)
  (arg8 : Memref sig .tc .vmem S16x128x1024 .f32) (harg8 : arg8.IsWhole) (arg9 : Memref sig .tc .vmem S16x128x1024 .f32) (harg9 : arg9.IsWhole)
  (x0 : Vec F S1x128x1024 .bf16) (x1 x2 : Vec F S1024x4096 .bf16) (x3 : Vec F S1x4096 .f32)
  (xt : TbBuf1 (F := F) c tbM1) (hw : k1_chk1 (tblWord xt i))

/-- At node coordinate 0 the three buffers read back as the cell over the zero scratches, whatever they held. -/
theorem runA_reads (hc0 : cond1_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    (arg7.view.read (Elt F) (arg7.view.writes (Elt F) f7 (kernelRun1_A c i arg3 harg3 arg4 harg4 arg5 harg5 arg6 harg6 arg7 harg7 arg8 harg8 arg9 harg9 hc0 x0 x1 x2 x3 fh fc xt hw).1),
     arg8.view.read (Elt F) (arg8.view.writes (Elt F) f8 (kernelRun1_A c i arg3 harg3 arg4 harg4 arg5 harg5 arg6 harg6 arg7 harg7 arg8 harg8 arg9 harg9 hc0 x0 x1 x2 x3 fh fc xt hw).2.1),
     arg9.view.read (Elt F) (arg9.view.writes (Elt F) f9 (kernelRun1_A c i arg3 harg3 arg4 harg4 arg5 harg5 arg6 harg6 arg7 harg7 arg8 harg8 arg9 harg9 hc0 x0 x1 x2 x3 fh fc xt hw).2.2.1))
      = cellOut (tblWord xt i) hw k1_pay4 k1_pay5 x0 x1 x2 x3 i := by
  unfold kernelRun1_A cellOut cellH cellC
  dsimp only
  sl_unfold_run_names
  simp only [tblWord, read_writes_cons_overlay, View.writes_nil, overlay_unit_zero (S := S16x128x1024) zero3, overlay_unit_zero (S := S1x128x1024) zero3,
    View.readCov_eq_canon', View.canon_unit_zero (S := S16x128x1024) zero3, View.readAt_eq_ld, Memref.IsWhole.read_unread]
  try rfl

/-- At any other node coordinate they read back as the cell over what the scratches held. -/
theorem runB_reads (hc0 : ¬cond1_0 i) (f7 : arg7.view.ty.Contents (Elt F)) (fh : arg8.view.ty.Contents (Elt F)) (fc : arg9.view.ty.Contents (Elt F)) :
    (arg7.view.read (Elt F) (arg7.view.writes (Elt F) f7 (kernelRun1_B c i arg3 harg3 arg4 harg4 arg5 harg5 arg6 harg6 arg7 harg7 arg8 harg8 arg9 harg9 hc0 x0 x1 x2 x3 fh fc xt hw).1),
     arg8.view.read (Elt F) (arg8.view.writes (Elt F) fh (kernelRun1_B c i arg3 harg3 arg4 harg4 arg5 harg5 arg6 harg6 arg7 harg7 arg8 harg8 arg9 harg9 hc0 x0 x1 x2 x3 fh fc xt hw).2.1),
     arg9.view.read (Elt F) (arg9.view.writes (Elt F) fc (kernelRun1_B c i arg3 harg3 arg4 harg4 arg5 harg5 arg6 harg6 arg7 harg7 arg8 harg8 arg9 harg9 hc0 x0 x1 x2 x3 fh fc xt hw).2.2.1))
      = cellOut (tblWord xt i) hw (arg8.view.read (Elt F) fh) (arg9.view.read (Elt F) fc) x0 x1 x2 x3 i := by
  unfold kernelRun1_B cellOut cellH cellC
  dsimp only
  sl_unfold_run_names
  simp only [tblWord, read_writes_cons_overlay, View.writes_nil, overlay_unit_zero (S := S1x128x1024) zero3, View.readAt_eq_ld, Memref.IsWhole.read_unread]
  try rfl

/-- The same, component by component. -/
theorem runA_reads3 (hc0 : cond1_0 i) (fh : arg8.view.ty.Contents (Elt F)) (fc : arg9.view.ty.Contents (Elt F))
    (f7 : arg7.view.ty.Contents (Elt F)) (f8 : arg8.view.ty.Contents (Elt F)) (f9 : arg9.view.ty.Contents (Elt F)) :
    arg7.view.read (Elt F) (arg7.view.writes (Elt F) f7 (kernelRun1_A c i arg3 harg3 arg4 harg4 arg5 harg5 arg6 harg6 arg7 harg7 arg8 harg8 arg9 harg9 hc0 x0 x1 x2 x3 fh fc xt hw).1)
        = (cellOut (tblWord xt i) hw k1_pay4 k1_pay5 x0 x1 x2 x3 i).1
    ∧ arg8.view.read (Elt F) (arg8.view.writes (Elt F) f8 (kernelRun1_A c i arg3 harg3 arg4 harg4 arg5 harg5 arg6 harg6 arg7 harg7 arg8 harg8 arg9 harg9 hc0 x0 x1 x2 x3 fh fc xt hw).2.1)
        = (cellOut (tblWord xt i) hw k1_pay4 k1_pay5 x0 x1 x2 x3 i).2.1
    ∧ arg9.view.read (Elt F) (arg9.view.writes (Elt F) f9 (kernelRun1_A c i arg3 harg3 arg4 harg4 arg5 harg5 arg6 harg6 arg7 harg7 arg8 harg8 arg9 harg9 hc0 x0 x1 x2 x3 fh fc xt hw).2.2.1)
        = (cellOut (tblWord xt i) hw k1_pay4 k1_pay5 x0 x1 x2 x3 i).2.2 :=
  have h := runA_reads c i arg3 harg3 arg4 harg4 arg5 harg5 arg6 harg6 arg7 harg7 arg8 harg8 arg9 harg9 x0 x1 x2 x3 xt hw hc0 fh fc f7 f8 f9
  ⟨congrArg Prod.fst h, congrArg (fun p => p.2.1) h, congrArg (fun p => p.2.2) h⟩

theorem runB_reads3 (hc0 : ¬cond1_0 i) (f7 : arg7.view.ty.Contents (Elt F)) (fh : arg8.view.ty.Contents (Elt F)) (fc : arg9.view.ty.Contents (Elt F)) :
    arg7.view.read (Elt F) (arg7.view.writes (Elt F) f7 (kernelRun1_B c i arg3 harg3 arg4 harg4 arg5 harg5 arg6 harg6 arg7 harg7 arg8 harg8 arg9 harg9 hc0 x0 x1 x2 x3 fh fc xt hw).1)
        = (cellOut (tblWord xt i) hw (arg8.view.read (Elt F) fh) (arg9.view.read (Elt F) fc) x0 x1 x2 x3 i).1
    ∧ arg8.view.read (Elt F) (arg8.view.writes (Elt F) fh (kernelRun1_B c i arg3 harg3 arg4 harg4 arg5 harg5 arg6 harg6 arg7 harg7 arg8 harg8 arg9 harg9 hc0 x0 x1 x2 x3 fh fc xt hw).2.1)
        = (cellOut (tblWord xt i) hw (arg8.view.read (Elt F) fh) (arg9.view.read (Elt F) fc) x0 x1 x2 x3 i).2.1
    ∧ arg9.view.read (Elt F) (arg9.view.writes (Elt F) fc (kernelRun1_B c i arg3 harg3 arg4 harg4 arg5 harg5 arg6 harg6 arg7 harg7 arg8 harg8 arg9 harg9 hc0 x0 x1 x2 x3 fh fc xt hw).2.2.1)
        = (cellOut (tblWord xt i) hw (arg8.view.read (Elt F) fh) (arg9.view.read (Elt F) fc) x0 x1 x2 x3 i).2.2 :=
  have h := runB_reads c i arg3 harg3 arg4 harg4 arg5 harg5 arg6 harg6 arg7 harg7 arg8 harg8 arg9 harg9 x0 x1 x2 x3 xt hw hc0 f7 fh fc
  ⟨congrArg Prod.fst h, congrArg (fun p => p.2.1) h, congrArg (fun p => p.2.2) h⟩

end Pieces

section Region

variable (V : (c : Dev nD) → (b : Ref sig .tc) → Buf (Elt F) ((c : Thread nD τ).loc b))

set_option maxHeartbeats 4800000 in
/-- The body at any point. The inputs' memrefs hold their blocks; the node coordinate says which run applies. At node
    coordinate 0 the invariant hands the scratches at anything (the first point) or at what the point before left, which the
    run forgets; elsewhere at what the point before left, as buffers the run writes over. The run gives the scratches and
    the output block back at the cell's contents (`runA_reads`, `runB_reads`); the table, the other scoped buffers, the
    register and the core's dues pass through. -/
theorem sound_body1 (c : Dev nD) (t : Fin (cfg1 (adm (F := F) 1)).N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, PhiS1_succ, after1_0, after1_1, after1_2, after1_3, after1_4, prefHeld1_eq]
  by_cases h0 : t.val % 15 = 0
  · have hc0 : cond1_0 (grid1.coords t) := (hcond1_0 t).mpr h0
    rw [outsAt1_A V c t h0]
    unfold cellAt
    by_cases hz : t.val = 0
    · rw [Phi1_castSucc, PhiS1_zero V c _ _ hz, PhiA1_eq, prefHeld1_eq]
      iintro ⟨⟨⟨⟨⟨⟨%dh, HS0⟩, ⟨%dc, HS1⟩⟩, HR⟩, Hg⟩, HT⟩, Ho, ⟨%d0, H0⟩, ⟨%d1, H1⟩, ⟨%d2, H2⟩, ⟨%d3, H3⟩, ⟨%d4, H4⟩⟩
      ihave HS0' := (show owns (c : Thread nD τ) scM1_0 fullShare dh ⊢ (iprop(∃ g, ⌜scM1_0.view.read (Elt F) g = dh⌝ ∗ scM1_0.view.loc (c : Thread nD τ) ↦[scM1_0.view.set]{fullShare} g) : sProp 𝕄) from .rfl) $$ HS0
      icases HS0' with ⟨%fh, -, HS0⟩
      ihave HS1' := (show owns (c : Thread nD τ) scM1_1 fullShare dc ⊢ (iprop(∃ g, ⌜scM1_1.view.read (Elt F) g = dc⌝ ∗ scM1_1.view.loc (c : Thread nD τ) ↦[scM1_1.view.set]{fullShare} g) : sProp 𝕄) from .rfl) $$ HS1
      icases HS1' with ⟨%fc, -, HS1⟩
      iapply ((kernelRun1_A c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid1.coords t) _ (hs1_0 t) _ (hs1_1 t) _ (hs1_2 t) _ (hs1_3 t) _ (hs1_4 t) scM1_0 (Memref.isWhole_whole _) scM1_1 (Memref.isWhole_whole _)
        (iblk1 V c 0 t) (iblk1 V c 1 t) (iblk1 V c 2 t) (iblk1 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
    · rw [Phi1_castSucc, PhiS1_pos V c _ _ hz, prefHeld1_eq]
      generalize (outsAt1 V c (t.val - 1) (Nat.lt_of_le_of_lt (Nat.sub_le _ _) t.isLt)).2.1 = dh
      generalize (outsAt1 V c (t.val - 1) (Nat.lt_of_le_of_lt (Nat.sub_le _ _) t.isLt)).2.2 = dc
      iintro ⟨⟨HS0, HS1, HR, Hg, HT⟩, Ho, ⟨%d0, H0⟩, ⟨%d1, H1⟩, ⟨%d2, H2⟩, ⟨%d3, H3⟩, ⟨%d4, H4⟩⟩
      ihave HS0' := (show owns (c : Thread nD τ) scM1_0 fullShare dh ⊢ (iprop(∃ g, ⌜scM1_0.view.read (Elt F) g = dh⌝ ∗ scM1_0.view.loc (c : Thread nD τ) ↦[scM1_0.view.set]{fullShare} g) : sProp 𝕄) from .rfl) $$ HS0
      icases HS0' with ⟨%fh, -, HS0⟩
      ihave HS1' := (show owns (c : Thread nD τ) scM1_1 fullShare dc ⊢ (iprop(∃ g, ⌜scM1_1.view.read (Elt F) g = dc⌝ ∗ scM1_1.view.loc (c : Thread nD τ) ↦[scM1_1.view.set]{fullShare} g) : sProp 𝕄) from .rfl) $$ HS1
      icases HS1' with ⟨%fc, -, HS1⟩
      iapply ((kernelRun1_A c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HT]; · iexact HT
      iintro ⟨H0, H1, H2, H3, ⟨%e4, H4⟩, ⟨%e8, H8⟩, ⟨%e9, H9⟩, HT⟩
      obtain ⟨hr1, hr2, hr3⟩ := runA_reads3 c (grid1.coords t) _ (hs1_0 t) _ (hs1_1 t) _ (hs1_2 t) _ (hs1_3 t) _ (hs1_4 t) scM1_0 (Memref.isWhole_whole _) scM1_1 (Memref.isWhole_whole _)
        (iblk1 V c 0 t) (iblk1 V c 1 t) (iblk1 V c 2 t) (iblk1 V c 3 t) tblC (chk_tbl _) hc0 fh fc e4 e8 e9
      isplitl [H8 H9 HR Hg HT]
      · isplitl [H8]
        · unfold owns; iexists _; isplitr
          swap; · iexact H8
          ipureintro; exact hr2
        isplitl [H9]
        · unfold owns; iexists _; isplitr
          swap; · iexact H9
          ipureintro; exact hr3
        isplitl [HR]; · iexact HR
        isplitl [Hg]; · iexact Hg
        iexact HT
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact hr1
  · have hc0 : ¬cond1_0 (grid1.coords t) := fun h => h0 ((hcond1_0 t).mp h)
    have hz : t.val ≠ 0 := fun h => h0 (by rw [h])
    rw [outsAt1_B V c t h0]
    unfold cellAt
    rw [Phi1_castSucc, PhiS1_pos V c _ _ hz, prefHeld1_eq]
    generalize (outsAt1 V c (t.val - 1) (Nat.lt_of_le_of_lt (Nat.sub_le _ _) t.isLt)).2.1 = hs
    generalize (outsAt1 V c (t.val - 1) (Nat.lt_of_le_of_lt (Nat.sub_le _ _) t.isLt)).2.2 = cs
    iintro ⟨⟨HS0, HS1, HR, Hg, HT⟩, Ho, ⟨%d0, H0⟩, ⟨%d1, H1⟩, ⟨%d2, H2⟩, ⟨%d3, H3⟩, ⟨%d4, H4⟩⟩
    ihave HS0' := (show owns (c : Thread nD τ) scM1_0 fullShare hs ⊢ (iprop(∃ g, ⌜scM1_0.view.read (Elt F) g = hs⌝ ∗ scM1_0.view.loc (c : Thread nD τ) ↦[scM1_0.view.set]{fullShare} g) : sProp 𝕄) from .rfl) $$ HS0
    icases HS0' with ⟨%fh, %hfh, HS0⟩
    ihave HS1' := (show owns (c : Thread nD τ) scM1_1 fullShare cs ⊢ (iprop(∃ g, ⌜scM1_1.view.read (Elt F) g = cs⌝ ∗ scM1_1.view.loc (c : Thread nD τ) ↦[scM1_1.view.set]{fullShare} g) : sProp 𝕄) from .rfl) $$ HS1
    icases HS1' with ⟨%fc, %hfc, HS1⟩
    subst hfh; subst hfc
    iapply ((kernelRun1_B c (grid1.coords t) _ _ _ _ _ _ _ _ _ _ _ _ _ _ hc0 (iblk1 V c 0 t) (iblk1 V c 1 t) (iblk1 V c 2 t) (iblk1 V c 3 t) fh fc tblC (chk_tbl _)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HT]; · iexact HT
    iintro ⟨H0, H1, H2, H3, ⟨%e4, H4⟩, H8, H9, HT⟩
    obtain ⟨hr1, hr2, hr3⟩ := runB_reads3 c (grid1.coords t) _ (hs1_0 t) _ (hs1_1 t) _ (hs1_2 t) _ (hs1_3 t) _ (hs1_4 t) scM1_0 (Memref.isWhole_whole _) scM1_1 (Memref.isWhole_whole _)
      (iblk1 V c 0 t) (iblk1 V c 1 t) (iblk1 V c 2 t) (iblk1 V c 3 t) tblC (chk_tbl _) hc0 e4 fh fc
    isplitl [H8 H9 HR Hg HT]
    · isplitl [H8]
      · unfold owns; iexists _; isplitr
        swap; · iexact H8
        ipureintro; exact hr2
      isplitl [H9]
      · unfold owns; iexists _; isplitr
        swap; · iexact H9
        ipureintro; exact hr3
      isplitl [HR]; · iexact HR
      isplitl [Hg]; · iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact hr1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.K1

end
-- ==== Proof.KB.Region1.lean ====
/-
  One pallas_call of the program as one item of its run.

  Between two items of the program a core holds every unscoped buffer whole, at a valuation, beside its generator
  register and the fact that it owes nothing. This module shows that the call's pipeline carries such a state at a
  valuation `Vin` to such a state at a valuation `Vout`, for any two valuations with
    * the prefetched table's buffer holding, under `Vin`, the contents the pipeline is pinned at;
    * the output window's array holding, under `Vout`, the fold of all write-backs over its contents under `Vin`;
    * every other buffer the same under both.
  The windows' arrays leave the unscoped buffers at entry and come back at exit. What is new against a call without
  tables is the table: it is one of the unscoped buffers that are no window's array, it is handed whole to the body's
  invariant (the body loads its words), and the invariant hands it back after the last grid point, so that the
  unscoped buffers are complete again at exit.

  Stated for any family of proof data whose member at this pipeline is the data of this region (`hp`), so that the
  same text serves whichever family the launch is stated over.
-/
import proofs.«109754_j89713276879117_1_alg».proof.Proof.KB.Common
import proofs.«109754_j89713276879117_1_alg».proof.Proof.KB.Data1
import Idealize.ShloMosaic.Lib.Pipeline.Frame
import Idealize.ShloMosaic.Lib.Pipeline.Regions
import Idealize.ShloMosaic.Lib.Pipeline.RegionsLoop
import Idealize.ShloMosaic.Lib.Pipeline.Kit

noncomputable section

namespace Cert.Kernel.K1

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Kernel.KC

variable {F : FTy → Type} [FloatOps F]

local notation "𝕄" => MT nD τ sig Unit (Elt F) ℕ (UR sig nD τ) ℕ

section Region

/- The region is stated between two valuations of the core's unscoped buffers: `Vin`, what it is entered from, and
   `Vout`, what it leaves. All that is asked of them: the table's buffer holds the admissible contents at entry
   (`htab`); at exit the output window's array holds what the write-backs leave (`hVout`), and every other buffer
   what it held at entry (`hVne`). -/
variable (L : GSem nD τ sig → Finset Unit) (lv : GSem nD τ sig → Unit → ℕ)
variable (Vin Vout : Dev nD → Valuation τ sig (Elt F))
variable (pdats : (p : Fin 2) → (c : Dev nD) → Dat τ (Elt F) Unit ℕ (UR sig nD τ) ℕ (Pipeline.pin (pcfgs (F := F)) adm p) c)

/-- The input windows' arrays are never written back, so at the exit they hold their entry contents, which `Vout`
    agrees with off the output array; the output window's array is `Vout`'s by hypothesis. -/
theorem arrAt_exit
    (hVout : ∀ c, Vout c main_v32 = (dat1 (Vr Vin) c).arrAt 4 (cfg1 (adm (F := F) 1)).N)
    (hVne : ∀ c (r : Ref sig .tc), r ≠ main_v32 → Vout c r = Vin c r) (c : Dev nD) :
    ∀ w : Fin 5, (dat1 (Vr Vin) c).arrAt w (cfg1 (adm (F := F) 1)).N = Vr Vout c (Pipeline.arrRef spec1 w)
  | ⟨0, _⟩ => ((dat1 (Vr Vin) c).arrAt_in 0 rfl _).trans (hVne c (Pipeline.arrRef spec1 0) (by decide)).symm
  | ⟨1, _⟩ => ((dat1 (Vr Vin) c).arrAt_in 1 rfl _).trans (hVne c (Pipeline.arrRef spec1 1) (by decide)).symm
  | ⟨2, _⟩ => ((dat1 (Vr Vin) c).arrAt_in 2 rfl _).trans (hVne c (Pipeline.arrRef spec1 2) (by decide)).symm
  | ⟨3, _⟩ => ((dat1 (Vr Vin) c).arrAt_in 3 rfl _).trans (hVne c (Pipeline.arrRef spec1 3) (by decide)).symm
  | ⟨4, _⟩ => (hVout c).symm

/-- Off the windows' arrays `Vout` is `Vin`: the output array is one of them. -/
theorem rest_exit (hVne : ∀ c (r : Ref sig .tc), r ≠ main_v32 → Vout c r = Vin c r) (c : Dev nD) :
    ∀ b, b ∉ Finset.univ.image (Pipeline.arrRef spec1) → Vr Vout c b = Vr Vin c b :=
  fun b hb => hVne c b fun e => hb (Finset.mem_image.mpr ⟨4, Finset.mem_univ _, e.symm⟩)

/-- The unscoped buffers that are no window's array: the prefetched table, whole, at the contents the pipeline is
    pinned at — which are the table's contents under `Vin` (`htab`) —, and the buffers that bypass the region. -/
theorem rest_split (htab : ∀ c k, Vr Vin c (pre1.ref k) = (adm (F := F) 1).1 k) (c : Dev nD) :
    (Pipeline.unscopedRest (Ix := Unit) (Name := ℕ) (U := UR sig nD τ) (Lvl := ℕ) spec1 c (Vr Vin c) : sProp 𝕄)
      = iprop(Pipeline.prefHeld (Ix := Unit) (Name := ℕ) (U := UR sig nD τ) (Lvl := ℕ) pre1 c (fun _ => fullShare) (adm (F := F) 1).1
          ∗ Pipeline.unscopedRestP (Ix := Unit) (Name := ℕ) (U := UR sig nD τ) (Lvl := ℕ) pre1 spec1 c (Vr Vin c)) := by
  rw [Pipeline.unscopedRest_split preFacts1 c (Vr Vin c)]
  exact congrArg (fun v => (iprop(Pipeline.prefHeld (Ix := Unit) (Name := ℕ) (U := UR sig nD τ) (Lvl := ℕ) pre1 c (fun _ => fullShare) v
      ∗ Pipeline.unscopedRestP (Ix := Unit) (Name := ℕ) (U := UR sig nD τ) (Lvl := ℕ) pre1 spec1 c (Vr Vin c)) : sProp 𝕄)) (funext (htab c))

set_option backward.isDefEq.respectTransparency.types false in
/-- THE REGION as a segment of the program: entered from every unscoped buffer of the core at `Vin` beside the
    generator register and nothing owed, left at `Vout` beside the same.

    At entry the windows' arrays are split out of the unscoped buffers; out of the rest comes the prefetched table,
    whole, at the contents the pipeline is pinned at (`htab`); what is left bypasses the region (`Z`). The table, the
    generator register and the scoped buffers no window stages make the invariant before the first point; after the
    last point the invariant gives all three back. At exit the arrays, the table and the bypassing buffers are the
    core's unscoped buffers again, at `Vout`. The kernel has no semaphore of its own and owes nothing. -/
def reg1
    (hp : ∀ c, pdats (1 : Fin 2) c = dat1 (Vr Vin) c)
    (htab : ∀ c k, Vr Vin c (pre1.ref k) = (adm (F := F) 1).1 k)
    (hVout : ∀ c, Vout c main_v32 = (dat1 (Vr Vin) c).arrAt 4 (cfg1 (adm (F := F) 1)).N)
    (hVne : ∀ c (r : Ref sig .tc), r ≠ main_v32 → Vout c r = Vin c r) :
    Pipeline.RegionSeg (pcfgs (F := F)) adm pdats () defs₀ Variants.none L lv (1 : Fin 2) where
  win := (launch1 (F := F)).win.to₀
  block_pos := (launch1 (F := F)).block_pos
  stage_whole := (launch1 (F := F)).stage_whole
  K := PEmpty
  osem k := k.elim
  ho := Pipeline.OwnSemFacts.none _
  hbody c := by rw [hp c]; exact (body_obligation1 (Vr Vin) c).loose
  hwaits := Pipeline.hwaits_of_owed_zero _ _ _ _ L lv (1 : Fin 2) fun c t => by rw [hp c]; rfl
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r)
    ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (Vr Vin c)
  hentry c := by
    rw [Pipeline.ownSems0_none]
    have hsplit := Pipeline.arrays_of_unscopedBufs (p := (1 : Fin 2)) (pcfgs (F := F)) adm pdats (launch1 (F := F)).win (launch1 (F := F)).arr_whole c
      (fun w => by rw [hp c]; exact (dat1 (Vr Vin) c).share_full (fun _ => rfl) w) (Vr Vin c) (fun w => by rw [hp c]; rfl)
    rw [Pipeline.unscopedBufs_held] at hsplit
    iintro ⟨⟨Hub, Hp, HO⟩, -, -⟩
    ihave H := hsplit $$ Hub
    icases H with ⟨Ha, Hrest⟩
    ihave H' := (Entails.of_eq (rest_split Vin htab c)) $$ Hrest
    icases H' with ⟨Ht, Hrest⟩
    imodintro
    isplitl [Ha]; · iexact Ha
    isplitl [Ht]; · iexact Ht
    isplitl [HO]
    · rw [hp c]; unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hp c]
    refine BIBase.Entails.trans ?_ (PhiS1_in (Vr Vin) c)
    unfold Pipeline.ΦA
    iintro ⟨Hp, Ht, Hr⟩
    isplitr [Ht]
    · isplitl [Hr] <;> iassumption
    · iexact Ht
  hout c := by
    rw [Pipeline.ownSems0_none, hp c]
    refine (PhiS1_out (Vr Vin) c).trans ?_
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := (1 : Fin 2)) (pcfgs (F := F)) adm (Ix := Unit) (Name := ℕ) (U := UR sig nD τ) (Lvl := ℕ)
      (launch1 (F := F)).win (launch1 (F := F)).arr_whole c pdats (fun w => by rw [hp c]; exact (dat1 (Vr Vin) c).share_full (fun _ => rfl) w)
      (Vr Vin c) (Vr Vout c) ((pdats (1 : Fin 2) c).arrAt · (cfg1 (adm (F := F) 1)).N)
      (fun w => by rw [hp c]; exact arrAt_exit Vin Vout hVout hVne c w) (rest_exit Vin Vout hVne c)
    rw [Pipeline.unscopedBufs_held] at hjoin
    iintro ⟨Ha, HO, ⟨HY, Ht⟩, HR⟩
    ihave Hrest := (Entails.of_eq (rest_split Vin htab c).symm) $$ [Ht HR]
    · isplitl [Ht]; · iexact Ht
      iexact HR
    imodintro
    isplitl [Ha Hrest]
    · iapply hjoin; isplitl [Ha] <;> iassumption
    isplitl [HY]; · iexact HY
    rw [hp c]; unfold Pipeline.Dat.owesAt Pipeline.owesWithin
    icases HO with ⟨%W, -, HO⟩; iexists W; iexact HO

end Region

end Cert.Kernel.K1

end
-- ==== Proof.KB.Launch.lean ====
/-
  The run of the whole program, with the kernel's result in its post.

  The program is five items in order: a stretch of host operations, the first pallas_call, a second stretch, the second
  pallas_call, a last stretch. Each item is entered from the state the one before left: every unscoped buffer of the
  core whole at a valuation, the generator register, nothing owed. The valuations are the launch memory pushed through
  the items: a host stretch applies its operations; a pallas_call changes its output array only, to the fold of its
  write-backs (`out0`, `out1` below). The prefetched table is written by the first operation of the first stretch and
  by nothing after it, so both calls find it at the contents their pipelines are pinned at.

  At the end the last valuation is read against the final memory: the second call's output array holds `out1` (the
  last stretch writes another buffer), and every argument holds its launch contents (nothing writes an argument).
-/
import proofs.«109754_j89713276879117_1_alg».proof.Proof.Gen.Kernel.Regions
import proofs.«109754_j89713276879117_1_alg».proof.Proof.KB.Common
import proofs.«109754_j89713276879117_1_alg».proof.Proof.KB.Region0
import proofs.«109754_j89713276879117_1_alg».proof.Proof.KB.Region1
import Idealize.ShloMosaic.Lib.Pipeline.Frame
import Idealize.ShloMosaic.Lib.Pipeline.Regions
import Idealize.ShloMosaic.Lib.Pipeline.Kit

noncomputable section

namespace Cert.Kernel.KRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen Cert.Kernel.KC
open Cert.Kernel.K0 (dat0)
open Cert.Kernel.K1 (dat1)

variable {F : FTy → Type} [FloatOps F]

local notation "𝕄" => MT nD τ sig Unit (Elt F) ℕ (UR sig nD τ) ℕ

variable (m : (ℓ : Loc nD τ sig) → Buf (Elt F) ℓ)

/-! ## What the two regions leave -/

/-- What the first region leaves in its output array: the write-backs of all its points folded over the array's
    contents at entry, the buffers standing at the launch contents run through the first host stretch. -/
def out0 (c : Dev nD) : Buf (Elt F) ((c : Thread nD τ).loc main_v16) :=
  (dat0 (Vr (V1 m)) c).arrAt 4 (cfg0 (adm (F := F) 0)).N

/-- The buffers when the second region is entered: the first region's output array at `out0`, every other buffer as
    the first host stretch left it, and then the second host stretch run. -/
abbrev W3 (c : Dev nD) : Valuation τ sig (Elt F) :=
  StableHlo.after hostOps1 (Function.update (V1 m c) main_v16 (out0 m c))

/-- What the second region leaves in its output array, likewise. -/
def out1 (c : Dev nD) : Buf (Elt F) ((c : Thread nD τ).loc main_v32) :=
  (dat1 (Vr (W3 m)) c).arrAt 4 (cfg1 (adm (F := F) 1)).N

/-- The contents the regions leave, as the program's valuations between items read them: `out0` at the first
    region's output array, `out1` at the second's; no other point is read. -/
def outs : Outs (F := F) := fun _ r c =>
  if h₀ : r = main_v16 then h₀ ▸ out0 m c
  else if h₁ : r = main_v32 then h₁ ▸ out1 m c
  else m ((c : Thread nD τ).loc r)

theorem outs_v16 (J : ℕ) (c : Dev nD) : outs m J main_v16 c = out0 m c := by
  unfold outs; exact (dif_pos rfl).trans rfl
theorem outs_v32 (J : ℕ) (c : Dev nD) : outs m J main_v32 c = out1 m c := by
  unfold outs; exact (dif_neg (by decide)).trans ((dif_pos rfl).trans rfl)

/-- The program's valuation at the second region's entry, at these contents, is `W3`. -/
theorem V3_outs : V3 m (outs m) = W3 m := funext fun c => by
  show StableHlo.after hostOps1 (Function.update (V1 m c) _ (outs m 2 main_v16 c)) = _
  rw [outs_v16]

/-- THE KERNEL'S RESULT: what the second region leaves in `main_v32`. -/
def kout (c : Dev nD) : Buf (Elt F) ((c.tc : Thread nD τ).loc main_v32) := outs m 4 main_v32 c

/-- The result is the second region's output array after all its write-backs, over the buffers it is entered from. -/
theorem kout_eq (c : Dev nD) :
    kout m c = (dat1 (Vr (V3 m (outs m))) c).arrAt 4 (cfg1 (adm (F := F) 1)).N := by
  unfold kout; rw [outs_v32, V3_outs]; rfl

/-- And the first region's, which the second host stretch reads. -/
theorem out0_eq (c : Dev nD) :
    outs m 2 main_v16 c = (dat0 (Vr (V1 m)) c).arrAt 4 (cfg0 (adm (F := F) 0)).N := outs_v16 m 2 c

/-! ## The proof data of both pipelines, and the regions as segments -/

/-- Every pipeline's proof data, each over the buffers its region is entered from. -/
def pdats : (p : Fin 2) → (c : Dev nD) → Dat τ (Elt F) Unit ℕ (UR sig nD τ) ℕ (Pipeline.pin (pcfgs (F := F)) adm p) c
  | ⟨0, _⟩ => fun c => dat0 (Vr (V1 m)) c
  | ⟨1, _⟩ => fun c => dat1 (Vr (V3 m (outs m))) c

/-- No core owes another anything: no level is assigned. -/
abbrev L : GSem nD τ sig → Finset Unit := fun _ => ∅
abbrev lv : GSem nD τ sig → Unit → ℕ := fun _ _ => 0
/-- What rides beside the buffers between items: the same at every boundary. -/
abbrev E : Fin 3 → Dev nD → sProp 𝕄 := fun _ c => Rst c

/-- The table as the first host stretch's first operation writes it, read at the first region's entry. -/
theorem tab0 (c : Dev nD) : ∀ k : Fin 1, Vr (V1 m) c (pre0.ref k) = (adm (F := F) 0).1 k
  | ⟨0, _⟩ => by
    show StableHlo.after hostOps0 (V0 m c) (Proc.devRef .tc main_c) = _
    after_results
    rfl

/-- Neither the first region nor the second host stretch writes the table: the second region finds it as the first did. -/
theorem tab1 (c : Dev nD) : ∀ k : Fin 1, Vr (V3 m (outs m)) c (pre1.ref k) = (adm (F := F) 1).1 k
  | ⟨0, _⟩ =>
    (V3_of m (outs m) c main_c (by decide)).trans <| (V2_of m (outs m) c main_c (by decide)).trans <| by
      show StableHlo.after hostOps0 (V0 m c) (Proc.devRef .tc main_c) = _
      after_results
      rfl

/-- REGION 0 between the program's valuations `V1` and `V2`. -/
def R0 : RegionSeg (pcfgs (F := F)) adm (pdats m) () defs₀ Variants.none L lv 0 :=
  K0.reg0 L lv (V1 m) (V2 m (outs m)) (pdats m) (fun _ => rfl) (tab0 m)
    (fun c => (Function.update_self _ _ _).trans (outs_v16 m 2 c))
    (fun c r h => V2_of m (outs m) c r fun hm => h (List.mem_singleton.mp hm))

/-- REGION 1 between `V3` and `V4`. -/
def R1 : RegionSeg (pcfgs (F := F)) adm (pdats m) () defs₀ Variants.none L lv 1 :=
  K1.reg1 L lv (V3 m (outs m)) (V4 m (outs m)) (pdats m) (fun _ => rfl) (tab1 m)
    (fun c => (Function.update_self _ _ _).trans ((outs_v32 m 4 c).trans (by unfold out1; rw [V3_outs])))
    (fun c r h => V4_of m (outs m) c r fun hm => h (List.mem_singleton.mp hm))

/-! ## The launch -/

/-- What the launch deals every core beside its buffers makes the rest state: the generator register at its launch
    state, nothing owed. -/
theorem hE0 (ρ : Dev nD → PrngReg) :
    (iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv) : sProp 𝕄)
      ⊢ |={Set.univ}=> bigSep Finset.univ (E (F := F) 0) := by
  refine Pipeline.initEach L lv fun c => ?_
  show _ ⊢ (|={Set.univ}=> iprop((∃ r, prngReg c r) ∗ ∃ W, owes (c : Thread nD τ) (0 : CellTallies nD τ sig Unit) W) : sProp 𝕄)
  iintro ⟨⟨-, HO, -, Hp, -⟩, -⟩
  imodintro
  isplitl [Hp]; · iexists _; iexact Hp
  iexists ∅; iexact HO

/-- The rest state at the end holds the core owing nothing. -/
theorem hE2 (c : Dev nD) :
    E (F := F) 2 c ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, H⟩
  iexact H

set_option backward.isDefEq.respectTransparency.types false in
/-- THE RUN. From any memory `m` with zero counters, every weakly fair execution of the program terminates, and every
    final memory holds the kernel's result `kout m c` in `main_v32` and each argument as launched: the program is the
    list of its items — three host stretches and the two regions between them —, each entered from what the one before
    left; the last valuation, read against the final memory, has `main_v32` at what the second region left (the last
    host stretch writes only `main_v33`) and every argument at its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v32) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () (cellOf_inj adm) emb₁ defs₀ Variants.none L lv m ρ main
    (segs m (outs m) Variants.none L lv E () adm (pdats m) (R0 m) (R1 m))
    (fun c Q => by
      rewrite [main_chain c, Seg.run_eq_chain,
        show (segs m (outs m) Variants.none L lv E () adm (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (0 : Dev nD → CellTallies nD τ sig Unit) (fun _ _ => rfl) (fun _ => iprop(emp))
    (initOf (Pipeline.cells (Pipeline.pin (pcfgs (F := F)) adm) (cellOf_inj adm)) (Pipeline.launchToks (Pipeline.pin (pcfgs (F := F)) adm) (cellOf_inj adm)))
    (by
      iintro Hu; imodintro
      isplitl [Hu]; · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, .rfl, .rfl, .rfl, .rfl, sep_mono .rfl (hE2 c)⟩)
    (hinit := ?_)
    (QY := fun c s => s.mem ((c.tc : Thread nD τ).loc main_v32) = kout m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨(h (Proc.devRef .tc main_v32) (Finset.mem_filter.mpr ⟨StableHlo.devRef_mem_tcRefs main_v32, by decide⟩)).trans
          ((V5_of m (outs m) c main_v32 (by decide)).trans (Function.update_self _ _ _)),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c)⟩
    · iexact HSI

/-- THE FRAME: every argument ends as launched — the run's post without the result. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.KRun

end
-- ==== Proof.RefCell.lean ====
/-
  The reference's LSTM cell as functions of whole arrays, at the ideal values, each read at an index.

  The reference walks the 15 tree nodes one after another on arrays that hold all 256 batch rows. For a node and a
  layer it forms the gate pre-activations (X · Wᵀ + H · Uᵀ) + (b + b') as a [256, 4096] array, cuts that array into
  the four gates' [256, 1024] blocks (input, forget, candidate, output), and sets
      C = σ(f) · C_parent + σ(i) · tanh(g),      H = σ(o) · tanh(C),
  with σ(z) written out as 1 / (1 + exp(−z)). The two layers' rows are kept stacked in one [2, 256, 1024] array, and a
  layer's rows are cut out of the stack again when a child reads its parent. The inputs are the two argument arrays
  side by side, transposed so that the batch row comes first; the result is the 15 nodes' top-layer hidden rows laid
  along a new middle axis and transposed back.

  Each definition below is one of those array terms over arbitrary operand arrays, and the lemma after it reads the
  term at one index. Batch rows never mix: row `r` of every term is the row function of Spec.lean applied to row `r` of
  the operands, which is what the `_row` lemmas say.
-/
import proofs.«109754_j89713276879117_1_alg».proof.Proof.Gen.ReferenceIdeal
import proofs.«109754_j89713276879117_1_alg».proof.Proof.Spec
import Idealize.ShloMosaic.Lib.ValueLayout
import Idealize.ShloMosaic.Lib.IdealHost
import Idealize.ShloMosaic.Lib.StackMember

noncomputable section

namespace Cert.ReferenceIdeal.RefSide

open Cert.ReferenceIdeal Cert.ReferenceIdeal.Gen Idealize.ShloMosaic Idealize.ShloMosaic.ValueIdx
open scoped BigOperators

/-! ## Layout operations read at an index given by coordinates -/

section Layout
variable {α : Type}

/-- An `[n0, n1, n2]` array cut to its slab `l` along the leading axis reads, at `(u, a, b)`, the array at `(l, a, b)`. -/
theorem slice3_lead_apply {n0 n1 n2 : ℕ} (l : ℕ) (X : (⟨3, ![n0, n1, n2]⟩ : Shape).Idx → α)
    (h : (⟨3, ![n0, n1, n2]⟩ : Shape).Slices ![l, 0, 0] ⟨3, ![1, n1, n2]⟩) (k : Fin n0) (hk : k.val = l)
    (u : Fin 1) (a : Fin n1) (b : Fin n2) :
    extractStridedSlice ⟨3, ![1, n1, n2]⟩ ![l, 0, 0] X h (ix3 u a b) = X (ix3 k a b) :=
  extractStridedSlice_apply _ _ _ _ _ (fun ax => by
    match ax with
    | ⟨0, _⟩ => show k.val = l + u.val; omega
    | ⟨1, _⟩ => exact (Nat.zero_add _).symm
    | ⟨2, _⟩ => exact (Nat.zero_add _).symm)

/-- An `[a, 1, b]` array cast to `[a, b]` reads, at `(i, j)`, the operand at `(i, 0, j)`: the two indices have the
    same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array given a new leading unit axis reads, at `(u, i, j)`, the operand at `(i, j)`. -/
theorem broadcastInDim_ab_1ab_apply {a b : ℕ} (h : (⟨2, ![a, b]⟩ : Shape).BroadcastsInDim ⟨3, ![1, a, b]⟩ ![1, 2])
    (x : (⟨2, ![a, b]⟩ : Shape).Idx → α) (u : Fin 1) (i : Fin a) (j : Fin b) :
    broadcastInDim ⟨3, ![1, a, b]⟩ ![1, 2] h x (ix3 u i j) = x (ix2 i j) := by
  refine broadcastInDim_apply ![1, 2] h x (ix3 u i j) (ix2 i j) ?_
  intro c
  match c with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b]` array given a new middle unit axis reads, at `(i, u, j)`, the operand at `(i, j)`. -/
theorem broadcastInDim_ab_a1b_apply {a b : ℕ} (h : (⟨2, ![a, b]⟩ : Shape).BroadcastsInDim ⟨3, ![a, 1, b]⟩ ![0, 2])
    (x : (⟨2, ![a, b]⟩ : Shape).Idx → α) (i : Fin a) (u : Fin 1) (j : Fin b) :
    broadcastInDim ⟨3, ![a, 1, b]⟩ ![0, 2] h x (ix3 i u j) = x (ix2 i j) := by
  refine broadcastInDim_apply ![0, 2] h x (ix3 i u j) (ix2 i j) ?_
  intro c
  match c with
  | ⟨0, _⟩ =>
    show i.val = if a = 1 then 0 else i.val
    split
    · have := i.isLt; omega
    · rfl
  | ⟨1, _⟩ =>
    show j.val = if b = 1 then 0 else j.val
    split
    · have := j.isLt; omega
    · rfl

/-- A vector given a new leading unit axis reads, at `(u, t)`, the vector at `t`. -/
theorem broadcastInDim_a_1a_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro c
  match c with
  | ⟨0, _⟩ =>
    show t.val = if n = 1 then 0 else t.val
    split
    · have := t.isLt; omega
    · rfl

end Layout

/-! ## The product of a [256, 1024] by a [1024, 4096] matrix -/

/-- The program's dimension numbers (contract the left operand's axis 1 with the right operand's axis 0, no batch axis)
    are the plain matrix product's. -/
theorem dot_eq_plain : dot_S256x1024_S1024x4096_S256x4096_1_0_0_1_n_n = DotDims.plain 256 1024 4096 := rfl

/-- The product read at `(r, q)`: the sum over the contracted coordinate of the products of the entries. -/
theorem dotR_apply (A : FVec Ideal S256x1024 .f32) (B : FVec Ideal S1024x4096 .f32) (r : Fin 256) (q : Fin 4096) :
    Host.dotGeneral dot_S256x1024_S1024x4096_S256x4096_1_0_0_1_n_n none A B (ix2 r q)
      = ∑ c : Fin 1024, A (ix2 r c) * B (ix2 c q) := by
  rw [dot_eq_plain]
  exact StackMember.dotGeneral_plain_apply none A B r q

/-! ## A layer's rows in the stack of the two layers' rows -/

/-- Layer `l`'s [256, 1024] rows cut out of the [2, 256, 1024] stack. -/
def unstackR (l : ℕ) (h : S2x256x1024.Slices ![l, 0, 0] S1x256x1024) (S : FVec Ideal S2x256x1024 .f32) :
    FVec Ideal S256x1024 .f32 :=
  shapeCast _ (extractStridedSlice S1x256x1024 ![l, 0, 0] S h) shapeCasts_S1x256x1024_S256x1024

/-- Layer 0's rows of a stack. -/
abbrev unstack0 (S : FVec Ideal S2x256x1024 .f32) : FVec Ideal S256x1024 .f32 :=
  unstackR 0 slices_S2x256x1024_S1x256x1024_0_0_0 S
/-- Layer 1's rows of a stack. -/
abbrev unstack1 (S : FVec Ideal S2x256x1024 .f32) : FVec Ideal S256x1024 .f32 :=
  unstackR 1 slices_S2x256x1024_S1x256x1024_1_0_0 S

/-- Layer `l`'s rows read at `(r, n)`: the stack at `(l, r, n)`. -/
theorem unstackR_apply (l : ℕ) (h : S2x256x1024.Slices ![l, 0, 0] S1x256x1024) (S : FVec Ideal S2x256x1024 .f32)
    (k : Fin 2) (hk : k.val = l) (r : Fin 256) (n : Fin 1024) : unstackR l h S (ix2 r n) = S (ix3 k r n) := by
  unfold unstackR
  exact (shapeCast_1ab_ab_apply _ shapeCasts_S1x256x1024_S256x1024 r n).trans (slice3_lead_apply l S h k hk 0 r n)

theorem unstack0_apply (S : FVec Ideal S2x256x1024 .f32) (r : Fin 256) (n : Fin 1024) :
    unstack0 S (ix2 r n) = S (ix3 (0 : Fin 2) r n) := unstackR_apply 0 _ S 0 rfl r n
theorem unstack1_apply (S : FVec Ideal S2x256x1024 .f32) (r : Fin 256) (n : Fin 1024) :
    unstack1 S (ix2 r n) = S (ix3 (1 : Fin 2) r n) := unstackR_apply 1 _ S 1 rfl r n

/-- Two layers' [256, 1024] rows stacked: each given a leading unit axis, laid end to end along it. -/
def stackR (A B : FVec Ideal S256x1024 .f32) : FVec Ideal S2x256x1024 .f32 :=
  concatenate S2x256x1024 0 [⟨S1x256x1024, broadcastInDim S1x256x1024 ![1, 2] bcast_S256x1024_S1x256x1024_1_2 A⟩,
    ⟨S1x256x1024, broadcastInDim S1x256x1024 ![1, 2] bcast_S256x1024_S1x256x1024_1_2 B⟩]
    concatenates_S1x256x1024_S1x256x1024_S2x256x1024_d0

/-- The stack at layer 0 is the first operand. -/
theorem stackR_apply0 (A B : FVec Ideal S256x1024 .f32) (r : Fin 256) (n : Fin 1024) :
    stackR A B (ix3 (0 : Fin 2) r n) = A (ix2 r n) := by
  unfold stackR
  refine (concatenate_pair_apply_left _ _ _ concatenates_S1x256x1024_S1x256x1024_S2x256x1024_d0 (ix3 (0 : Fin 2) r n) rfl
    (ix3 (0 : Fin 1) r n) (fun b => match b with | ⟨0, _⟩ => rfl | ⟨1, _⟩ => rfl | ⟨2, _⟩ => rfl)).trans ?_
  exact broadcastInDim_ab_1ab_apply _ A 0 r n

/-- The stack at layer 1 is the second operand. -/
theorem stackR_apply1 (A B : FVec Ideal S256x1024 .f32) (r : Fin 256) (n : Fin 1024) :
    stackR A B (ix3 (1 : Fin 2) r n) = B (ix2 r n) := by
  unfold stackR
  refine (concatenate_pair_apply_right _ _ _ concatenates_S1x256x1024_S1x256x1024_S2x256x1024_d0 (ix3 (1 : Fin 2) r n) rfl rfl
    (ix3 (0 : Fin 1) r n)
    (fun b hb => match b with | ⟨0, _⟩ => (hb (Fin.ext rfl)).elim | ⟨1, _⟩ => rfl | ⟨2, _⟩ => rfl) rfl).trans ?_
  exact broadcastInDim_ab_1ab_apply _ B 0 r n

/-- Cutting layer 0 out of a stack gives back what was stacked first … -/
theorem unstack0_stackR (A B : FVec Ideal S256x1024 .f32) : unstack0 (stackR A B) = A := by
  funext j
  obtain ⟨r, n, rfl⟩ : ∃ (r : Fin 256) (n : Fin 1024), j = ix2 r n := ⟨j 0, j 1, eq_ix2 j⟩
  rw [unstack0_apply, stackR_apply0]

/-- … and layer 1 what was stacked second. -/
theorem unstack1_stackR (A B : FVec Ideal S256x1024 .f32) : unstack1 (stackR A B) = B := by
  funext j
  obtain ⟨r, n, rfl⟩ : ∃ (r : Fin 256) (n : Fin 1024), j = ix2 r n := ⟨j 0, j 1, eq_ix2 j⟩
  rw [unstack1_apply, stackR_apply1]

/-- The root's rows: the zero word's splat over the whole stack. -/
def zeroS : FVec Ideal S2x256x1024 .f32 :=
  broadcastInDim S2x256x1024 ![] bcast_S_S2x256x1024 (constant (F := Ideal) S_ .f32 0x00000000#32)

/-- It is zero everywhere. -/
theorem zeroS_apply (j : S2x256x1024.Idx) : zeroS j = 0 := by
  unfold zeroS
  rw [broadcastInDim_scalar_apply, constant_apply, Ideal.ofBits_zero_f32]

theorem unstack0_zeroS_apply (r : Fin 256) (n : Fin 1024) : unstack0 zeroS (ix2 r n) = 0 := by
  rw [unstack0_apply, zeroS_apply]
theorem unstack1_zeroS_apply (r : Fin 256) (n : Fin 1024) : unstack1 zeroS (ix2 r n) = 0 := by
  rw [unstack1_apply, zeroS_apply]

/-! ## The gate pre-activations -/

/-- Layer `l`'s [4096, 1024] weight matrix out of the two layers' [2, 4096, 1024], transposed to [1024, 4096]. -/
def wT (l : ℕ) (h : S2x4096x1024.Slices ![l, 0, 0] S1x4096x1024) (W : FVec Ideal S2x4096x1024 .f32) :
    FVec Ideal S1024x4096 .f32 :=
  transpose S1024x4096 [1, 0] (shapeCast _ (extractStridedSlice S1x4096x1024 ![l, 0, 0] W h) shapeCasts_S1x4096x1024_S4096x1024)
    transposes_S4096x1024_S1024x4096_1_0

/-- The transposed matrix at `(c, q)` is the weights at `(l, q, c)`. -/
theorem wT_apply (l : ℕ) (h : S2x4096x1024.Slices ![l, 0, 0] S1x4096x1024) (W : FVec Ideal S2x4096x1024 .f32)
    (k : Fin 2) (hk : k.val = l) (c : Fin 1024) (q : Fin 4096) : wT l h W (ix2 c q) = W (ix3 k q c) := by
  unfold wT
  exact (transpose_ix2_apply _ transposes_S4096x1024_S1024x4096_1_0 c q).trans
    ((shapeCast_1ab_ab_apply _ shapeCasts_S1x4096x1024_S4096x1024 q c).trans (slice3_lead_apply l W h k hk 0 q c))

/-- Layer `l`'s bias vector out of the two layers' [2, 4096]. -/
def biasV (l : ℕ) (h : S2x4096.Slices ![l, 0] S1x4096) (B : FVec Ideal S2x4096 .f32) : FVec Ideal S4096 .f32 :=
  shapeCast _ (extractStridedSlice S1x4096 ![l, 0] B h) shapeCasts_S1x4096_S4096

/-- The bias vector at `q` is the biases at `(l, q)`. -/
theorem biasV_apply (l : ℕ) (h : S2x4096.Slices ![l, 0] S1x4096) (B : FVec Ideal S2x4096 .f32)
    (k : Fin 2) (hk : k.val = l) (q : Fin 4096) : biasV l h B (ix1 q) = B (ix2 k q) := by
  unfold biasV
  exact (shapeCast_1a_a_apply _ shapeCasts_S1x4096_S4096 q).trans
    (slice2_axis0_apply l B h 0 q k (by show k.val = l + 0; omega))

/-- The gate pre-activations of all 256 batch rows for layer `l`: (X · Wᵀ + H · Uᵀ) + (b + b'), the sum of the two bias
    vectors copied to every row. -/
def gatesR (l : ℕ) (hW : S2x4096x1024.Slices ![l, 0, 0] S1x4096x1024) (hB : S2x4096.Slices ![l, 0] S1x4096)
    (X Hp : FVec Ideal S256x1024 .f32) (W U : FVec Ideal S2x4096x1024 .f32) (B B' : FVec Ideal S2x4096 .f32) :
    FVec Ideal S256x4096 .f32 :=
  addf (addf (Host.dotGeneral dot_S256x1024_S1024x4096_S256x4096_1_0_0_1_n_n none X (wT l hW W))
      (Host.dotGeneral dot_S256x1024_S1024x4096_S256x4096_1_0_0_1_n_n none Hp (wT l hW U)))
    (broadcastInDim S256x4096 ![0, 1] bcast_S1x4096_S256x4096_0_1 (broadcastInDim S1x4096 ![1] bcast_S4096_S1x4096_1
      (addf (biasV l hB B) (biasV l hB B'))))

/-- Layer 0's gate pre-activations. -/
abbrev gatesR0 (X Hp : FVec Ideal S256x1024 .f32) (W U : FVec Ideal S2x4096x1024 .f32) (B B' : FVec Ideal S2x4096 .f32) :
    FVec Ideal S256x4096 .f32 :=
  gatesR 0 slices_S2x4096x1024_S1x4096x1024_0_0_0 slices_S2x4096_S1x4096_0_0 X Hp W U B B'
/-- Layer 1's gate pre-activations. -/
abbrev gatesR1 (X Hp : FVec Ideal S256x1024 .f32) (W U : FVec Ideal S2x4096x1024 .f32) (B B' : FVec Ideal S2x4096 .f32) :
    FVec Ideal S256x4096 .f32 :=
  gatesR 1 slices_S2x4096x1024_S1x4096x1024_1_0_0 slices_S2x4096_S1x4096_1_0 X Hp W U B B'

/-- THE GATES AT `(r, q)`: the pre-activation of gate column `q` from batch row `r` of the input and of the parent's
    hidden rows, and layer `l`'s weights and biases. -/
theorem gatesR_apply (l : ℕ) (hW : S2x4096x1024.Slices ![l, 0, 0] S1x4096x1024) (hB : S2x4096.Slices ![l, 0] S1x4096)
    (X Hp : FVec Ideal S256x1024 .f32) (W U : FVec Ideal S2x4096x1024 .f32) (B B' : FVec Ideal S2x4096 .f32)
    (k : Fin 2) (hk : k.val = l) (r : Fin 256) (q : Fin 4096) :
    gatesR l hW hB X Hp W U B B' (ix2 r q)
      = Cert.Spec.gate (fun c => X (ix2 r c)) (fun c => Hp (ix2 r c)) (fun q c => W (ix3 k q c)) (fun q c => U (ix3 k q c))
          (fun q => B (ix2 k q)) (fun q => B' (ix2 k q)) q := by
  unfold gatesR Cert.Spec.gate
  rw [addf_apply, addf_apply, dotR_apply, dotR_apply, broadcastInDim_oneRow_apply, broadcastInDim_a_1a_apply,
    addf_apply, biasV_apply l hB B k hk, biasV_apply l hB B' k hk]
  simp only [wT_apply l hW _ k hk]

theorem gatesR0_apply (X Hp : FVec Ideal S256x1024 .f32) (W U : FVec Ideal S2x4096x1024 .f32) (B B' : FVec Ideal S2x4096 .f32)
    (r : Fin 256) (q : Fin 4096) :
    gatesR0 X Hp W U B B' (ix2 r q)
      = Cert.Spec.gate (fun c => X (ix2 r c)) (fun c => Hp (ix2 r c)) (fun q c => W (ix3 (0 : Fin 2) q c))
          (fun q c => U (ix3 (0 : Fin 2) q c)) (fun q => B (ix2 (0 : Fin 2) q)) (fun q => B' (ix2 (0 : Fin 2) q)) q :=
  gatesR_apply 0 _ _ X Hp W U B B' 0 rfl r q

theorem gatesR1_apply (X Hp : FVec Ideal S256x1024 .f32) (W U : FVec Ideal S2x4096x1024 .f32) (B B' : FVec Ideal S2x4096 .f32)
    (r : Fin 256) (q : Fin 4096) :
    gatesR1 X Hp W U B B' (ix2 r q)
      = Cert.Spec.gate (fun c => X (ix2 r c)) (fun c => Hp (ix2 r c)) (fun q c => W (ix3 (1 : Fin 2) q c))
          (fun q c => U (ix3 (1 : Fin 2) q c)) (fun q => B (ix2 (1 : Fin 2) q)) (fun q => B' (ix2 (1 : Fin 2) q)) q :=
  gatesR_apply 1 _ _ X Hp W U B B' 1 rfl r q

/-! ## The cell -/

/-- σ of a gate: 1 / (1 + exp(−z)) at every entry of the [256, 1024] block of the gates array that starts at column
    `off`. -/
def sigR (off : ℕ) (h : S256x4096.Slices ![0, off] S256x1024) (G : FVec Ideal S256x4096 .f32) : FVec Ideal S256x1024 .f32 :=
  Host.divf (broadcastInDim S256x1024 ![] bcast_S_S256x1024 (constant (F := Ideal) S_ .f32 0x3F800000#32))
    (addf (broadcastInDim S256x1024 ![] bcast_S_S256x1024 (constant (F := Ideal) S_ .f32 0x3F800000#32))
      (Host.exp (Host.negf (extractStridedSlice S256x1024 ![0, off] G h))))

/-- The splat of the word 0x3F800000 is one everywhere. -/
theorem one_apply (j : S256x1024.Idx) :
    broadcastInDim S256x1024 ![] bcast_S_S256x1024 (constant (F := Ideal) S_ .f32 0x3F800000#32) j = 1 := by
  rw [broadcastInDim_scalar_apply, constant_apply, Ideal.ofBits_one_f32]

/-- σ of a gate at `(r, n)` is the logistic function of the gates array at column `off + n`: 1 / (1 + exp(−z)) is how
    the logistic function is defined on the extended reals. -/
theorem sigR_apply (off : ℕ) (h : S256x4096.Slices ![0, off] S256x1024) (G : FVec Ideal S256x4096 .f32)
    (r : Fin 256) (n : Fin 1024) (q : Fin 4096) (hq : q.val = off + n.val) :
    sigR off h G (ix2 r n) = Ideal.logistic (G (ix2 r q)) := by
  unfold sigR
  show Ideal.div (broadcastInDim S256x1024 ![] bcast_S_S256x1024 (constant (F := Ideal) S_ .f32 0x3F800000#32) (ix2 r n))
      (broadcastInDim S256x1024 ![] bcast_S_S256x1024 (constant (F := Ideal) S_ .f32 0x3F800000#32) (ix2 r n)
        + Ideal.exp (-(extractStridedSlice S256x1024 ![0, off] G h (ix2 r n))))
    = Ideal.div 1 (1 + Ideal.exp (-(G (ix2 r q))))
  rw [one_apply, slice2_axis1_apply off G h r n q hq]

/-- The new cell rows: σ(f) · C_parent + σ(i) · tanh(g). -/
def cellCR (G : FVec Ideal S256x4096 .f32) (Cp : FVec Ideal S256x1024 .f32) : FVec Ideal S256x1024 .f32 :=
  addf (mulf (sigR 1024 slices_S256x4096_S256x1024_0_1024 G) Cp)
    (mulf (sigR 0 slices_S256x4096_S256x1024_0_0 G)
      (Host.tanh (extractStridedSlice S256x1024 ![0, 2048] G slices_S256x4096_S256x1024_0_2048)))

/-- The new hidden rows: σ(o) · tanh(C). -/
def cellHR (G : FVec Ideal S256x4096 .f32) (C : FVec Ideal S256x1024 .f32) : FVec Ideal S256x1024 .f32 :=
  mulf (sigR 3072 slices_S256x4096_S256x1024_0_3072 G) (Host.tanh C)

/-- Gate `g`'s column `n` among the 4096 gate columns is column `g · 1024 + n`. -/
theorem gq_val (g : Fin 4) (n : Fin 1024) : (Cert.Spec.gq g n).val = g.val * 1024 + n.val := rfl

/-- THE NEW CELL AT `(r, n)`. -/
theorem cellCR_apply (G : FVec Ideal S256x4096 .f32) (Cp : FVec Ideal S256x1024 .f32) (r : Fin 256) (n : Fin 1024) :
    cellCR G Cp (ix2 r n)
      = Ideal.logistic (G (ix2 r (Cert.Spec.gq 1 n))) * Cp (ix2 r n)
        + Ideal.logistic (G (ix2 r (Cert.Spec.gq 0 n))) * Ideal.tanh (G (ix2 r (Cert.Spec.gq 2 n))) := by
  unfold cellCR
  show sigR 1024 slices_S256x4096_S256x1024_0_1024 G (ix2 r n) * Cp (ix2 r n)
      + sigR 0 slices_S256x4096_S256x1024_0_0 G (ix2 r n)
        * Ideal.tanh (extractStridedSlice S256x1024 ![0, 2048] G slices_S256x4096_S256x1024_0_2048 (ix2 r n)) = _
  rw [sigR_apply 1024 _ G r n (Cert.Spec.gq 1 n) (by rw [gq_val]; show 1 * 1024 + n.val = _; omega),
    sigR_apply 0 _ G r n (Cert.Spec.gq 0 n) (by rw [gq_val]; show 0 * 1024 + n.val = _; omega),
    slice2_axis1_apply 2048 G _ r n (Cert.Spec.gq 2 n) (by rw [gq_val]; show 2 * 1024 + n.val = _; omega)]

/-- THE NEW HIDDEN ROWS AT `(r, n)`. -/
theorem cellHR_apply (G : FVec Ideal S256x4096 .f32) (C : FVec Ideal S256x1024 .f32) (r : Fin 256) (n : Fin 1024) :
    cellHR G C (ix2 r n) = Ideal.logistic (G (ix2 r (Cert.Spec.gq 3 n))) * Ideal.tanh (C (ix2 r n)) := by
  unfold cellHR
  show sigR 3072 slices_S256x4096_S256x1024_0_3072 G (ix2 r n) * Ideal.tanh (C (ix2 r n)) = _
  rw [sigR_apply 3072 _ G r n (Cert.Spec.gq 3 n) (by rw [gq_val]; show 3 * 1024 + n.val = _; omega)]

/-! ## One node of one layer, batch row by batch row -/

section Row
variable (l : ℕ) (hW : S2x4096x1024.Slices ![l, 0, 0] S1x4096x1024) (hB : S2x4096.Slices ![l, 0] S1x4096)
  (X Hp Cp : FVec Ideal S256x1024 .f32) (W U : FVec Ideal S2x4096x1024 .f32) (B B' : FVec Ideal S2x4096 .f32)
  (k : Fin 2) (hk : k.val = l) (r : Fin 256)
include hk

/-- The new cell array at `(r, n)` is entry `n` of the specification's cell row of batch row `r` of the input, of the
    parent's hidden and cell rows, and layer `l`'s weights and biases. -/
theorem cellCR_row_apply (n : Fin 1024) :
    cellCR (gatesR l hW hB X Hp W U B B') Cp (ix2 r n)
      = Cert.Spec.cellC (fun c => X (ix2 r c)) (fun c => Hp (ix2 r c)) (fun c => Cp (ix2 r c))
          (fun q c => W (ix3 k q c)) (fun q c => U (ix3 k q c)) (fun q => B (ix2 k q)) (fun q => B' (ix2 k q)) n := by
  unfold Cert.Spec.cellC
  rw [cellCR_apply, gatesR_apply l hW hB X Hp W U B B' k hk, gatesR_apply l hW hB X Hp W U B B' k hk,
    gatesR_apply l hW hB X Hp W U B B' k hk]

/-- Batch row `r` of the new cell array is the specification's cell row. -/
theorem cellCR_row :
    (fun n => cellCR (gatesR l hW hB X Hp W U B B') Cp (ix2 r n))
      = Cert.Spec.cellC (fun c => X (ix2 r c)) (fun c => Hp (ix2 r c)) (fun c => Cp (ix2 r c))
          (fun q c => W (ix3 k q c)) (fun q c => U (ix3 k q c)) (fun q => B (ix2 k q)) (fun q => B' (ix2 k q)) :=
  funext fun n => cellCR_row_apply l hW hB X Hp Cp W U B B' k hk r n

/-- The new hidden array at `(r, n)` is entry `n` of the specification's hidden row. -/
theorem cellHR_row_apply (n : Fin 1024) :
    cellHR (gatesR l hW hB X Hp W U B B') (cellCR (gatesR l hW hB X Hp W U B B') Cp) (ix2 r n)
      = Cert.Spec.cellH (fun c => X (ix2 r c)) (fun c => Hp (ix2 r c)) (fun c => Cp (ix2 r c))
          (fun q c => W (ix3 k q c)) (fun q c => U (ix3 k q c)) (fun q => B (ix2 k q)) (fun q => B' (ix2 k q)) n := by
  unfold Cert.Spec.cellH
  rw [cellHR_apply, gatesR_apply l hW hB X Hp W U B B' k hk, cellCR_row_apply l hW hB X Hp Cp W U B B' k hk r n]

/-- Batch row `r` of the new hidden array is the specification's hidden row. -/
theorem cellHR_row :
    (fun n => cellHR (gatesR l hW hB X Hp W U B B') (cellCR (gatesR l hW hB X Hp W U B B') Cp) (ix2 r n))
      = Cert.Spec.cellH (fun c => X (ix2 r c)) (fun c => Hp (ix2 r c)) (fun c => Cp (ix2 r c))
          (fun q c => W (ix3 k q c)) (fun q c => U (ix3 k q c)) (fun q => B (ix2 k q)) (fun q => B' (ix2 k q)) :=
  funext fun n => cellHR_row_apply l hW hB X Hp Cp W U B B' k hk r n

end Row

/-! ## The input rows -/

/-- The two input arrays side by side along the feature axis, then transposed so that the batch row comes first:
    [256, 15, 1024]. -/
def xinR (a0 a1 : FVec Ideal S15x256x512 .f32) : FVec Ideal S256x15x1024 .f32 :=
  transpose S256x15x1024 [1, 0, 2]
    (concatenate S15x256x1024 2 [⟨S15x256x512, a0⟩, ⟨S15x256x512, a1⟩] concatenates_S15x256x512_S15x256x512_S15x256x1024_d2)
    transposes_S15x256x1024_S256x15x1024_1_0_2

/-- The input array at `(r, i, c)`: feature `c` of node `i`, batch row `r` — from the first argument below 512, from
    the second from 512 on. -/
theorem xinR_apply (a0 a1 : FVec Ideal S15x256x512 .f32) (r : Fin 256) (i : Fin 15) (c : Fin 1024) :
    xinR a0 a1 (ix3 r i c)
      = if hc : c.val < 512 then a0 (ix3 i r ⟨c.val, hc⟩)
        else a1 (ix3 i r ⟨c.val - 512, by have := c.isLt; omega⟩) := by
  unfold xinR
  refine (transpose_apply _ _ transposes_S15x256x1024_S256x15x1024_1_0_2 (ix3 r i c) (ix3 i r c)
    (fun b => match b with | ⟨0, _⟩ => rfl | ⟨1, _⟩ => rfl | ⟨2, _⟩ => rfl)).trans ?_
  by_cases hc : c.val < 512
  · rw [dif_pos hc]
    exact concatenate_pair_apply_left _ _ _ concatenates_S15x256x512_S15x256x512_S15x256x1024_d2 (ix3 i r c) rfl
      (ix3 i r ⟨c.val, hc⟩) (fun b => match b with | ⟨0, _⟩ => rfl | ⟨1, _⟩ => rfl | ⟨2, _⟩ => rfl)
  · rw [dif_neg hc]
    exact concatenate_pair_apply_right _ _ _ concatenates_S15x256x512_S15x256x512_S15x256x1024_d2 (ix3 i r c) rfl rfl
      (ix3 i r ⟨c.val - 512, by have := c.isLt; omega⟩)
      (fun b hb => match b with | ⟨0, _⟩ => rfl | ⟨1, _⟩ => rfl | ⟨2, _⟩ => (hb (Fin.ext rfl)).elim)
      (by show c.val - 512 + 512 = c.val; omega)

/-- Node `j`'s [256, 1024] input rows cut out of the [256, 15, 1024] input array. -/
def xrowR (j : ℕ) (h : S256x15x1024.Slices ![0, j, 0] S256x1x1024) (Xall : FVec Ideal S256x15x1024 .f32) :
    FVec Ideal S256x1024 .f32 :=
  shapeCast _ (extractStridedSlice S256x1x1024 ![0, j, 0] Xall h) shapeCasts_S256x1x1024_S256x1024

/-- Node `j`'s input rows at `(r, c)`: the input array at `(r, j, c)`. -/
theorem xrowR_apply (j : ℕ) (h : S256x15x1024.Slices ![0, j, 0] S256x1x1024) (Xall : FVec Ideal S256x15x1024 .f32)
    (i : Fin 15) (hi : i.val = j) (r : Fin 256) (c : Fin 1024) : xrowR j h Xall (ix2 r c) = Xall (ix3 r i c) := by
  unfold xrowR
  exact (shapeCast_a1b_ab_apply _ shapeCasts_S256x1x1024_S256x1024 r c).trans
    (slice3_axis1_apply j Xall h r 0 c i (by show i.val = j + 0; omega))

/-- Batch row `r` of node `j`'s input rows is the specification's layer-0 input row of that node. -/
theorem xrowR_row (j : ℕ) (h : S256x15x1024.Slices ![0, j, 0] S256x1x1024) (a0 a1 : FVec Ideal S15x256x512 .f32)
    (hj : j < 15) (r : Fin 256) :
    (fun c => xrowR j h (xinR a0 a1) (ix2 r c))
      = Cert.Spec.X0 (fun i r c => a0 (ix3 i r c)) (fun i r c => a1 (ix3 i r c)) r j := by
  funext c
  unfold Cert.Spec.X0
  rw [xrowR_apply j h _ ⟨j, hj⟩ rfl r c, xinR_apply, dif_pos hj]

/-! ## The result's layout -/

/-- The 15 nodes' [256, 1024] rows, each given a middle unit axis, laid end to end along it, and the node axis moved
    to the front: [15, 256, 1024]. -/
def outR (A : Fin 15 → FVec Ideal S256x1024 .f32) : FVec Ideal S15x256x1024 .f32 :=
  transpose S15x256x1024 [1, 0, 2]
    (concatenate S256x15x1024 1 [⟨S256x1x1024, broadcastInDim S256x1x1024 ![0, 2] bcast_S256x1024_S256x1x1024_0_2 (A 0)⟩,
      ⟨S256x1x1024, broadcastInDim S256x1x1024 ![0, 2] bcast_S256x1024_S256x1x1024_0_2 (A 1)⟩,
      ⟨S256x1x1024, broadcastInDim S256x1x1024 ![0, 2] bcast_S256x1024_S256x1x1024_0_2 (A 2)⟩,
      ⟨S256x1x1024, broadcastInDim S256x1x1024 ![0, 2] bcast_S256x1024_S256x1x1024_0_2 (A 3)⟩,
      ⟨S256x1x1024, broadcastInDim S256x1x1024 ![0, 2] bcast_S256x1024_S256x1x1024_0_2 (A 4)⟩,
      ⟨S256x1x1024, broadcastInDim S256x1x1024 ![0, 2] bcast_S256x1024_S256x1x1024_0_2 (A 5)⟩,
      ⟨S256x1x1024, broadcastInDim S256x1x1024 ![0, 2] bcast_S256x1024_S256x1x1024_0_2 (A 6)⟩,
      ⟨S256x1x1024, broadcastInDim S256x1x1024 ![0, 2] bcast_S256x1024_S256x1x1024_0_2 (A 7)⟩,
      ⟨S256x1x1024, broadcastInDim S256x1x1024 ![0, 2] bcast_S256x1024_S256x1x1024_0_2 (A 8)⟩,
      ⟨S256x1x1024, broadcastInDim S256x1x1024 ![0, 2] bcast_S256x1024_S256x1x1024_0_2 (A 9)⟩,
      ⟨S256x1x1024, broadcastInDim S256x1x1024 ![0, 2] bcast_S256x1024_S256x1x1024_0_2 (A 10)⟩,
      ⟨S256x1x1024, broadcastInDim S256x1x1024 ![0, 2] bcast_S256x1024_S256x1x1024_0_2 (A 11)⟩,
      ⟨S256x1x1024, broadcastInDim S256x1x1024 ![0, 2] bcast_S256x1024_S256x1x1024_0_2 (A 12)⟩,
      ⟨S256x1x1024, broadcastInDim S256x1x1024 ![0, 2] bcast_S256x1024_S256x1x1024_0_2 (A 13)⟩,
      ⟨S256x1x1024, broadcastInDim S256x1x1024 ![0, 2] bcast_S256x1024_S256x1x1024_0_2 (A 14)⟩]
      concatenates_S256x1x1024_S256x1x1024_S256x1x1024_S256x1x1024_S256x1x1024_S256x1x1024_S256x1x1024_S256x1x1024_S256x1x1024_S256x1x1024_S256x1x1024_S256x1x1024_S256x1x1024_S256x1x1024_S256x1x1024_S256x15x1024_d1)
    transposes_S256x15x1024_S15x256x1024_1_0_2

/-- THE RESULT AT `(i, r, n)`: node `i`'s rows at `(r, n)`. The 15 pieces are one shape with extent 1 along the node
    axis, piece `m` made from node `m`'s rows, so the node coordinate names the piece. -/
theorem outR_apply (A : Fin 15 → FVec Ideal S256x1024 .f32) (i : Fin 15) (r : Fin 256) (n : Fin 1024) :
    outR A (ix3 i r n) = A i (ix2 r n) := by
  unfold outR
  refine (transpose_apply _ _ transposes_S256x15x1024_S15x256x1024_1_0_2 (ix3 i r n) (ix3 r i n)
    (fun b => match b with | ⟨0, _⟩ => rfl | ⟨1, _⟩ => rfl | ⟨2, _⟩ => rfl)).trans ?_
  refine (concatenate_ofFn_unit_apply (t := S256x15x1024) (s₁ := S256x1x1024) 1
    (fun m : Fin 15 => broadcastInDim S256x1x1024 ![0, 2] bcast_S256x1024_S256x1x1024_0_2 (A m))
    concatenates_S256x1x1024_S256x1x1024_S256x1x1024_S256x1x1024_S256x1x1024_S256x1x1024_S256x1x1024_S256x1x1024_S256x1x1024_S256x1x1024_S256x1x1024_S256x1x1024_S256x1x1024_S256x1x1024_S256x1x1024_S256x15x1024_d1 rfl rfl (ix3 r i n) i rfl (ix3 r (0 : Fin 1) n)
    (fun b hb => match b with | ⟨0, _⟩ => rfl | ⟨1, _⟩ => (hb (Fin.ext rfl)).elim | ⟨2, _⟩ => rfl)).trans ?_
  exact broadcastInDim_ab_a1b_apply _ _ r 0 n

end Cert.ReferenceIdeal.RefSide

end
-- ==== Proof.RefWalk.lean ====
/-
  The reference's walk over the tree, node by node, read against the specification.

  The reference keeps, for every tree node it has walked, the two layers' hidden rows and cell rows as arrays over all
  256 batch rows, the two layers stacked. A node's arrays are the cell applied to the node's input rows (layer 0) or to
  layer 0's new hidden rows (layer 1), and to the rows cut out of the PARENT's two stacks. Batch rows never mix, so the
  statement carried along the walk is about one batch row at a time:
      a node's four arrays, read along batch row `r`, are the specification's hidden and cell rows of that node for
      the row-`r` inputs (`NodeOK`), and
      a node's two stacks, cut back into layers and read along batch row `r`, are the rows the specification's walk
      finds at that node (`StackOK`; at the root they are zero).
  One step of the walk (`node_step`) takes `StackOK` of the parent to `NodeOK` of the child by the specification's closed
  recurrence; stacking (`stackOK_of_node`) takes `NodeOK` of a node to `StackOK` of it. The fifteen nodes are then
  visited in the order 1, 2, …, 15, each after its parent, and the result array, which lays the fifteen top-layer hidden
  arrays along the node axis, is read entry by entry.
-/
import proofs.«109754_j89713276879117_1_alg».proof.Proof.RunP.BaseRes
import proofs.«109754_j89713276879117_1_alg».proof.Proof.RefCell
import proofs.«109754_j89713276879117_1_alg».proof.Proof.Spec

noncomputable section

namespace Cert.ReferenceIdeal.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Arrays as curried functions of their coordinates -/

/-- A rank-3 array as a function of its three coordinates. -/
abbrev rd3 {n0 n1 n2 : ℕ} (A : FVec Ideal ⟨3, ![n0, n1, n2]⟩ .f32) : Fin n0 → Fin n1 → Fin n2 → EReal :=
  fun i r c => A (ix3 i r c)

/-- A rank-2 array as a function of its two coordinates. -/
abbrev rd2 {n0 n1 : ℕ} (A : FVec Ideal ⟨2, ![n0, n1]⟩ .f32) : Fin n0 → Fin n1 → EReal :=
  fun l q => A (ix2 l q)

/-! ## What is carried along the walk -/

section Walk
variable (a0 a1 : FVec Ideal S15x256x512 .f32) (W U : FVec Ideal S2x4096x1024 .f32) (B B' : FVec Ideal S2x4096 .f32)

/-- Node `i + 1`'s four arrays (layer 0's hidden and cell rows, layer 1's hidden and cell rows), read along any batch
    row, are the specification's rows of that node. -/
def NodeOK (i : ℕ) (H0 C0 H1 C1 : FVec Ideal S256x1024 .f32) : Prop :=
  ∀ r : Fin 256,
    (fun n => H0 (ix2 r n)) = Cert.Spec.H0 (rd3 a0) (rd3 a1) (rd3 W) (rd3 U) (rd2 B) (rd2 B') r i
    ∧ (fun n => C0 (ix2 r n))
        = Cert.Spec.nodeC (Cert.Spec.X0 (rd3 a0) (rd3 a1) r) (rd3 W 0) (rd3 U 0) (rd2 B 0) (rd2 B' 0) i
    ∧ (fun n => H1 (ix2 r n)) = Cert.Spec.H1 (rd3 a0) (rd3 a1) (rd3 W) (rd3 U) (rd2 B) (rd2 B') r i
    ∧ (fun n => C1 (ix2 r n))
        = Cert.Spec.nodeC (Cert.Spec.H0 (rd3 a0) (rd3 a1) (rd3 W) (rd3 U) (rd2 B) (rd2 B') r)
            (rd3 W 1) (rd3 U 1) (rd2 B 1) (rd2 B' 1) i

/-- Node `p`'s stack of hidden rows and stack of cell rows, cut back into the two layers and read along any batch row,
    are the rows a later node finds at node `p`: zero at the root, else node `p`'s own. -/
def StackOK (p : ℕ) (SH SC : FVec Ideal S2x256x1024 .f32) : Prop :=
  ∀ r : Fin 256,
    (fun n => unstack0 SH (ix2 r n))
        = Cert.Spec.hAt (Cert.Spec.X0 (rd3 a0) (rd3 a1) r) (rd3 W 0) (rd3 U 0) (rd2 B 0) (rd2 B' 0) p
    ∧ (fun n => unstack0 SC (ix2 r n))
        = Cert.Spec.cAt (Cert.Spec.X0 (rd3 a0) (rd3 a1) r) (rd3 W 0) (rd3 U 0) (rd2 B 0) (rd2 B' 0) p
    ∧ (fun n => unstack1 SH (ix2 r n))
        = Cert.Spec.hAt (Cert.Spec.H0 (rd3 a0) (rd3 a1) (rd3 W) (rd3 U) (rd2 B) (rd2 B') r)
            (rd3 W 1) (rd3 U 1) (rd2 B 1) (rd2 B' 1) p
    ∧ (fun n => unstack1 SC (ix2 r n))
        = Cert.Spec.cAt (Cert.Spec.H0 (rd3 a0) (rd3 a1) (rd3 W) (rd3 U) (rd2 B) (rd2 B') r)
            (rd3 W 1) (rd3 U 1) (rd2 B 1) (rd2 B' 1) p

/-- The root: both stacks are the zero stack, and the rows found at the root are zero. -/
theorem stackOK_zero (SH SC : FVec Ideal S2x256x1024 .f32) (eSH : SH = zeroS) (eSC : SC = zeroS) :
    StackOK a0 a1 W U B B' 0 SH SC := by
  subst eSH eSC
  intro r
  refine ⟨?_, ?_, ?_, ?_⟩
  · funext n; rw [unstack0_zeroS_apply]; rfl
  · funext n; rw [unstack0_zeroS_apply]; rfl
  · funext n; rw [unstack1_zeroS_apply]; rfl
  · funext n; rw [unstack1_zeroS_apply]; rfl

/-- Stacking a node's arrays: what a later node cuts out of the stacks is what was stacked, and for a node other than
    the root the rows found there are the node's own. -/
theorem stackOK_of_node (i : ℕ) (H0 C0 H1 C1 : FVec Ideal S256x1024 .f32) (hN : NodeOK a0 a1 W U B B' i H0 C0 H1 C1)
    (SH SC : FVec Ideal S2x256x1024 .f32) (eSH : SH = stackR H0 H1) (eSC : SC = stackR C0 C1) :
    StackOK a0 a1 W U B B' (i + 1) SH SC := by
  subst eSH eSC
  intro r
  obtain ⟨h0, c0, h1, c1⟩ := hN r
  have hne : ¬ (i + 1 = 0) := Nat.succ_ne_zero i
  refine ⟨?_, ?_, ?_, ?_⟩
  · rw [unstack0_stackR, h0]
    show _ = if i + 1 = 0 then _ else _
    rw [if_neg hne]; rfl
  · rw [unstack0_stackR, c0]
    show _ = if i + 1 = 0 then _ else _
    rw [if_neg hne]; rfl
  · rw [unstack1_stackR, h1]
    show _ = if i + 1 = 0 then _ else _
    rw [if_neg hne]; rfl
  · rw [unstack1_stackR, c1]
    show _ = if i + 1 = 0 then _ else _
    rw [if_neg hne]; rfl

/-- ONE STEP OF THE WALK. Node `i + 1` reads its input rows out of the input array and its parent's rows out of the
    parent's two stacks; if those stacks hold what the specification's walk finds at the parent, the node's four arrays
    hold the specification's rows of the node. Layer 0's cell is applied to the input rows, layer 1's to layer 0's new
    hidden rows; each time the specification's closed recurrence says the cell of these rows is the node's row. -/
theorem node_step (i : ℕ) (hi : i < 15) (hsl : S256x15x1024.Slices ![0, i, 0] S256x1x1024)
    (Xall : FVec Ideal S256x15x1024 .f32) (eX : Xall = xinR a0 a1)
    (p : ℕ) (hp : Cert.Spec.par i = p) (SH SC : FVec Ideal S2x256x1024 .f32) (hS : StackOK a0 a1 W U B B' p SH SC)
    (G0 : FVec Ideal S256x4096 .f32) (C0 H0 : FVec Ideal S256x1024 .f32)
    (G1 : FVec Ideal S256x4096 .f32) (C1 H1 : FVec Ideal S256x1024 .f32)
    (eG0 : G0 = gatesR0 (xrowR i hsl Xall) (unstack0 SH) W U B B')
    (eC0 : C0 = cellCR G0 (unstack0 SC)) (eH0 : H0 = cellHR G0 C0)
    (eG1 : G1 = gatesR1 H0 (unstack1 SH) W U B B')
    (eC1 : C1 = cellCR G1 (unstack1 SC)) (eH1 : H1 = cellHR G1 C1) :
    NodeOK a0 a1 W U B B' i H0 C0 H1 C1 := by
  subst hp
  intro r
  obtain ⟨hh0, hc0, hh1, hc1⟩ := hS r
  -- the node's input row for batch row `r`
  have hx : (fun c => xrowR i hsl Xall (ix2 r c)) = Cert.Spec.X0 (rd3 a0) (rd3 a1) r i := by
    rw [eX]; exact xrowR_row i hsl a0 a1 hi r
  -- layer 0: the cell of the input row and the parent's layer-0 rows
  have hC0 : (fun n => C0 (ix2 r n))
      = Cert.Spec.nodeC (Cert.Spec.X0 (rd3 a0) (rd3 a1) r) (rd3 W 0) (rd3 U 0) (rd2 B 0) (rd2 B' 0) i := by
    have h := cellCR_row 0 slices_S2x4096x1024_S1x4096x1024_0_0_0 slices_S2x4096_S1x4096_0_0
      (xrowR i hsl Xall) (unstack0 SH) (unstack0 SC) W U B B' (0 : Fin 2) rfl r
    rw [hx, hh0, hc0] at h
    rw [eC0, eG0]
    exact h.trans (Cert.Spec.nodeC_eq _ _ _ _ _ i).symm
  have hH0 : (fun n => H0 (ix2 r n))
      = Cert.Spec.H0 (rd3 a0) (rd3 a1) (rd3 W) (rd3 U) (rd2 B) (rd2 B') r i := by
    have h := cellHR_row 0 slices_S2x4096x1024_S1x4096x1024_0_0_0 slices_S2x4096_S1x4096_0_0
      (xrowR i hsl Xall) (unstack0 SH) (unstack0 SC) W U B B' (0 : Fin 2) rfl r
    rw [hx, hh0, hc0] at h
    rw [eH0, eC0, eG0]
    exact h.trans (Cert.Spec.nodeH_eq _ _ _ _ _ i).symm
  -- layer 1: the cell of layer 0's new hidden row and the parent's layer-1 rows
  have hC1 : (fun n => C1 (ix2 r n))
      = Cert.Spec.nodeC (Cert.Spec.H0 (rd3 a0) (rd3 a1) (rd3 W) (rd3 U) (rd2 B) (rd2 B') r)
          (rd3 W 1) (rd3 U 1) (rd2 B 1) (rd2 B' 1) i := by
    have h := cellCR_row 1 slices_S2x4096x1024_S1x4096x1024_1_0_0 slices_S2x4096_S1x4096_1_0
      H0 (unstack1 SH) (unstack1 SC) W U B B' (1 : Fin 2) rfl r
    rw [hH0, hh1, hc1] at h
    rw [eC1, eG1]
    exact h.trans (Cert.Spec.nodeC_eq _ _ _ _ _ i).symm
  have hH1 : (fun n => H1 (ix2 r n))
      = Cert.Spec.H1 (rd3 a0) (rd3 a1) (rd3 W) (rd3 U) (rd2 B) (rd2 B') r i := by
    have h := cellHR_row 1 slices_S2x4096x1024_S1x4096x1024_1_0_0 slices_S2x4096_S1x4096_1_0
      H0 (unstack1 SH) (unstack1 SC) W U B B' (1 : Fin 2) rfl r
    rw [hH0, hh1, hc1] at h
    rw [eH1, eC1, eG1]
    exact h.trans (Cert.Spec.nodeH_eq _ _ _ _ _ i).symm
  exact ⟨hH0, hC0, hH1, hC1⟩

end Walk

/-! ## The fifteen nodes in the order of the walk

Node `j` (`j` = 1 … 15, specification index `j − 1`) has parent 0, 1, 2, 3, 1, 5, 6, 1, 8, 9, 10, 8, 12, 13, 14. Each entry
names the node's arrays among the run's intermediates; the equations that say how each array is made from the others
hold by unfolding the names. A node that is some later node's parent (all but 4, 7, 11 and 15) also gets its stacks. -/

section Table
variable (V0 : Valuation τ sig (Elt Ideal))

/-- `NodeOK` over the six argument arrays. -/
abbrev NodeV (i : ℕ) (H0 C0 H1 C1 : FVec Ideal S256x1024 .f32) : Prop :=
  NodeOK (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) i H0 C0 H1 C1

/-- `StackOK` over the six argument arrays. -/
abbrev StackV (p : ℕ) (SH SC : FVec Ideal S2x256x1024 .f32) : Prop :=
  StackOK (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) p SH SC

/-- The root's stacks. -/
theorem s0 : StackV V0 0 (res_main_v2 V0) (res_main_v2 V0) :=
  stackOK_zero _ _ _ _ _ _ _ _ rfl rfl

set_option maxRecDepth 8192 in
/-- Node 1, child of the root. -/
theorem n1 : NodeV V0 0 (res_main_v53 V0) (res_main_v45 V0) (res_main_v102 V0) (res_main_v94 V0) :=
  node_step _ _ _ _ _ _ 0 (by decide) slices_S256x15x1024_S256x1x1024_0_0_0 (res_main_v1 V0) rfl
    0 rfl (res_main_v2 V0) (res_main_v2 V0) (s0 V0)
    (res_main_v25 V0) _ _ (res_main_v74 V0) _ _ rfl rfl rfl rfl rfl rfl
set_option maxRecDepth 8192 in
theorem s1 : StackV V0 1 (res_main_v105 V0) (res_main_v108 V0) :=
  stackOK_of_node _ _ _ _ _ _ 0 _ _ _ _ (n1 V0) _ _ rfl rfl

set_option maxRecDepth 8192 in
/-- Node 2, child of node 1. -/
theorem n2 : NodeV V0 1 (res_main_v159 V0) (res_main_v151 V0) (res_main_v208 V0) (res_main_v200 V0) :=
  node_step _ _ _ _ _ _ 1 (by decide) slices_S256x15x1024_S256x1x1024_0_1_0 (res_main_v1 V0) rfl
    1 rfl (res_main_v105 V0) (res_main_v108 V0) (s1 V0)
    (res_main_v131 V0) _ _ (res_main_v180 V0) _ _ rfl rfl rfl rfl rfl rfl
set_option maxRecDepth 8192 in
theorem s2 : StackV V0 2 (res_main_v211 V0) (res_main_v214 V0) :=
  stackOK_of_node _ _ _ _ _ _ 1 _ _ _ _ (n2 V0) _ _ rfl rfl

set_option maxRecDepth 8192 in
/-- Node 3, child of node 2. -/
theorem n3 : NodeV V0 2 (res_main_v265 V0) (res_main_v257 V0) (res_main_v314 V0) (res_main_v306 V0) :=
  node_step _ _ _ _ _ _ 2 (by decide) slices_S256x15x1024_S256x1x1024_0_2_0 (res_main_v1 V0) rfl
    2 rfl (res_main_v211 V0) (res_main_v214 V0) (s2 V0)
    (res_main_v237 V0) _ _ (res_main_v286 V0) _ _ rfl rfl rfl rfl rfl rfl
set_option maxRecDepth 8192 in
theorem s3 : StackV V0 3 (res_main_v317 V0) (res_main_v320 V0) :=
  stackOK_of_node _ _ _ _ _ _ 2 _ _ _ _ (n3 V0) _ _ rfl rfl

set_option maxRecDepth 8192 in
/-- Node 4, child of node 3 (a leaf). -/
theorem n4 : NodeV V0 3 (res_main_v371 V0) (res_main_v363 V0) (res_main_v420 V0) (res_main_v412 V0) :=
  node_step _ _ _ _ _ _ 3 (by decide) slices_S256x15x1024_S256x1x1024_0_3_0 (res_main_v1 V0) rfl
    3 rfl (res_main_v317 V0) (res_main_v320 V0) (s3 V0)
    (res_main_v343 V0) _ _ (res_main_v392 V0) _ _ rfl rfl rfl rfl rfl rfl

set_option maxRecDepth 8192 in
/-- Node 5, child of node 1. -/
theorem n5 : NodeV V0 4 (res_main_v477 V0) (res_main_v469 V0) (res_main_v526 V0) (res_main_v518 V0) :=
  node_step _ _ _ _ _ _ 4 (by decide) slices_S256x15x1024_S256x1x1024_0_4_0 (res_main_v1 V0) rfl
    1 rfl (res_main_v105 V0) (res_main_v108 V0) (s1 V0)
    (res_main_v449 V0) _ _ (res_main_v498 V0) _ _ rfl rfl rfl rfl rfl rfl
set_option maxRecDepth 8192 in
theorem s5 : StackV V0 5 (res_main_v529 V0) (res_main_v532 V0) :=
  stackOK_of_node _ _ _ _ _ _ 4 _ _ _ _ (n5 V0) _ _ rfl rfl

set_option maxRecDepth 8192 in
/-- Node 6, child of node 5. -/
theorem n6 : NodeV V0 5 (res_main_v583 V0) (res_main_v575 V0) (res_main_v632 V0) (res_main_v624 V0) :=
  node_step _ _ _ _ _ _ 5 (by decide) slices_S256x15x1024_S256x1x1024_0_5_0 (res_main_v1 V0) rfl
    5 rfl (res_main_v529 V0) (res_main_v532 V0) (s5 V0)
    (res_main_v555 V0) _ _ (res_main_v604 V0) _ _ rfl rfl rfl rfl rfl rfl
set_option maxRecDepth 8192 in
theorem s6 : StackV V0 6 (res_main_v635 V0) (res_main_v638 V0) :=
  stackOK_of_node _ _ _ _ _ _ 5 _ _ _ _ (n6 V0) _ _ rfl rfl

set_option maxRecDepth 8192 in
/-- Node 7, child of node 6 (a leaf). -/
theorem n7 : NodeV V0 6 (res_main_v689 V0) (res_main_v681 V0) (res_main_v738 V0) (res_main_v730 V0) :=
  node_step _ _ _ _ _ _ 6 (by decide) slices_S256x15x1024_S256x1x1024_0_6_0 (res_main_v1 V0) rfl
    6 rfl (res_main_v635 V0) (res_main_v638 V0) (s6 V0)
    (res_main_v661 V0) _ _ (res_main_v710 V0) _ _ rfl rfl rfl rfl rfl rfl

set_option maxRecDepth 8192 in
/-- Node 8, child of node 1. -/
theorem n8 : NodeV V0 7 (res_main_v795 V0) (res_main_v787 V0) (res_main_v844 V0) (res_main_v836 V0) :=
  node_step _ _ _ _ _ _ 7 (by decide) slices_S256x15x1024_S256x1x1024_0_7_0 (res_main_v1 V0) rfl
    1 rfl (res_main_v105 V0) (res_main_v108 V0) (s1 V0)
    (res_main_v767 V0) _ _ (res_main_v816 V0) _ _ rfl rfl rfl rfl rfl rfl
set_option maxRecDepth 8192 in
theorem s8 : StackV V0 8 (res_main_v847 V0) (res_main_v850 V0) :=
  stackOK_of_node _ _ _ _ _ _ 7 _ _ _ _ (n8 V0) _ _ rfl rfl

set_option maxRecDepth 8192 in
/-- Node 9, child of node 8. -/
theorem n9 : NodeV V0 8 (res_main_v901 V0) (res_main_v893 V0) (res_main_v950 V0) (res_main_v942 V0) :=
  node_step _ _ _ _ _ _ 8 (by decide) slices_S256x15x1024_S256x1x1024_0_8_0 (res_main_v1 V0) rfl
    8 rfl (res_main_v847 V0) (res_main_v850 V0) (s8 V0)
    (res_main_v873 V0) _ _ (res_main_v922 V0) _ _ rfl rfl rfl rfl rfl rfl
set_option maxRecDepth 8192 in
theorem s9 : StackV V0 9 (res_main_v953 V0) (res_main_v956 V0) :=
  stackOK_of_node _ _ _ _ _ _ 8 _ _ _ _ (n9 V0) _ _ rfl rfl

set_option maxRecDepth 8192 in
/-- Node 10, child of node 9. -/
theorem n10 : NodeV V0 9 (res_main_v1007 V0) (res_main_v999 V0) (res_main_v1056 V0) (res_main_v1048 V0) :=
  node_step _ _ _ _ _ _ 9 (by decide) slices_S256x15x1024_S256x1x1024_0_9_0 (res_main_v1 V0) rfl
    9 rfl (res_main_v953 V0) (res_main_v956 V0) (s9 V0)
    (res_main_v979 V0) _ _ (res_main_v1028 V0) _ _ rfl rfl rfl rfl rfl rfl
set_option maxRecDepth 8192 in
theorem s10 : StackV V0 10 (res_main_v1059 V0) (res_main_v1062 V0) :=
  stackOK_of_node _ _ _ _ _ _ 9 _ _ _ _ (n10 V0) _ _ rfl rfl

set_option maxRecDepth 8192 in
/-- Node 11, child of node 10 (a leaf). -/
theorem n11 : NodeV V0 10 (res_main_v1113 V0) (res_main_v1105 V0) (res_main_v1162 V0) (res_main_v1154 V0) :=
  node_step _ _ _ _ _ _ 10 (by decide) slices_S256x15x1024_S256x1x1024_0_10_0 (res_main_v1 V0) rfl
    10 rfl (res_main_v1059 V0) (res_main_v1062 V0) (s10 V0)
    (res_main_v1085 V0) _ _ (res_main_v1134 V0) _ _ rfl rfl rfl rfl rfl rfl

set_option maxRecDepth 8192 in
/-- Node 12, child of node 8. -/
theorem n12 : NodeV V0 11 (res_main_v1219 V0) (res_main_v1211 V0) (res_main_v1268 V0) (res_main_v1260 V0) :=
  node_step _ _ _ _ _ _ 11 (by decide) slices_S256x15x1024_S256x1x1024_0_11_0 (res_main_v1 V0) rfl
    8 rfl (res_main_v847 V0) (res_main_v850 V0) (s8 V0)
    (res_main_v1191 V0) _ _ (res_main_v1240 V0) _ _ rfl rfl rfl rfl rfl rfl
set_option maxRecDepth 8192 in
theorem s12 : StackV V0 12 (res_main_v1271 V0) (res_main_v1274 V0) :=
  stackOK_of_node _ _ _ _ _ _ 11 _ _ _ _ (n12 V0) _ _ rfl rfl

set_option maxRecDepth 8192 in
/-- Node 13, child of node 12. -/
theorem n13 : NodeV V0 12 (res_main_v1325 V0) (res_main_v1317 V0) (res_main_v1374 V0) (res_main_v1366 V0) :=
  node_step _ _ _ _ _ _ 12 (by decide) slices_S256x15x1024_S256x1x1024_0_12_0 (res_main_v1 V0) rfl
    12 rfl (res_main_v1271 V0) (res_main_v1274 V0) (s12 V0)
    (res_main_v1297 V0) _ _ (res_main_v1346 V0) _ _ rfl rfl rfl rfl rfl rfl
set_option maxRecDepth 8192 in
theorem s13 : StackV V0 13 (res_main_v1377 V0) (res_main_v1380 V0) :=
  stackOK_of_node _ _ _ _ _ _ 12 _ _ _ _ (n13 V0) _ _ rfl rfl

set_option maxRecDepth 8192 in
/-- Node 14, child of node 13. -/
theorem n14 : NodeV V0 13 (res_main_v1431 V0) (res_main_v1423 V0) (res_main_v1480 V0) (res_main_v1472 V0) :=
  node_step _ _ _ _ _ _ 13 (by decide) slices_S256x15x1024_S256x1x1024_0_13_0 (res_main_v1 V0) rfl
    13 rfl (res_main_v1377 V0) (res_main_v1380 V0) (s13 V0)
    (res_main_v1403 V0) _ _ (res_main_v1452 V0) _ _ rfl rfl rfl rfl rfl rfl
set_option maxRecDepth 8192 in
theorem s14 : StackV V0 14 (res_main_v1483 V0) (res_main_v1486 V0) :=
  stackOK_of_node _ _ _ _ _ _ 13 _ _ _ _ (n14 V0) _ _ rfl rfl

set_option maxRecDepth 8192 in
/-- Node 15, child of node 14 (a leaf). -/
theorem n15 : NodeV V0 14 (res_main_v1537 V0) (res_main_v1529 V0) (res_main_v1586 V0) (res_main_v1578 V0) :=
  node_step _ _ _ _ _ _ 14 (by decide) slices_S256x15x1024_S256x1x1024_0_14_0 (res_main_v1 V0) rfl
    14 rfl (res_main_v1483 V0) (res_main_v1486 V0) (s14 V0)
    (res_main_v1509 V0) _ _ (res_main_v1558 V0) _ _ rfl rfl rfl rfl rfl rfl

/-! ## The result -/

/-- The fifteen nodes' top-layer hidden arrays, in node order. -/
def topH : Fin 15 → FVec Ideal S256x1024 .f32 :=
  ![res_main_v102 V0, res_main_v208 V0, res_main_v314 V0, res_main_v420 V0, res_main_v526 V0, res_main_v632 V0,
    res_main_v738 V0, res_main_v844 V0, res_main_v950 V0, res_main_v1056 V0, res_main_v1162 V0, res_main_v1268 V0,
    res_main_v1374 V0, res_main_v1480 V0, res_main_v1586 V0]

/-- Node `i + 1`'s top-layer hidden array, read along batch row `r`, is the specification's layer-1 hidden row. -/
theorem topH_row (i : Fin 15) (r : Fin 256) :
    (fun n => topH V0 i (ix2 r n))
      = Cert.Spec.H1 (rd3 (V0 (Proc.devRef .tc main_arg0) : FVec Ideal S15x256x512 .f32))
          (rd3 (V0 (Proc.devRef .tc main_arg1) : FVec Ideal S15x256x512 .f32))
          (rd3 (V0 (Proc.devRef .tc main_arg2) : FVec Ideal S2x4096x1024 .f32))
          (rd3 (V0 (Proc.devRef .tc main_arg3) : FVec Ideal S2x4096x1024 .f32))
          (rd2 (V0 (Proc.devRef .tc main_arg4) : FVec Ideal S2x4096 .f32))
          (rd2 (V0 (Proc.devRef .tc main_arg5) : FVec Ideal S2x4096 .f32)) r i.val := by
  match i with
  | ⟨0, _⟩ => exact (n1 V0 r).2.2.1
  | ⟨1, _⟩ => exact (n2 V0 r).2.2.1
  | ⟨2, _⟩ => exact (n3 V0 r).2.2.1
  | ⟨3, _⟩ => exact (n4 V0 r).2.2.1
  | ⟨4, _⟩ => exact (n5 V0 r).2.2.1
  | ⟨5, _⟩ => exact (n6 V0 r).2.2.1
  | ⟨6, _⟩ => exact (n7 V0 r).2.2.1
  | ⟨7, _⟩ => exact (n8 V0 r).2.2.1
  | ⟨8, _⟩ => exact (n9 V0 r).2.2.1
  | ⟨9, _⟩ => exact (n10 V0 r).2.2.1
  | ⟨10, _⟩ => exact (n11 V0 r).2.2.1
  | ⟨11, _⟩ => exact (n12 V0 r).2.2.1
  | ⟨12, _⟩ => exact (n13 V0 r).2.2.1
  | ⟨13, _⟩ => exact (n14 V0 r).2.2.1
  | ⟨14, _⟩ => exact (n15 V0 r).2.2.1

/-- The result array: the fifteen top-layer hidden arrays, each given a middle unit axis, laid end to end along it, and
    the node axis moved to the front. Unfolding the layout and the list gives the run's own result term. -/
def refOutV : FVec Ideal S15x256x1024 .f32 := outR (topH V0)

/-- THE REFERENCE'S RESULT, ENTRY BY ENTRY: entry `(i, r, n)` is the specification's. -/
theorem ref_out (i : Fin 15) (r : Fin 256) (n : Fin 1024) :
    refOutV V0 (ix3 i r n)
      = Cert.Spec.out (fun i r k => V0 (Proc.devRef .tc main_arg0) (ix3 i r k))
          (fun i r k => V0 (Proc.devRef .tc main_arg1) (ix3 i r k))
          (fun l q k => V0 (Proc.devRef .tc main_arg2) (ix3 l q k))
          (fun l q k => V0 (Proc.devRef .tc main_arg3) (ix3 l q k))
          (fun l q => V0 (Proc.devRef .tc main_arg4) (ix2 l q))
          (fun l q => V0 (Proc.devRef .tc main_arg5) (ix2 l q)) i r n := by
  unfold refOutV
  rw [outR_apply]
  exact congrFun (topH_row V0 i r) n

end Table

end Cert.ReferenceIdeal.RefSide

end
-- ==== Proof.RefChain.lean ====
/-
  The reference's run with its result named, and the result read entry by entry.

  The run of the reference ends with its result buffer holding the array the walk over the tree builds (the fifteen
  top-layer hidden arrays laid along the node axis) and with the six arguments unchanged; every entry of that array is the
  specification's entry for the arguments the run starts from.
-/
import proofs.«109754_j89713276879117_1_alg».proof.Proof.RunP.Run
import proofs.«109754_j89713276879117_1_alg».proof.Proof.RefWalk

noncomputable section

namespace Cert.ReferenceIdeal.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## The reference's run, with its result named -/

/-- The result array on device `c`, of the memory the run starts from. -/
def refOut (m' : (ℓ : Loc nD τ sig) → Buf (Elt Ideal) ℓ) (c : Dev nD) : FVec Ideal S15x256x1024 .f32 :=
  refOutV (launchContents m' c)

/-- Every weakly fair execution of the reference from zero counters ends with the result array in its result buffer
    and the six arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v1609) = refOut m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  Cert.ReferenceIdeal.Value.run m' ρ'

/-- The result array on device `c` at `(i, r, n)` is the specification's entry for the arguments the run starts from. -/
theorem refOut_apply (m' : (ℓ : Loc nD τ sig) → Buf (Elt Ideal) ℓ) (c : Dev nD)
    (i : Fin 15) (r : Fin 256) (n : Fin 1024) :
    refOut m' c (ix3 i r n)
      = Cert.Spec.out (fun i r k => m' ((c.tc : Thread nD τ).loc main_arg0) (ix3 i r k))
          (fun i r k => m' ((c.tc : Thread nD τ).loc main_arg1) (ix3 i r k))
          (fun l q k => m' ((c.tc : Thread nD τ).loc main_arg2) (ix3 l q k))
          (fun l q k => m' ((c.tc : Thread nD τ).loc main_arg3) (ix3 l q k))
          (fun l q => m' ((c.tc : Thread nD τ).loc main_arg4) (ix2 l q))
          (fun l q => m' ((c.tc : Thread nD τ).loc main_arg5) (ix2 l q)) i r n :=
  ref_out (launchContents m' c) i r n

end Cert.ReferenceIdeal.RefSide

end
-- ==== Proof.lean ====
/-
  The certificate of the tree-structured two-layer LSTM: the kernel program (two pipelined passes, one per layer, each
  walking the fifteen non-root nodes of the tree for the two halves of the batch, the parent's rows read out of a
  scratch that is reset at each half's first node) against the reference (the same walk, node by node and layer by
  layer, on whole arrays).

  Both compute, for every node, batch row and feature, the row-level recurrence of Proof/Spec.lean: a node's hidden
  and cell rows from its input row and its parent's rows through one LSTM cell, the gates' pre-activations summed as
  (x · W + h · U) + (b + b'), layer 1 reading layer 0's hidden rows. At the extended reals a change of float format is
  the identity, the kernel's logistic is the reference's 1 / (1 + exp (−z)), and a matrix product into a zero
  accumulator is the host's contraction: the same sum. Nothing here needs the inputs to be finite.

  * the kernel side: each pass as one region of the program's run, its proof data naming the scratch after every grid
    point (Proof/K/…), the launch with the result in its post (Proof/K/Launch.lean), and the result read entry by entry
    (Proof/K/Value.lean: `kout_apply`); the word-level program runs by the same text (Proof/KB/…), which gives its frame;
  * the reference side: the cell as array functions read at an index (Proof/RefCell.lean) and the fifteen nodes in tree
    order (Proof/RefChain.lean: `refOut_apply`).
-/
import proofs.«109754_j89713276879117_1_alg».proof.Defs
import proofs.«109754_j89713276879117_1_alg».proof.Proof.Gen.Kernel
import proofs.«109754_j89713276879117_1_alg».proof.Proof.Gen.KernelIdeal
import proofs.«109754_j89713276879117_1_alg».proof.Proof.Gen.ReferenceIdeal
import proofs.«109754_j89713276879117_1_alg».proof.Proof.Gen.Pre_finite_inputs
import proofs.«109754_j89713276879117_1_alg».proof.Proof.K.Launch
import proofs.«109754_j89713276879117_1_alg».proof.Proof.K.Value
import proofs.«109754_j89713276879117_1_alg».proof.Proof.KB.Launch
import proofs.«109754_j89713276879117_1_alg».proof.Proof.RefChain

noncomputable section

namespace Cert.Proof

open Idealize.ShloMosaic Idealize.ShloMosaic.TcCoe Idealize.SL.Sem

/-- The word-level kernel program runs to its end and leaves its six argument arrays as launched. -/
theorem frame_k : Cert.frame_Kernel := fun m ρ _ => Cert.Kernel.KRun.frame (F := Bits) m ρ

/-- So does the kernel program read at the extended reals. -/
theorem frame_ki : Cert.frame_KernelIdeal := fun m ρ _ => Cert.KernelIdeal.KRun.frame (F := Ideal) m ρ

/-- The reference's run with its result dropped. -/
theorem frame_ri : Cert.frame_ReferenceIdeal := fun m ρ _ =>
  (θ_run Cert.ReferenceIdeal.defs _ _).mono (fun _ h c => (h c).2) (Cert.ReferenceIdeal.RefSide.ref_run m ρ)

/-- No operation of the kernel was rewritten on the way to the extended reals. -/
theorem preserves : Cert.preserves_Kernel_KernelIdeal := trivial

/-- From memories that agree on the arguments both programs end with the same array: entry (node, batch row, feature)
    of either is layer 1's hidden row of that node for that batch row (`Cert.Spec.out`) of the arguments. -/
theorem algebraic : Cert.algebraic_KernelIdeal_ReferenceIdeal := by
  intro m ρ m' ρ' _ hagree
  refine ⟨fun c => Cert.KernelIdeal.KRun.kout (F := Ideal) m c, Cert.KernelIdeal.KRun.run_main (F := Ideal) m ρ, ?_⟩
  refine (θ_run Cert.ReferenceIdeal.defs _ _).mono (fun _ h c => ⟨(h c).1.trans ?_, (h c).2⟩)
    (Cert.ReferenceIdeal.RefSide.ref_run m' ρ')
  obtain ⟨h0, h1, h2, h3, h4, h5⟩ := hagree c
  funext j
  obtain ⟨i, r, n, rfl⟩ : ∃ (i : Fin 15) (r : Fin 256) (n : Fin 1024), j = ValueIdx.ix3 i r n :=
    ⟨j 0, j 1, j 2, ValueIdx.eq_ix3 j⟩
  dsimp only
  rw [Cert.ReferenceIdeal.RefSide.refOut_apply, Cert.KernelIdeal.KRun.kout_apply, h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
